-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v169)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v169) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1600000 : Shape := ⟨1, ![1600000]⟩
abbrev S7x128 : Shape := ⟨2, ![7, 128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x6 : Shape := ⟨2, ![32, 6]⟩
abbrev S6 : Shape := ⟨1, ![6]⟩
abbrev S_ : Shape := ⟨0, ![]⟩

class Facts : Prop where
  bcast_S_S7x128 : S_.BroadcastsInDim S7x128 (![] : Fin 0 → Fin S7x128.rank)
  reducesTo_S7x128_S_d0_1 : S7x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x6 : S_.BroadcastsInDim S32x6 (![] : Fin 0 → Fin S32x6.rank)
  reducesTo_S32x6_S_d0_1 : S32x6.ReducesTo [0, 1] S_
  bcast_S_S6 : S_.BroadcastsInDim S6 (![] : Fin 0 → Fin S6.rank)
  reducesTo_S6_S_d0 : S6.ReducesTo [0] S_

variable [Facts]

def fn_part3 {F : FTy → Type} [FloatOps F] (main_v48 : IVec S_ 1) (main_v49 : FVec F S6 .f32) (main_v50 : FVec F S6 .f32) : IVec S_ 1 :=
  let main_v51 : IVec S6 1 := cmpf .olt main_v49 main_v50
  let main_c_19 : IVec S_ 1 := constantI S_ 1 1#1
  let main_v52 : IVec S_ 1 := (fun x v => Host.reduce IntOp.andi x v reducesTo_S6_S_d0 h_S_) main_v51 main_c_19
  let main_v53 : IVec S_ 1 := andi main_v48 main_v52
  main_v53

def fn_part2 {F : FTy → Type} [FloatOps F] (main_arg10 : FVec F S64x32 .f32) (main_arg11 : FVec F S32 .f32) (main_arg12 : FVec F S32x6 .f32) (main_arg13 : FVec F S6 .f32) (main_v33 : IVec S_ 1) : IVec S_ 1 :=
  let main_v34 : FVec F S64x32 .f32 := Host.absf main_arg10
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg11
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x6 .f32 := Host.absf main_arg12
  let main_cst_16 : FVec F S_ .f32 := constant S_ .f32 0x7F800000#32
  let main_v45 : FVec F S32x6 .f32 := broadcastInDim S32x6 ![] bcast_S_S32x6 main_cst_16
  let main_v46 : IVec S32x6 1 := cmpf .olt main_v44 main_v45
  let main_c_17 : IVec S_ 1 := constantI S_ 1 1#1
  let main_v47 : IVec S_ 1 := (fun x v => Host.reduce IntOp.andi x v reducesTo_S32x6_S_d0_1 h_S_) main_v46 main_c_17
  let main_v48 : IVec S_ 1 := andi main_v43 main_v47
  let main_v49 : FVec F S6 .f32 := Host.absf main_arg13
  let main_cst_18 : FVec F S_ .f32 := constant S_ .f32 0x7F800000#32
  let main_v50 : FVec F S6 .f32 := broadcastInDim S6 ![] bcast_S_S6 main_cst_18
  fn_part3 (F := F) main_v48 main_v49 main_v50

def fn_part1 {F : FTy → Type} [FloatOps F] (main_arg7 : FVec F S4x128 .f32) (main_arg8 : FVec F S128x64 .f32) (main_arg9 : FVec F S64 .f32) (main_arg10 : FVec F S64x32 .f32) (main_arg11 : FVec F S32 .f32) (main_arg12 : FVec F S32x6 .f32) (main_arg13 : FVec F S6 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg7
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S128x64 .f32 := Host.absf main_arg8
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_arg13 main_v33

def fn {F : FTy → Type} [FloatOps F] (main_arg0 : IVec S100000 32) (main_arg1 : IVec S1600000 32) (main_arg2 : IVec S1600000 32) (main_arg3 : FVec F S7x128 .f32) (main_arg4 : FVec F S4x128x128 .f32) (main_arg5 : FVec F S4x128 .f32) (main_arg6 : FVec F S4x128 .f32) (main_arg7 : FVec F S4x128 .f32) (main_arg8 : FVec F S128x64 .f32) (main_arg9 : FVec F S64 .f32) (main_arg10 : FVec F S64x32 .f32) (main_arg11 : FVec F S32 .f32) (main_arg12 : FVec F S32x6 .f32) (main_arg13 : FVec F S6 .f32) : IVec S_ 1 :=
  let main_v0 : FVec F S7x128 .f32 := Host.absf main_arg3
  let main_cst : FVec F S_ .f32 := constant S_ .f32 0x7F800000#32
  let main_v1 : FVec F S7x128 .f32 := broadcastInDim S7x128 ![] bcast_S_S7x128 main_cst
  let main_v2 : IVec S7x128 1 := cmpf .olt main_v0 main_v1
  let main_c : IVec S_ 1 := constantI S_ 1 1#1
  let main_v3 : IVec S_ 1 := (fun x v => Host.reduce IntOp.andi x v reducesTo_S7x128_S_d0_1 h_S_) main_v2 main_c
  let main_v4 : FVec F S4x128x128 .f32 := Host.absf main_arg4
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg5
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg6
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg7 main_arg8 main_arg9 main_arg10 main_arg11 main_arg12 main_arg13 main_v13 main_v16
-- ==== Kernel.lean ====
abbrev S100000 : Shape := ⟨1, ![100000]⟩
abbrev S1600000 : Shape := ⟨1, ![1600000]⟩
abbrev S7x128 : Shape := ⟨2, ![7, 128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x6 : Shape := ⟨2, ![32, 6]⟩
abbrev S6 : Shape := ⟨1, ![6]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S1x64 : Shape := ⟨2, ![1, 64]⟩
abbrev S1x32 : Shape := ⟨2, ![1, 32]⟩
abbrev S1x6 : Shape := ⟨2, ![1, 6]⟩
abbrev S100000x6 : Shape := ⟨2, ![100000, 6]⟩
abbrev S5000x6 : Shape := ⟨2, ![5000, 6]⟩
abbrev S5000x64 : Shape := ⟨2, ![5000, 64]⟩
abbrev S5000x32 : Shape := ⟨2, ![5000, 32]⟩

abbrev nBuf : Space → Nat
  | .hbm => 307
  | .vmem => 74
  | .smem => 0
  | _ => 0

abbrev hbmTy0_0 (i : Nat) : BufTy := match i % 128 with
  | 0 => ⟨S100000, .i32⟩
  | 1 => ⟨S1600000, .i32⟩
  | 2 => ⟨S1600000, .i32⟩
  | 3 => ⟨S7x128, .f32⟩
  | 4 => ⟨S4x128x128, .f32⟩
  | 5 => ⟨S4x128, .f32⟩
  | 6 => ⟨S4x128, .f32⟩
  | 7 => ⟨S4x128, .f32⟩
  | 8 => ⟨S128x64, .f32⟩
  | 9 => ⟨S64, .f32⟩
  | 10 => ⟨S64x32, .f32⟩
  | 11 => ⟨S32, .f32⟩
  | 12 => ⟨S32x6, .f32⟩
  | 13 => ⟨S6, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .i1⟩
  | 38 => ⟨S_, .f32⟩
  | 39 => ⟨S100000, .f32⟩
  | 40 => ⟨S100000, .f32⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S100000, .i32⟩
  | 48 => ⟨S100000, .i1⟩
  | 49 => ⟨S_, .i32⟩
  | 50 => ⟨S100000, .i32⟩
  | 51 => ⟨S100000, .i32⟩
  | 52 => ⟨S100000, .i32⟩
  | 53 => ⟨S100000x1, .i32⟩
  | 54 => ⟨S100000x128, .f32⟩
  | 55 => ⟨S100000x1, .f32⟩
  | 56 => ⟨S100000x128, .f32⟩
  | 57 => ⟨S100000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S100000x1, .f32⟩
  | 72 => ⟨S100000x128, .f32⟩
  | 73 => ⟨S100000x128, .f32⟩
  | 74 => ⟨S1x128x128, .f32⟩
  | 75 => ⟨S128x128, .f32⟩
  | 76 => ⟨S1x128, .f32⟩
  | 77 => ⟨S128, .f32⟩
  | 78 => ⟨S1x128, .f32⟩
  | 79 => ⟨S100000x128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S100000x128, .f32⟩
  | 93 => ⟨S100000x128, .f32⟩
  | 94 => ⟨S100000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S1x128, .f32⟩
  | 114 => ⟨S1x128, .f32⟩
  | 115 => ⟨S1x128, .f32⟩
  | 116 => ⟨S100000x128, .f32⟩
  | 117 => ⟨S100000x1, .f32⟩
  | 118 => ⟨S100000x128, .f32⟩
  | 119 => ⟨S100000x128, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000, .i32⟩

abbrev hbmTy0_1 (i : Nat) : BufTy := match i % 128 with
  | 0 => ⟨S1600000x128, .f32⟩
  | 1 => ⟨S_, .f32⟩
  | 2 => ⟨S100000x128, .f32⟩
  | 3 => ⟨S1600000x1, .i32⟩
  | 4 => ⟨S100000x128, .f32⟩
  | 5 => ⟨S100000x1, .f32⟩
  | 6 => ⟨S100000x128, .f32⟩
  | 7 => ⟨S100000x128, .f32⟩
  | 8 => ⟨S1x128x128, .f32⟩
  | 9 => ⟨S128x128, .f32⟩
  | 10 => ⟨S1x128, .f32⟩
  | 11 => ⟨S128, .f32⟩
  | 12 => ⟨S1x128, .f32⟩
  | 13 => ⟨S100000x128, .f32⟩
  | 14 => ⟨S_, .f32⟩
  | 15 => ⟨S128, .f32⟩
  | 16 => ⟨S_, .f32⟩
  | 17 => ⟨S128, .f32⟩
  | 18 => ⟨S128, .f32⟩
  | 19 => ⟨S_, .i32⟩
  | 20 => ⟨S_, .f32⟩
  | 21 => ⟨S128, .f32⟩
  | 22 => ⟨S1x128, .f32⟩
  | 23 => ⟨S_, .f32⟩
  | 24 => ⟨S1x128, .f32⟩
  | 25 => ⟨S1x128, .f32⟩
  | 26 => ⟨S100000x128, .f32⟩
  | 27 => ⟨S100000x128, .f32⟩
  | 28 => ⟨S100000x128, .f32⟩
  | 29 => ⟨S_, .f32⟩
  | 30 => ⟨S_, .f32⟩
  | 31 => ⟨S_, .f32⟩
  | 32 => ⟨S_, .f32⟩
  | 33 => ⟨S128, .f32⟩
  | 34 => ⟨S128, .f32⟩
  | 35 => ⟨S128, .f32⟩
  | 36 => ⟨S_, .f32⟩
  | 37 => ⟨S_, .i1⟩
  | 38 => ⟨S_, .f32⟩
  | 39 => ⟨S_, .f32⟩
  | 40 => ⟨S128, .f32⟩
  | 41 => ⟨S128, .f32⟩
  | 42 => ⟨S1x128, .f32⟩
  | 43 => ⟨S128, .f32⟩
  | 44 => ⟨S1x128, .f32⟩
  | 45 => ⟨S128, .f32⟩
  | 46 => ⟨S1x128, .f32⟩
  | 47 => ⟨S1x128, .f32⟩
  | 48 => ⟨S1x128, .f32⟩
  | 49 => ⟨S1x128, .f32⟩
  | 50 => ⟨S100000x128, .f32⟩
  | 51 => ⟨S100000x1, .f32⟩
  | 52 => ⟨S100000x128, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000x1, .f32⟩
  | 68 => ⟨S100000x128, .f32⟩
  | 69 => ⟨S100000x128, .f32⟩
  | 70 => ⟨S1x128x128, .f32⟩
  | 71 => ⟨S128x128, .f32⟩
  | 72 => ⟨S1x128, .f32⟩
  | 73 => ⟨S128, .f32⟩
  | 74 => ⟨S1x128, .f32⟩
  | 75 => ⟨S100000x128, .f32⟩
  | 76 => ⟨S_, .f32⟩
  | 77 => ⟨S128, .f32⟩
  | 78 => ⟨S_, .f32⟩
  | 79 => ⟨S128, .f32⟩
  | 80 => ⟨S128, .f32⟩
  | 81 => ⟨S_, .i32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S100000x128, .f32⟩
  | 89 => ⟨S100000x128, .f32⟩
  | 90 => ⟨S100000x128, .f32⟩
  | 91 => ⟨S_, .f32⟩
  | 92 => ⟨S_, .f32⟩
  | 93 => ⟨S_, .f32⟩
  | 94 => ⟨S_, .f32⟩
  | 95 => ⟨S128, .f32⟩
  | 96 => ⟨S128, .f32⟩
  | 97 => ⟨S128, .f32⟩
  | 98 => ⟨S_, .f32⟩
  | 99 => ⟨S_, .i1⟩
  | 100 => ⟨S_, .f32⟩
  | 101 => ⟨S_, .f32⟩
  | 102 => ⟨S128, .f32⟩
  | 103 => ⟨S128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S1x128, .f32⟩
  | 110 => ⟨S1x128, .f32⟩
  | 111 => ⟨S1x128, .f32⟩
  | 112 => ⟨S100000x128, .f32⟩
  | 113 => ⟨S100000x1, .f32⟩
  | 114 => ⟨S100000x128, .f32⟩
  | 115 => ⟨S100000x128, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x128, .f32⟩
  | 125 => ⟨S_, .f32⟩
  | 126 => ⟨S100000x128, .f32⟩
  | 127 => ⟨S1600000x1, .i32⟩
  | _ => ⟨S100000, .i32⟩

abbrev hbmTy0_2 (i : Nat) : BufTy := match i % 128 with
  | 0 => ⟨S100000x128, .f32⟩
  | 1 => ⟨S100000x1, .f32⟩
  | 2 => ⟨S100000x128, .f32⟩
  | 3 => ⟨S100000x128, .f32⟩
  | 4 => ⟨S1x128x128, .f32⟩
  | 5 => ⟨S128x128, .f32⟩
  | 6 => ⟨S1x128, .f32⟩
  | 7 => ⟨S128, .f32⟩
  | 8 => ⟨S1x128, .f32⟩
  | 9 => ⟨S100000x128, .f32⟩
  | 10 => ⟨S_, .f32⟩
  | 11 => ⟨S128, .f32⟩
  | 12 => ⟨S_, .f32⟩
  | 13 => ⟨S128, .f32⟩
  | 14 => ⟨S128, .f32⟩
  | 15 => ⟨S_, .i32⟩
  | 16 => ⟨S_, .f32⟩
  | 17 => ⟨S128, .f32⟩
  | 18 => ⟨S1x128, .f32⟩
  | 19 => ⟨S_, .f32⟩
  | 20 => ⟨S1x128, .f32⟩
  | 21 => ⟨S1x128, .f32⟩
  | 22 => ⟨S100000x128, .f32⟩
  | 23 => ⟨S100000x128, .f32⟩
  | 24 => ⟨S100000x128, .f32⟩
  | 25 => ⟨S_, .f32⟩
  | 26 => ⟨S_, .f32⟩
  | 27 => ⟨S_, .f32⟩
  | 28 => ⟨S_, .f32⟩
  | 29 => ⟨S128, .f32⟩
  | 30 => ⟨S128, .f32⟩
  | 31 => ⟨S128, .f32⟩
  | 32 => ⟨S_, .f32⟩
  | 33 => ⟨S_, .i1⟩
  | 34 => ⟨S_, .f32⟩
  | 35 => ⟨S_, .f32⟩
  | 36 => ⟨S128, .f32⟩
  | 37 => ⟨S128, .f32⟩
  | 38 => ⟨S1x128, .f32⟩
  | 39 => ⟨S128, .f32⟩
  | 40 => ⟨S1x128, .f32⟩
  | 41 => ⟨S128, .f32⟩
  | 42 => ⟨S1x128, .f32⟩
  | 43 => ⟨S1x128, .f32⟩
  | 44 => ⟨S1x128, .f32⟩
  | 45 => ⟨S1x128, .f32⟩
  | 46 => ⟨S100000x128, .f32⟩
  | 47 => ⟨S1x64, .f32⟩
  | 48 => ⟨S1x32, .f32⟩
  | 49 => ⟨S1x6, .f32⟩
  | 50 => ⟨S100000x6, .f32⟩
  | _ => ⟨S100000, .i32⟩

abbrev hbmTy (i : Nat) : BufTy := match i / 128 with
  | 0 => hbmTy0_0 i
  | 1 => hbmTy0_1 i
  | 2 => hbmTy0_2 i
  | _ => ⟨S100000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S128x64, .f32⟩
  | .local _ .vmem, ⟨67, _⟩ => ⟨S1x64, .f32⟩
  | .local _ .vmem, ⟨68, _⟩ => ⟨S64x32, .f32⟩
  | .local _ .vmem, ⟨69, _⟩ => ⟨S1x32, .f32⟩
  | .local _ .vmem, ⟨70, _⟩ => ⟨S32x6, .f32⟩
  | .local _ .vmem, ⟨71, _⟩ => ⟨S1x6, .f32⟩
  | .local _ .vmem, ⟨72, _⟩ => ⟨S5000x6, .f32⟩
  | .local _ .vmem, ⟨73, _⟩ => ⟨S5000x6, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v12 : Ref sig .tc := ⟨.hbm, 34, rfl⟩
abbrev main_cst_5 : Ref sig .tc := ⟨.hbm, 35, rfl⟩
abbrev main_v13 : Ref sig .tc := ⟨.hbm, 36, rfl⟩
abbrev main_v14 : Ref sig .tc := ⟨.hbm, 37, rfl⟩
abbrev main_cst_6 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_7 : Ref sig .tc := ⟨.hbm, 42, rfl⟩
abbrev main_call1_v0 : Ref sig .tc := ⟨.hbm, 43, rfl⟩
abbrev main_call1_v1 : Ref sig .tc := ⟨.hbm, 44, rfl⟩
abbrev main_v18 : Ref sig .tc := ⟨.hbm, 45, rfl⟩
abbrev main_c : Ref sig .tc := ⟨.hbm, 46, rfl⟩
abbrev main_v19 : Ref sig .tc := ⟨.hbm, 47, rfl⟩
abbrev main_v20 : Ref sig .tc := ⟨.hbm, 48, rfl⟩
abbrev main_c_8 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_9 : Ref sig .tc := ⟨.hbm, 58, rfl⟩
abbrev main_v29 : Ref sig .tc := ⟨.hbm, 59, rfl⟩
abbrev main_v30 : Ref sig .tc := ⟨.hbm, 60, rfl⟩
abbrev main_c_10 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_11 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_12 : Ref sig .tc := ⟨.hbm, 80, rfl⟩
abbrev main_v48 : Ref sig .tc := ⟨.hbm, 81, rfl⟩
abbrev main_cst_13 : Ref sig .tc := ⟨.hbm, 82, rfl⟩
abbrev main_v49 : Ref sig .tc := ⟨.hbm, 83, rfl⟩
abbrev main_v50 : Ref sig .tc := ⟨.hbm, 84, rfl⟩
abbrev main_c_14 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_cst_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_cst_1 : Ref sig .tc := ⟨.hbm, 96, rfl⟩
abbrev main_call2_v8 : Ref sig .tc := ⟨.hbm, 97, rfl⟩
abbrev main_call2_cst_2 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_cst_3 : Ref sig .tc := ⟨.hbm, 102, rfl⟩
abbrev main_call2_v12 : Ref sig .tc := ⟨.hbm, 103, rfl⟩
abbrev main_call2_cst_4 : Ref sig .tc := ⟨.hbm, 104, rfl⟩
abbrev main_call2_call0_v0 : Ref sig .tc := ⟨.hbm, 105, rfl⟩
abbrev main_call2_call0_v1 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_c_15 : Ref sig .tc := ⟨.hbm, 120, rfl⟩
abbrev main_v64 : Ref sig .tc := ⟨.hbm, 121, rfl⟩
abbrev main_v65 : Ref sig .tc := ⟨.hbm, 122, rfl⟩
abbrev main_c_16 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_cst_17 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_18 : Ref sig .tc := ⟨.hbm, 142, rfl⟩
abbrev main_v83 : Ref sig .tc := ⟨.hbm, 143, rfl⟩
abbrev main_cst_19 : Ref sig .tc := ⟨.hbm, 144, rfl⟩
abbrev main_v84 : Ref sig .tc := ⟨.hbm, 145, rfl⟩
abbrev main_v85 : Ref sig .tc := ⟨.hbm, 146, rfl⟩
abbrev main_c_20 : Ref sig .tc := ⟨.hbm, 147, rfl⟩
abbrev main_call3_cst : Ref sig .tc := ⟨.hbm, 148, rfl⟩
abbrev main_call3_v0 : Ref sig .tc := ⟨.hbm, 149, rfl⟩
abbrev main_call3_v1 : Ref sig .tc := ⟨.hbm, 150, rfl⟩
abbrev main_call3_cst_0 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_call3_v5 : Ref sig .tc := ⟨.hbm, 155, rfl⟩
abbrev main_call3_v6 : Ref sig .tc := ⟨.hbm, 156, rfl⟩
abbrev main_call3_v7 : Ref sig .tc := ⟨.hbm, 157, rfl⟩
abbrev main_call3_cst_1 : Ref sig .tc := ⟨.hbm, 158, rfl⟩
abbrev main_call3_v8 : Ref sig .tc := ⟨.hbm, 159, rfl⟩
abbrev main_call3_cst_2 : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_call3_cst_3 : Ref sig .tc := ⟨.hbm, 164, rfl⟩
abbrev main_call3_v12 : Ref sig .tc := ⟨.hbm, 165, rfl⟩
abbrev main_call3_cst_4 : Ref sig .tc := ⟨.hbm, 166, rfl⟩
abbrev main_call3_call0_v0 : Ref sig .tc := ⟨.hbm, 167, rfl⟩
abbrev main_call3_call0_v1 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_c_21 : Ref sig .tc := ⟨.hbm, 182, rfl⟩
abbrev main_v99 : Ref sig .tc := ⟨.hbm, 183, rfl⟩
abbrev main_v100 : Ref sig .tc := ⟨.hbm, 184, rfl⟩
abbrev main_c_22 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_cst_23 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_cst_24 : Ref sig .tc := ⟨.hbm, 204, rfl⟩
abbrev main_v118 : Ref sig .tc := ⟨.hbm, 205, rfl⟩
abbrev main_cst_25 : Ref sig .tc := ⟨.hbm, 206, rfl⟩
abbrev main_v119 : Ref sig .tc := ⟨.hbm, 207, rfl⟩
abbrev main_v120 : Ref sig .tc := ⟨.hbm, 208, rfl⟩
abbrev main_c_26 : Ref sig .tc := ⟨.hbm, 209, rfl⟩
abbrev main_call4_cst : Ref sig .tc := ⟨.hbm, 210, rfl⟩
abbrev main_call4_v0 : Ref sig .tc := ⟨.hbm, 211, rfl⟩
abbrev main_call4_v1 : Ref sig .tc := ⟨.hbm, 212, rfl⟩
abbrev main_call4_cst_0 : Ref sig .tc := ⟨.hbm, 213, rfl⟩
abbrev main_call4_v2 : Ref sig .tc := ⟨.hbm, 214, rfl⟩
abbrev main_call4_v3 : Ref sig .tc := ⟨.hbm, 215, rfl⟩
abbrev main_call4_v4 : Ref sig .tc := ⟨.hbm, 216, rfl⟩
abbrev main_call4_v5 : Ref sig .tc := ⟨.hbm, 217, rfl⟩
abbrev main_call4_v6 : Ref sig .tc := ⟨.hbm, 218, rfl⟩
abbrev main_call4_v7 : Ref sig .tc := ⟨.hbm, 219, rfl⟩
abbrev main_call4_cst_1 : Ref sig .tc := ⟨.hbm, 220, rfl⟩
abbrev main_call4_v8 : Ref sig .tc := ⟨.hbm, 221, rfl⟩
abbrev main_call4_cst_2 : Ref sig .tc := ⟨.hbm, 222, rfl⟩
abbrev main_call4_v9 : Ref sig .tc := ⟨.hbm, 223, rfl⟩
abbrev main_call4_v10 : Ref sig .tc := ⟨.hbm, 224, rfl⟩
abbrev main_call4_v11 : Ref sig .tc := ⟨.hbm, 225, rfl⟩
abbrev main_call4_cst_3 : Ref sig .tc := ⟨.hbm, 226, rfl⟩
abbrev main_call4_v12 : Ref sig .tc := ⟨.hbm, 227, rfl⟩
abbrev main_call4_cst_4 : Ref sig .tc := ⟨.hbm, 228, rfl⟩
abbrev main_call4_call0_v0 : Ref sig .tc := ⟨.hbm, 229, rfl⟩
abbrev main_call4_call0_v1 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_v132 : Ref sig .tc := ⟨.hbm, 242, rfl⟩
abbrev main_v133 : Ref sig .tc := ⟨.hbm, 243, rfl⟩
abbrev main_c_27 : Ref sig .tc := ⟨.hbm, 244, rfl⟩
abbrev main_v134 : Ref sig .tc := ⟨.hbm, 245, rfl⟩
abbrev main_v135 : Ref sig .tc := ⟨.hbm, 246, rfl⟩
abbrev main_c_28 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_v139 : Ref sig .tc := ⟨.hbm, 251, rfl⟩
abbrev main_v140 : Ref sig .tc := ⟨.hbm, 252, rfl⟩
abbrev main_cst_29 : Ref sig .tc := ⟨.hbm, 253, rfl⟩
abbrev main_v141 : Ref sig .tc := ⟨.hbm, 254, rfl⟩
abbrev main_v142 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_v146 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_cst_30 : Ref sig .tc := ⟨.hbm, 266, rfl⟩
abbrev main_v153 : Ref sig .tc := ⟨.hbm, 267, rfl⟩
abbrev main_cst_31 : Ref sig .tc := ⟨.hbm, 268, rfl⟩
abbrev main_v154 : Ref sig .tc := ⟨.hbm, 269, rfl⟩
abbrev main_v155 : Ref sig .tc := ⟨.hbm, 270, rfl⟩
abbrev main_c_32 : Ref sig .tc := ⟨.hbm, 271, rfl⟩
abbrev main_call5_cst : Ref sig .tc := ⟨.hbm, 272, rfl⟩
abbrev main_call5_v0 : Ref sig .tc := ⟨.hbm, 273, rfl⟩
abbrev main_call5_v1 : Ref sig .tc := ⟨.hbm, 274, rfl⟩
abbrev main_call5_cst_0 : Ref sig .tc := ⟨.hbm, 275, rfl⟩
abbrev main_call5_v2 : Ref sig .tc := ⟨.hbm, 276, rfl⟩
abbrev main_call5_v3 : Ref sig .tc := ⟨.hbm, 277, rfl⟩
abbrev main_call5_v4 : Ref sig .tc := ⟨.hbm, 278, rfl⟩
abbrev main_call5_v5 : Ref sig .tc := ⟨.hbm, 279, rfl⟩
abbrev main_call5_v6 : Ref sig .tc := ⟨.hbm, 280, rfl⟩
abbrev main_call5_v7 : Ref sig .tc := ⟨.hbm, 281, rfl⟩
abbrev main_call5_cst_1 : Ref sig .tc := ⟨.hbm, 282, rfl⟩
abbrev main_call5_v8 : Ref sig .tc := ⟨.hbm, 283, rfl⟩
abbrev main_call5_cst_2 : Ref sig .tc := ⟨.hbm, 284, rfl⟩
abbrev main_call5_v9 : Ref sig .tc := ⟨.hbm, 285, rfl⟩
abbrev main_call5_v10 : Ref sig .tc := ⟨.hbm, 286, rfl⟩
abbrev main_call5_v11 : Ref sig .tc := ⟨.hbm, 287, rfl⟩
abbrev main_call5_cst_3 : Ref sig .tc := ⟨.hbm, 288, rfl⟩
abbrev main_call5_v12 : Ref sig .tc := ⟨.hbm, 289, rfl⟩
abbrev main_call5_cst_4 : Ref sig .tc := ⟨.hbm, 290, rfl⟩
abbrev main_call5_call0_v0 : Ref sig .tc := ⟨.hbm, 291, rfl⟩
abbrev main_call5_call0_v1 : Ref sig .tc := ⟨.hbm, 292, rfl⟩
abbrev main_v156 : Ref sig .tc := ⟨.hbm, 293, rfl⟩
abbrev main_v157 : Ref sig .tc := ⟨.hbm, 294, rfl⟩
abbrev main_v158 : Ref sig .tc := ⟨.hbm, 295, rfl⟩
abbrev main_v159 : Ref sig .tc := ⟨.hbm, 296, rfl⟩
abbrev main_v160 : Ref sig .tc := ⟨.hbm, 297, rfl⟩
abbrev main_v161 : Ref sig .tc := ⟨.hbm, 298, rfl⟩
abbrev main_v162 : Ref sig .tc := ⟨.hbm, 299, rfl⟩
abbrev main_v163 : Ref sig .tc := ⟨.hbm, 300, rfl⟩
abbrev main_v164 : Ref sig .tc := ⟨.hbm, 301, rfl⟩
abbrev main_v165 : Ref sig .tc := ⟨.hbm, 302, rfl⟩
abbrev main_v166 : Ref sig .tc := ⟨.hbm, 303, rfl⟩
abbrev main_v167 : Ref sig .tc := ⟨.hbm, 304, rfl⟩
abbrev main_v168 : Ref sig .tc := ⟨.hbm, 305, rfl⟩
abbrev main_v169 : Ref sig .tc := ⟨.hbm, 306, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg5_0 : Ref sig .tc := ⟨.vmem, 61, rfl⟩
abbrev cc7_stg6_0 : Ref sig .tc := ⟨.vmem, 62, rfl⟩
abbrev cc7_stg6_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg6_0 : Ref sig .tc := ⟨.vmem, 71, rfl⟩
abbrev cc8_stg7_0 : Ref sig .tc := ⟨.vmem, 72, rfl⟩
abbrev cc8_stg7_1 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem3_0 : DmaSem sig := 59
abbrev cc7_sem4_0 : DmaSem sig := 60
abbrev cc7_sem5_0 : DmaSem sig := 61
abbrev cc7_sem6_0 : DmaSem sig := 62
abbrev cc7_sem6_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem6_0 : DmaSem sig := 71
abbrev cc8_sem7_0 : DmaSem sig := 72
abbrev cc8_sem7_1 : DmaSem sig := 73

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x32 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S32x6 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x6 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x6 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  shapeCasts_S64_S1x64 : S64.ShapeCasts S1x64
  shapeCasts_S32_S1x32 : S32.ShapeCasts S1x32
  shapeCasts_S6_S1x6 : S6.ShapeCasts S1x6
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x6_S32x6_0_0 : ∀ a, (![0, 0] : Fin 2 → Nat) a + S32x6.size a ≤ S32x6.size a
  h_S32x6 : 0 < S32x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S5000x6 : S1x6.Broadcasts S5000x6
  inb_S5000x6_S5000x6_0_0 : ∀ a, (![0, 0] : Fin 2 → Nat) a + S5000x6.size a ≤ S5000x6.size a
  h_S5000x6 : 0 < S5000x6.numel
  scatter_S100000_S1600000x1_S1600000_n_0_0_1_wf : ScatterDims.WF S100000 S1600000x1 S1600000 [] [0] [0] 1
  gather_S7x128_S100000x1_S100000x128_1_0_n_n_0_1_1128_wf : GatherDims.WF S7x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x32_S5000x32_1_0_0_1_n_n_wf : DotDims.WF S5000x64 S64x32 S5000x32 [1] [0] [0] [1] [] []
  dot_S5000x32_S32x6_S5000x6_1_0_0_1_n_n_wf : DotDims.WF S5000x32 S32x6 S5000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x128.size a ≤ S100000x128.size a
  hwx7_6 : ∀ i : grid7.Coords, EltTy.bits .f32 = 32 ∨ (Rect.block (s := S100000x128) S5000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x64.size a ≤ S128x64.size a
  hwx8_1 : ∀ i : grid8.Coords, EltTy.bits .f32 = 32 ∨ (Rect.block (s := S128x64) S128x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x32.size a ≤ S64x32.size a
  hwx8_3 : ∀ i : grid8.Coords, EltTy.bits .f32 = 32 ∨ (Rect.block (s := S64x32) S64x32.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x32.size a ≤ S1x32.size a
  hwx8_4 : ∀ i : grid8.Coords, EltTy.bits .f32 = 32 ∨ (Rect.block (s := S1x32) S1x32.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S32x6.size a ≤ S32x6.size a
  hwx8_5 : ∀ i : grid8.Coords, EltTy.bits .f32 = 32 ∨ (Rect.block (s := S32x6) S32x6.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x6.size a ≤ S1x6.size a
  hwx8_6 : ∀ i : grid8.Coords, EltTy.bits .f32 = 32 ∨ (Rect.block (s := S1x6) S1x6.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x6.size a ≤ S100000x6.size a
  hwx8_7 : ∀ i : grid8.Coords, EltTy.bits .f32 = 32 ∨ (Rect.block (s := S100000x6) S5000x6.size (cc8_transform_7 i) (hinb8_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S7x128_S100000x1_S100000x128_1_0_n_n_0_1_1128 : GatherDims S7x128 S100000x1 S100000x128 where
  offsetDims := [1]
  collapsedSliceDims := [0]
  operandBatchingDims := []
  startIndicesBatchingDims := []
  startIndexMap := [0]
  indexVectorDim := 1
  sliceSizes := ![1, 128]
  wf := gather_S7x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x6_S5000x6_1_0_0_1_n_n : DotDims S5000x32 S32x6 S5000x6 where
  lhsContracting := [1]
  rhsContracting := [0]
  lhsNonContracting := [0]
  rhsNonContracting := [1]
  lhsBatch := []
  rhsBatch := []
  wf := dot_S5000x32_S32x6_S5000x6_1_0_0_1_n_n_wf

abbrev win0_0 : Pipeline.Window sig grid0 :=
  Pipeline.Window.ofSpec (Memref.whole main_v41) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v76) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v81) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v82) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v82) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v91) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v92) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v93) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v94) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v95) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v111) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v113) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v116) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v117) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v117) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v95) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v126) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v127) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v128) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v129) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v130) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v146) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v148) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v151) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v152) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v152) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v130) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v161) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v162) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v163) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v164) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v165) S5000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v165) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg8) S128x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v166) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg10) S64x32.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v167) S1x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg12) S32x6.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v168) S1x6.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v169) S5000x6.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

class Facts : Prop extends Facts₀ where

variable [Facts]
-- ==== ReferenceIdeal.lean ====
abbrev S100000 : Shape := ⟨1, ![100000]⟩
abbrev S1600000 : Shape := ⟨1, ![1600000]⟩
abbrev S7x128 : Shape := ⟨2, ![7, 128]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x6 : Shape := ⟨2, ![32, 6]⟩
abbrev S6 : Shape := ⟨1, ![6]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S100000x64 : Shape := ⟨2, ![100000, 64]⟩
abbrev S1x64 : Shape := ⟨2, ![1, 64]⟩
abbrev S100000x32 : Shape := ⟨2, ![100000, 32]⟩
abbrev S1x32 : Shape := ⟨2, ![1, 32]⟩
abbrev S100000x6 : Shape := ⟨2, ![100000, 6]⟩
abbrev S1x6 : Shape := ⟨2, ![1, 6]⟩

abbrev nBuf : Space → Nat
  | .hbm => 389
  | .vmem => 0
  | .smem => 0
  | _ => 0

abbrev hbmTy0_0 (i : Nat) : BufTy := match i % 128 with
  | 0 => ⟨S100000, .i32⟩
  | 1 => ⟨S1600000, .i32⟩
  | 2 => ⟨S1600000, .i32⟩
  | 3 => ⟨S7x128, .f32⟩
  | 4 => ⟨S4x128x128, .f32⟩
  | 5 => ⟨S4x128, .f32⟩
  | 6 => ⟨S4x128, .f32⟩
  | 7 => ⟨S4x128, .f32⟩
  | 8 => ⟨S128x64, .f32⟩
  | 9 => ⟨S64, .f32⟩
  | 10 => ⟨S64x32, .f32⟩
  | 11 => ⟨S32, .f32⟩
  | 12 => ⟨S32x6, .f32⟩
  | 13 => ⟨S6, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .i1⟩
  | 38 => ⟨S_, .f32⟩
  | 39 => ⟨S100000, .f32⟩
  | 40 => ⟨S100000, .f32⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S100000, .i32⟩
  | 48 => ⟨S100000, .i1⟩
  | 49 => ⟨S_, .i32⟩
  | 50 => ⟨S100000, .i32⟩
  | 51 => ⟨S100000, .i32⟩
  | 52 => ⟨S100000, .i32⟩
  | 53 => ⟨S100000x1, .i32⟩
  | 54 => ⟨S100000x128, .f32⟩
  | 55 => ⟨S100000x1, .f32⟩
  | 56 => ⟨S100000x128, .f32⟩
  | 57 => ⟨S100000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S100000x1, .f32⟩
  | 72 => ⟨S100000x128, .f32⟩
  | 73 => ⟨S100000x128, .f32⟩
  | 74 => ⟨S1x128x128, .f32⟩
  | 75 => ⟨S128x128, .f32⟩
  | 76 => ⟨S100000x128, .f32⟩
  | 77 => ⟨S1x128, .f32⟩
  | 78 => ⟨S128, .f32⟩
  | 79 => ⟨S1x128, .f32⟩
  | 80 => ⟨S100000x128, .f32⟩
  | 81 => ⟨S100000x128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S100000x128, .f32⟩
  | 95 => ⟨S100000x128, .f32⟩
  | 96 => ⟨S100000x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S1x128, .f32⟩
  | 111 => ⟨S100000x128, .f32⟩
  | 112 => ⟨S100000x128, .f32⟩
  | 113 => ⟨S_, .f32⟩
  | 114 => ⟨S128, .f32⟩
  | 115 => ⟨S128, .f32⟩
  | 116 => ⟨S128, .f32⟩
  | 117 => ⟨S1x128, .f32⟩
  | 118 => ⟨S100000x128, .f32⟩
  | 119 => ⟨S100000x128, .f32⟩
  | 120 => ⟨S1x128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S128, .f32⟩
  | 127 => ⟨S1x128, .f32⟩
  | _ => ⟨S100000, .i32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S100000x128, .f32⟩
  | 6 => ⟨S100000x1, .f32⟩
  | 7 => ⟨S100000x128, .f32⟩
  | 8 => ⟨S100000x128, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x128, .f32⟩
  | 18 => ⟨S_, .f32⟩
  | 19 => ⟨S100000x128, .f32⟩
  | 20 => ⟨S1600000x1, .i32⟩
  | 21 => ⟨S100000x128, .f32⟩
  | 22 => ⟨S100000x1, .f32⟩
  | 23 => ⟨S100000x128, .f32⟩
  | 24 => ⟨S100000x128, .f32⟩
  | 25 => ⟨S1x128x128, .f32⟩
  | 26 => ⟨S128x128, .f32⟩
  | 27 => ⟨S100000x128, .f32⟩
  | 28 => ⟨S1x128, .f32⟩
  | 29 => ⟨S128, .f32⟩
  | 30 => ⟨S1x128, .f32⟩
  | 31 => ⟨S100000x128, .f32⟩
  | 32 => ⟨S100000x128, .f32⟩
  | 33 => ⟨S_, .f32⟩
  | 34 => ⟨S128, .f32⟩
  | 35 => ⟨S_, .f32⟩
  | 36 => ⟨S128, .f32⟩
  | 37 => ⟨S128, .f32⟩
  | 38 => ⟨S_, .i32⟩
  | 39 => ⟨S_, .f32⟩
  | 40 => ⟨S128, .f32⟩
  | 41 => ⟨S1x128, .f32⟩
  | 42 => ⟨S_, .f32⟩
  | 43 => ⟨S1x128, .f32⟩
  | 44 => ⟨S1x128, .f32⟩
  | 45 => ⟨S100000x128, .f32⟩
  | 46 => ⟨S100000x128, .f32⟩
  | 47 => ⟨S100000x128, .f32⟩
  | 48 => ⟨S_, .f32⟩
  | 49 => ⟨S_, .f32⟩
  | 50 => ⟨S_, .f32⟩
  | 51 => ⟨S_, .f32⟩
  | 52 => ⟨S128, .f32⟩
  | 53 => ⟨S128, .f32⟩
  | 54 => ⟨S128, .f32⟩
  | 55 => ⟨S_, .f32⟩
  | 56 => ⟨S_, .i1⟩
  | 57 => ⟨S_, .f32⟩
  | 58 => ⟨S_, .f32⟩
  | 59 => ⟨S128, .f32⟩
  | 60 => ⟨S128, .f32⟩
  | 61 => ⟨S1x128, .f32⟩
  | 62 => ⟨S100000x128, .f32⟩
  | 63 => ⟨S100000x128, .f32⟩
  | 64 => ⟨S_, .f32⟩
  | 65 => ⟨S128, .f32⟩
  | 66 => ⟨S128, .f32⟩
  | 67 => ⟨S128, .f32⟩
  | 68 => ⟨S1x128, .f32⟩
  | 69 => ⟨S100000x128, .f32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S100000x1, .f32⟩
  | 86 => ⟨S100000x128, .f32⟩
  | 87 => ⟨S100000x128, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x128, .f32⟩
  | 97 => ⟨S_, .f32⟩
  | 98 => ⟨S100000x128, .f32⟩
  | 99 => ⟨S1600000x1, .i32⟩
  | 100 => ⟨S100000x128, .f32⟩
  | 101 => ⟨S100000x1, .f32⟩
  | 102 => ⟨S100000x128, .f32⟩
  | 103 => ⟨S100000x128, .f32⟩
  | 104 => ⟨S1x128x128, .f32⟩
  | 105 => ⟨S128x128, .f32⟩
  | 106 => ⟨S100000x128, .f32⟩
  | 107 => ⟨S1x128, .f32⟩
  | 108 => ⟨S128, .f32⟩
  | 109 => ⟨S1x128, .f32⟩
  | 110 => ⟨S100000x128, .f32⟩
  | 111 => ⟨S100000x128, .f32⟩
  | 112 => ⟨S_, .f32⟩
  | 113 => ⟨S128, .f32⟩
  | 114 => ⟨S_, .f32⟩
  | 115 => ⟨S128, .f32⟩
  | 116 => ⟨S128, .f32⟩
  | 117 => ⟨S_, .i32⟩
  | 118 => ⟨S_, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S100000x128, .f32⟩
  | 125 => ⟨S100000x128, .f32⟩
  | 126 => ⟨S100000x128, .f32⟩
  | 127 => ⟨S_, .f32⟩
  | _ => ⟨S100000, .i32⟩

abbrev hbmTy0_2 (i : Nat) : BufTy := match i % 128 with
  | 0 => ⟨S_, .f32⟩
  | 1 => ⟨S_, .f32⟩
  | 2 => ⟨S_, .f32⟩
  | 3 => ⟨S128, .f32⟩
  | 4 => ⟨S128, .f32⟩
  | 5 => ⟨S128, .f32⟩
  | 6 => ⟨S_, .f32⟩
  | 7 => ⟨S_, .i1⟩
  | 8 => ⟨S_, .f32⟩
  | 9 => ⟨S_, .f32⟩
  | 10 => ⟨S128, .f32⟩
  | 11 => ⟨S128, .f32⟩
  | 12 => ⟨S1x128, .f32⟩
  | 13 => ⟨S100000x128, .f32⟩
  | 14 => ⟨S100000x128, .f32⟩
  | 15 => ⟨S_, .f32⟩
  | 16 => ⟨S128, .f32⟩
  | 17 => ⟨S128, .f32⟩
  | 18 => ⟨S128, .f32⟩
  | 19 => ⟨S1x128, .f32⟩
  | 20 => ⟨S100000x128, .f32⟩
  | 21 => ⟨S100000x128, .f32⟩
  | 22 => ⟨S1x128, .f32⟩
  | 23 => ⟨S128, .f32⟩
  | 24 => ⟨S1x128, .f32⟩
  | 25 => ⟨S100000x128, .f32⟩
  | 26 => ⟨S100000x128, .f32⟩
  | 27 => ⟨S1x128, .f32⟩
  | 28 => ⟨S128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S100000x128, .f32⟩
  | 36 => ⟨S100000x1, .f32⟩
  | 37 => ⟨S100000x128, .f32⟩
  | 38 => ⟨S100000x128, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x128, .f32⟩
  | 48 => ⟨S_, .f32⟩
  | 49 => ⟨S100000x128, .f32⟩
  | 50 => ⟨S1600000x1, .i32⟩
  | 51 => ⟨S100000x128, .f32⟩
  | 52 => ⟨S100000x1, .f32⟩
  | 53 => ⟨S100000x128, .f32⟩
  | 54 => ⟨S100000x128, .f32⟩
  | 55 => ⟨S1x128x128, .f32⟩
  | 56 => ⟨S128x128, .f32⟩
  | 57 => ⟨S100000x128, .f32⟩
  | 58 => ⟨S1x128, .f32⟩
  | 59 => ⟨S128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S_, .f32⟩
  | 66 => ⟨S128, .f32⟩
  | 67 => ⟨S128, .f32⟩
  | 68 => ⟨S_, .i32⟩
  | 69 => ⟨S_, .f32⟩
  | 70 => ⟨S128, .f32⟩
  | 71 => ⟨S1x128, .f32⟩
  | 72 => ⟨S_, .f32⟩
  | 73 => ⟨S1x128, .f32⟩
  | 74 => ⟨S1x128, .f32⟩
  | 75 => ⟨S100000x128, .f32⟩
  | 76 => ⟨S100000x128, .f32⟩
  | 77 => ⟨S100000x128, .f32⟩
  | 78 => ⟨S_, .f32⟩
  | 79 => ⟨S_, .f32⟩
  | 80 => ⟨S_, .f32⟩
  | 81 => ⟨S_, .f32⟩
  | 82 => ⟨S128, .f32⟩
  | 83 => ⟨S128, .f32⟩
  | 84 => ⟨S128, .f32⟩
  | 85 => ⟨S_, .f32⟩
  | 86 => ⟨S_, .i1⟩
  | 87 => ⟨S_, .f32⟩
  | 88 => ⟨S_, .f32⟩
  | 89 => ⟨S128, .f32⟩
  | 90 => ⟨S128, .f32⟩
  | 91 => ⟨S1x128, .f32⟩
  | 92 => ⟨S100000x128, .f32⟩
  | 93 => ⟨S100000x128, .f32⟩
  | 94 => ⟨S_, .f32⟩
  | 95 => ⟨S128, .f32⟩
  | 96 => ⟨S128, .f32⟩
  | 97 => ⟨S128, .f32⟩
  | 98 => ⟨S1x128, .f32⟩
  | 99 => ⟨S100000x128, .f32⟩
  | 100 => ⟨S100000x128, .f32⟩
  | 101 => ⟨S1x128, .f32⟩
  | 102 => ⟨S128, .f32⟩
  | 103 => ⟨S1x128, .f32⟩
  | 104 => ⟨S100000x128, .f32⟩
  | 105 => ⟨S100000x128, .f32⟩
  | 106 => ⟨S1x128, .f32⟩
  | 107 => ⟨S128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S100000x128, .f32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S100000x32, .f32⟩
  | 123 => ⟨S1x32, .f32⟩
  | 124 => ⟨S100000x32, .f32⟩
  | 125 => ⟨S100000x32, .f32⟩
  | 126 => ⟨S_, .f32⟩
  | 127 => ⟨S100000x32, .f32⟩
  | _ => ⟨S100000, .i32⟩

abbrev hbmTy0_3 (i : Nat) : BufTy := match i % 128 with
  | 0 => ⟨S100000x32, .f32⟩
  | 1 => ⟨S100000x6, .f32⟩
  | 2 => ⟨S1x6, .f32⟩
  | 3 => ⟨S100000x6, .f32⟩
  | 4 => ⟨S100000x6, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v12 : Ref sig .tc := ⟨.hbm, 34, rfl⟩
abbrev main_cst_5 : Ref sig .tc := ⟨.hbm, 35, rfl⟩
abbrev main_v13 : Ref sig .tc := ⟨.hbm, 36, rfl⟩
abbrev main_v14 : Ref sig .tc := ⟨.hbm, 37, rfl⟩
abbrev main_cst_6 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_7 : Ref sig .tc := ⟨.hbm, 42, rfl⟩
abbrev main_call1_v0 : Ref sig .tc := ⟨.hbm, 43, rfl⟩
abbrev main_call1_v1 : Ref sig .tc := ⟨.hbm, 44, rfl⟩
abbrev main_v18 : Ref sig .tc := ⟨.hbm, 45, rfl⟩
abbrev main_c : Ref sig .tc := ⟨.hbm, 46, rfl⟩
abbrev main_v19 : Ref sig .tc := ⟨.hbm, 47, rfl⟩
abbrev main_v20 : Ref sig .tc := ⟨.hbm, 48, rfl⟩
abbrev main_c_8 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_9 : Ref sig .tc := ⟨.hbm, 58, rfl⟩
abbrev main_v29 : Ref sig .tc := ⟨.hbm, 59, rfl⟩
abbrev main_v30 : Ref sig .tc := ⟨.hbm, 60, rfl⟩
abbrev main_c_10 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_11 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_cst_13 : Ref sig .tc := ⟨.hbm, 84, rfl⟩
abbrev main_v51 : Ref sig .tc := ⟨.hbm, 85, rfl⟩
abbrev main_v52 : Ref sig .tc := ⟨.hbm, 86, rfl⟩
abbrev main_c_14 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_cst_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_cst_1 : Ref sig .tc := ⟨.hbm, 98, rfl⟩
abbrev main_call2_v8 : Ref sig .tc := ⟨.hbm, 99, rfl⟩
abbrev main_call2_cst_2 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_cst_3 : Ref sig .tc := ⟨.hbm, 104, rfl⟩
abbrev main_call2_v12 : Ref sig .tc := ⟨.hbm, 105, rfl⟩
abbrev main_call2_cst_4 : Ref sig .tc := ⟨.hbm, 106, rfl⟩
abbrev main_call2_call0_v0 : Ref sig .tc := ⟨.hbm, 107, rfl⟩
abbrev main_call2_call0_v1 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_cst_15 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_call3_cst : Ref sig .tc := ⟨.hbm, 130, rfl⟩
abbrev main_call3_v0 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_c_16 : Ref sig .tc := ⟨.hbm, 137, rfl⟩
abbrev main_v78 : Ref sig .tc := ⟨.hbm, 138, rfl⟩
abbrev main_v79 : Ref sig .tc := ⟨.hbm, 139, rfl⟩
abbrev main_c_17 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_cst_18 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_cst_19 : Ref sig .tc := ⟨.hbm, 161, rfl⟩
abbrev main_v99 : Ref sig .tc := ⟨.hbm, 162, rfl⟩
abbrev main_cst_20 : Ref sig .tc := ⟨.hbm, 163, rfl⟩
abbrev main_v100 : Ref sig .tc := ⟨.hbm, 164, rfl⟩
abbrev main_v101 : Ref sig .tc := ⟨.hbm, 165, rfl⟩
abbrev main_c_21 : Ref sig .tc := ⟨.hbm, 166, rfl⟩
abbrev main_call4_cst : Ref sig .tc := ⟨.hbm, 167, rfl⟩
abbrev main_call4_v0 : Ref sig .tc := ⟨.hbm, 168, rfl⟩
abbrev main_call4_v1 : Ref sig .tc := ⟨.hbm, 169, rfl⟩
abbrev main_call4_cst_0 : Ref sig .tc := ⟨.hbm, 170, rfl⟩
abbrev main_call4_v2 : Ref sig .tc := ⟨.hbm, 171, rfl⟩
abbrev main_call4_v3 : Ref sig .tc := ⟨.hbm, 172, rfl⟩
abbrev main_call4_v4 : Ref sig .tc := ⟨.hbm, 173, rfl⟩
abbrev main_call4_v5 : Ref sig .tc := ⟨.hbm, 174, rfl⟩
abbrev main_call4_v6 : Ref sig .tc := ⟨.hbm, 175, rfl⟩
abbrev main_call4_v7 : Ref sig .tc := ⟨.hbm, 176, rfl⟩
abbrev main_call4_cst_1 : Ref sig .tc := ⟨.hbm, 177, rfl⟩
abbrev main_call4_v8 : Ref sig .tc := ⟨.hbm, 178, rfl⟩
abbrev main_call4_cst_2 : Ref sig .tc := ⟨.hbm, 179, rfl⟩
abbrev main_call4_v9 : Ref sig .tc := ⟨.hbm, 180, rfl⟩
abbrev main_call4_v10 : Ref sig .tc := ⟨.hbm, 181, rfl⟩
abbrev main_call4_v11 : Ref sig .tc := ⟨.hbm, 182, rfl⟩
abbrev main_call4_cst_3 : Ref sig .tc := ⟨.hbm, 183, rfl⟩
abbrev main_call4_v12 : Ref sig .tc := ⟨.hbm, 184, rfl⟩
abbrev main_call4_cst_4 : Ref sig .tc := ⟨.hbm, 185, rfl⟩
abbrev main_call4_call0_v0 : Ref sig .tc := ⟨.hbm, 186, rfl⟩
abbrev main_call4_call0_v1 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_cst_22 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_call5_cst : Ref sig .tc := ⟨.hbm, 209, rfl⟩
abbrev main_call5_v0 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_c_23 : Ref sig .tc := ⟨.hbm, 216, rfl⟩
abbrev main_v127 : Ref sig .tc := ⟨.hbm, 217, rfl⟩
abbrev main_v128 : Ref sig .tc := ⟨.hbm, 218, rfl⟩
abbrev main_c_24 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_cst_25 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_cst_26 : Ref sig .tc := ⟨.hbm, 240, rfl⟩
abbrev main_v148 : Ref sig .tc := ⟨.hbm, 241, rfl⟩
abbrev main_cst_27 : Ref sig .tc := ⟨.hbm, 242, rfl⟩
abbrev main_v149 : Ref sig .tc := ⟨.hbm, 243, rfl⟩
abbrev main_v150 : Ref sig .tc := ⟨.hbm, 244, rfl⟩
abbrev main_c_28 : Ref sig .tc := ⟨.hbm, 245, rfl⟩
abbrev main_call6_cst : Ref sig .tc := ⟨.hbm, 246, rfl⟩
abbrev main_call6_v0 : Ref sig .tc := ⟨.hbm, 247, rfl⟩
abbrev main_call6_v1 : Ref sig .tc := ⟨.hbm, 248, rfl⟩
abbrev main_call6_cst_0 : Ref sig .tc := ⟨.hbm, 249, rfl⟩
abbrev main_call6_v2 : Ref sig .tc := ⟨.hbm, 250, rfl⟩
abbrev main_call6_v3 : Ref sig .tc := ⟨.hbm, 251, rfl⟩
abbrev main_call6_v4 : Ref sig .tc := ⟨.hbm, 252, rfl⟩
abbrev main_call6_v5 : Ref sig .tc := ⟨.hbm, 253, rfl⟩
abbrev main_call6_v6 : Ref sig .tc := ⟨.hbm, 254, rfl⟩
abbrev main_call6_v7 : Ref sig .tc := ⟨.hbm, 255, rfl⟩
abbrev main_call6_cst_1 : Ref sig .tc := ⟨.hbm, 256, rfl⟩
abbrev main_call6_v8 : Ref sig .tc := ⟨.hbm, 257, rfl⟩
abbrev main_call6_cst_2 : Ref sig .tc := ⟨.hbm, 258, rfl⟩
abbrev main_call6_v9 : Ref sig .tc := ⟨.hbm, 259, rfl⟩
abbrev main_call6_v10 : Ref sig .tc := ⟨.hbm, 260, rfl⟩
abbrev main_call6_v11 : Ref sig .tc := ⟨.hbm, 261, rfl⟩
abbrev main_call6_cst_3 : Ref sig .tc := ⟨.hbm, 262, rfl⟩
abbrev main_call6_v12 : Ref sig .tc := ⟨.hbm, 263, rfl⟩
abbrev main_call6_cst_4 : Ref sig .tc := ⟨.hbm, 264, rfl⟩
abbrev main_call6_call0_v0 : Ref sig .tc := ⟨.hbm, 265, rfl⟩
abbrev main_call6_call0_v1 : Ref sig .tc := ⟨.hbm, 266, rfl⟩
abbrev main_v151 : Ref sig .tc := ⟨.hbm, 267, rfl⟩
abbrev main_v152 : Ref sig .tc := ⟨.hbm, 268, rfl⟩
abbrev main_v153 : Ref sig .tc := ⟨.hbm, 269, rfl⟩
abbrev main_v154 : Ref sig .tc := ⟨.hbm, 270, rfl⟩
abbrev main_cst_29 : Ref sig .tc := ⟨.hbm, 271, rfl⟩
abbrev main_v155 : Ref sig .tc := ⟨.hbm, 272, rfl⟩
abbrev main_v156 : Ref sig .tc := ⟨.hbm, 273, rfl⟩
abbrev main_v157 : Ref sig .tc := ⟨.hbm, 274, rfl⟩
abbrev main_v158 : Ref sig .tc := ⟨.hbm, 275, rfl⟩
abbrev main_v159 : Ref sig .tc := ⟨.hbm, 276, rfl⟩
abbrev main_v160 : Ref sig .tc := ⟨.hbm, 277, rfl⟩
abbrev main_v161 : Ref sig .tc := ⟨.hbm, 278, rfl⟩
abbrev main_v162 : Ref sig .tc := ⟨.hbm, 279, rfl⟩
abbrev main_v163 : Ref sig .tc := ⟨.hbm, 280, rfl⟩
abbrev main_v164 : Ref sig .tc := ⟨.hbm, 281, rfl⟩
abbrev main_v165 : Ref sig .tc := ⟨.hbm, 282, rfl⟩
abbrev main_v166 : Ref sig .tc := ⟨.hbm, 283, rfl⟩
abbrev main_v167 : Ref sig .tc := ⟨.hbm, 284, rfl⟩
abbrev main_v168 : Ref sig .tc := ⟨.hbm, 285, rfl⟩
abbrev main_v169 : Ref sig .tc := ⟨.hbm, 286, rfl⟩
abbrev main_v170 : Ref sig .tc := ⟨.hbm, 287, rfl⟩
abbrev main_call7_cst : Ref sig .tc := ⟨.hbm, 288, rfl⟩
abbrev main_call7_v0 : Ref sig .tc := ⟨.hbm, 289, rfl⟩
abbrev main_v171 : Ref sig .tc := ⟨.hbm, 290, rfl⟩
abbrev main_v172 : Ref sig .tc := ⟨.hbm, 291, rfl⟩
abbrev main_v173 : Ref sig .tc := ⟨.hbm, 292, rfl⟩
abbrev main_v174 : Ref sig .tc := ⟨.hbm, 293, rfl⟩
abbrev main_v175 : Ref sig .tc := ⟨.hbm, 294, rfl⟩
abbrev main_c_30 : Ref sig .tc := ⟨.hbm, 295, rfl⟩
abbrev main_v176 : Ref sig .tc := ⟨.hbm, 296, rfl⟩
abbrev main_v177 : Ref sig .tc := ⟨.hbm, 297, rfl⟩
abbrev main_c_31 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_cst_32 : Ref sig .tc := ⟨.hbm, 304, rfl⟩
abbrev main_v183 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_v187 : Ref sig .tc := ⟨.hbm, 309, rfl⟩
abbrev main_v188 : Ref sig .tc := ⟨.hbm, 310, rfl⟩
abbrev main_v189 : Ref sig .tc := ⟨.hbm, 311, rfl⟩
abbrev main_v190 : Ref sig .tc := ⟨.hbm, 312, rfl⟩
abbrev main_v191 : Ref sig .tc := ⟨.hbm, 313, rfl⟩
abbrev main_v192 : Ref sig .tc := ⟨.hbm, 314, rfl⟩
abbrev main_v193 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_cst_33 : Ref sig .tc := ⟨.hbm, 319, rfl⟩
abbrev main_v197 : Ref sig .tc := ⟨.hbm, 320, rfl⟩
abbrev main_cst_34 : Ref sig .tc := ⟨.hbm, 321, rfl⟩
abbrev main_v198 : Ref sig .tc := ⟨.hbm, 322, rfl⟩
abbrev main_v199 : Ref sig .tc := ⟨.hbm, 323, rfl⟩
abbrev main_c_35 : Ref sig .tc := ⟨.hbm, 324, rfl⟩
abbrev main_call8_cst : Ref sig .tc := ⟨.hbm, 325, rfl⟩
abbrev main_call8_v0 : Ref sig .tc := ⟨.hbm, 326, rfl⟩
abbrev main_call8_v1 : Ref sig .tc := ⟨.hbm, 327, rfl⟩
abbrev main_call8_cst_0 : Ref sig .tc := ⟨.hbm, 328, rfl⟩
abbrev main_call8_v2 : Ref sig .tc := ⟨.hbm, 329, rfl⟩
abbrev main_call8_v3 : Ref sig .tc := ⟨.hbm, 330, rfl⟩
abbrev main_call8_v4 : Ref sig .tc := ⟨.hbm, 331, rfl⟩
abbrev main_call8_v5 : Ref sig .tc := ⟨.hbm, 332, rfl⟩
abbrev main_call8_v6 : Ref sig .tc := ⟨.hbm, 333, rfl⟩
abbrev main_call8_v7 : Ref sig .tc := ⟨.hbm, 334, rfl⟩
abbrev main_call8_cst_1 : Ref sig .tc := ⟨.hbm, 335, rfl⟩
abbrev main_call8_v8 : Ref sig .tc := ⟨.hbm, 336, rfl⟩
abbrev main_call8_cst_2 : Ref sig .tc := ⟨.hbm, 337, rfl⟩
abbrev main_call8_v9 : Ref sig .tc := ⟨.hbm, 338, rfl⟩
abbrev main_call8_v10 : Ref sig .tc := ⟨.hbm, 339, rfl⟩
abbrev main_call8_v11 : Ref sig .tc := ⟨.hbm, 340, rfl⟩
abbrev main_call8_cst_3 : Ref sig .tc := ⟨.hbm, 341, rfl⟩
abbrev main_call8_v12 : Ref sig .tc := ⟨.hbm, 342, rfl⟩
abbrev main_call8_cst_4 : Ref sig .tc := ⟨.hbm, 343, rfl⟩
abbrev main_call8_call0_v0 : Ref sig .tc := ⟨.hbm, 344, rfl⟩
abbrev main_call8_call0_v1 : Ref sig .tc := ⟨.hbm, 345, rfl⟩
abbrev main_v200 : Ref sig .tc := ⟨.hbm, 346, rfl⟩
abbrev main_v201 : Ref sig .tc := ⟨.hbm, 347, rfl⟩
abbrev main_v202 : Ref sig .tc := ⟨.hbm, 348, rfl⟩
abbrev main_v203 : Ref sig .tc := ⟨.hbm, 349, rfl⟩
abbrev main_cst_36 : Ref sig .tc := ⟨.hbm, 350, rfl⟩
abbrev main_v204 : Ref sig .tc := ⟨.hbm, 351, rfl⟩
abbrev main_v205 : Ref sig .tc := ⟨.hbm, 352, rfl⟩
abbrev main_v206 : Ref sig .tc := ⟨.hbm, 353, rfl⟩
abbrev main_v207 : Ref sig .tc := ⟨.hbm, 354, rfl⟩
abbrev main_v208 : Ref sig .tc := ⟨.hbm, 355, rfl⟩
abbrev main_v209 : Ref sig .tc := ⟨.hbm, 356, rfl⟩
abbrev main_v210 : Ref sig .tc := ⟨.hbm, 357, rfl⟩
abbrev main_v211 : Ref sig .tc := ⟨.hbm, 358, rfl⟩
abbrev main_v212 : Ref sig .tc := ⟨.hbm, 359, rfl⟩
abbrev main_v213 : Ref sig .tc := ⟨.hbm, 360, rfl⟩
abbrev main_v214 : Ref sig .tc := ⟨.hbm, 361, rfl⟩
abbrev main_v215 : Ref sig .tc := ⟨.hbm, 362, rfl⟩
abbrev main_v216 : Ref sig .tc := ⟨.hbm, 363, rfl⟩
abbrev main_v217 : Ref sig .tc := ⟨.hbm, 364, rfl⟩
abbrev main_v218 : Ref sig .tc := ⟨.hbm, 365, rfl⟩
abbrev main_v219 : Ref sig .tc := ⟨.hbm, 366, rfl⟩
abbrev main_call9_cst : Ref sig .tc := ⟨.hbm, 367, rfl⟩
abbrev main_call9_v0 : Ref sig .tc := ⟨.hbm, 368, rfl⟩
abbrev main_v220 : Ref sig .tc := ⟨.hbm, 369, rfl⟩
abbrev main_v221 : Ref sig .tc := ⟨.hbm, 370, rfl⟩
abbrev main_v222 : Ref sig .tc := ⟨.hbm, 371, rfl⟩
abbrev main_v223 : Ref sig .tc := ⟨.hbm, 372, rfl⟩
abbrev main_v224 : Ref sig .tc := ⟨.hbm, 373, rfl⟩
abbrev main_v225 : Ref sig .tc := ⟨.hbm, 374, rfl⟩
abbrev main_call10_cst : Ref sig .tc := ⟨.hbm, 375, rfl⟩
abbrev main_call10_v0 : Ref sig .tc := ⟨.hbm, 376, rfl⟩
abbrev main_v226 : Ref sig .tc := ⟨.hbm, 377, rfl⟩
abbrev main_v227 : Ref sig .tc := ⟨.hbm, 378, rfl⟩
abbrev main_v228 : Ref sig .tc := ⟨.hbm, 379, rfl⟩
abbrev main_v229 : Ref sig .tc := ⟨.hbm, 380, rfl⟩
abbrev main_v230 : Ref sig .tc := ⟨.hbm, 381, rfl⟩
abbrev main_call11_cst : Ref sig .tc := ⟨.hbm, 382, rfl⟩
abbrev main_call11_v0 : Ref sig .tc := ⟨.hbm, 383, rfl⟩
abbrev main_v231 : Ref sig .tc := ⟨.hbm, 384, rfl⟩
abbrev main_v232 : Ref sig .tc := ⟨.hbm, 385, rfl⟩
abbrev main_v233 : Ref sig .tc := ⟨.hbm, 386, rfl⟩
abbrev main_v234 : Ref sig .tc := ⟨.hbm, 387, rfl⟩
abbrev main_v235 : Ref sig .tc := ⟨.hbm, 388, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  scatter_S100000_S1600000x1_S1600000_n_0_0_1_wf : ScatterDims.WF S100000 S1600000x1 S1600000 [] [0] [0] 1
  gather_S7x128_S100000x1_S100000x128_1_0_n_n_0_1_1128_wf : GatherDims.WF S7x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x32_S100000x32_1_0_0_1_n_n_wf : DotDims.WF S100000x64 S64x32 S100000x32 [1] [0] [0] [1] [] []
  dot_S100000x32_S32x6_S100000x6_1_0_0_1_n_n_wf : DotDims.WF S100000x32 S32x6 S100000x6 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S7x128_S100000x1_S100000x128_1_0_n_n_0_1_1128 : GatherDims S7x128 S100000x1 S100000x128 where
  offsetDims := [1]
  collapsedSliceDims := [0]
  operandBatchingDims := []
  startIndicesBatchingDims := []
  startIndexMap := [0]
  indexVectorDim := 1
  sliceSizes := ![1, 128]
  wf := gather_S7x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x6_S100000x6_1_0_0_1_n_n : DotDims S100000x32 S32x6 S100000x6 where
  lhsContracting := [1]
  rhsContracting := [0]
  lhsNonContracting := [0]
  rhsNonContracting := [1]
  lhsBatch := []
  rhsBatch := []
  wf := dot_S100000x32_S32x6_S100000x6_1_0_0_1_n_n_wf

class Facts : Prop extends Facts₀ where

variable [Facts]
-- ==== Proof.Stage.lean ====
/-
  The layers of the graph network as whole-array functions, each spelled as the host operations
  the reference program applies: the symmetric degree normalisation D^{-1/2} (zero where a node
  has no edge), the embedding lookup, one message-passing step (scale by the source norm, gather
  along the edges' sources, sum into the edges' destinations, scale by the destination norm), the
  dense layer x·W + b, the batch statistics over the nodes, the normalisation
  max((p - mu)·rsqrt(var + eps)·gamma + beta, 0) + x, and the three-layer readout. Both programs
  are compositions of these functions of the argument arrays.
-/
import proofs.«168068_j70480413327361_1_alg».proof.Proof.Gen.ReferenceIdeal

noncomputable section

namespace Cert.ReferenceIdeal.Stage

open Cert.ReferenceIdeal Cert.ReferenceIdeal.Facts₀ Idealize.ShloMosaic Idealize.ShloMosaic.TcCoe

variable {F : FTy → Type} [FloatOps F]

/-- The contents of a buffer of shape `S` and element type `e`. -/
abbrev Arr (F : FTy → Type) [FloatOps F] (S : Shape) (e : EltTy) : Type := (⟨S, e⟩ : BufTy).Contents (Elt F)

/-- The number of edges at each node, counted by adding 1.0 at every entry of `idx`. -/
def degree (idx : Arr F S1600000 .i32) : Arr F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 idx)
    (broadcastInDim S1600000 ![] bcast_S_S1600000 (constant S_ .f32 0x3F800000#32))

/-- `deg^(-1/2)` where the degree is positive (the degree clamped below by 1 first), 0 elsewhere. -/
def norm (idx : Arr F S1600000 .i32) : Arr F S100000 .f32 :=
  select (cmpf .ogt (degree idx) (broadcastInDim S100000 ![] bcast_S_S100000 (constant S_ .f32 0x00000000#32)))
    (Host.rsqrt (maximumf (degree idx) (broadcastInDim S100000 ![] bcast_S_S100000 (constant S_ .f32 0x3F800000#32))))
    (broadcastInDim S100000 ![] bcast_S_S100000 (id (constant S_ .f32 0x00000000#32)))

/-- Row `h n` of the embedding table for every node `n` (a negative index counted from the end). -/
def embed (emb : Arr F S7x128 .f32) (h : Arr F S100000 .i32) : Arr F S100000x128 .f32 :=
  Host.gather gather_S7x128_S100000x1_S100000x128_1_0_n_n_0_1_1128 emb
    (broadcastInDim S100000x1 ![0] bcast_S100000_S100000x1_0
      (select (cmpi .slt h (broadcastInDim S100000 ![] bcast_S_S100000 (constantI S_ 32 0#32)))
        (addi h (broadcastInDim S100000 ![] bcast_S_S100000 (constantI S_ 32 7#32))) h))

/-- A per-node factor spread along the feature axis. -/
def perNode (v : Arr F S100000 .f32) : Arr F S100000x128 .f32 :=
  broadcastInDim S100000x128 ![0, 1] bcast_S100000x1_S100000x128_0_1 (broadcastInDim S100000x1 ![0] bcast_S100000_S100000x1_0 v)

/-- One message-passing step: `nd ⊙ Σ_{e : dst e = n} (ns ⊙ x)[src e]`. -/
def aggregate (x : Arr F S100000x128 .f32) (ns nd : Arr F S100000 .f32) (src dst : Arr F S1600000 .i32) : Arr F S100000x128 .f32 :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 (mulf x (perNode ns))
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (perNode nd)

/-- Layer 0's weight matrix. -/
def weight0 (W : Arr F S4x128x128 .f32) : Arr F S128x128 .f32 :=
  shapeCast S128x128 (extractStridedSlice S1x128x128 ![0, 0, 0] W slices_S4x128x128_S1x128x128_0_0_0) shapeCasts_S1x128x128_S128x128
/-- Row 0 of a per-layer table of feature vectors (bias, scale, shift). -/
def row0 (t : Arr F S4x128 .f32) : Arr F S128 .f32 :=
  shapeCast S128 (extractStridedSlice S1x128 ![0, 0] t slices_S4x128_S1x128_0_0) shapeCasts_S1x128_S128

/-- Layer 1's weight matrix. -/
def weight1 (W : Arr F S4x128x128 .f32) : Arr F S128x128 .f32 :=
  shapeCast S128x128 (extractStridedSlice S1x128x128 ![1, 0, 0] W slices_S4x128x128_S1x128x128_1_0_0) shapeCasts_S1x128x128_S128x128
/-- Row 1 of a per-layer table of feature vectors (bias, scale, shift). -/
def row1 (t : Arr F S4x128 .f32) : Arr F S128 .f32 :=
  shapeCast S128 (extractStridedSlice S1x128 ![1, 0] t slices_S4x128_S1x128_1_0) shapeCasts_S1x128_S128

/-- Layer 2's weight matrix. -/
def weight2 (W : Arr F S4x128x128 .f32) : Arr F S128x128 .f32 :=
  shapeCast S128x128 (extractStridedSlice S1x128x128 ![2, 0, 0] W slices_S4x128x128_S1x128x128_2_0_0) shapeCasts_S1x128x128_S128x128
/-- Row 2 of a per-layer table of feature vectors (bias, scale, shift). -/
def row2 (t : Arr F S4x128 .f32) : Arr F S128 .f32 :=
  shapeCast S128 (extractStridedSlice S1x128 ![2, 0] t slices_S4x128_S1x128_2_0) shapeCasts_S1x128_S128

/-- Layer 3's weight matrix. -/
def weight3 (W : Arr F S4x128x128 .f32) : Arr F S128x128 .f32 :=
  shapeCast S128x128 (extractStridedSlice S1x128x128 ![3, 0, 0] W slices_S4x128x128_S1x128x128_3_0_0) shapeCasts_S1x128x128_S128x128
/-- Row 3 of a per-layer table of feature vectors (bias, scale, shift). -/
def row3 (t : Arr F S4x128 .f32) : Arr F S128 .f32 :=
  shapeCast S128 (extractStridedSlice S1x128 ![3, 0] t slices_S4x128_S1x128_3_0) shapeCasts_S1x128_S128

/-- A feature vector spread over all nodes. -/
def perFeature (v : Arr F S128 .f32) : Arr F S100000x128 .f32 :=
  broadcastInDim S100000x128 ![0, 1] bcast_S1x128_S100000x128_0_1 (broadcastInDim S1x128 ![1] bcast_S128_S1x128_1 v)

/-- The dense layer `a · w + b`. -/
def linear (a : Arr F S100000x128 .f32) (w : Arr F S128x128 .f32) (b : Arr F S128 .f32) : Arr F S100000x128 .f32 :=
  addf (Host.dotGeneral dot_S100000x128_S128x128_S100000x128_1_0_0_1_n_n none a w) (perFeature b)

/-- The sum over the nodes, per feature. -/
def colSum (p : Arr F S100000x128 .f32) : Arr F S128 .f32 :=
  Host.reduceAdd p (constant S_ .f32 0x00000000#32) reducesTo_S100000x128_S128_d0 h_S_

/-- The mean over the nodes, per feature. -/
def mean (p : Arr F S100000x128 .f32) : Arr F S128 .f32 :=
  Host.divf (colSum p) (broadcastInDim S128 ![] bcast_S_S128 (constant S_ .f32 0x47C35000#32))

/-- The number of nodes less the correction 0, as the variance's divisor. -/
def varDenom : Arr F S_ .f32 :=
  subf (constant S_ .f32 0x47C35000#32) (sitofp .f32 (constantI S_ 32 0#32))

/-- The biased variance over the nodes, per feature (the two-pass form, guarded by its divisor being positive). -/
def variance (p : Arr F S100000x128 .f32) : Arr F S128 .f32 :=
  (fun c a b => select (broadcastInDim S128 ![] bcast_S_S128 c) a b)
    (cmpf .ogt (varDenom (F := F)) (constant S_ .f32 0x00000000#32))
    (Host.divf
      (colSum (mulf
        (subf p (broadcastInDim S100000x128 ![0, 1] bcast_S1x128_S100000x128_0_1
          (Host.divf (broadcastInDim S1x128 ![1] bcast_S128_S1x128_1 (colSum p))
            (broadcastInDim S1x128 ![] bcast_S_S1x128 (constant S_ .f32 0x47C35000#32)))))
        (subf p (broadcastInDim S100000x128 ![0, 1] bcast_S1x128_S100000x128_0_1
          (Host.divf (broadcastInDim S1x128 ![1] bcast_S128_S1x128_1 (colSum p))
            (broadcastInDim S1x128 ![] bcast_S_S1x128 (constant S_ .f32 0x47C35000#32)))))))
      (broadcastInDim S128 ![] bcast_S_S128 (varDenom (F := F))))
    (broadcastInDim S128 ![] bcast_S_S128 (id (constant S_ .f32 0x7FC00000#32)))

/-- Batch normalisation with the statistics given, the rectifier, and the residual:
    `max((p - mu) · rsqrt(var + eps) · g + be, 0) + xin`. -/
def normalize (p xin : Arr F S100000x128 .f32) (mu var g be : Arr F S128 .f32) : Arr F S100000x128 .f32 :=
  addf
    (maximumf
      (addf
        (mulf
          (mulf (subf p (perFeature mu))
            (perFeature (Host.rsqrt (addf var (broadcastInDim S128 ![] bcast_S_S128 (constant S_ .f32 0x3727C5AC#32))))))
          (perFeature g))
        (perFeature be))
      (broadcastInDim S100000x128 ![] bcast_S_S100000x128 (constant S_ .f32 0x00000000#32)))
    xin

/-- Layer 0 of the network on the node features `x`. -/
def layer0 (x : Arr F S100000x128 .f32) (ns nd : Arr F S100000 .f32) (src dst : Arr F S1600000 .i32)
    (W : Arr F S4x128x128 .f32) (b g be : Arr F S4x128 .f32) : Arr F S100000x128 .f32 :=
  normalize (linear (aggregate x ns nd src dst) (weight0 W) (row0 b)) x
    (mean (linear (aggregate x ns nd src dst) (weight0 W) (row0 b)))
    (variance (linear (aggregate x ns nd src dst) (weight0 W) (row0 b)))
    (row0 g) (row0 be)

/-- Layer 1 of the network on the node features `x`. -/
def layer1 (x : Arr F S100000x128 .f32) (ns nd : Arr F S100000 .f32) (src dst : Arr F S1600000 .i32)
    (W : Arr F S4x128x128 .f32) (b g be : Arr F S4x128 .f32) : Arr F S100000x128 .f32 :=
  normalize (linear (aggregate x ns nd src dst) (weight1 W) (row1 b)) x
    (mean (linear (aggregate x ns nd src dst) (weight1 W) (row1 b)))
    (variance (linear (aggregate x ns nd src dst) (weight1 W) (row1 b)))
    (row1 g) (row1 be)

/-- Layer 2 of the network on the node features `x`. -/
def layer2 (x : Arr F S100000x128 .f32) (ns nd : Arr F S100000 .f32) (src dst : Arr F S1600000 .i32)
    (W : Arr F S4x128x128 .f32) (b g be : Arr F S4x128 .f32) : Arr F S100000x128 .f32 :=
  normalize (linear (aggregate x ns nd src dst) (weight2 W) (row2 b)) x
    (mean (linear (aggregate x ns nd src dst) (weight2 W) (row2 b)))
    (variance (linear (aggregate x ns nd src dst) (weight2 W) (row2 b)))
    (row2 g) (row2 be)

/-- Layer 3 of the network on the node features `x`. -/
def layer3 (x : Arr F S100000x128 .f32) (ns nd : Arr F S100000 .f32) (src dst : Arr F S1600000 .i32)
    (W : Arr F S4x128x128 .f32) (b g be : Arr F S4x128 .f32) : Arr F S100000x128 .f32 :=
  normalize (linear (aggregate x ns nd src dst) (weight3 W) (row3 b)) x
    (mean (linear (aggregate x ns nd src dst) (weight3 W) (row3 b)))
    (variance (linear (aggregate x ns nd src dst) (weight3 W) (row3 b)))
    (row3 g) (row3 be)

/-- The readout: `max(max(x·W1 + b1, 0)·W2 + b2, 0)·W3 + b3`. -/
def readout (x : Arr F S100000x128 .f32) (W1 : Arr F S128x64 .f32) (b1 : Arr F S64 .f32) (W2 : Arr F S64x32 .f32) (b2 : Arr F S32 .f32)
    (W3 : Arr F S32x6 .f32) (b3 : Arr F S6 .f32) : Arr F S100000x6 .f32 :=
  addf
    (Host.dotGeneral dot_S100000x32_S32x6_S100000x6_1_0_0_1_n_n none
      (maximumf
        (addf
          (Host.dotGeneral dot_S100000x64_S64x32_S100000x32_1_0_0_1_n_n none
            (maximumf
              (addf (Host.dotGeneral dot_S100000x128_S128x64_S100000x64_1_0_0_1_n_n none x W1)
                (broadcastInDim S100000x64 ![0, 1] bcast_S1x64_S100000x64_0_1 (broadcastInDim S1x64 ![1] bcast_S64_S1x64_1 b1)))
              (broadcastInDim S100000x64 ![] bcast_S_S100000x64 (constant S_ .f32 0x00000000#32)))
            W2)
          (broadcastInDim S100000x32 ![0, 1] bcast_S1x32_S100000x32_0_1 (broadcastInDim S1x32 ![1] bcast_S32_S1x32_1 b2)))
        (broadcastInDim S100000x32 ![] bcast_S_S100000x32 (constant S_ .f32 0x00000000#32)))
      W3)
    (broadcastInDim S100000x6 ![0, 1] bcast_S1x6_S100000x6_0_1 (broadcastInDim S1x6 ![1] bcast_S6_S1x6_1 b3))

/-- The whole network: the readout of four layers over the embedded nodes. -/
def network (h : Arr F S100000 .i32) (src dst : Arr F S1600000 .i32) (emb : Arr F S7x128 .f32) (W : Arr F S4x128x128 .f32)
    (b g be : Arr F S4x128 .f32) (W1 : Arr F S128x64 .f32) (b1 : Arr F S64 .f32) (W2 : Arr F S64x32 .f32) (b2 : Arr F S32 .f32)
    (W3 : Arr F S32x6 .f32) (b3 : Arr F S6 .f32) : Arr F S100000x6 .f32 :=
  readout
    (layer3 (layer2 (layer1 (layer0 (embed emb h) (norm src) (norm dst) src dst W b g be)
      (norm src) (norm dst) src dst W b g be) (norm src) (norm dst) src dst W b g be) (norm src) (norm dst) src dst W b g be)
    W1 b1 W2 b2 W3 b3

end Cert.ReferenceIdeal.Stage

end
-- ==== Proof.KStage.lean ====
/-
  The reshapes the kernel's program applies to a feature vector before a region reads it as a one-row array, and what
  the buffer contents at a layer's end must still hold for the next layer: the two degree norms and the argument arrays.
-/
import proofs.«168068_j70480413327361_1_alg».proof.Proof.Gen.KernelIdeal
import proofs.«168068_j70480413327361_1_alg».proof.Proof.Stage
import Idealize.ShloMosaic.Lib.StableHlo.Run
import Idealize.ShloMosaic.PureOps.Ideal

noncomputable section

namespace Cert.KernelIdeal.KStage

open Cert.KernelIdeal Cert.KernelIdeal.Facts₀ Idealize.ShloMosaic Idealize.ShloMosaic.TcCoe Idealize.SL.Sem
open Cert.ReferenceIdeal.Stage (Arr)

/-- A feature vector as a one-row array. -/
def row128 (v : Arr Ideal S128 .f32) : Arr Ideal S1x128 .f32 := shapeCast S1x128 v shapeCasts_S128_S1x128
def row64 (v : Arr Ideal S64 .f32) : Arr Ideal S1x64 .f32 := shapeCast S1x64 v shapeCasts_S64_S1x64
def row32 (v : Arr Ideal S32 .f32) : Arr Ideal S1x32 .f32 := shapeCast S1x32 v shapeCasts_S32_S1x32
def row6 (v : Arr Ideal S6 .f32) : Arr Ideal S1x6 .f32 := shapeCast S1x6 v shapeCasts_S6_S1x6

/-- The contents `W` of core `c`'s buffers still hold the source and destination norms and every argument array the
    later layers read, as functions of the launch memory `m`. -/
structure Keeps (m : (ℓ : Loc nD τ sig) → Buf (Elt Ideal) ℓ) (c : Dev nD) (W : Valuation τ sig (Elt Ideal)) : Prop where
  ns : W (Proc.devRef .tc main_v12) = Cert.ReferenceIdeal.Stage.norm (F := Ideal) (m ((c : Thread nD τ).loc main_arg1))
  nd : W (Proc.devRef .tc main_v18) = Cert.ReferenceIdeal.Stage.norm (F := Ideal) (m ((c : Thread nD τ).loc main_arg2))
  a1 : W (Proc.devRef .tc main_arg1) = m ((c : Thread nD τ).loc main_arg1)
  a2 : W (Proc.devRef .tc main_arg2) = m ((c : Thread nD τ).loc main_arg2)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)
  a11 : W (Proc.devRef .tc main_arg11) = m ((c : Thread nD τ).loc main_arg11)
  a12 : W (Proc.devRef .tc main_arg12) = m ((c : Thread nD τ).loc main_arg12)
  a13 : W (Proc.devRef .tc main_arg13) = m ((c : Thread nD τ).loc main_arg13)

end Cert.KernelIdeal.KStage

end
-- ==== Proof.KLin0.lean ====
/-
  Region 0 (the dense layer): over its 20 row blocks the pipeline leaves in the output array the whole-array function
  a·w + b of the arrays it found, block t being rows 5000t … 5000t+4999 of that function.
-/
import proofs.«168068_j70480413327361_1_alg».proof.Proof.Gen.KernelIdeal.Frame
import proofs.«168068_j70480413327361_1_alg».proof.Proof.KStage
import Idealize.ShloMosaic.PureOps.Ideal.Laws
import Idealize.ShloMosaic.Lib.ValueIdx
import Idealize.ShloMosaic.Lib.Pipeline.Value

noncomputable section

namespace Cert.KernelIdeal.Lin0

open Cert.KernelIdeal Cert.KernelIdeal.Gen Cert.KernelIdeal.KStage Idealize.ShloMosaic Idealize.ShloMosaic.TcCoe Idealize.SL.Sem
open Cert.ReferenceIdeal.Stage (Arr embed norm aggregate linear mean variance normalize readout layer0 layer1 layer2 layer3 weight0 weight1 weight2 weight3 row0 row1 row2 row3)
open Idealize.ShloMosaic.ValueIdx
open Idealize.ShloMosaic.Pipeline (Dat)

/-! ## A rows-by-columns product at an entry -/

/-- The contraction of a rows-by-columns product (one contracted axis: the left operand's columns against the right
    operand's rows), re-indexed by the contracted coordinate: the sum over k of A(a, k) · B(k, b). -/
theorem sum_contr_eq {M K N : Nat} (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (⟨[1], [0], [0], [1], [], [], w⟩ : DotDims ⟨2, ![M, K]⟩ ⟨2, ![K, N]⟩ ⟨2, ![M, N]⟩).contr.Idx,
        A ((⟨[1], [0], [0], [1], [], [], w⟩ : DotDims ⟨2, ![M, K]⟩ ⟨2, ![K, N]⟩ ⟨2, ![M, N]⟩).lhsIdx (ix2 a b) k)
          * B ((⟨[1], [0], [0], [1], [], [], w⟩ : DotDims ⟨2, ![M, K]⟩ ⟨2, ![K, N]⟩ ⟨2, ![M, N]⟩).rhsIdx (ix2 a b) k)
      = ∑ c : Fin K, A (ix2 a c) * B (ix2 c b) := by
  rw [← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The body's payload at row p, column q of a block: the row of the first operand against the column of the second
    (the narrowing to sixteen bits is the identity on extended reals, the accumulator starts at zero), plus the one-row
    operand's entry in that column. -/
theorem pay_apply (x0 : Vec Ideal S5000x128 .f32) (x1 : Vec Ideal S128x128 .f32) (x2 : Vec Ideal S1x128 .f32)
    (p : Fin 5000) (q : Fin 128) :
    k0_pay1 x0 x1 x2 (ix2 p q) = (∑ k : Fin 128, x0 (ix2 p k) * x1 (ix2 k q)) + x2 (ix2 (0 : Fin 1) q) := by
  unfold k0_pay1
  rw [addf_apply, shapeCast_self, shapeCast_self, shapeCast_self]
  rw [broadcastTo_apply x2 _ (ix2 p q) (ix2 (0 : Fin 1) q)
    (fun a => by match a with | ⟨0, _⟩ => rfl | ⟨1, _⟩ => rfl)]
  simp only [matmul]
  rw [Ideal.matmul_constant_zero_apply]
  simp only [truncf_apply]
  exact congrArg (· + x2 (ix2 (0 : Fin 1) q)) (sum_contr_eq _ x0 x1 p q)

/-- The dense layer at row i, column q: row i of a against column q of w, plus b at q. -/
theorem linear_apply (a : Arr Ideal S100000x128 .f32) (w : Arr Ideal S128x128 .f32) (b : Arr Ideal S128 .f32)
    (i : Fin 100000) (q : Fin 128) :
    linear (F := Ideal) a w b (ix2 i q) = (∑ k : Fin 128, a (ix2 i k) * w (ix2 k q)) + b (ix1 q) := by
  unfold linear Cert.ReferenceIdeal.Stage.perFeature
  rw [addf_apply]
  rw [broadcastInDim_apply _ _ _ (ix2 i q) (ix2 (0 : Fin 1) q) (fun a => by match a with | ⟨0, _⟩ => rfl | ⟨1, _⟩ => rfl)]
  rw [broadcastInDim_apply _ _ b (ix2 (0 : Fin 1) q) (ix1 q) (fun a => by match a with | ⟨0, _⟩ => rfl)]
  simp only [Host.dotGeneral]
  rw [Ideal.dotGeneral_apply]
  exact congrArg (· + b (ix1 q)) (sum_contr_eq _ a w i q)

/-- A feature vector read as a one-row array, at column q. -/
theorem row128_apply (b : Arr Ideal S128 .f32) (q : Fin 128) : row128 b (ix2 (0 : Fin 1) q) = b (ix1 q) := by
  unfold row128
  exact shapeCast_apply b _ (ix2 (0 : Fin 1) q) (ix1 q) (by
    rw [Shape.rowMajor_val_one, Shape.rowMajor_val_two]; show q.val = 0 * 128 + q.val; omega)

/-! ## From the blocks to the array -/

section Region
variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps, decided over the grid: the row windows (0 and 3) are at row block t, the weight and the
    bias windows at block 0 throughout. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the first window's block at point t is row 5000t + p of its array. -/
theorem rows_read (t : Fin cfg0.N) (p : Fin 5000) (k : Fin 128) (i : Fin 100000) (hi : i.val = 5000 * t.val + p.val) :
    (iblk0 V c 0 t : Vec Ideal S5000x128 .f32) (ix2 p k) = (V c main_v41 : S100000x128.Idx → Ideal .f32) (ix2 i k) := by
  obtain ⟨e0, e1, -⟩ := idx_facts t
  show V c main_v41 (((cfg0.win 0).blk t).view.emb (ix2 p k)) = V c main_v41 (ix2 i k)
  congr 1
  funext a; apply Fin.ext
  match a with
  | ⟨0, _⟩ => show win0_0.index t (0 : Fin 2) * 5000 + 1 * p.val = i.val; rw [e0, hi]; omega
  | ⟨1, _⟩ => show win0_0.index t (1 : Fin 2) * 128 + 1 * k.val = k.val; rw [e1]; omega

/-- The second window's block is its whole array at every point. -/
theorem weight_read (t : Fin cfg0.N) (k : Fin 128) (q : Fin 128) :
    (iblk0 V c 1 t : Vec Ideal S128x128 .f32) (ix2 k q) = (V c main_v43 : S128x128.Idx → Ideal .f32) (ix2 k q) := by
  obtain ⟨-, -, e0, e1, -⟩ := idx_facts t
  show V c main_v43 (((cfg0.win 1).blk t).view.emb (ix2 k q)) = V c main_v43 (ix2 k q)
  congr 1
  funext a; apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- So is the third window's. -/
theorem bias_read (t : Fin cfg0.N) (q : Fin 128) :
    (iblk0 V c 2 t : Vec Ideal S1x128 .f32) (ix2 (0 : Fin 1) q) = (V c main_v46 : S1x128.Idx → Ideal .f32) (ix2 (0 : Fin 1) q) := by
  obtain ⟨-, -, -, -, e0, e1, -⟩ := idx_facts t
  show V c main_v46 (((cfg0.win 2).blk t).view.emb (ix2 (0 : Fin 1) q)) = V c main_v46 (ix2 (0 : Fin 1) q)
  congr 1
  funext a; apply Fin.ext
  match a with
  | ⟨0, _⟩ => show win0_2.index t (0 : Fin 2) * 1 + 1 * (0 : Fin 1).val = (0 : Fin 1).val; rw [e0]; rfl
  | ⟨1, _⟩ => show win0_2.index t (1 : Fin 2) * 128 + 1 * q.val = q.val; rw [e1]; omega

/-- What point t writes back is block t of the dense layer of the arrays the region found. -/
theorem flushed_eq (b : Arr Ideal S128 .f32) (hb : V c main_v46 = row128 b) (t : Fin cfg0.N) :
    (dat0 V c).flushed 3 t
      = ((cfg0.win 3).blk t).view.read (Elt Ideal) (linear (F := Ideal) (V c main_v41) (V c main_v43) b) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 20 := lt_of_lt_of_eq t.isLt N_0
  obtain ⟨-, -, -, -, -, -, e0, e1⟩ := idx_facts t
  have hemb : ((cfg0.win 3).blk t).view.emb (ix2 p q) = ix2 (⟨5000 * t.val + p.val, by omega⟩ : Fin 100000) q := by
    funext a; apply Fin.ext
    match a with
    | ⟨0, _⟩ => show win0_3.index t (0 : Fin 2) * 5000 + 1 * p.val = 5000 * t.val + p.val; rw [e0]; omega
    | ⟨1, _⟩ => show win0_3.index t (1 : Fin 2) * 128 + 1 * q.val = q.val; rw [e1]; omega
  show k0_pay1 (iblk0 V c 0 t) (iblk0 V c 1 t) (iblk0 V c 2 t) (ix2 p q)
    = linear (F := Ideal) (V c main_v41) (V c main_v43) b (((cfg0.win 3).blk t).view.emb (ix2 p q))
  rw [hemb, pay_apply, linear_apply, bias_read V c t q, hb, row128_apply]
  refine congrArg (· + b (ix1 q)) (Finset.sum_congr rfl fun k _ => ?_)
  rw [rows_read V c t p k ⟨5000 * t.val + p.val, by omega⟩ rfl, weight_read V c t k q]

/-- An index of the output array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v47).slice (win0_3.rect t)).set ↔ _
  rw [View.set_slice_whole, Rect.mem_set_unit]
  exact Iff.rfl

end Region

/-- The output array after the region is the dense layer of the input arrays, the bias read as a one-row array. -/
theorem final (V : (c : Dev nD) → (b : Ref sig .tc) → Buf (Elt Ideal) ((c : Thread nD τ).loc b)) (c : Dev nD)
    (b : Arr Ideal S128 .f32) (hb : V c main_v46 = row128 b) :
    (dat0 V c).arrAt 3 cfg0.N = linear (F := Ideal) (V c main_v41) (V c main_v43) b :=
  (dat0 V c).arrAt_eq_of_cover 3 (linear (F := Ideal) (V c main_v41) (V c main_v43) b)
    (fun t _ => flushed_eq V c b hb t) fun i => by
      have hi0 : (i 0).val < 100000 := (i 0).isLt
      have hi1 : (i 1).val < 128 := (i 1).isLt
      have hN : (i 0).val / 5000 < cfg0.N := lt_of_lt_of_eq (show (i 0).val / 5000 < 20 by omega) N_0.symm
      obtain ⟨-, -, -, -, -, -, e0, e1⟩ := idx_facts ⟨(i 0).val / 5000, hN⟩
      refine ⟨⟨(i 0).val / 5000, hN⟩, flush0_3 _, ?_⟩
      rw [mem_blk]
      intro a
      match a with
      | ⟨0, _⟩ =>
        show win0_3.index ⟨(i 0).val / 5000, hN⟩ (0 : Fin 2) * 5000 ≤ (i 0).val ∧ (i 0).val < win0_3.index ⟨(i 0).val / 5000, hN⟩ (0 : Fin 2) * 5000 + 5000
        rw [e0]; show (i 0).val / 5000 * 5000 ≤ (i 0).val ∧ (i 0).val < (i 0).val / 5000 * 5000 + 5000; omega
      | ⟨1, _⟩ =>
        show win0_3.index ⟨(i 0).val / 5000, hN⟩ (1 : Fin 2) * 128 ≤ (i 1).val ∧ (i 1).val < win0_3.index ⟨(i 0).val / 5000, hN⟩ (1 : Fin 2) * 128 + 128
        rw [e1]; omega

end Cert.KernelIdeal.Lin0

end
-- ==== Proof.KBn1.lean ====
/-
  Region 1 (normalisation, rectifier, residual): a pointwise body over row blocks; the output array after the region is
  the pointwise function of the arrays it found, the four feature vectors read as one-row arrays.
-/
import proofs.«168068_j70480413327361_1_alg».proof.Proof.Gen.KernelIdeal.Frame
import proofs.«168068_j70480413327361_1_alg».proof.Proof.KStage
import Idealize.ShloMosaic.Lib.ValueIdx
import Idealize.ShloMosaic.Lib.Pipeline.Value
import Idealize.ShloMosaic.Lib.KernelVsHost

noncomputable section

namespace Cert.KernelIdeal.Bn1

open Cert.KernelIdeal Cert.KernelIdeal.Gen Cert.KernelIdeal.KStage Idealize.ShloMosaic Idealize.ShloMosaic.TcCoe Idealize.SL.Sem
open Cert.ReferenceIdeal.Stage (Arr embed norm aggregate linear mean variance normalize readout layer0 layer1 layer2 layer3 weight0 weight1 weight2 weight3 row0 row1 row2 row3)
open Idealize.ShloMosaic.ValueIdx Idealize.ShloMosaic.Pipeline

/-! ## One entry -/

/-- The normalisation of one entry `x` with its feature's mean `m`, variance `v`, scale `g` and shift `b`, the
    rectifier, and the residual `r`: `max((x - m) · (v + eps)^(-1/2) · g + b, 0) + r`. -/
def entry (x m v g b r : EReal) : EReal :=
  max ((x - m) * Ideal.rsqrt (v + Ideal.ofBits .f32 0x3727C5AC#32) * g + b) (Ideal.ofBits .f32 0x00000000#32) + r

/-- A one-row block laid along every row of a block of 5000 rows reads the row's entry of the same column. -/
theorem rowDown_apply (y : Vec Ideal S1x128 .f32) (p : Fin 5000) (q : Fin 128) :
    broadcastTo S5000x128 y broadcasts_S1x128_S5000x128 (ix2 p q) = y (ix2 (0 : Fin 1) q) := by
  refine broadcastTo_apply y broadcasts_S1x128_S5000x128 (ix2 p q) (ix2 (0 : Fin 1) q) ?_
  intro a
  match a with
  | ⟨0, _⟩ => rfl
  | ⟨1, _⟩ => rfl

/-- The body's stored block at an entry: the normalisation of that entry, the four one-row blocks read at its column. -/
theorem pay_apply (x0 x1 : Vec Ideal S5000x128 .f32) (m v g b : Vec Ideal S1x128 .f32) (p : Fin 5000) (q : Fin 128) :
    k1_pay1 x0 m v g b x1 (ix2 p q)
      = entry (x0 (ix2 p q)) (m (ix2 (0 : Fin 1) q)) (v (ix2 (0 : Fin 1) q)) (g (ix2 (0 : Fin 1) q)) (b (ix2 (0 : Fin 1) q)) (x1 (ix2 p q)) := by
  unfold k1_pay1 entry
  simp only [shapeCast_self]
  rw [addf_apply, maximumf_apply, addf_apply, mulf_apply, mulf_apply, subf_apply, broadcast_apply,
    rowDown_apply, rowDown_apply, rowDown_apply, rowDown_apply]
  rfl

/-! ## The whole-array function at an entry -/

/-- A feature vector laid along every row of the node array reads its entry of the same column. -/
theorem perFeature_apply (v : Arr Ideal S128 .f32) (r : Fin 100000) (q : Fin 128) :
    Cert.ReferenceIdeal.Stage.perFeature (F := Ideal) v (ix2 r q) = v (ix1 q) := by
  unfold Cert.ReferenceIdeal.Stage.perFeature
  rw [broadcastInDim_oneRow_apply]
  refine broadcastInDim_apply ![1] _ v (ix2 (0 : Fin 1) q) (ix1 q) ?_
  intro a
  match a with
  | ⟨0, _⟩ => rfl

/-- The normalisation of the node array at an entry. -/
theorem normalize_apply (x xin : Arr Ideal S100000x128 .f32) (mu var g be : Arr Ideal S128 .f32) (r : Fin 100000) (q : Fin 128) :
    normalize (F := Ideal) x xin mu var g be (ix2 r q)
      = entry (x (ix2 r q)) (mu (ix1 q)) (var (ix1 q)) (g (ix1 q)) (be (ix1 q)) (xin (ix2 r q)) := by
  unfold Cert.ReferenceIdeal.Stage.normalize entry
  rw [addf_apply, maximumf_apply, addf_apply, mulf_apply, mulf_apply, subf_apply,
    perFeature_apply, perFeature_apply, perFeature_apply, perFeature_apply]
  rfl

/-- A feature vector read as a one-row array has the vector's entries along its row. -/
theorem row128_apply (v : Arr Ideal S128 .f32) (q : Fin 128) : row128 v (ix2 (0 : Fin 1) q) = v (ix1 q) := by
  unfold row128
  refine shapeCast_apply v shapeCasts_S128_S1x128 (ix2 (0 : Fin 1) q) (ix1 q) ?_
  rw [Shape.rowMajor_val_two, Shape.rowMajor_val_one]
  show q.val = 0 * 128 + q.val
  omega

/-! ## The blocks -/

theorem zeros : (![0, 0] : Fin 2 → Nat) = fun _ => 0 := funext fun a => by fin_cases a <;> rfl

/-- The printed index maps over the grid: the three row-block windows are at block row `t` at point `t`, the four one-row
    windows stay at their one block. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What the body leaves in the output's buffer, at an entry: the normalisation of the entry of the two row blocks, the
    four one-row blocks read at its column. -/
theorem out_apply (x0 x1 : Vec Ideal S5000x128 .f32) (x2 x3 x4 x5 : Vec Ideal S1x128 .f32) (p : Fin 5000) (q : Fin 128) :
    out1_6 (F := Ideal) x0 x1 x2 x3 x4 x5 (ix2 p q)
      = entry (x0 (ix2 p q)) (x2 (ix2 (0 : Fin 1) q)) (x3 (ix2 (0 : Fin 1) q)) (x4 (ix2 (0 : Fin 1) q)) (x5 (ix2 (0 : Fin 1) q)) (x1 (ix2 p q)) := by
  unfold out1_6
  rw [View.canon_unit_zero zeros]
  simp only [View.ld_unit_zero (S := S5000x128) zeros, View.ld_unit_zero (S := S1x128) zeros]
  exact pay_apply x0 x1 x2 x3 x4 x5 p q

section Region
variable (V : (c : Dev nD) → (b : Ref sig .tc) → Buf (Elt Ideal) ((c : Thread nD τ).loc b)) (c : Dev nD)

/-- Row block `t` of the first input array, at an entry: the array at row `5000 t + p`. -/
theorem blockX_apply (t : Fin cfg1.N) (p : Fin 5000) (q : Fin 128) (r : Fin 100000) (hr : r.val = t.val * 5000 + p.val) :
    (iblk1 V c 0 t : Vec Ideal S5000x128 .f32) (ix2 p q) = (V c main_v47 : Arr Ideal S100000x128 .f32) (ix2 r q) := by
  obtain ⟨e0, e1, -⟩ := index_facts t
  show V c main_v47 (((cfg1.win 0).blk t).view.emb (ix2 p q)) = V c main_v47 (ix2 r q)
  congr 1
  funext a; apply Fin.ext
  match a with
  | ⟨0, _⟩ => show win1_0.index t (0 : Fin 2) * 5000 + 1 * p.val = r.val; omega
  | ⟨1, _⟩ => show win1_0.index t (1 : Fin 2) * 128 + 1 * q.val = q.val; omega

/-- Row block `t` of the second input array, at an entry. -/
theorem blockR_apply (t : Fin cfg1.N) (p : Fin 5000) (q : Fin 128) (r : Fin 100000) (hr : r.val = t.val * 5000 + p.val) :
    (iblk1 V c 1 t : Vec Ideal S5000x128 .f32) (ix2 p q) = (V c main_v25 : Arr Ideal S100000x128 .f32) (ix2 r q) := by
  obtain ⟨-, -, e0, e1, -⟩ := index_facts t
  show V c main_v25 (((cfg1.win 1).blk t).view.emb (ix2 p q)) = V c main_v25 (ix2 r q)
  congr 1
  funext a; apply Fin.ext
  match a with
  | ⟨0, _⟩ => show win1_1.index t (0 : Fin 2) * 5000 + 1 * p.val = r.val; omega
  | ⟨1, _⟩ => show win1_1.index t (1 : Fin 2) * 128 + 1 * q.val = q.val; omega

/-- The one block of each one-row array, at an entry: the array's entry. -/
theorem rowMu_apply (t : Fin cfg1.N) (q : Fin 128) :
    (iblk1 V c 2 t : Vec Ideal S1x128 .f32) (ix2 (0 : Fin 1) q) = (V c main_v56 : Arr Ideal S1x128 .f32) (ix2 (0 : Fin 1) q) := by
  obtain ⟨-, -, -, -, e0, e1, -⟩ := index_facts t
  show V c main_v56 (((cfg1.win 2).blk t).view.emb (ix2 (0 : Fin 1) q)) = V c main_v56 (ix2 (0 : Fin 1) q)
  congr 1
  funext a; apply Fin.ext
  match a with
  | ⟨0, _⟩ => show win1_2.index t (0 : Fin 2) * 1 + 1 * 0 = 0; omega
  | ⟨1, _⟩ => show win1_2.index t (1 : Fin 2) * 128 + 1 * q.val = q.val; omega
theorem rowVar_apply (t : Fin cfg1.N) (q : Fin 128) :
    (iblk1 V c 3 t : Vec Ideal S1x128 .f32) (ix2 (0 : Fin 1) q) = (V c main_v57 : Arr Ideal S1x128 .f32) (ix2 (0 : Fin 1) q) := by
  obtain ⟨-, -, -, -, -, -, e0, e1, -⟩ := index_facts t
  show V c main_v57 (((cfg1.win 3).blk t).view.emb (ix2 (0 : Fin 1) q)) = V c main_v57 (ix2 (0 : Fin 1) q)
  congr 1
  funext a; apply Fin.ext
  match a with
  | ⟨0, _⟩ => show win1_3.index t (0 : Fin 2) * 1 + 1 * 0 = 0; omega
  | ⟨1, _⟩ => show win1_3.index t (1 : Fin 2) * 128 + 1 * q.val = q.val; omega
theorem rowG_apply (t : Fin cfg1.N) (q : Fin 128) :
    (iblk1 V c 4 t : Vec Ideal S1x128 .f32) (ix2 (0 : Fin 1) q) = (V c main_v58 : Arr Ideal S1x128 .f32) (ix2 (0 : Fin 1) q) := by
  obtain ⟨-, -, -, -, -, -, -, -, e0, e1, -⟩ := index_facts t
  show V c main_v58 (((cfg1.win 4).blk t).view.emb (ix2 (0 : Fin 1) q)) = V c main_v58 (ix2 (0 : Fin 1) q)
  congr 1
  funext a; apply Fin.ext
  match a with
  | ⟨0, _⟩ => show win1_4.index t (0 : Fin 2) * 1 + 1 * 0 = 0; omega
  | ⟨1, _⟩ => show win1_4.index t (1 : Fin 2) * 128 + 1 * q.val = q.val; omega
theorem rowBe_apply (t : Fin cfg1.N) (q : Fin 128) :
    (iblk1 V c 5 t : Vec Ideal S1x128 .f32) (ix2 (0 : Fin 1) q) = (V c main_v59 : Arr Ideal S1x128 .f32) (ix2 (0 : Fin 1) q) := by
  obtain ⟨-, -, -, -, -, -, -, -, -, -, e0, e1, -⟩ := index_facts t
  show V c main_v59 (((cfg1.win 5).blk t).view.emb (ix2 (0 : Fin 1) q)) = V c main_v59 (ix2 (0 : Fin 1) q)
  congr 1
  funext a; apply Fin.ext
  match a with
  | ⟨0, _⟩ => show win1_5.index t (0 : Fin 2) * 1 + 1 * 0 = 0; omega
  | ⟨1, _⟩ => show win1_5.index t (1 : Fin 2) * 128 + 1 * q.val = q.val; omega

/-- Where an entry of the output's block `t` sits in the output array: row `5000 t + p`, the same column. -/
theorem oblk_emb (t : Fin cfg1.N) (p : Fin 5000) (q : Fin 128) (r : Fin 100000) (hr : r.val = t.val * 5000 + p.val) :
    ((cfg1.win 6).blk t).view.emb (ix2 p q) = (ix2 r q : S100000x128.Idx) := by
  obtain ⟨-, -, -, -, -, -, -, -, -, -, -, -, e0, e1⟩ := index_facts t
  funext a; apply Fin.ext
  match a with
  | ⟨0, _⟩ => show win1_6.index t (0 : Fin 2) * 5000 + 1 * p.val = r.val; omega
  | ⟨1, _⟩ => show win1_6.index t (1 : Fin 2) * 128 + 1 * q.val = q.val; omega

/-- What point `t` writes back is block `t` of the normalisation of the whole arrays. -/
theorem flushed_eq (mu var g be : Arr Ideal S128 .f32) (hmu : V c main_v56 = row128 mu) (hvar : V c main_v57 = row128 var)
    (hg : V c main_v58 = row128 g) (hbe : V c main_v59 = row128 be) (t : Fin cfg1.N) :
    (dat1 V c).flushed 6 t = ((cfg1.win 6).blk t).view.read (Elt Ideal)
      (Cert.ReferenceIdeal.Stage.normalize (F := Ideal) (V c main_v47) (V c main_v25) mu var g be) := by
  show (cfg1.win 6).cut (grid1.coords t) ((dat1 V c).after 6 t) = _
  rw [after1_6]
  funext j
  obtain ⟨p, q, rfl⟩ : ∃ (p : Fin 5000) (q : Fin 128), j = ix2 p q := ⟨j 0, j 1, eq_ix2 j⟩
  have ht : t.val < 20 := lt_of_lt_of_eq t.isLt N_1
  have hp : p.val < 5000 := p.isLt
  obtain ⟨r, hr⟩ : ∃ r : Fin 100000, r.val = t.val * 5000 + p.val := ⟨⟨t.val * 5000 + p.val, by omega⟩, rfl⟩
  show out1_6 (F := Ideal) (iblk1 V c 0 t) (iblk1 V c 1 t) (iblk1 V c 2 t) (iblk1 V c 3 t) (iblk1 V c 4 t) (iblk1 V c 5 t) (ix2 p q)
    = Cert.ReferenceIdeal.Stage.normalize (F := Ideal) (V c main_v47) (V c main_v25) mu var g be (((cfg1.win 6).blk t).view.emb (ix2 p q))
  rw [oblk_emb t p q r hr, normalize_apply, out_apply,
    blockX_apply V c t p q r hr, blockR_apply V c t p q r hr, rowMu_apply V c t q, rowVar_apply V c t q, rowG_apply V c t q, rowBe_apply V c t q,
    hmu, hvar, hg, hbe, row128_apply, row128_apply, row128_apply, row128_apply]

end Region

section Array

/-- An index of the output array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v60).slice (win1_6.rect t)).set ↔ _
  rw [View.set_slice_whole, Rect.mem_set_unit]
  exact Iff.rfl

/-- Row `r` of the output array is in the block of point `r / 5000`: the twenty blocks cover the array. -/
theorem covered (i : S100000x128.Idx) :
    ∃ t : Fin cfg1.N, (cfg1.win 6).flush t = true ∧ i ∈ ((cfg1.win 6).blk t).view.set := by
  have h0 : (i 0).val < 100000 := (i 0).isLt
  have h1 : (i 1).val < 128 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  refine ⟨t, flush1_6 t, ?_⟩
  rw [mem_blk]
  obtain ⟨-, -, -, -, -, -, -, -, -, -, -, -, e0, e1⟩ := index_facts t
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

end Array

/-- The output array after the region is the normalisation of the input arrays. -/
theorem final (V : (c : Dev nD) → (b : Ref sig .tc) → Buf (Elt Ideal) ((c : Thread nD τ).loc b)) (c : Dev nD)
    (mu var g be : Arr Ideal S128 .f32) (hmu : V c main_v56 = row128 mu) (hvar : V c main_v57 = row128 var)
    (hg : V c main_v58 = row128 g) (hbe : V c main_v59 = row128 be) :
    (dat1 V c).arrAt 6 cfg1.N = normalize (F := Ideal) (V c main_v47) (V c main_v25) mu var g be :=
  (dat1 V c).arrAt_eq_of_cover 6 (Cert.ReferenceIdeal.Stage.normalize (F := Ideal) (V c main_v47) (V c main_v25) mu var g be)
    (fun t _ => flushed_eq V c mu var g be hmu hvar hg hbe t) covered

end Cert.KernelIdeal.Bn1

end
-- ==== Proof.KKeep0.lean ====
/-
  Between the boundary at launch and the boundary after region 1 nothing writes the two degree norms' buffers once they are computed or an argument array.
-/
import proofs.«168068_j70480413327361_1_alg».proof.Proof.Gen.KernelIdeal.Frame
import proofs.«168068_j70480413327361_1_alg».proof.Proof.KStage

noncomputable section

namespace Cert.KernelIdeal.Keep0

open Cert.KernelIdeal Cert.KernelIdeal.Gen Cert.KernelIdeal.KStage Idealize.ShloMosaic Idealize.ShloMosaic.TcCoe Idealize.SL.Sem
open Cert.ReferenceIdeal.Stage (Arr embed norm aggregate linear mean variance normalize readout layer0 layer1 layer2 layer3 weight0 weight1 weight2 weight3 row0 row1 row2 row3)

variable (m : (ℓ : Loc nD τ sig) → Buf (Elt Ideal) ℓ) (ρ : Dev nD → PrngReg) (c : Dev nD)

/-! ## What each stretch of host operations writes

Every host operation writes its one result buffer, so a stretch writes the result buffers of its operations, listed here in
order; a buffer outside a stretch's list holds after the stretch what it held before. -/

/-- The first stretch: the two degree counts and the pieces of the source norm. -/
def wr0 : List (Ref sig .tc) :=
  [main_cst, main_v0, main_cst_0, main_v1, main_v2, main_v3, main_cst_1, main_v4, main_v5, main_v6, main_cst_2, main_v7,
   main_v8, main_cst_3, main_v9, main_v10, main_v11, main_cst_4]

/-- The second stretch: the source norm. -/
def wr0_1 : List (Ref sig .tc) := [main_call0_v0, main_call0_v1, main_v12]

/-- The third stretch: the pieces of the destination norm. -/
def wr0_2 : List (Ref sig .tc) :=
  [main_cst_5, main_v13, main_v14, main_cst_6, main_v15, main_v16, main_v17, main_cst_7]

/-- The fourth stretch: the destination norm. -/
def wr0_3 : List (Ref sig .tc) := [main_call1_v0, main_call1_v1, main_v18]

/-- The fifth stretch: the embedding, the first aggregation and region 0's one-row operands. -/
def wr0_4 : List (Ref sig .tc) :=
  [main_c, main_v19, main_v20, main_c_8, main_v21, main_v22, main_v23, main_v24, main_v25, main_v26, main_v27, main_v28,
   main_c_9, main_v29, main_v30, main_c_10, main_v31, main_v32, main_v33, main_v34, main_v35, main_cst_11, main_v36,
   main_v37, main_v38, main_v39, main_v40, main_v41, main_v42, main_v43, main_v44, main_v45, main_v46]

/-- After region 0: the mean of its result. -/
def wr1 : List (Ref sig .tc) := [main_cst_12, main_v48, main_cst_13, main_v49, main_v50, main_c_14]

/-- Then its variance. -/
def wr1_1 : List (Ref sig .tc) :=
  [main_call2_cst, main_call2_v0, main_call2_v1, main_call2_cst_0, main_call2_v2, main_call2_v3, main_call2_v4,
   main_call2_v5, main_call2_v6, main_call2_v7, main_call2_cst_1, main_call2_v8, main_call2_cst_2, main_call2_v9,
   main_call2_v10, main_call2_v11, main_call2_cst_3, main_call2_v12, main_call2_cst_4, main_call2_call0_v0,
   main_call2_call0_v1, main_v51]

/-- Then region 1's one-row operands. -/
def wr1_2 : List (Ref sig .tc) := [main_v52, main_v53, main_v54, main_v55, main_v56, main_v57, main_v58, main_v59]

theorem keep_wr0 (U : Valuation τ sig (Elt Ideal)) (r : Ref sig .tc) (hr : r ∉ wr0) :
    StableHlo.after (hostOps0 (F := Ideal)) U (Proc.devRef .tc r) = U (Proc.devRef .tc r) :=
  StableHlo.after_of_writes_sub _ U (by
    simp only [hostOps0, List.Forall, StableHlo.nullary_writes, StableHlo.unary_writes, StableHlo.binary_writes, StableHlo.ternary_writes,
      StableHlo.quaternary_writes, StableHlo.reshape_writes, StableHlo.binaryIndexed_writes, Finset.singleton_subset_iff, List.mem_toFinset]
    repeat' apply And.intro
    all_goals exact List.mem_map_of_mem (by decide)) hr
theorem keep_wr0_1 (U : Valuation τ sig (Elt Ideal)) (r : Ref sig .tc) (hr : r ∉ wr0_1) :
    StableHlo.after (hostOps0_1 (F := Ideal)) U (Proc.devRef .tc r) = U (Proc.devRef .tc r) :=
  StableHlo.after_of_writes_sub _ U (by
    simp only [hostOps0_1, List.Forall, StableHlo.nullary_writes, StableHlo.unary_writes, StableHlo.binary_writes, StableHlo.ternary_writes,
      StableHlo.quaternary_writes, StableHlo.reshape_writes, StableHlo.binaryIndexed_writes, Finset.singleton_subset_iff, List.mem_toFinset]
    repeat' apply And.intro
    all_goals exact List.mem_map_of_mem (by decide)) hr
theorem keep_wr0_2 (U : Valuation τ sig (Elt Ideal)) (r : Ref sig .tc) (hr : r ∉ wr0_2) :
    StableHlo.after (hostOps0_2 (F := Ideal)) U (Proc.devRef .tc r) = U (Proc.devRef .tc r) :=
  StableHlo.after_of_writes_sub _ U (by
    simp only [hostOps0_2, List.Forall, StableHlo.nullary_writes, StableHlo.unary_writes, StableHlo.binary_writes, StableHlo.ternary_writes,
      StableHlo.quaternary_writes, StableHlo.reshape_writes, StableHlo.binaryIndexed_writes, Finset.singleton_subset_iff, List.mem_toFinset]
    repeat' apply And.intro
    all_goals exact List.mem_map_of_mem (by decide)) hr
theorem keep_wr0_3 (U : Valuation τ sig (Elt Ideal)) (r : Ref sig .tc) (hr : r ∉ wr0_3) :
    StableHlo.after (hostOps0_3 (F := Ideal)) U (Proc.devRef .tc r) = U (Proc.devRef .tc r) :=
  StableHlo.after_of_writes_sub _ U (by
    simp only [hostOps0_3, List.Forall, StableHlo.nullary_writes, StableHlo.unary_writes, StableHlo.binary_writes, StableHlo.ternary_writes,
      StableHlo.quaternary_writes, StableHlo.reshape_writes, StableHlo.binaryIndexed_writes, Finset.singleton_subset_iff, List.mem_toFinset]
    repeat' apply And.intro
    all_goals exact List.mem_map_of_mem (by decide)) hr
theorem keep_wr0_4 (U : Valuation τ sig (Elt Ideal)) (r : Ref sig .tc) (hr : r ∉ wr0_4) :
    StableHlo.after (hostOps0_4 (F := Ideal)) U (Proc.devRef .tc r) = U (Proc.devRef .tc r) :=
  StableHlo.after_of_writes_sub _ U (by
    simp only [hostOps0_4, List.Forall, StableHlo.nullary_writes, StableHlo.unary_writes, StableHlo.binary_writes, StableHlo.ternary_writes,
      StableHlo.quaternary_writes, StableHlo.reshape_writes, StableHlo.binaryIndexed_writes, Finset.singleton_subset_iff, List.mem_toFinset]
    repeat' apply And.intro
    all_goals exact List.mem_map_of_mem (by decide)) hr
theorem keep_wr1 (U : Valuation τ sig (Elt Ideal)) (r : Ref sig .tc) (hr : r ∉ wr1) :
    StableHlo.after (hostOps1 (F := Ideal)) U (Proc.devRef .tc r) = U (Proc.devRef .tc r) :=
  StableHlo.after_of_writes_sub _ U (by
    simp only [hostOps1, List.Forall, StableHlo.nullary_writes, StableHlo.unary_writes, StableHlo.binary_writes, StableHlo.ternary_writes,
      StableHlo.quaternary_writes, StableHlo.reshape_writes, StableHlo.binaryIndexed_writes, Finset.singleton_subset_iff, List.mem_toFinset]
    repeat' apply And.intro
    all_goals exact List.mem_map_of_mem (by decide)) hr
theorem keep_wr1_1 (U : Valuation τ sig (Elt Ideal)) (r : Ref sig .tc) (hr : r ∉ wr1_1) :
    StableHlo.after (hostOps1_1 (F := Ideal)) U (Proc.devRef .tc r) = U (Proc.devRef .tc r) :=
  StableHlo.after_of_writes_sub _ U (by
    simp only [hostOps1_1, List.Forall, StableHlo.nullary_writes, StableHlo.unary_writes, StableHlo.binary_writes, StableHlo.ternary_writes,
      StableHlo.quaternary_writes, StableHlo.reshape_writes, StableHlo.binaryIndexed_writes, Finset.singleton_subset_iff, List.mem_toFinset]
    repeat' apply And.intro
    all_goals exact List.mem_map_of_mem (by decide)) hr
theorem keep_wr1_2 (U : Valuation τ sig (Elt Ideal)) (r : Ref sig .tc) (hr : r ∉ wr1_2) :
    StableHlo.after (hostOps1_2 (F := Ideal)) U (Proc.devRef .tc r) = U (Proc.devRef .tc r) :=
  StableHlo.after_of_writes_sub _ U (by
    simp only [hostOps1_2, List.Forall, StableHlo.nullary_writes, StableHlo.unary_writes, StableHlo.binary_writes, StableHlo.ternary_writes,
      StableHlo.quaternary_writes, StableHlo.reshape_writes, StableHlo.binaryIndexed_writes, Finset.singleton_subset_iff, List.mem_toFinset]
    repeat' apply And.intro
    all_goals exact List.mem_map_of_mem (by decide)) hr

/-! ## From the launch to the end of region 1 -/

/-- A buffer that is no array of regions 0 and 1 and that nothing writes from the embedding on holds at the end of region 1
    what it held once the two norms were computed. -/
theorem late (r : Ref sig .tc) (h04 : r ∉ wr0_4) (hr0 : ∀ w, Pipeline.arrRef spec0 w ≠ r) (h1 : r ∉ wr1) (h11 : r ∉ wr1_1)
    (h12 : r ∉ wr1_2) (hr1 : ∀ w, Pipeline.arrRef spec1 w ≠ r) :
    W10 (F := Ideal) m ρ c (Proc.devRef .tc r) = W4 (F := Ideal) m ρ c (Proc.devRef .tc r) := by
  rw [W10_of_ne m ρ c r hr1]
  show StableHlo.after hostOps1_2 (StableHlo.after hostOps1_1 (StableHlo.after hostOps1 (W6 m ρ c))) (Proc.devRef .tc r) = _
  rw [keep_wr1_2 _ r h12, keep_wr1_1 _ r h11, keep_wr1 _ r h1, W6_of_ne m ρ c r hr0]
  show StableHlo.after hostOps0_4 (W4 m ρ c) (Proc.devRef .tc r) = _
  rw [keep_wr0_4 _ r h04]

/-- A buffer no host operation writes holds, once the two norms are computed, what the launch gave it. -/
theorem early (r : Ref sig .tc) (h0 : r ∉ wr0) (h01 : r ∉ wr0_1) (h02 : r ∉ wr0_2) (h03 : r ∉ wr0_3) :
    W4 (F := Ideal) m ρ c (Proc.devRef .tc r) = m ((c : Thread nD τ).loc r) := by
  show StableHlo.after hostOps0_3 (StableHlo.after hostOps0_2 (StableHlo.after hostOps0_1 (StableHlo.after hostOps0 (W0 m ρ c)))) (Proc.devRef .tc r) = _
  rw [keep_wr0_3 _ r h03, keep_wr0_2 _ r h02, keep_wr0_1 _ r h01, keep_wr0 _ r h0]

/-- An argument array's buffer is written by nothing: at the end of region 1 it holds what the launch gave it. -/
theorem arg_kept (r : Ref sig .tc) (h0 : r ∉ wr0) (h01 : r ∉ wr0_1) (h02 : r ∉ wr0_2) (h03 : r ∉ wr0_3) (h04 : r ∉ wr0_4)
    (hr0 : ∀ w, Pipeline.arrRef spec0 w ≠ r) (h1 : r ∉ wr1) (h11 : r ∉ wr1_1) (h12 : r ∉ wr1_2) (hr1 : ∀ w, Pipeline.arrRef spec1 w ≠ r) :
    W10 (F := Ideal) m ρ c (Proc.devRef .tc r) = m ((c : Thread nD τ).loc r) :=
  (late m ρ c r h04 hr0 h1 h11 h12 hr1).trans (early m ρ c r h0 h01 h02 h03)

/-! ## The two norms -/

/-- The source norm is in place after the second stretch: the select of the inverse root of the clamped count of edges at each
    source node, the count being the sum of ones scattered along the edges' sources. -/
theorem norm_src : W2 (F := Ideal) m ρ c (Proc.devRef .tc main_v12)
    = norm (F := Ideal) (m ((c : Thread nD τ).loc main_arg1)) := by
  have ha : W0 (F := Ideal) m ρ c (Proc.devRef .tc main_arg1) = m ((c : Thread nD τ).loc main_arg1) := rfl
  show StableHlo.after hostOps0_1 (StableHlo.after hostOps0 (W0 m ρ c)) (Proc.devRef .tc main_v12) = _
  generalize W0 (F := Ideal) m ρ c = U at ha ⊢
  after_results
  simp only [StableHlo.TRef.ofBuf, StableHlo.TRef.toBuf, cast_eq, ha]
  rfl

/-- The destination norm is in place after the fourth stretch, the same function of the edges' destinations. -/
theorem norm_dst : W4 (F := Ideal) m ρ c (Proc.devRef .tc main_v18)
    = norm (F := Ideal) (m ((c : Thread nD τ).loc main_arg2)) := by
  have ha : W0 (F := Ideal) m ρ c (Proc.devRef .tc main_arg2) = m ((c : Thread nD τ).loc main_arg2) := rfl
  show StableHlo.after hostOps0_3 (StableHlo.after hostOps0_2 (StableHlo.after hostOps0_1 (StableHlo.after hostOps0 (W0 m ρ c))))
    (Proc.devRef .tc main_v18) = _
  generalize W0 (F := Ideal) m ρ c = U at ha ⊢
  after_results
  simp only [StableHlo.TRef.ofBuf, StableHlo.TRef.toBuf, cast_eq, ha]
  rfl

/-- The source norm's buffer is not written again before the destination norm is in place. -/
theorem norm_src_kept : W4 (F := Ideal) m ρ c (Proc.devRef .tc main_v12) = W2 (F := Ideal) m ρ c (Proc.devRef .tc main_v12) := by
  show StableHlo.after hostOps0_3 (StableHlo.after hostOps0_2 (W2 m ρ c)) (Proc.devRef .tc main_v12) = _
  rw [keep_wr0_3 _ main_v12 (by decide), keep_wr0_2 _ main_v12 (by decide)]

/-- At the end of layer 0 the norms are in place and the arguments untouched. -/
theorem keeps : Keeps m c (W10 (F := Ideal) m ρ c) := by
  exact
   { ns := (late m ρ c main_v12 (by decide) (by decide) (by decide) (by decide) (by decide) (by decide)).trans
        ((norm_src_kept m ρ c).trans (norm_src m ρ c))
     nd := (late m ρ c main_v18 (by decide) (by decide) (by decide) (by decide) (by decide) (by decide)).trans (norm_dst m ρ c)
     a1 := arg_kept m ρ c main_arg1 (by decide) (by decide) (by decide) (by decide) (by decide) (by decide) (by decide) (by decide) (by decide) (by decide)
     a2 := arg_kept m ρ c main_arg2 (by decide) (by decide) (by decide) (by decide) (by decide) (by decide) (by decide) (by decide) (by decide) (by decide)
     a4 := arg_kept m ρ c main_arg4 (by decide) (by decide) (by decide) (by decide) (by decide) (by decide) (by decide) (by decide) (by decide) (by decide)
     a5 := arg_kept m ρ c main_arg5 (by decide) (by decide) (by decide) (by decide) (by decide) (by decide) (by decide) (by decide) (by decide) (by decide)
     a6 := arg_kept m ρ c main_arg6 (by decide) (by decide) (by decide) (by decide) (by decide) (by decide) (by decide) (by decide) (by decide) (by decide)
     a7 := arg_kept m ρ c main_arg7 (by decide) (by decide) (by decide) (by decide) (by decide) (by decide) (by decide) (by decide) (by decide) (by decide)
     a8 := arg_kept m ρ c main_arg8 (by decide) (by decide) (by decide) (by decide) (by decide) (by decide) (by decide) (by decide) (by decide) (by decide)
     a9 := arg_kept m ρ c main_arg9 (by decide) (by decide) (by decide) (by decide) (by decide) (by decide) (by decide) (by decide) (by decide) (by decide)
     a10 := arg_kept m ρ c main_arg10 (by decide) (by decide) (by decide) (by decide) (by decide) (by decide) (by decide) (by decide) (by decide) (by decide)
     a11 := arg_kept m ρ c main_arg11 (by decide) (by decide) (by decide) (by decide) (by decide) (by decide) (by decide) (by decide) (by decide) (by decide)
     a12 := arg_kept m ρ c main_arg12 (by decide) (by decide) (by decide) (by decide) (by decide) (by decide) (by decide) (by decide) (by decide) (by decide)
     a13 := arg_kept m ρ c main_arg13 (by decide) (by decide) (by decide) (by decide) (by decide) (by decide) (by decide) (by decide) (by decide) (by decide) }

end Cert.KernelIdeal.Keep0

end
-- ==== Proof.KChain0.lean ====
/-
  The kernel program up to the end of layer 0 (the boundary after region 1): the host stretches compute the norms, the
  embedding and the first message-passing step, region 0 the dense layer, the next stretches the batch statistics, region 1
  the normalisation.
-/
import proofs.«168068_j70480413327361_1_alg».proof.Proof.Gen.KernelIdeal.Frame
import proofs.«168068_j70480413327361_1_alg».proof.Proof.KStage
import proofs.«168068_j70480413327361_1_alg».proof.Proof.KLin0
import proofs.«168068_j70480413327361_1_alg».proof.Proof.KBn1
import proofs.«168068_j70480413327361_1_alg».proof.Proof.KKeep0

set_option maxRecDepth 16384
set_option maxHeartbeats 1000000

noncomputable section

namespace Cert.KernelIdeal.Chain0

open Cert.KernelIdeal Cert.KernelIdeal.Gen Cert.KernelIdeal.KStage Idealize.ShloMosaic Idealize.ShloMosaic.TcCoe Idealize.SL.Sem
open Cert.ReferenceIdeal.Stage (Arr embed norm aggregate linear mean variance normalize readout layer0 layer1 layer2 layer3 weight0 weight1 weight2 weight3 row0 row1 row2 row3)

/-! ## What each host stretch writes, and that it leaves every other buffer alone -/

/-- The references the operations of this stretch write. -/
abbrev ops0_W : List (Ref sig .tc) := [main_cst, main_v0, main_cst_0, main_v1, main_v2, main_v3, main_cst_1, main_v4, main_v5, main_v6, main_cst_2, main_v7, main_v8, main_cst_3, main_v9, main_v10, main_v11, main_cst_4]
theorem ops0_writes : (hostOps0 : List (HloOp τ sig (Elt Ideal))).Forall fun op => op.writes ⊆ (ops0_W.map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The references the operations of this stretch write. -/
abbrev ops0_1_W : List (Ref sig .tc) := [main_call0_v0, main_call0_v1, main_v12]
theorem ops0_1_writes : (hostOps0_1 : List (HloOp τ sig (Elt Ideal))).Forall fun op => op.writes ⊆ (ops0_1_W.map (Proc.devRef (τ := τ) .tc)).toFinset := by
  simp only [hostOps0_1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The references the operations of this stretch write. -/
abbrev ops0_2_W : List (Ref sig .tc) := [main_cst_5, main_v13, main_v14, main_cst_6, main_v15, main_v16, main_v17, main_cst_7]
theorem ops0_2_writes : (hostOps0_2 : List (HloOp τ sig (Elt Ideal))).Forall fun op => op.writes ⊆ (ops0_2_W.map (Proc.devRef (τ := τ) .tc)).toFinset := by
  simp only [hostOps0_2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The references the operations of this stretch write. -/
abbrev ops0_3_W : List (Ref sig .tc) := [main_call1_v0, main_call1_v1, main_v18]
theorem ops0_3_writes : (hostOps0_3 : List (HloOp τ sig (Elt Ideal))).Forall fun op => op.writes ⊆ (ops0_3_W.map (Proc.devRef (τ := τ) .tc)).toFinset := by
  simp only [hostOps0_3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The references the operations of this stretch write. -/
abbrev ops0_4_W : List (Ref sig .tc) := [main_c, main_v19, main_v20, main_c_8, main_v21, main_v22, main_v23, main_v24, main_v25, main_v26, main_v27, main_v28, main_c_9, main_v29, main_v30, main_c_10, main_v31, main_v32, main_v33, main_v34, main_v35, main_cst_11, main_v36, main_v37, main_v38, main_v39, main_v40, main_v41, main_v42, main_v43, main_v44, main_v45, main_v46]
theorem ops0_4_writes : (hostOps0_4 : List (HloOp τ sig (Elt Ideal))).Forall fun op => op.writes ⊆ (ops0_4_W.map (Proc.devRef (τ := τ) .tc)).toFinset := by
  simp only [hostOps0_4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The references the operations of this stretch write. -/
abbrev ops1_W : List (Ref sig .tc) := [main_cst_12, main_v48, main_cst_13, main_v49, main_v50, main_c_14]
theorem ops1_writes : (hostOps1 : List (HloOp τ sig (Elt Ideal))).Forall fun op => op.writes ⊆ (ops1_W.map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The references the operations of this stretch write. -/
abbrev ops1_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v51]
theorem ops1_1_writes : (hostOps1_1 : List (HloOp τ sig (Elt Ideal))).Forall fun op => op.writes ⊆ (ops1_1_W.map (Proc.devRef (τ := τ) .tc)).toFinset := by
  simp only [hostOps1_1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The references the operations of this stretch write. -/
abbrev ops1_2_W : List (Ref sig .tc) := [main_v52, main_v53, main_v54, main_v55, main_v56, main_v57, main_v58, main_v59]
theorem ops1_2_writes : (hostOps1_2 : List (HloOp τ sig (Elt Ideal))).Forall fun op => op.writes ⊆ (ops1_2_W.map (Proc.devRef (τ := τ) .tc)).toFinset := by
  simp only [hostOps1_2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A stretch leaves alone every buffer that is not among those it writes. -/
theorem keep0 (U : Valuation τ sig (Elt Ideal)) (r : Ref sig .tc) (h : r ∉ ops0_W) :
    StableHlo.after hostOps0 U (Proc.devRef .tc r) = U (Proc.devRef .tc r) :=
  StableHlo.after_of_writes_sub hostOps0 U ops0_writes h

theorem keep0_1 (U : Valuation τ sig (Elt Ideal)) (r : Ref sig .tc) (h : r ∉ ops0_1_W) :
    StableHlo.after hostOps0_1 U (Proc.devRef .tc r) = U (Proc.devRef .tc r) :=
  StableHlo.after_of_writes_sub hostOps0_1 U ops0_1_writes h

theorem keep0_2 (U : Valuation τ sig (Elt Ideal)) (r : Ref sig .tc) (h : r ∉ ops0_2_W) :
    StableHlo.after hostOps0_2 U (Proc.devRef .tc r) = U (Proc.devRef .tc r) :=
  StableHlo.after_of_writes_sub hostOps0_2 U ops0_2_writes h

theorem keep0_3 (U : Valuation τ sig (Elt Ideal)) (r : Ref sig .tc) (h : r ∉ ops0_3_W) :
    StableHlo.after hostOps0_3 U (Proc.devRef .tc r) = U (Proc.devRef .tc r) :=
  StableHlo.after_of_writes_sub hostOps0_3 U ops0_3_writes h

theorem keep0_4 (U : Valuation τ sig (Elt Ideal)) (r : Ref sig .tc) (h : r ∉ ops0_4_W) :
    StableHlo.after hostOps0_4 U (Proc.devRef .tc r) = U (Proc.devRef .tc r) :=
  StableHlo.after_of_writes_sub hostOps0_4 U ops0_4_writes h

theorem keep1 (U : Valuation τ sig (Elt Ideal)) (r : Ref sig .tc) (h : r ∉ ops1_W) :
    StableHlo.after hostOps1 U (Proc.devRef .tc r) = U (Proc.devRef .tc r) :=
  StableHlo.after_of_writes_sub hostOps1 U ops1_writes h

theorem keep1_1 (U : Valuation τ sig (Elt Ideal)) (r : Ref sig .tc) (h : r ∉ ops1_1_W) :
    StableHlo.after hostOps1_1 U (Proc.devRef .tc r) = U (Proc.devRef .tc r) :=
  StableHlo.after_of_writes_sub hostOps1_1 U ops1_1_writes h

theorem keep1_2 (U : Valuation τ sig (Elt Ideal)) (r : Ref sig .tc) (h : r ∉ ops1_2_W) :
    StableHlo.after hostOps1_2 U (Proc.devRef .tc r) = U (Proc.devRef .tc r) :=
  StableHlo.after_of_writes_sub hostOps1_2 U ops1_2_writes h

/-! ## The two degree norms -/

/-- The selection that closes the source norm, over any contents of the buffers it reads. -/
theorem where0 (U : Valuation τ sig (Elt Ideal)) :
    StableHlo.after hostOps0_1 U (Proc.devRef .tc main_v12)
      = select (U (Proc.devRef .tc main_v8)) (U (Proc.devRef .tc main_v11))
          (broadcastInDim S100000 ![] bcast_S_S100000 (id (U (Proc.devRef .tc main_cst_4)))) := by
  after_results
  rfl

/-- The selection that closes the destination norm. -/
theorem where1 (U : Valuation τ sig (Elt Ideal)) :
    StableHlo.after hostOps0_3 U (Proc.devRef .tc main_v18)
      = select (U (Proc.devRef .tc main_v14)) (U (Proc.devRef .tc main_v17))
          (broadcastInDim S100000 ![] bcast_S_S100000 (id (U (Proc.devRef .tc main_cst_7)))) := by
  after_results
  rfl

/-- After the first two stretches the source norm is in its buffer. -/
theorem pre_v12 (U : Valuation τ sig (Elt Ideal)) :
    StableHlo.after hostOps0_1 (StableHlo.after hostOps0 U) (Proc.devRef .tc main_v12)
      = norm (F := Ideal) (U (Proc.devRef .tc main_arg1)) := by
  rw [where0]
  after_results
  rfl

/-- After the first four stretches the destination norm is in its buffer. -/
theorem pre_v18 (U : Valuation τ sig (Elt Ideal)) :
    StableHlo.after hostOps0_3 (StableHlo.after hostOps0_2 (StableHlo.after hostOps0_1 (StableHlo.after hostOps0 U))) (Proc.devRef .tc main_v18)
      = norm (F := Ideal) (U (Proc.devRef .tc main_arg2)) := by
  rw [where1]
  after_results_simp
  rfl

/-! ## The stretch before region 0: the embedding, one message-passing step, layer 0's weight and bias -/

/-- The embedding lookup. -/
theorem l0_v25 (U : Valuation τ sig (Elt Ideal)) :
    StableHlo.after hostOps0_4 U (Proc.devRef .tc main_v25)
      = embed (F := Ideal) (U (Proc.devRef .tc main_arg3)) (U (Proc.devRef .tc main_arg0)) := by
  after_results_simp
  rfl

/-- One message-passing step over the embedded features, the two norms read from their buffers. -/
theorem l0_v41 (U : Valuation τ sig (Elt Ideal)) :
    StableHlo.after hostOps0_4 U (Proc.devRef .tc main_v41)
      = aggregate (F := Ideal) (embed (F := Ideal) (U (Proc.devRef .tc main_arg3)) (U (Proc.devRef .tc main_arg0)))
          (U (Proc.devRef .tc main_v12)) (U (Proc.devRef .tc main_v18)) (U (Proc.devRef .tc main_arg1)) (U (Proc.devRef .tc main_arg2)) := by
  after_results_simp
  rfl

/-- Layer 0's weight matrix. -/
theorem l0_v43 (U : Valuation τ sig (Elt Ideal)) :
    StableHlo.after hostOps0_4 U (Proc.devRef .tc main_v43) = weight0 (F := Ideal) (U (Proc.devRef .tc main_arg4)) := by
  after_results_simp
  rfl

/-- Layer 0's bias as a one-row array. -/
theorem l0_v46 (U : Valuation τ sig (Elt Ideal)) :
    StableHlo.after hostOps0_4 U (Proc.devRef .tc main_v46) = row128 (row0 (F := Ideal) (U (Proc.devRef .tc main_arg5))) := by
  after_results_simp
  rfl

/-! ## The stretches between the two regions: the batch statistics and layer 0's scale and shift -/

/-- The variance routine with the integer constant of its divisor's correction term left as a parameter. -/
def varianceWith (k : Arr Ideal S_ .i32) (p : Arr Ideal S100000x128 .f32) : Arr Ideal S128 .f32 :=
  (fun c a b => select (broadcastInDim S128 ![] bcast_S_S128 c) a b)
    (cmpf .ogt (subf (constant (F := Ideal) S_ .f32 0x47C35000#32) (sitofp .f32 k)) (constant (F := Ideal) S_ .f32 0x00000000#32))
    (Host.divf
      (Host.reduceAdd (mulf
        (subf p (broadcastInDim S100000x128 ![0, 1] bcast_S1x128_S100000x128_0_1
          (Host.divf (broadcastInDim S1x128 ![1] bcast_S128_S1x128_1 (Host.reduceAdd p (constant (F := Ideal) S_ .f32 0x00000000#32) reducesTo_S100000x128_S128_d0 h_S_))
            (broadcastInDim S1x128 ![] bcast_S_S1x128 (constant (F := Ideal) S_ .f32 0x47C35000#32)))))
        (subf p (broadcastInDim S100000x128 ![0, 1] bcast_S1x128_S100000x128_0_1
          (Host.divf (broadcastInDim S1x128 ![1] bcast_S128_S1x128_1 (Host.reduceAdd p (constant (F := Ideal) S_ .f32 0x00000000#32) reducesTo_S100000x128_S128_d0 h_S_))
            (broadcastInDim S1x128 ![] bcast_S_S1x128 (constant (F := Ideal) S_ .f32 0x47C35000#32))))))
        (constant (F := Ideal) S_ .f32 0x00000000#32) reducesTo_S100000x128_S128_d0 h_S_)
      (broadcastInDim S128 ![] bcast_S_S128 (subf (constant (F := Ideal) S_ .f32 0x47C35000#32) (sitofp .f32 k))))
    (broadcastInDim S128 ![] bcast_S_S128 (id (constant (F := Ideal) S_ .f32 0x7FC00000#32)))

/-- At the constant 0 it is the variance. -/
theorem varianceWith_zero (p : Arr Ideal S100000x128 .f32) :
    varianceWith (constantI S_ 32 0#32) p = variance (F := Ideal) p := rfl

/-- The variance routine's result over any contents of the two buffers it reads. -/
theorem var_call (U : Valuation τ sig (Elt Ideal)) :
    StableHlo.after hostOps1_1 U (Proc.devRef .tc main_v51)
      = varianceWith (U (Proc.devRef .tc main_c_14)) (U (Proc.devRef .tc main_v47)) := by
  after_results_simp
  rfl

/-- The last stretch before region 1 reshapes the four feature vectors to one-row arrays. -/
theorem resh56 (U : Valuation τ sig (Elt Ideal)) :
    StableHlo.after hostOps1_2 U (Proc.devRef .tc main_v56) = row128 (U (Proc.devRef .tc main_v50)) := by
  after_results
  rfl
theorem resh57 (U : Valuation τ sig (Elt Ideal)) :
    StableHlo.after hostOps1_2 U (Proc.devRef .tc main_v57) = row128 (U (Proc.devRef .tc main_v51)) := by
  after_results
  rfl
theorem resh58 (U : Valuation τ sig (Elt Ideal)) :
    StableHlo.after hostOps1_2 U (Proc.devRef .tc main_v58) = row128 (row0 (F := Ideal) (U (Proc.devRef .tc main_arg6))) := by
  after_results
  rfl
theorem resh59 (U : Valuation τ sig (Elt Ideal)) :
    StableHlo.after hostOps1_2 U (Proc.devRef .tc main_v59) = row128 (row0 (F := Ideal) (U (Proc.devRef .tc main_arg7))) := by
  after_results
  rfl

/-- The mean, as a one-row array, at region 1's entry. -/
theorem l1_v56 (U : Valuation τ sig (Elt Ideal)) :
    StableHlo.after hostOps1_2 (StableHlo.after hostOps1_1 (StableHlo.after hostOps1 U)) (Proc.devRef .tc main_v56)
      = row128 (mean (F := Ideal) (U (Proc.devRef .tc main_v47))) := by
  rw [resh56, keep1_1 _ main_v50 (by decide)]
  after_results
  rfl

/-- The variance, as a one-row array, at region 1's entry. -/
theorem l1_v57 (U : Valuation τ sig (Elt Ideal)) :
    StableHlo.after hostOps1_2 (StableHlo.after hostOps1_1 (StableHlo.after hostOps1 U)) (Proc.devRef .tc main_v57)
      = row128 (variance (F := Ideal) (U (Proc.devRef .tc main_v47))) := by
  rw [resh57, var_call]
  after_results
  exact congrArg row128 (varianceWith_zero _)

/-- Layer 0's scale and shift, as one-row arrays, at region 1's entry. -/
theorem l1_v58 (U : Valuation τ sig (Elt Ideal)) :
    StableHlo.after hostOps1_2 (StableHlo.after hostOps1_1 (StableHlo.after hostOps1 U)) (Proc.devRef .tc main_v58)
      = row128 (row0 (F := Ideal) (U (Proc.devRef .tc main_arg6))) := by
  rw [resh58, keep1_1 _ main_arg6 (by decide), keep1 _ main_arg6 (by decide)]

theorem l1_v59 (U : Valuation τ sig (Elt Ideal)) :
    StableHlo.after hostOps1_2 (StableHlo.after hostOps1_1 (StableHlo.after hostOps1 U)) (Proc.devRef .tc main_v59)
      = row128 (row0 (F := Ideal) (U (Proc.devRef .tc main_arg7))) := by
  rw [resh59, keep1_1 _ main_arg7 (by decide), keep1 _ main_arg7 (by decide)]

/-- A buffer the three stretches do not write. -/
theorem l1_keep (U : Valuation τ sig (Elt Ideal)) (r : Ref sig .tc) (h : r ∉ ops1_W) (h1 : r ∉ ops1_1_W) (h2 : r ∉ ops1_2_W) :
    StableHlo.after hostOps1_2 (StableHlo.after hostOps1_1 (StableHlo.after hostOps1 U)) (Proc.devRef .tc r) = U (Proc.devRef .tc r) :=
  (keep1_2 _ r h2).trans ((keep1_1 _ r h1).trans (keep1 _ r h))

/-! ## The boundaries, read backwards from the launch memory -/

variable (m : (ℓ : Loc nD τ sig) → Buf (Elt Ideal) ℓ) (ρ : Dev nD → PrngReg) (c : Dev nD)

/-- A buffer the four opening stretches do not write holds its launch contents when the fifth starts. -/
theorem W4_keep (r : Ref sig .tc) (h0 : r ∉ ops0_W) (h1 : r ∉ ops0_1_W) (h2 : r ∉ ops0_2_W) (h3 : r ∉ ops0_3_W) :
    W4 (F := Ideal) m ρ c (Proc.devRef .tc r) = m ((c : Thread nD τ).loc r) :=
  (keep0_3 _ r h3).trans ((keep0_2 _ r h2).trans ((keep0_1 _ r h1).trans (keep0 (W0 m ρ c) r h0)))

/-- The same at region 0's entry, for a buffer the fifth stretch does not write either. -/
theorem W5_keep (r : Ref sig .tc) (h0 : r ∉ ops0_W) (h1 : r ∉ ops0_1_W) (h2 : r ∉ ops0_2_W) (h3 : r ∉ ops0_3_W) (h4 : r ∉ ops0_4_W) :
    W5 (F := Ideal) m ρ c (Proc.devRef .tc r) = m ((c : Thread nD τ).loc r) :=
  (keep0_4 _ r h4).trans (W4_keep m ρ c r h0 h1 h2 h3)

/-- The two norms when the fifth stretch starts. -/
theorem W4_v12 : W4 (F := Ideal) m ρ c (Proc.devRef .tc main_v12) = (norm (F := Ideal) (m ((c : Thread nD τ).loc main_arg1))) :=
  (keep0_3 _ main_v12 (by decide)).trans ((keep0_2 _ main_v12 (by decide)).trans (pre_v12 (W0 m ρ c)))

theorem W4_v18 : W4 (F := Ideal) m ρ c (Proc.devRef .tc main_v18) = (norm (F := Ideal) (m ((c : Thread nD τ).loc main_arg2))) :=
  pre_v18 (W0 m ρ c)

/-- The embedded node features at region 0's entry. -/
theorem W5_v25 : W5 (F := Ideal) m ρ c (Proc.devRef .tc main_v25) = (embed (F := Ideal) (m ((c : Thread nD τ).loc main_arg3)) (m ((c : Thread nD τ).loc main_arg0))) :=
  (l0_v25 (W4 m ρ c)).trans
    (congrArg₂ (embed (F := Ideal)) (W4_keep m ρ c main_arg3 (by decide) (by decide) (by decide) (by decide)) (W4_keep m ρ c main_arg0 (by decide) (by decide) (by decide) (by decide)))

/-- The aggregated features at region 0's entry. -/
theorem W5_v41 : W5 (F := Ideal) m ρ c (Proc.devRef .tc main_v41) = (aggregate (F := Ideal) (embed (F := Ideal) (m ((c : Thread nD τ).loc main_arg3)) (m ((c : Thread nD τ).loc main_arg0))) (norm (F := Ideal) (m ((c : Thread nD τ).loc main_arg1))) (norm (F := Ideal) (m ((c : Thread nD τ).loc main_arg2))) (m ((c : Thread nD τ).loc main_arg1)) (m ((c : Thread nD τ).loc main_arg2))) := by
  refine (l0_v41 (W4 m ρ c)).trans ?_
  rw [W4_keep m ρ c main_arg3 (by decide) (by decide) (by decide) (by decide), W4_keep m ρ c main_arg0 (by decide) (by decide) (by decide) (by decide),
    W4_keep m ρ c main_arg1 (by decide) (by decide) (by decide) (by decide), W4_keep m ρ c main_arg2 (by decide) (by decide) (by decide) (by decide), W4_v12 m ρ c, W4_v18 m ρ c]

/-- Layer 0's weight and bias at region 0's entry. -/
theorem W5_v43 : W5 (F := Ideal) m ρ c (Proc.devRef .tc main_v43) = weight0 (F := Ideal) (m ((c : Thread nD τ).loc main_arg4)) :=
  (l0_v43 (W4 m ρ c)).trans (congrArg (weight0 (F := Ideal)) (W4_keep m ρ c main_arg4 (by decide) (by decide) (by decide) (by decide)))

theorem W5_v46 : W5 (F := Ideal) m ρ c (Proc.devRef .tc main_v46) = row128 (row0 (F := Ideal) (m ((c : Thread nD τ).loc main_arg5))) :=
  (l0_v46 (W4 m ρ c)).trans (congrArg (fun t => row128 (row0 (F := Ideal) t)) (W4_keep m ρ c main_arg5 (by decide) (by decide) (by decide) (by decide)))

/-- Region 0 leaves the dense layer of the aggregated features in its output array. -/
theorem W6_v47 : W6 (F := Ideal) m ρ c (Proc.devRef .tc main_v47) = (linear (F := Ideal) (aggregate (F := Ideal) (embed (F := Ideal) (m ((c : Thread nD τ).loc main_arg3)) (m ((c : Thread nD τ).loc main_arg0))) (norm (F := Ideal) (m ((c : Thread nD τ).loc main_arg1))) (norm (F := Ideal) (m ((c : Thread nD τ).loc main_arg2))) (m ((c : Thread nD τ).loc main_arg1)) (m ((c : Thread nD τ).loc main_arg2))) (weight0 (F := Ideal) (m ((c : Thread nD τ).loc main_arg4))) (row0 (F := Ideal) (m ((c : Thread nD τ).loc main_arg5)))) := by
  have hb : V5 (F := Ideal) m ρ c main_v46 = row128 (row0 (F := Ideal) (m ((c : Thread nD τ).loc main_arg5))) := W5_v46 m ρ c
  have e41 : V5 (F := Ideal) m ρ c main_v41 = (aggregate (F := Ideal) (embed (F := Ideal) (m ((c : Thread nD τ).loc main_arg3)) (m ((c : Thread nD τ).loc main_arg0))) (norm (F := Ideal) (m ((c : Thread nD τ).loc main_arg1))) (norm (F := Ideal) (m ((c : Thread nD τ).loc main_arg2))) (m ((c : Thread nD τ).loc main_arg1)) (m ((c : Thread nD τ).loc main_arg2))) := W5_v41 m ρ c
  have e43 : V5 (F := Ideal) m ρ c main_v43 = weight0 (F := Ideal) (m ((c : Thread nD τ).loc main_arg4)) := W5_v43 m ρ c
  refine (W6_arr m ρ c 3).trans ((Lin0.final (V5 m ρ) c _ hb).trans ?_)
  rw [e41, e43]

/-- Region 0 writes neither the embedded features nor the scale and shift tables. -/
theorem W6_v25 : W6 (F := Ideal) m ρ c (Proc.devRef .tc main_v25) = (embed (F := Ideal) (m ((c : Thread nD τ).loc main_arg3)) (m ((c : Thread nD τ).loc main_arg0))) :=
  (W6_of_ne m ρ c main_v25 (by decide)).trans (W5_v25 m ρ c)

theorem W6_arg6 : W6 (F := Ideal) m ρ c (Proc.devRef .tc main_arg6) = (m ((c : Thread nD τ).loc main_arg6)) :=
  (W6_of_ne m ρ c main_arg6 (by decide)).trans (W5_keep m ρ c main_arg6 (by decide) (by decide) (by decide) (by decide) (by decide))

theorem W6_arg7 : W6 (F := Ideal) m ρ c (Proc.devRef .tc main_arg7) = (m ((c : Thread nD τ).loc main_arg7)) :=
  (W6_of_ne m ρ c main_arg7 (by decide)).trans (W5_keep m ρ c main_arg7 (by decide) (by decide) (by decide) (by decide) (by decide))

/-- At the end of layer 0 the norms are in place and the arguments untouched. -/
theorem keeps : Keeps m c (W10 (F := Ideal) m ρ c) :=
  Cert.KernelIdeal.Keep0.keeps m ρ c

/-- The features after layer 0. -/
theorem x : W10 (F := Ideal) m ρ c (Proc.devRef .tc main_v60)
    = layer0 (F := Ideal) (embed (F := Ideal) (m ((c : Thread nD τ).loc main_arg3)) (m ((c : Thread nD τ).loc main_arg0))) (norm (F := Ideal) (m ((c : Thread nD τ).loc main_arg1))) (norm (F := Ideal) (m ((c : Thread nD τ).loc main_arg2))) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  have hmu : V9 (F := Ideal) m ρ c main_v56 = row128 (mean (F := Ideal) (linear (F := Ideal) (aggregate (F := Ideal) (embed (F := Ideal) (m ((c : Thread nD τ).loc main_arg3)) (m ((c : Thread nD τ).loc main_arg0))) (norm (F := Ideal) (m ((c : Thread nD τ).loc main_arg1))) (norm (F := Ideal) (m ((c : Thread nD τ).loc main_arg2))) (m ((c : Thread nD τ).loc main_arg1)) (m ((c : Thread nD τ).loc main_arg2))) (weight0 (F := Ideal) (m ((c : Thread nD τ).loc main_arg4))) (row0 (F := Ideal) (m ((c : Thread nD τ).loc main_arg5))))) :=
    (l1_v56 (W6 m ρ c)).trans (congrArg (fun p => row128 (mean (F := Ideal) p)) (W6_v47 m ρ c))
  have hvar : V9 (F := Ideal) m ρ c main_v57 = row128 (variance (F := Ideal) (linear (F := Ideal) (aggregate (F := Ideal) (embed (F := Ideal) (m ((c : Thread nD τ).loc main_arg3)) (m ((c : Thread nD τ).loc main_arg0))) (norm (F := Ideal) (m ((c : Thread nD τ).loc main_arg1))) (norm (F := Ideal) (m ((c : Thread nD τ).loc main_arg2))) (m ((c : Thread nD τ).loc main_arg1)) (m ((c : Thread nD τ).loc main_arg2))) (weight0 (F := Ideal) (m ((c : Thread nD τ).loc main_arg4))) (row0 (F := Ideal) (m ((c : Thread nD τ).loc main_arg5))))) :=
    (l1_v57 (W6 m ρ c)).trans (congrArg (fun p => row128 (variance (F := Ideal) p)) (W6_v47 m ρ c))
  have hg : V9 (F := Ideal) m ρ c main_v58 = row128 (row0 (F := Ideal) (m ((c : Thread nD τ).loc main_arg6))) :=
    (l1_v58 (W6 m ρ c)).trans (congrArg (fun t => row128 (row0 (F := Ideal) t)) (W6_arg6 m ρ c))
  have hbe : V9 (F := Ideal) m ρ c main_v59 = row128 (row0 (F := Ideal) (m ((c : Thread nD τ).loc main_arg7))) :=
    (l1_v59 (W6 m ρ c)).trans (congrArg (fun t => row128 (row0 (F := Ideal) t)) (W6_arg7 m ρ c))
  have e47 : V9 (F := Ideal) m ρ c main_v47 = (linear (F := Ideal) (aggregate (F := Ideal) (embed (F := Ideal) (m ((c : Thread nD τ).loc main_arg3)) (m ((c : Thread nD τ).loc main_arg0))) (norm (F := Ideal) (m ((c : Thread nD τ).loc main_arg1))) (norm (F := Ideal) (m ((c : Thread nD τ).loc main_arg2))) (m ((c : Thread nD τ).loc main_arg1)) (m ((c : Thread nD τ).loc main_arg2))) (weight0 (F := Ideal) (m ((c : Thread nD τ).loc main_arg4))) (row0 (F := Ideal) (m ((c : Thread nD τ).loc main_arg5)))) :=
    (l1_keep (W6 m ρ c) main_v47 (by decide) (by decide) (by decide)).trans (W6_v47 m ρ c)
  have e25 : V9 (F := Ideal) m ρ c main_v25 = (embed (F := Ideal) (m ((c : Thread nD τ).loc main_arg3)) (m ((c : Thread nD τ).loc main_arg0))) :=
    (l1_keep (W6 m ρ c) main_v25 (by decide) (by decide) (by decide)).trans (W6_v25 m ρ c)
  refine (W10_arr m ρ c 6).trans ((Bn1.final (V9 m ρ) c _ _ _ _ hmu hvar hg hbe).trans ?_)
  rw [e47, e25]
  rfl

end Cert.KernelIdeal.Chain0

end
-- ==== Proof.KLin2.lean ====
/-
  Region 2 (the dense layer): over its 20 row blocks the pipeline leaves in the output array the whole-array function
  a·w + b of the arrays it found, block t being rows 5000t … 5000t+4999 of that function.
-/
import proofs.«168068_j70480413327361_1_alg».proof.Proof.Gen.KernelIdeal.Frame
import proofs.«168068_j70480413327361_1_alg».proof.Proof.KStage
import Idealize.ShloMosaic.PureOps.Ideal.Laws
import Idealize.ShloMosaic.Lib.ValueIdx
import Idealize.ShloMosaic.Lib.Pipeline.Value

noncomputable section

namespace Cert.KernelIdeal.Lin2

open Cert.KernelIdeal Cert.KernelIdeal.Gen Cert.KernelIdeal.KStage Idealize.ShloMosaic Idealize.ShloMosaic.TcCoe Idealize.SL.Sem
open Cert.ReferenceIdeal.Stage (Arr embed norm aggregate linear mean variance normalize readout layer0 layer1 layer2 layer3 weight0 weight1 weight2 weight3 row0 row1 row2 row3)
open Idealize.ShloMosaic.ValueIdx
open Idealize.ShloMosaic.Pipeline (Dat)

/-! ## A rows-by-columns product at an entry -/

/-- The contraction of a rows-by-columns product (one contracted axis: the left operand's columns against the right
    operand's rows), re-indexed by the contracted coordinate: the sum over k of A(a, k) · B(k, b). -/
theorem sum_contr_eq {M K N : Nat} (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (⟨[1], [0], [0], [1], [], [], w⟩ : DotDims ⟨2, ![M, K]⟩ ⟨2, ![K, N]⟩ ⟨2, ![M, N]⟩).contr.Idx,
        A ((⟨[1], [0], [0], [1], [], [], w⟩ : DotDims ⟨2, ![M, K]⟩ ⟨2, ![K, N]⟩ ⟨2, ![M, N]⟩).lhsIdx (ix2 a b) k)
          * B ((⟨[1], [0], [0], [1], [], [], w⟩ : DotDims ⟨2, ![M, K]⟩ ⟨2, ![K, N]⟩ ⟨2, ![M, N]⟩).rhsIdx (ix2 a b) k)
      = ∑ c : Fin K, A (ix2 a c) * B (ix2 c b) := by
  rw [← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The body's payload at row p, column q of a block: the row of the first operand against the column of the second
    (the narrowing to sixteen bits is the identity on extended reals, the accumulator starts at zero), plus the one-row
    operand's entry in that column. -/
theorem pay_apply (x0 : Vec Ideal S5000x128 .f32) (x1 : Vec Ideal S128x128 .f32) (x2 : Vec Ideal S1x128 .f32)
    (p : Fin 5000) (q : Fin 128) :
    k2_pay1 x0 x1 x2 (ix2 p q) = (∑ k : Fin 128, x0 (ix2 p k) * x1 (ix2 k q)) + x2 (ix2 (0 : Fin 1) q) := by
  unfold k2_pay1
  rw [addf_apply, shapeCast_self, shapeCast_self, shapeCast_self]
  rw [broadcastTo_apply x2 _ (ix2 p q) (ix2 (0 : Fin 1) q)
    (fun a => by match a with | ⟨0, _⟩ => rfl | ⟨1, _⟩ => rfl)]
  simp only [matmul]
  rw [Ideal.matmul_constant_zero_apply]
  simp only [truncf_apply]
  exact congrArg (· + x2 (ix2 (0 : Fin 1) q)) (sum_contr_eq _ x0 x1 p q)

/-- The dense layer at row i, column q: row i of a against column q of w, plus b at q. -/
theorem linear_apply (a : Arr Ideal S100000x128 .f32) (w : Arr Ideal S128x128 .f32) (b : Arr Ideal S128 .f32)
    (i : Fin 100000) (q : Fin 128) :
    linear (F := Ideal) a w b (ix2 i q) = (∑ k : Fin 128, a (ix2 i k) * w (ix2 k q)) + b (ix1 q) := by
  unfold linear Cert.ReferenceIdeal.Stage.perFeature
  rw [addf_apply]
  rw [broadcastInDim_apply _ _ _ (ix2 i q) (ix2 (0 : Fin 1) q) (fun a => by match a with | ⟨0, _⟩ => rfl | ⟨1, _⟩ => rfl)]
  rw [broadcastInDim_apply _ _ b (ix2 (0 : Fin 1) q) (ix1 q) (fun a => by match a with | ⟨0, _⟩ => rfl)]
  simp only [Host.dotGeneral]
  rw [Ideal.dotGeneral_apply]
  exact congrArg (· + b (ix1 q)) (sum_contr_eq _ a w i q)

/-- A feature vector read as a one-row array, at column q. -/
theorem row128_apply (b : Arr Ideal S128 .f32) (q : Fin 128) : row128 b (ix2 (0 : Fin 1) q) = b (ix1 q) := by
  unfold row128
  exact shapeCast_apply b _ (ix2 (0 : Fin 1) q) (ix1 q) (by
    rw [Shape.rowMajor_val_one, Shape.rowMajor_val_two]; show q.val = 0 * 128 + q.val; omega)

/-! ## From the blocks to the array -/

section Region
variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps, decided over the grid: the row windows (0 and 3) are at row block t, the weight and the
    bias windows at block 0 throughout. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the first window's block at point t is row 5000t + p of its array. -/
theorem rows_read (t : Fin cfg2.N) (p : Fin 5000) (k : Fin 128) (i : Fin 100000) (hi : i.val = 5000 * t.val + p.val) :
    (iblk2 V c 0 t : Vec Ideal S5000x128 .f32) (ix2 p k) = (V c main_v76 : S100000x128.Idx → Ideal .f32) (ix2 i k) := by
  obtain ⟨e0, e1, -⟩ := idx_facts t
  show V c main_v76 (((cfg2.win 0).blk t).view.emb (ix2 p k)) = V c main_v76 (ix2 i k)
  congr 1
  funext a; apply Fin.ext
  match a with
  | ⟨0, _⟩ => show win2_0.index t (0 : Fin 2) * 5000 + 1 * p.val = i.val; rw [e0, hi]; omega
  | ⟨1, _⟩ => show win2_0.index t (1 : Fin 2) * 128 + 1 * k.val = k.val; rw [e1]; omega

/-- The second window's block is its whole array at every point. -/
theorem weight_read (t : Fin cfg2.N) (k : Fin 128) (q : Fin 128) :
    (iblk2 V c 1 t : Vec Ideal S128x128 .f32) (ix2 k q) = (V c main_v78 : S128x128.Idx → Ideal .f32) (ix2 k q) := by
  obtain ⟨-, -, e0, e1, -⟩ := idx_facts t
  show V c main_v78 (((cfg2.win 1).blk t).view.emb (ix2 k q)) = V c main_v78 (ix2 k q)
  congr 1
  funext a; apply Fin.ext
  match a with
  | ⟨0, _⟩ => show win2_1.index t (0 : Fin 2) * 128 + 1 * k.val = k.val; rw [e0]; omega
  | ⟨1, _⟩ => show win2_1.index t (1 : Fin 2) * 128 + 1 * q.val = q.val; rw [e1]; omega

/-- So is the third window's. -/
theorem bias_read (t : Fin cfg2.N) (q : Fin 128) :
    (iblk2 V c 2 t : Vec Ideal S1x128 .f32) (ix2 (0 : Fin 1) q) = (V c main_v81 : S1x128.Idx → Ideal .f32) (ix2 (0 : Fin 1) q) := by
  obtain ⟨-, -, -, -, e0, e1, -⟩ := idx_facts t
  show V c main_v81 (((cfg2.win 2).blk t).view.emb (ix2 (0 : Fin 1) q)) = V c main_v81 (ix2 (0 : Fin 1) q)
  congr 1
  funext a; apply Fin.ext
  match a with
  | ⟨0, _⟩ => show win2_2.index t (0 : Fin 2) * 1 + 1 * (0 : Fin 1).val = (0 : Fin 1).val; rw [e0]; rfl
  | ⟨1, _⟩ => show win2_2.index t (1 : Fin 2) * 128 + 1 * q.val = q.val; rw [e1]; omega

/-- What point t writes back is block t of the dense layer of the arrays the region found. -/
theorem flushed_eq (b : Arr Ideal S128 .f32) (hb : V c main_v81 = row128 b) (t : Fin cfg2.N) :
    (dat2 V c).flushed 3 t
      = ((cfg2.win 3).blk t).view.read (Elt Ideal) (linear (F := Ideal) (V c main_v76) (V c main_v78) b) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 20 := lt_of_lt_of_eq t.isLt N_2
  obtain ⟨-, -, -, -, -, -, e0, e1⟩ := idx_facts t
  have hemb : ((cfg2.win 3).blk t).view.emb (ix2 p q) = ix2 (⟨5000 * t.val + p.val, by omega⟩ : Fin 100000) q := by
    funext a; apply Fin.ext
    match a with
    | ⟨0, _⟩ => show win2_3.index t (0 : Fin 2) * 5000 + 1 * p.val = 5000 * t.val + p.val; rw [e0]; omega
    | ⟨1, _⟩ => show win2_3.index t (1 : Fin 2) * 128 + 1 * q.val = q.val; rw [e1]; omega
  show k2_pay1 (iblk2 V c 0 t) (iblk2 V c 1 t) (iblk2 V c 2 t) (ix2 p q)
    = linear (F := Ideal) (V c main_v76) (V c main_v78) b (((cfg2.win 3).blk t).view.emb (ix2 p q))
  rw [hemb, pay_apply, linear_apply, bias_read V c t q, hb, row128_apply]
  refine congrArg (· + b (ix1 q)) (Finset.sum_congr rfl fun k _ => ?_)
  rw [rows_read V c t p k ⟨5000 * t.val + p.val, by omega⟩ rfl, weight_read V c t k q]

/-- An index of the output array is in point t's block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v82).slice (win2_3.rect t)).set ↔ _
  rw [View.set_slice_whole, Rect.mem_set_unit]
  exact Iff.rfl

end Region

/-- The output array after the region is the dense layer of the input arrays, the bias read as a one-row array. -/
theorem final (V : (c : Dev nD) → (b : Ref sig .tc) → Buf (Elt Ideal) ((c : Thread nD τ).loc b)) (c : Dev nD)
    (b : Arr Ideal S128 .f32) (hb : V c main_v81 = row128 b) :
    (dat2 V c).arrAt 3 cfg2.N = linear (F := Ideal) (V c main_v76) (V c main_v78) b :=
  (dat2 V c).arrAt_eq_of_cover 3 (linear (F := Ideal) (V c main_v76) (V c main_v78) b)
    (fun t _ => flushed_eq V c b hb t) fun i => by
      have hi0 : (i 0).val < 100000 := (i 0).isLt
      have hi1 : (i 1).val < 128 := (i 1).isLt
      have hN : (i 0).val / 5000 < cfg2.N := lt_of_lt_of_eq (show (i 0).val / 5000 < 20 by omega) N_2.symm
      obtain ⟨-, -, -, -, -, -, e0, e1⟩ := idx_facts ⟨(i 0).val / 5000, hN⟩
      refine ⟨⟨(i 0).val / 5000, hN⟩, flush2_3 _, ?_⟩
      rw [mem_blk]
      intro a
      match a with
      | ⟨0, _⟩ =>
        show win2_3.index ⟨(i 0).val / 5000, hN⟩ (0 : Fin 2) * 5000 ≤ (i 0).val ∧ (i 0).val < win2_3.index ⟨(i 0).val / 5000, hN⟩ (0 : Fin 2) * 5000 + 5000
        rw [e0]; show (i 0).val / 5000 * 5000 ≤ (i 0).val ∧ (i 0).val < (i 0).val / 5000 * 5000 + 5000; omega
      | ⟨1, _⟩ =>
        show win2_3.index ⟨(i 0).val / 5000, hN⟩ (1 : Fin 2) * 128 ≤ (i 1).val ∧ (i 1).val < win2_3.index ⟨(i 0).val / 5000, hN⟩ (1 : Fin 2) * 128 + 128
        rw [e1]; omega

end Cert.KernelIdeal.Lin2

end
-- ==== Proof.KBn3.lean ====
/-
  Region 3 (normalisation, rectifier, residual): a pointwise body over row blocks; the output array after the region is
  the pointwise function of the arrays it found, the four feature vectors read as one-row arrays.
-/
import proofs.«168068_j70480413327361_1_alg».proof.Proof.Gen.KernelIdeal.Frame
import proofs.«168068_j70480413327361_1_alg».proof.Proof.KStage
import Idealize.ShloMosaic.Lib.ValueIdx
import Idealize.ShloMosaic.Lib.Pipeline.Value
import Idealize.ShloMosaic.Lib.KernelVsHost

noncomputable section

namespace Cert.KernelIdeal.Bn3

open Cert.KernelIdeal Cert.KernelIdeal.Gen Cert.KernelIdeal.KStage Idealize.ShloMosaic Idealize.ShloMosaic.TcCoe Idealize.SL.Sem
open Cert.ReferenceIdeal.Stage (Arr embed norm aggregate linear mean variance normalize readout layer0 layer1 layer2 layer3 weight0 weight1 weight2 weight3 row0 row1 row2 row3)
open Idealize.ShloMosaic.ValueIdx Idealize.ShloMosaic.Pipeline

/-! ## One entry -/

/-- The normalisation of one entry `x` with its feature's mean `m`, variance `v`, scale `g` and shift `b`, the
    rectifier, and the residual `r`: `max((x - m) · (v + eps)^(-1/2) · g + b, 0) + r`. -/
def entry (x m v g b r : EReal) : EReal :=
  max ((x - m) * Ideal.rsqrt (v + Ideal.ofBits .f32 0x3727C5AC#32) * g + b) (Ideal.ofBits .f32 0x00000000#32) + r

/-- A one-row block laid along every row of a block of 5000 rows reads the row's entry of the same column. -/
theorem rowDown_apply (y : Vec Ideal S1x128 .f32) (p : Fin 5000) (q : Fin 128) :
    broadcastTo S5000x128 y broadcasts_S1x128_S5000x128 (ix2 p q) = y (ix2 (0 : Fin 1) q) := by
  refine broadcastTo_apply y broadcasts_S1x128_S5000x128 (ix2 p q) (ix2 (0 : Fin 1) q) ?_
  intro a
  match a with
  | ⟨0, _⟩ => rfl
  | ⟨1, _⟩ => rfl

/-- The body's stored block at an entry: the normalisation of that entry, the four one-row blocks read at its column. -/
theorem pay_apply (x0 x1 : Vec Ideal S5000x128 .f32) (m v g b : Vec Ideal S1x128 .f32) (p : Fin 5000) (q : Fin 128) :
    k3_pay1 x0 m v g b x1 (ix2 p q)
      = entry (x0 (ix2 p q)) (m (ix2 (0 : Fin 1) q)) (v (ix2 (0 : Fin 1) q)) (g (ix2 (0 : Fin 1) q)) (b (ix2 (0 : Fin 1) q)) (x1 (ix2 p q)) := by
  unfold k3_pay1 entry
  simp only [shapeCast_self]
  rw [addf_apply, maximumf_apply, addf_apply, mulf_apply, mulf_apply, subf_apply, broadcast_apply,
    rowDown_apply, rowDown_apply, rowDown_apply, rowDown_apply]
  rfl

/-! ## The whole-array function at an entry -/

/-- A feature vector laid along every row of the node array reads its entry of the same column. -/
theorem perFeature_apply (v : Arr Ideal S128 .f32) (r : Fin 100000) (q : Fin 128) :
    Cert.ReferenceIdeal.Stage.perFeature (F := Ideal) v (ix2 r q) = v (ix1 q) := by
  unfold Cert.ReferenceIdeal.Stage.perFeature
  rw [broadcastInDim_oneRow_apply]
  refine broadcastInDim_apply ![1] _ v (ix2 (0 : Fin 1) q) (ix1 q) ?_
  intro a
  match a with
  | ⟨0, _⟩ => rfl

/-- The normalisation of the node array at an entry. -/
theorem normalize_apply (x xin : Arr Ideal S100000x128 .f32) (mu var g be : Arr Ideal S128 .f32) (r : Fin 100000) (q : Fin 128) :
    normalize (F := Ideal) x xin mu var g be (ix2 r q)
      = entry (x (ix2 r q)) (mu (ix1 q)) (var (ix1 q)) (g (ix1 q)) (be (ix1 q)) (xin (ix2 r q)) := by
  unfold Cert.ReferenceIdeal.Stage.normalize entry
  rw [addf_apply, maximumf_apply, addf_apply, mulf_apply, mulf_apply, subf_apply,
    perFeature_apply, perFeature_apply, perFeature_apply, perFeature_apply]
  rfl

/-- A feature vector read as a one-row array has the vector's entries along its row. -/
theorem row128_apply (v : Arr Ideal S128 .f32) (q : Fin 128) : row128 v (ix2 (0 : Fin 1) q) = v (ix1 q) := by
  unfold row128
  refine shapeCast_apply v shapeCasts_S128_S1x128 (ix2 (0 : Fin 1) q) (ix1 q) ?_
  rw [Shape.rowMajor_val_two, Shape.rowMajor_val_one]
  show q.val = 0 * 128 + q.val
  omega

/-! ## The blocks -/

theorem zeros : (![0, 0] : Fin 2 → Nat) = fun _ => 0 := funext fun a => by fin_cases a <;> rfl

/-- The printed index maps over the grid: the three row-block windows are at block row `t` at point `t`, the four one-row
    windows stay at their one block. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What the body leaves in the output's buffer, at an entry: the normalisation of the entry of the two row blocks, the
    four one-row blocks read at its column. -/
theorem out_apply (x0 x1 : Vec Ideal S5000x128 .f32) (x2 x3 x4 x5 : Vec Ideal S1x128 .f32) (p : Fin 5000) (q : Fin 128) :
    out3_6 (F := Ideal) x0 x1 x2 x3 x4 x5 (ix2 p q)
      = entry (x0 (ix2 p q)) (x2 (ix2 (0 : Fin 1) q)) (x3 (ix2 (0 : Fin 1) q)) (x4 (ix2 (0 : Fin 1) q)) (x5 (ix2 (0 : Fin 1) q)) (x1 (ix2 p q)) := by
  unfold out3_6
  rw [View.canon_unit_zero zeros]
  simp only [View.ld_unit_zero (S := S5000x128) zeros, View.ld_unit_zero (S := S1x128) zeros]
  exact pay_apply x0 x1 x2 x3 x4 x5 p q

section Region
variable (V : (c : Dev nD) → (b : Ref sig .tc) → Buf (Elt Ideal) ((c : Thread nD τ).loc b)) (c : Dev nD)

/-- Row block `t` of the first input array, at an entry: the array at row `5000 t + p`. -/
theorem blockX_apply (t : Fin cfg3.N) (p : Fin 5000) (q : Fin 128) (r : Fin 100000) (hr : r.val = t.val * 5000 + p.val) :
    (iblk3 V c 0 t : Vec Ideal S5000x128 .f32) (ix2 p q) = (V c main_v82 : Arr Ideal S100000x128 .f32) (ix2 r q) := by
  obtain ⟨e0, e1, -⟩ := index_facts t
  show V c main_v82 (((cfg3.win 0).blk t).view.emb (ix2 p q)) = V c main_v82 (ix2 r q)
  congr 1
  funext a; apply Fin.ext
  match a with
  | ⟨0, _⟩ => show win3_0.index t (0 : Fin 2) * 5000 + 1 * p.val = r.val; omega
  | ⟨1, _⟩ => show win3_0.index t (1 : Fin 2) * 128 + 1 * q.val = q.val; omega

/-- Row block `t` of the second input array, at an entry. -/
theorem blockR_apply (t : Fin cfg3.N) (p : Fin 5000) (q : Fin 128) (r : Fin 100000) (hr : r.val = t.val * 5000 + p.val) :
    (iblk3 V c 1 t : Vec Ideal S5000x128 .f32) (ix2 p q) = (V c main_v60 : Arr Ideal S100000x128 .f32) (ix2 r q) := by
  obtain ⟨-, -, e0, e1, -⟩ := index_facts t
  show V c main_v60 (((cfg3.win 1).blk t).view.emb (ix2 p q)) = V c main_v60 (ix2 r q)
  congr 1
  funext a; apply Fin.ext
  match a with
  | ⟨0, _⟩ => show win3_1.index t (0 : Fin 2) * 5000 + 1 * p.val = r.val; omega
  | ⟨1, _⟩ => show win3_1.index t (1 : Fin 2) * 128 + 1 * q.val = q.val; omega

/-- The one block of each one-row array, at an entry: the array's entry. -/
theorem rowMu_apply (t : Fin cfg3.N) (q : Fin 128) :
    (iblk3 V c 2 t : Vec Ideal S1x128 .f32) (ix2 (0 : Fin 1) q) = (V c main_v91 : Arr Ideal S1x128 .f32) (ix2 (0 : Fin 1) q) := by
  obtain ⟨-, -, -, -, e0, e1, -⟩ := index_facts t
  show V c main_v91 (((cfg3.win 2).blk t).view.emb (ix2 (0 : Fin 1) q)) = V c main_v91 (ix2 (0 : Fin 1) q)
  congr 1
  funext a; apply Fin.ext
  match a with
  | ⟨0, _⟩ => show win3_2.index t (0 : Fin 2) * 1 + 1 * 0 = 0; omega
  | ⟨1, _⟩ => show win3_2.index t (1 : Fin 2) * 128 + 1 * q.val = q.val; omega
theorem rowVar_apply (t : Fin cfg3.N) (q : Fin 128) :
    (iblk3 V c 3 t : Vec Ideal S1x128 .f32) (ix2 (0 : Fin 1) q) = (V c main_v92 : Arr Ideal S1x128 .f32) (ix2 (0 : Fin 1) q) := by
  obtain ⟨-, -, -, -, -, -, e0, e1, -⟩ := index_facts t
  show V c main_v92 (((cfg3.win 3).blk t).view.emb (ix2 (0 : Fin 1) q)) = V c main_v92 (ix2 (0 : Fin 1) q)
  congr 1
  funext a; apply Fin.ext
  match a with
  | ⟨0, _⟩ => show win3_3.index t (0 : Fin 2) * 1 + 1 * 0 = 0; omega
  | ⟨1, _⟩ => show win3_3.index t (1 : Fin 2) * 128 + 1 * q.val = q.val; omega
theorem rowG_apply (t : Fin cfg3.N) (q : Fin 128) :
    (iblk3 V c 4 t : Vec Ideal S1x128 .f32) (ix2 (0 : Fin 1) q) = (V c main_v93 : Arr Ideal S1x128 .f32) (ix2 (0 : Fin 1) q) := by
  obtain ⟨-, -, -, -, -, -, -, -, e0, e1, -⟩ := index_facts t
  show V c main_v93 (((cfg3.win 4).blk t).view.emb (ix2 (0 : Fin 1) q)) = V c main_v93 (ix2 (0 : Fin 1) q)
  congr 1
  funext a; apply Fin.ext
  match a with
  | ⟨0, _⟩ => show win3_4.index t (0 : Fin 2) * 1 + 1 * 0 = 0; omega
  | ⟨1, _⟩ => show win3_4.index t (1 : Fin 2) * 128 + 1 * q.val = q.val; omega
theorem rowBe_apply (t : Fin cfg3.N) (q : Fin 128) :
    (iblk3 V c 5 t : Vec Ideal S1x128 .f32) (ix2 (0 : Fin 1) q) = (V c main_v94 : Arr Ideal S1x128 .f32) (ix2 (0 : Fin 1) q) := by
  obtain ⟨-, -, -, -, -, -, -, -, -, -, e0, e1, -⟩ := index_facts t
  show V c main_v94 (((cfg3.win 5).blk t).view.emb (ix2 (0 : Fin 1) q)) = V c main_v94 (ix2 (0 : Fin 1) q)
  congr 1
  funext a; apply Fin.ext
  match a with
  | ⟨0, _⟩ => show win3_5.index t (0 : Fin 2) * 1 + 1 * 0 = 0; omega
  | ⟨1, _⟩ => show win3_5.index t (1 : Fin 2) * 128 + 1 * q.val = q.val; omega

/-- Where an entry of the output's block `t` sits in the output array: row `5000 t + p`, the same column. -/
theorem oblk_emb (t : Fin cfg3.N) (p : Fin 5000) (q : Fin 128) (r : Fin 100000) (hr : r.val = t.val * 5000 + p.val) :
    ((cfg3.win 6).blk t).view.emb (ix2 p q) = (ix2 r q : S100000x128.Idx) := by
  obtain ⟨-, -, -, -, -, -, -, -, -, -, -, -, e0, e1⟩ := index_facts t
  funext a; apply Fin.ext
  match a with
  | ⟨0, _⟩ => show win3_6.index t (0 : Fin 2) * 5000 + 1 * p.val = r.val; omega
  | ⟨1, _⟩ => show win3_6.index t (1 : Fin 2) * 128 + 1 * q.val = q.val; omega

/-- What point `t` writes back is block `t` of the normalisation of the whole arrays. -/
theorem flushed_eq (mu var g be : Arr Ideal S128 .f32) (hmu : V c main_v91 = row128 mu) (hvar : V c main_v92 = row128 var)
    (hg : V c main_v93 = row128 g) (hbe : V c main_v94 = row128 be) (t : Fin cfg3.N) :
    (dat3 V c).flushed 6 t = ((cfg3.win 6).blk t).view.read (Elt Ideal)
      (Cert.ReferenceIdeal.Stage.normalize (F := Ideal) (V c main_v82) (V c main_v60) mu var g be) := by
  show (cfg3.win 6).cut (grid3.coords t) ((dat3 V c).after 6 t) = _
  rw [after3_6]
  funext j
  obtain ⟨p, q, rfl⟩ : ∃ (p : Fin 5000) (q : Fin 128), j = ix2 p q := ⟨j 0, j 1, eq_ix2 j⟩
  have ht : t.val < 20 := lt_of_lt_of_eq t.isLt N_3
  have hp : p.val < 5000 := p.isLt
  obtain ⟨r, hr⟩ : ∃ r : Fin 100000, r.val = t.val * 5000 + p.val := ⟨⟨t.val * 5000 + p.val, by omega⟩, rfl⟩
  show out3_6 (F := Ideal) (iblk3 V c 0 t) (iblk3 V c 1 t) (iblk3 V c 2 t) (iblk3 V c 3 t) (iblk3 V c 4 t) (iblk3 V c 5 t) (ix2 p q)
    = Cert.ReferenceIdeal.Stage.normalize (F := Ideal) (V c main_v82) (V c main_v60) mu var g be (((cfg3.win 6).blk t).view.emb (ix2 p q))
  rw [oblk_emb t p q r hr, normalize_apply, out_apply,
    blockX_apply V c t p q r hr, blockR_apply V c t p q r hr, rowMu_apply V c t q, rowVar_apply V c t q, rowG_apply V c t q, rowBe_apply V c t q,
    hmu, hvar, hg, hbe, row128_apply, row128_apply, row128_apply, row128_apply]

end Region

section Array

/-- An index of the output array is in point `t`'s block iff each coordinate is in the block's range on its axis. -/
theorem mem_blk (t : Fin cfg3.N) (i : S100000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v95).slice (win3_6.rect t)).set ↔ _
  rw [View.set_slice_whole, Rect.mem_set_unit]
  exact Iff.rfl

/-- Row `r` of the output array is in the block of point `r / 5000`: the twenty blocks cover the array. -/
theorem covered (i : S100000x128.Idx) :
    ∃ t : Fin cfg3.N, (cfg3.win 6).flush t = true ∧ i ∈ ((cfg3.win 6).blk t).view.set := by
  have h0 : (i 0).val < 100000 := (i 0).isLt
  have h1 : (i 1).val < 128 := (i 1).isLt
  obtain ⟨t, ht⟩ : ∃ t : Fin cfg3.N, t.val = (i 0).val / 5000 :=
    ⟨⟨(i 0).val / 5000, lt_of_lt_of_eq (by omega : (i 0).val / 5000 < 20) N_3.symm⟩, rfl⟩
  refine ⟨t, flush3_6 t, ?_⟩
  rw [mem_blk]
  obtain ⟨-, -, -, -, -, -, -, -, -, -, -, -, e0, e1⟩ := index_facts t
  intro a
  match a with
  | ⟨0, _⟩ =>
    show win3_6.index t (0 : Fin 2) * 5000 ≤ (i 0).val ∧ (i 0).val < win3_6.index t (0 : Fin 2) * 5000 + 5000
    omega
  | ⟨1, _⟩ =>
    show win3_6.index t (1 : Fin 2) * 128 ≤ (i 1).val ∧ (i 1).val < win3_6.index t (1 : Fin 2) * 128 + 128
    omega

end Array

/-- The output array after the region is the normalisation of the input arrays. -/
theorem final (V : (c : Dev nD) → (b : Ref sig .tc) → Buf (Elt Ideal) ((c : Thread nD τ).loc b)) (c : Dev nD)
    (mu var g be : Arr Ideal S128 .f32) (hmu : V c main_v91 = row128 mu) (hvar : V c main_v92 = row128 var)
    (hg : V c main_v93 = row128 g) (hbe : V c main_v94 = row128 be) :
    (dat3 V c).arrAt 6 cfg3.N = normalize (F := Ideal) (V c main_v82) (V c main_v60) mu var g be :=
  (dat3 V c).arrAt_eq_of_cover 6 (Cert.ReferenceIdeal.Stage.normalize (F := Ideal) (V c main_v82) (V c main_v60) mu var g be)
    (fun t _ => flushed_eq V c mu var g be hmu hvar hg hbe t) covered

end Cert.KernelIdeal.Bn3

end
-- ==== Proof.KChain1.lean ====
/-
  The kernel program's layer 1 (from the boundary after region 1 to the boundary after region 3): a host stretch for the
  message-passing step, region 2 the dense layer, host stretches for the batch statistics, region 3 the normalisation.
-/
import proofs.«168068_j70480413327361_1_alg».proof.Proof.Gen.KernelIdeal.Frame
import proofs.«168068_j70480413327361_1_alg».proof.Proof.KStage
import proofs.«168068_j70480413327361_1_alg».proof.Proof.KLin2
import proofs.«168068_j70480413327361_1_alg».proof.Proof.KBn3

noncomputable section

namespace Cert.KernelIdeal.Chain1

open Cert.KernelIdeal Cert.KernelIdeal.Gen Cert.KernelIdeal.KStage Idealize.ShloMosaic Idealize.ShloMosaic.TcCoe Idealize.SL.Sem
open Cert.ReferenceIdeal.Stage (Arr embed norm aggregate linear mean variance normalize readout layer0 layer1 layer2 layer3 weight0 weight1 weight2 weight3 row0 row1 row2 row3)

/-! ## The host stretches, over any buffer contents `U` and any float model -/

section Host

variable {F : FTy → Type} [FloatOps F] (U : Valuation τ sig (Elt F))

/-- The stretch before the dense layer leaves the message-passing step of the features in the layer's input, -/
theorem host_agg : StableHlo.after hostOps2 U (Proc.devRef .tc main_v76)
    = aggregate (F := F) (U (Proc.devRef .tc main_v60)) (U (Proc.devRef .tc main_v12)) (U (Proc.devRef .tc main_v18))
        (U (Proc.devRef .tc main_arg1)) (U (Proc.devRef .tc main_arg2)) := by
  after_results_simp <;> rfl

/-- the layer's weight matrix beside it, -/
theorem host_w : StableHlo.after hostOps2 U (Proc.devRef .tc main_v78) = weight1 (F := F) (U (Proc.devRef .tc main_arg4)) := by
  after_results_simp <;> rfl

/-- and the layer's bias as a one-row array. -/
theorem host_b : StableHlo.after hostOps2 U (Proc.devRef .tc main_v81)
    = shapeCast S1x128 (row1 (F := F) (U (Proc.devRef .tc main_arg5))) shapeCasts_S128_S1x128 := by
  after_results_simp <;> rfl

/-- It leaves the features themselves alone. -/
theorem host_x : StableHlo.after hostOps2 U (Proc.devRef .tc main_v60) = U (Proc.devRef .tc main_v60) := by
  after_results_simp

/-- The stretches before the normalisation leave the mean of the dense layer's output as a one-row array, -/
theorem stat_mu : StableHlo.after hostOps3_2 (StableHlo.after hostOps3_1 (StableHlo.after hostOps3 U)) (Proc.devRef .tc main_v91)
    = shapeCast S1x128 (mean (F := F) (U (Proc.devRef .tc main_v82))) shapeCasts_S128_S1x128 := by
  after_results_simp <;> (try simp only [StableHlo.TRef.ofBuf, StableHlo.TRef.toBuf, cast_eq]) <;> rfl

/-- its variance, -/
theorem stat_var : StableHlo.after hostOps3_2 (StableHlo.after hostOps3_1 (StableHlo.after hostOps3 U)) (Proc.devRef .tc main_v92)
    = shapeCast S1x128 (variance (F := F) (U (Proc.devRef .tc main_v82))) shapeCasts_S128_S1x128 := by
  after_results_simp <;> (try simp only [StableHlo.TRef.ofBuf, StableHlo.TRef.toBuf, cast_eq]) <;> rfl

/-- the layer's scale -/
theorem stat_g : StableHlo.after hostOps3_2 (StableHlo.after hostOps3_1 (StableHlo.after hostOps3 U)) (Proc.devRef .tc main_v93)
    = shapeCast S1x128 (row1 (F := F) (U (Proc.devRef .tc main_arg6))) shapeCasts_S128_S1x128 := by
  after_results_simp <;> (try simp only [StableHlo.TRef.ofBuf, StableHlo.TRef.toBuf, cast_eq]) <;> rfl

/-- and shift. -/
theorem stat_be : StableHlo.after hostOps3_2 (StableHlo.after hostOps3_1 (StableHlo.after hostOps3 U)) (Proc.devRef .tc main_v94)
    = shapeCast S1x128 (row1 (F := F) (U (Proc.devRef .tc main_arg7))) shapeCasts_S128_S1x128 := by
  after_results_simp <;> (try simp only [StableHlo.TRef.ofBuf, StableHlo.TRef.toBuf, cast_eq]) <;> rfl

/-- They leave the dense layer's output and the layer's input features alone. -/
theorem stat_p : StableHlo.after hostOps3_2 (StableHlo.after hostOps3_1 (StableHlo.after hostOps3 U)) (Proc.devRef .tc main_v82)
    = U (Proc.devRef .tc main_v82) := by
  after_results_simp
theorem stat_x : StableHlo.after hostOps3_2 (StableHlo.after hostOps3_1 (StableHlo.after hostOps3 U)) (Proc.devRef .tc main_v60)
    = U (Proc.devRef .tc main_v60) := by
  after_results_simp

end Host

/-! ## What the layer leaves alone -/

variable (m : (ℓ : Loc nD τ sig) → Buf (Elt Ideal) ℓ) (ρ : Dev nD → PrngReg) (c : Dev nD)

/-- `Keeps` at contents that agree, buffer by buffer, with contents at which it holds: the fourteen agreements are left open. -/
local macro "keeps_via " h:term : term =>
  `(KStage.Keeps.mk (Eq.trans ?_ ($h).ns) (Eq.trans ?_ ($h).nd) (Eq.trans ?_ ($h).a1) (Eq.trans ?_ ($h).a2) (Eq.trans ?_ ($h).a4)
      (Eq.trans ?_ ($h).a5) (Eq.trans ?_ ($h).a6) (Eq.trans ?_ ($h).a7) (Eq.trans ?_ ($h).a8) (Eq.trans ?_ ($h).a9)
      (Eq.trans ?_ ($h).a10) (Eq.trans ?_ ($h).a11) (Eq.trans ?_ ($h).a12) (Eq.trans ?_ ($h).a13))

/-- The stretch before the dense layer writes neither a norm nor an argument. -/
theorem keeps_host {U : Valuation τ sig (Elt Ideal)} (h : Keeps m c U) : Keeps m c (StableHlo.after hostOps2 U) := by
  refine keeps_via h <;> after_results_simp

/-- Neither does the dense layer's region: none of them is one of its arrays. -/
theorem keeps_lin (h : Keeps m c (W11 (F := Ideal) m ρ c)) : Keeps m c (W12 (F := Ideal) m ρ c) := by
  refine keeps_via h <;> exact W12_of_ne m ρ c _ (by decide)

/-- Neither do the stretches before the normalisation. -/
theorem keeps_stat {U : Valuation τ sig (Elt Ideal)} (h : Keeps m c U) :
    Keeps m c (StableHlo.after hostOps3_2 (StableHlo.after hostOps3_1 (StableHlo.after hostOps3 U))) := by
  refine keeps_via h <;> after_results_simp

/-- Neither does the normalisation's region. -/
theorem keeps_bn (h : Keeps m c (W15 (F := Ideal) m ρ c)) : Keeps m c (W16 (F := Ideal) m ρ c) := by
  refine keeps_via h <;> exact W16_of_ne m ρ c _ (by decide)

/-- The layer writes neither a norm nor an argument. -/
theorem keeps (h : Keeps m c (W10 (F := Ideal) m ρ c)) : Keeps m c (W16 (F := Ideal) m ρ c) := by
  exact keeps_bn m ρ c (keeps_stat m c (keeps_lin m ρ c (keeps_host m c h)))

/-! ## The features through the layer -/

/-- The dense layer's output: the region's whole-array function of what the stretch before it prepared. -/
theorem lin_out (X : Arr Ideal S100000x128 .f32) (ns nd : Arr Ideal S100000 .f32) (a1 a2 : Arr Ideal S1600000 .i32)
    (a4 : Arr Ideal S4x128x128 .f32) (a5 : Arr Ideal S4x128 .f32)
    (hx : W10 (F := Ideal) m ρ c (Proc.devRef .tc main_v60) = X)
    (hns : W10 (F := Ideal) m ρ c (Proc.devRef .tc main_v12) = ns) (hnd : W10 (F := Ideal) m ρ c (Proc.devRef .tc main_v18) = nd)
    (h1 : W10 (F := Ideal) m ρ c (Proc.devRef .tc main_arg1) = a1) (h2 : W10 (F := Ideal) m ρ c (Proc.devRef .tc main_arg2) = a2)
    (h4 : W10 (F := Ideal) m ρ c (Proc.devRef .tc main_arg4) = a4) (h5 : W10 (F := Ideal) m ρ c (Proc.devRef .tc main_arg5) = a5) :
    W12 (F := Ideal) m ρ c (Proc.devRef .tc main_v82)
      = linear (F := Ideal) (aggregate (F := Ideal) X ns nd a1 a2) (weight1 (F := Ideal) a4) (row1 (F := Ideal) a5) := by
  have hb : V11 (F := Ideal) m ρ c main_v81 = row128 (row1 (F := Ideal) a5) := by
    rw [← h5]; exact host_b (W10 m ρ c)
  refine (W12_arr m ρ c 3).trans ((Lin2.final (V11 m ρ) c _ hb).trans ?_)
  show linear (F := Ideal) (StableHlo.after hostOps2 (W10 m ρ c) (Proc.devRef .tc main_v76))
    (StableHlo.after hostOps2 (W10 m ρ c) (Proc.devRef .tc main_v78)) _ = _
  rw [host_agg, host_w, hx, hns, hnd, h1, h2, h4]

/-- The normalisation's output: the region's whole-array function of the dense layer's output, the layer's input and
    the statistics the stretches before it prepared. -/
theorem bn_out (P X : Arr Ideal S100000x128 .f32) (a6 a7 : Arr Ideal S4x128 .f32)
    (hP : W12 (F := Ideal) m ρ c (Proc.devRef .tc main_v82) = P) (hX : W12 (F := Ideal) m ρ c (Proc.devRef .tc main_v60) = X)
    (h6 : W12 (F := Ideal) m ρ c (Proc.devRef .tc main_arg6) = a6) (h7 : W12 (F := Ideal) m ρ c (Proc.devRef .tc main_arg7) = a7) :
    W16 (F := Ideal) m ρ c (Proc.devRef .tc main_v95)
      = normalize (F := Ideal) P X (mean (F := Ideal) P) (variance (F := Ideal) P) (row1 (F := Ideal) a6) (row1 (F := Ideal) a7) := by
  have hmu : V15 (F := Ideal) m ρ c main_v91 = row128 (mean (F := Ideal) P) := by
    rw [← hP]; exact stat_mu (W12 m ρ c)
  have hvar : V15 (F := Ideal) m ρ c main_v92 = row128 (variance (F := Ideal) P) := by
    rw [← hP]; exact stat_var (W12 m ρ c)
  have hg : V15 (F := Ideal) m ρ c main_v93 = row128 (row1 (F := Ideal) a6) := by
    rw [← h6]; exact stat_g (W12 m ρ c)
  have hbe : V15 (F := Ideal) m ρ c main_v94 = row128 (row1 (F := Ideal) a7) := by
    rw [← h7]; exact stat_be (W12 m ρ c)
  refine (W16_arr m ρ c 6).trans ((Bn3.final (V15 m ρ) c _ _ _ _ hmu hvar hg hbe).trans ?_)
  show normalize (F := Ideal)
    (StableHlo.after hostOps3_2 (StableHlo.after hostOps3_1 (StableHlo.after hostOps3 (W12 m ρ c))) (Proc.devRef .tc main_v82))
    (StableHlo.after hostOps3_2 (StableHlo.after hostOps3_1 (StableHlo.after hostOps3 (W12 m ρ c))) (Proc.devRef .tc main_v60))
    _ _ _ _ = _
  rw [stat_p, stat_x, hP, hX]

/-- The features after the layer are the layer function of the features before it. -/
theorem x (h : Keeps m c (W10 (F := Ideal) m ρ c)) (X : Arr Ideal S100000x128 .f32)
    (hx : W10 (F := Ideal) m ρ c (Proc.devRef .tc main_v60) = X) :
    W16 (F := Ideal) m ρ c (Proc.devRef .tc main_v95)
      = layer1 (F := Ideal) X (norm (F := Ideal) (m ((c : Thread nD τ).loc main_arg1))) (norm (F := Ideal) (m ((c : Thread nD τ).loc main_arg2))) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  have k := keeps_lin m ρ c (keeps_host m c h)
  exact bn_out m ρ c _ X _ _ (lin_out m ρ c X _ _ _ _ _ _ hx h.ns h.nd h.a1 h.a2 h.a4 h.a5)
    ((W12_of_ne m ρ c main_v60 (by decide)).trans ((host_x (W10 m ρ c)).trans hx)) k.a6 k.a7

end Cert.KernelIdeal.Chain1

end
-- ==== Proof.KLin4.lean ====
/-
  Region 4 (the dense layer): over its 20 row blocks the pipeline leaves in the output array the whole-array function
  a·w + b of the arrays it found, block t being rows 5000t … 5000t+4999 of that function.
-/
import proofs.«168068_j70480413327361_1_alg».proof.Proof.Gen.KernelIdeal.Frame
import proofs.«168068_j70480413327361_1_alg».proof.Proof.KStage
import Idealize.ShloMosaic.PureOps.Ideal.Laws
import Idealize.ShloMosaic.Lib.ValueIdx
import Idealize.ShloMosaic.Lib.Pipeline.Value

noncomputable section

namespace Cert.KernelIdeal.Lin4

open Cert.KernelIdeal Cert.KernelIdeal.Gen Cert.KernelIdeal.KStage Idealize.ShloMosaic Idealize.ShloMosaic.TcCoe Idealize.SL.Sem
open Cert.ReferenceIdeal.Stage (Arr embed norm aggregate linear mean variance normalize readout layer0 layer1 layer2 layer3 weight0 weight1 weight2 weight3 row0 row1 row2 row3)
open Idealize.ShloMosaic.ValueIdx
open Idealize.ShloMosaic.Pipeline (Dat)

/-! ## A rows-by-columns product at an entry -/

/-- The contraction of a rows-by-columns product (one contracted axis: the left operand's columns against the right
    operand's rows), re-indexed by the contracted coordinate: the sum over k of A(a, k) · B(k, b). -/
theorem sum_contr_eq {M K N : Nat} (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (⟨[1], [0], [0], [1], [], [], w⟩ : DotDims ⟨2, ![M, K]⟩ ⟨2, ![K, N]⟩ ⟨2, ![M, N]⟩).contr.Idx,
        A ((⟨[1], [0], [0], [1], [], [], w⟩ : DotDims ⟨2, ![M, K]⟩ ⟨2, ![K, N]⟩ ⟨2, ![M, N]⟩).lhsIdx (ix2 a b) k)
          * B ((⟨[1], [0], [0], [1], [], [], w⟩ : DotDims ⟨2, ![M, K]⟩ ⟨2, ![K, N]⟩ ⟨2, ![M, N]⟩).rhsIdx (ix2 a b) k)
      = ∑ c : Fin K, A (ix2 a c) * B (ix2 c b) := by
  rw [← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The body's payload at row p, column q of a block: the row of the first operand against the column of the second
    (the narrowing to sixteen bits is the identity on extended reals, the accumulator starts at zero), plus the one-row
    operand's entry in that column. -/
theorem pay_apply (x0 : Vec Ideal S5000x128 .f32) (x1 : Vec Ideal S128x128 .f32) (x2 : Vec Ideal S1x128 .f32)
    (p : Fin 5000) (q : Fin 128) :
    k4_pay1 x0 x1 x2 (ix2 p q) = (∑ k : Fin 128, x0 (ix2 p k) * x1 (ix2 k q)) + x2 (ix2 (0 : Fin 1) q) := by
  unfold k4_pay1
  rw [addf_apply, shapeCast_self, shapeCast_self, shapeCast_self]
  rw [broadcastTo_apply x2 _ (ix2 p q) (ix2 (0 : Fin 1) q)
    (fun a => by match a with | ⟨0, _⟩ => rfl | ⟨1, _⟩ => rfl)]
  simp only [matmul]
  rw [Ideal.matmul_constant_zero_apply]
  simp only [truncf_apply]
  exact congrArg (· + x2 (ix2 (0 : Fin 1) q)) (sum_contr_eq _ x0 x1 p q)

/-- The dense layer at row i, column q: row i of a against column q of w, plus b at q. -/
theorem linear_apply (a : Arr Ideal S100000x128 .f32) (w : Arr Ideal S128x128 .f32) (b : Arr Ideal S128 .f32)
    (i : Fin 100000) (q : Fin 128) :
    linear (F := Ideal) a w b (ix2 i q) = (∑ k : Fin 128, a (ix2 i k) * w (ix2 k q)) + b (ix1 q) := by
  unfold linear Cert.ReferenceIdeal.Stage.perFeature
  rw [addf_apply]
  rw [broadcastInDim_apply _ _ _ (ix2 i q) (ix2 (0 : Fin 1) q) (fun a => by match a with | ⟨0, _⟩ => rfl | ⟨1, _⟩ => rfl)]
  rw [broadcastInDim_apply _ _ b (ix2 (0 : Fin 1) q) (ix1 q) (fun a => by match a with | ⟨0, _⟩ => rfl)]
  simp only [Host.dotGeneral]
  rw [Ideal.dotGeneral_apply]
  exact congrArg (· + b (ix1 q)) (sum_contr_eq _ a w i q)

/-- A feature vector read as a one-row array, at column q. -/
theorem row128_apply (b : Arr Ideal S128 .f32) (q : Fin 128) : row128 b (ix2 (0 : Fin 1) q) = b (ix1 q) := by
  unfold row128
  exact shapeCast_apply b _ (ix2 (0 : Fin 1) q) (ix1 q) (by
    rw [Shape.rowMajor_val_one, Shape.rowMajor_val_two]; show q.val = 0 * 128 + q.val; omega)

/-! ## From the blocks to the array -/

section Region
variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps, decided over the grid: the row windows (0 and 3) are at row block t, the weight and the
    bias windows at block 0 throughout. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of the first window's block at point t is row 5000t + p of its array. -/
theorem rows_read (t : Fin cfg4.N) (p : Fin 5000) (k : Fin 128) (i : Fin 100000) (hi : i.val = 5000 * t.val + p.val) :
    (iblk4 V c 0 t : Vec Ideal S5000x128 .f32) (ix2 p k) = (V c main_v111 : S100000x128.Idx → Ideal .f32) (ix2 i k) := by
  obtain ⟨e0, e1, -⟩ := idx_facts t
  show V c main_v111 (((cfg4.win 0).blk t).view.emb (ix2 p k)) = V c main_v111 (ix2 i k)
  congr 1
  funext a; apply Fin.ext
  match a with
  | ⟨0, _⟩ => show win4_0.index t (0 : Fin 2) * 5000 + 1 * p.val = i.val; rw [e0, hi]; omega
  | ⟨1, _⟩ => show win4_0.index t (1 : Fin 2) * 128 + 1 * k.val = k.val; rw [e1]; omega

/-- The second window's block is its whole array at every point. -/
theorem weight_read (t : Fin cfg4.N) (k : Fin 128) (q : Fin 128) :
    (iblk4 V c 1 t : Vec Ideal S128x128 .f32) (ix2 k q) = (V c main_v113 : S128x128.Idx → Ideal .f32) (ix2 k q) := by
  obtain ⟨-, -, e0, e1, -⟩ := idx_facts t
  show V c main_v113 (((cfg4.win 1).blk t).view.emb (ix2 k q)) = V c main_v113 (ix2 k q)
  congr 1
  funext a; apply Fin.ext
  match a with
  | ⟨0, _⟩ => show win4_1.index t (0 : Fin 2) * 128 + 1 * k.val = k.val; rw [e0]; omega
  | ⟨1, _⟩ => show win4_1.index t (1 : Fin 2) * 128 + 1 * q.val = q.val; rw [e1]; omega

/-- So is the third window's. -/
theorem bias_read (t : Fin cfg4.N) (q : Fin 128) :
    (iblk4 V c 2 t : Vec Ideal S1x128 .f32) (ix2 (0 : Fin 1) q) = (V c main_v116 : S1x128.Idx → Ideal .f32) (ix2 (0 : Fin 1) q) := by
  obtain ⟨-, -, -, -, e0, e1, -⟩ := idx_facts t
  show V c main_v116 (((cfg4.win 2).blk t).view.emb (ix2 (0 : Fin 1) q)) = V c main_v116 (ix2 (0 : Fin 1) q)
  congr 1
  funext a; apply Fin.ext
  match a with
  | ⟨0, _⟩ => show win4_2.index t (0 : Fin 2) * 1 + 1 * (0 : Fin 1).val = (0 : Fin 1).val; rw [e0]; rfl
  | ⟨1, _⟩ => show win4_2.index t (1 : Fin 2) * 128 + 1 * q.val = q.val; rw [e1]; omega

/-- What point t writes back is block t of the dense layer of the arrays the region found. -/
theorem flushed_eq (b : Arr Ideal S128 .f32) (hb : V c main_v116 = row128 b) (t : Fin cfg4.N) :
    (dat4 V c).flushed 3 t
      = ((cfg4.win 3).blk t).view.read (Elt Ideal) (linear (F := Ideal) (V c main_v111) (V c main_v113) b) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 20 := lt_of_lt_of_eq t.isLt N_4
  obtain ⟨-, -, -, -, -, -, e0, e1⟩ := idx_facts t
  have hemb : ((cfg4.win 3).blk t).view.emb (ix2 p q) = ix2 (⟨5000 * t.val + p.val, by omega⟩ : Fin 100000) q := by
    funext a; apply Fin.ext
    match a with
    | ⟨0, _⟩ => show win4_3.index t (0 : Fin 2) * 5000 + 1 * p.val = 5000 * t.val + p.val; rw [e0]; omega
    | ⟨1, _⟩ => show win4_3.index t (1 : Fin 2) * 128 + 1 * q.val = q.val; rw [e1]; omega
  show k4_pay1 (iblk4 V c 0 t) (iblk4 V c 1 t) (iblk4 V c 2 t) (ix2 p q)
    = linear (F := Ideal) (V c main_v111) (V c main_v113) b (((cfg4.win 3).blk t).view.emb (ix2 p q))
  rw [hemb, pay_apply, linear_apply, bias_read V c t q, hb, row128_apply]
  refine congrArg (· + b (ix1 q)) (Finset.sum_congr rfl fun k _ => ?_)
  rw [rows_read V c t p k ⟨5000 * t.val + p.val, by omega⟩ rfl, weight_read V c t k q]

/-- An index of the output array is in point t's block iff each coordinate is in the block's range on its axis. -/
theorem mem_blk (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v117).slice (win4_3.rect t)).set ↔ _
  rw [View.set_slice_whole, Rect.mem_set_unit]
  exact Iff.rfl

end Region

/-- The output array after the region is the dense layer of the input arrays, the bias read as a one-row array. -/
theorem final (V : (c : Dev nD) → (b : Ref sig .tc) → Buf (Elt Ideal) ((c : Thread nD τ).loc b)) (c : Dev nD)
    (b : Arr Ideal S128 .f32) (hb : V c main_v116 = row128 b) :
    (dat4 V c).arrAt 3 cfg4.N = linear (F := Ideal) (V c main_v111) (V c main_v113) b :=
  (dat4 V c).arrAt_eq_of_cover 3 (linear (F := Ideal) (V c main_v111) (V c main_v113) b)
    (fun t _ => flushed_eq V c b hb t) fun i => by
      have hi0 : (i 0).val < 100000 := (i 0).isLt
      have hi1 : (i 1).val < 128 := (i 1).isLt
      have hN : (i 0).val / 5000 < cfg4.N := lt_of_lt_of_eq (show (i 0).val / 5000 < 20 by omega) N_4.symm
      obtain ⟨-, -, -, -, -, -, e0, e1⟩ := idx_facts ⟨(i 0).val / 5000, hN⟩
      refine ⟨⟨(i 0).val / 5000, hN⟩, flush4_3 _, ?_⟩
      rw [mem_blk]
      intro a
      match a with
      | ⟨0, _⟩ =>
        show win4_3.index ⟨(i 0).val / 5000, hN⟩ (0 : Fin 2) * 5000 ≤ (i 0).val ∧ (i 0).val < win4_3.index ⟨(i 0).val / 5000, hN⟩ (0 : Fin 2) * 5000 + 5000
        rw [e0]; show (i 0).val / 5000 * 5000 ≤ (i 0).val ∧ (i 0).val < (i 0).val / 5000 * 5000 + 5000; omega
      | ⟨1, _⟩ =>
        show win4_3.index ⟨(i 0).val / 5000, hN⟩ (1 : Fin 2) * 128 ≤ (i 1).val ∧ (i 1).val < win4_3.index ⟨(i 0).val / 5000, hN⟩ (1 : Fin 2) * 128 + 128
        rw [e1]; omega

end Cert.KernelIdeal.Lin4

end
-- ==== Proof.KBn5.lean ====
/-
  Region 5 (normalisation, rectifier, residual): a pointwise body over row blocks; the output array after the region is
  the pointwise function of the arrays it found, the four feature vectors read as one-row arrays.
-/
import proofs.«168068_j70480413327361_1_alg».proof.Proof.Gen.KernelIdeal.Frame
import proofs.«168068_j70480413327361_1_alg».proof.Proof.KStage
import Idealize.ShloMosaic.Lib.ValueIdx
import Idealize.ShloMosaic.Lib.Pipeline.Value
import Idealize.ShloMosaic.Lib.KernelVsHost

noncomputable section

namespace Cert.KernelIdeal.Bn5

open Cert.KernelIdeal Cert.KernelIdeal.Gen Cert.KernelIdeal.KStage Idealize.ShloMosaic Idealize.ShloMosaic.TcCoe Idealize.SL.Sem
open Cert.ReferenceIdeal.Stage (Arr embed norm aggregate linear mean variance normalize readout layer0 layer1 layer2 layer3 weight0 weight1 weight2 weight3 row0 row1 row2 row3)
open Idealize.ShloMosaic.ValueIdx Idealize.ShloMosaic.Pipeline

/-! ## One entry -/

/-- The normalisation of one entry `x` with its feature's mean `m`, variance `v`, scale `g` and shift `b`, the
    rectifier, and the residual `r`: `max((x - m) · (v + eps)^(-1/2) · g + b, 0) + r`. -/
def entry (x m v g b r : EReal) : EReal :=
  max ((x - m) * Ideal.rsqrt (v + Ideal.ofBits .f32 0x3727C5AC#32) * g + b) (Ideal.ofBits .f32 0x00000000#32) + r

/-- A one-row block laid along every row of a block of 5000 rows reads the row's entry of the same column. -/
theorem rowDown_apply (y : Vec Ideal S1x128 .f32) (p : Fin 5000) (q : Fin 128) :
    broadcastTo S5000x128 y broadcasts_S1x128_S5000x128 (ix2 p q) = y (ix2 (0 : Fin 1) q) := by
  refine broadcastTo_apply y broadcasts_S1x128_S5000x128 (ix2 p q) (ix2 (0 : Fin 1) q) ?_
  intro a
  match a with
  | ⟨0, _⟩ => rfl
  | ⟨1, _⟩ => rfl

/-- The body's stored block at an entry: the normalisation of that entry, the four one-row blocks read at its column. -/
theorem pay_apply (x0 x1 : Vec Ideal S5000x128 .f32) (m v g b : Vec Ideal S1x128 .f32) (p : Fin 5000) (q : Fin 128) :
    k5_pay1 x0 m v g b x1 (ix2 p q)
      = entry (x0 (ix2 p q)) (m (ix2 (0 : Fin 1) q)) (v (ix2 (0 : Fin 1) q)) (g (ix2 (0 : Fin 1) q)) (b (ix2 (0 : Fin 1) q)) (x1 (ix2 p q)) := by
  unfold k5_pay1 entry
  simp only [shapeCast_self]
  rw [addf_apply, maximumf_apply, addf_apply, mulf_apply, mulf_apply, subf_apply, broadcast_apply,
    rowDown_apply, rowDown_apply, rowDown_apply, rowDown_apply]
  rfl

/-! ## The whole-array function at an entry -/

/-- A feature vector laid along every row of the node array reads its entry of the same column. -/
theorem perFeature_apply (v : Arr Ideal S128 .f32) (r : Fin 100000) (q : Fin 128) :
    Cert.ReferenceIdeal.Stage.perFeature (F := Ideal) v (ix2 r q) = v (ix1 q) := by
  unfold Cert.ReferenceIdeal.Stage.perFeature
  rw [broadcastInDim_oneRow_apply]
  refine broadcastInDim_apply ![1] _ v (ix2 (0 : Fin 1) q) (ix1 q) ?_
  intro a
  match a with
  | ⟨0, _⟩ => rfl

/-- The normalisation of the node array at an entry. -/
theorem normalize_apply (x xin : Arr Ideal S100000x128 .f32) (mu var g be : Arr Ideal S128 .f32) (r : Fin 100000) (q : Fin 128) :
    normalize (F := Ideal) x xin mu var g be (ix2 r q)
      = entry (x (ix2 r q)) (mu (ix1 q)) (var (ix1 q)) (g (ix1 q)) (be (ix1 q)) (xin (ix2 r q)) := by
  unfold Cert.ReferenceIdeal.Stage.normalize entry
  rw [addf_apply, maximumf_apply, addf_apply, mulf_apply, mulf_apply, subf_apply,
    perFeature_apply, perFeature_apply, perFeature_apply, perFeature_apply]
  rfl

/-- A feature vector read as a one-row array has the vector's entries along its row. -/
theorem row128_apply (v : Arr Ideal S128 .f32) (q : Fin 128) : row128 v (ix2 (0 : Fin 1) q) = v (ix1 q) := by
  unfold row128
  refine shapeCast_apply v shapeCasts_S128_S1x128 (ix2 (0 : Fin 1) q) (ix1 q) ?_
  rw [Shape.rowMajor_val_two, Shape.rowMajor_val_one]
  show q.val = 0 * 128 + q.val
  omega

/-! ## The blocks -/

theorem zeros : (![0, 0] : Fin 2 → Nat) = fun _ => 0 := funext fun a => by fin_cases a <;> rfl

/-- The printed index maps over the grid: the three row-block windows are at block row `t` at point `t`, the four one-row
    windows stay at their one block. -/
theorem index_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- What the body leaves in the output's buffer, at an entry: the normalisation of the entry of the two row blocks, the
    four one-row blocks read at its column. -/
theorem out_apply (x0 x1 : Vec Ideal S5000x128 .f32) (x2 x3 x4 x5 : Vec Ideal S1x128 .f32) (p : Fin 5000) (q : Fin 128) :
    out5_6 (F := Ideal) x0 x1 x2 x3 x4 x5 (ix2 p q)
      = entry (x0 (ix2 p q)) (x2 (ix2 (0 : Fin 1) q)) (x3 (ix2 (0 : Fin 1) q)) (x4 (ix2 (0 : Fin 1) q)) (x5 (ix2 (0 : Fin 1) q)) (x1 (ix2 p q)) := by
  unfold out5_6
  rw [View.canon_unit_zero zeros]
  simp only [View.ld_unit_zero (S := S5000x128) zeros, View.ld_unit_zero (S := S1x128) zeros]
  exact pay_apply x0 x1 x2 x3 x4 x5 p q

section Region
variable (V : (c : Dev nD) → (b : Ref sig .tc) → Buf (Elt Ideal) ((c : Thread nD τ).loc b)) (c : Dev nD)

/-- Row block `t` of the first input array, at an entry: the array at row `5000 t + p`. -/
theorem blockX_apply (t : Fin cfg5.N) (p : Fin 5000) (q : Fin 128) (r : Fin 100000) (hr : r.val = t.val * 5000 + p.val) :
    (iblk5 V c 0 t : Vec Ideal S5000x128 .f32) (ix2 p q) = (V c main_v117 : Arr Ideal S100000x128 .f32) (ix2 r q) := by
  obtain ⟨e0, e1, -⟩ := index_facts t
  show V c main_v117 (((cfg5.win 0).blk t).view.emb (ix2 p q)) = V c main_v117 (ix2 r q)
  congr 1
  funext a; apply Fin.ext
  match a with
  | ⟨0, _⟩ => show win5_0.index t (0 : Fin 2) * 5000 + 1 * p.val = r.val; omega
  | ⟨1, _⟩ => show win5_0.index t (1 : Fin 2) * 128 + 1 * q.val = q.val; omega

/-- Row block `t` of the second input array, at an entry. -/
theorem blockR_apply (t : Fin cfg5.N) (p : Fin 5000) (q : Fin 128) (r : Fin 100000) (hr : r.val = t.val * 5000 + p.val) :
    (iblk5 V c 1 t : Vec Ideal S5000x128 .f32) (ix2 p q) = (V c main_v95 : Arr Ideal S100000x128 .f32) (ix2 r q) := by
  obtain ⟨-, -, e0, e1, -⟩ := index_facts t
  show V c main_v95 (((cfg5.win 1).blk t).view.emb (ix2 p q)) = V c main_v95 (ix2 r q)
  congr 1
  funext a; apply Fin.ext
  match a with
  | ⟨0, _⟩ => show win5_1.index t (0 : Fin 2) * 5000 + 1 * p.val = r.val; omega
  | ⟨1, _⟩ => show win5_1.index t (1 : Fin 2) * 128 + 1 * q.val = q.val; omega

/-- The one block of each one-row array, at an entry: the array's entry. -/
theorem rowMu_apply (t : Fin cfg5.N) (q : Fin 128) :
    (iblk5 V c 2 t : Vec Ideal S1x128 .f32) (ix2 (0 : Fin 1) q) = (V c main_v126 : Arr Ideal S1x128 .f32) (ix2 (0 : Fin 1) q) := by
  obtain ⟨-, -, -, -, e0, e1, -⟩ := index_facts t
  show V c main_v126 (((cfg5.win 2).blk t).view.emb (ix2 (0 : Fin 1) q)) = V c main_v126 (ix2 (0 : Fin 1) q)
  congr 1
  funext a; apply Fin.ext
  match a with
  | ⟨0, _⟩ => show win5_2.index t (0 : Fin 2) * 1 + 1 * 0 = 0; omega
  | ⟨1, _⟩ => show win5_2.index t (1 : Fin 2) * 128 + 1 * q.val = q.val; omega
theorem rowVar_apply (t : Fin cfg5.N) (q : Fin 128) :
    (iblk5 V c 3 t : Vec Ideal S1x128 .f32) (ix2 (0 : Fin 1) q) = (V c main_v127 : Arr Ideal S1x128 .f32) (ix2 (0 : Fin 1) q) := by
  obtain ⟨-, -, -, -, -, -, e0, e1, -⟩ := index_facts t
  show V c main_v127 (((cfg5.win 3).blk t).view.emb (ix2 (0 : Fin 1) q)) = V c main_v127 (ix2 (0 : Fin 1) q)
  congr 1
  funext a; apply Fin.ext
  match a with
  | ⟨0, _⟩ => show win5_3.index t (0 : Fin 2) * 1 + 1 * 0 = 0; omega
  | ⟨1, _⟩ => show win5_3.index t (1 : Fin 2) * 128 + 1 * q.val = q.val; omega
theorem rowG_apply (t : Fin cfg5.N) (q : Fin 128) :
    (iblk5 V c 4 t : Vec Ideal S1x128 .f32) (ix2 (0 : Fin 1) q) = (V c main_v128 : Arr Ideal S1x128 .f32) (ix2 (0 : Fin 1) q) := by
  obtain ⟨-, -, -, -, -, -, -, -, e0, e1, -⟩ := index_facts t
  show V c main_v128 (((cfg5.win 4).blk t).view.emb (ix2 (0 : Fin 1) q)) = V c main_v128 (ix2 (0 : Fin 1) q)
  congr 1
  funext a; apply Fin.ext
  match a with
  | ⟨0, _⟩ => show win5_4.index t (0 : Fin 2) * 1 + 1 * 0 = 0; omega
  | ⟨1, _⟩ => show win5_4.index t (1 : Fin 2) * 128 + 1 * q.val = q.val; omega
theorem rowBe_apply (t : Fin cfg5.N) (q : Fin 128) :
    (iblk5 V c 5 t : Vec Ideal S1x128 .f32) (ix2 (0 : Fin 1) q) = (V c main_v129 : Arr Ideal S1x128 .f32) (ix2 (0 : Fin 1) q) := by
  obtain ⟨-, -, -, -, -, -, -, -, -, -, e0, e1, -⟩ := index_facts t
  show V c main_v129 (((cfg5.win 5).blk t).view.emb (ix2 (0 : Fin 1) q)) = V c main_v129 (ix2 (0 : Fin 1) q)
  congr 1
  funext a; apply Fin.ext
  match a with
  | ⟨0, _⟩ => show win5_5.index t (0 : Fin 2) * 1 + 1 * 0 = 0; omega
  | ⟨1, _⟩ => show win5_5.index t (1 : Fin 2) * 128 + 1 * q.val = q.val; omega

/-- Where an entry of the output's block `t` sits in the output array: row `5000 t + p`, the same column. -/
theorem oblk_emb (t : Fin cfg5.N) (p : Fin 5000) (q : Fin 128) (r : Fin 100000) (hr : r.val = t.val * 5000 + p.val) :
    ((cfg5.win 6).blk t).view.emb (ix2 p q) = (ix2 r q : S100000x128.Idx) := by
  obtain ⟨-, -, -, -, -, -, -, -, -, -, -, -, e0, e1⟩ := index_facts t
  funext a; apply Fin.ext
  match a with
  | ⟨0, _⟩ => show win5_6.index t (0 : Fin 2) * 5000 + 1 * p.val = r.val; omega
  | ⟨1, _⟩ => show win5_6.index t (1 : Fin 2) * 128 + 1 * q.val = q.val; omega

/-- What point `t` writes back is block `t` of the normalisation of the whole arrays. -/
theorem flushed_eq (mu var g be : Arr Ideal S128 .f32) (hmu : V c main_v126 = row128 mu) (hvar : V c main_v127 = row128 var)
    (hg : V c main_v128 = row128 g) (hbe : V c main_v129 = row128 be) (t : Fin cfg5.N) :
    (dat5 V c).flushed 6 t = ((cfg5.win 6).blk t).view.read (Elt Ideal)
      (Cert.ReferenceIdeal.Stage.normalize (F := Ideal) (V c main_v117) (V c main_v95) mu var g be) := by
  show (cfg5.win 6).cut (grid5.coords t) ((dat5 V c).after 6 t) = _
  rw [after5_6]
  funext j
  obtain ⟨p, q, rfl⟩ : ∃ (p : Fin 5000) (q : Fin 128), j = ix2 p q := ⟨j 0, j 1, eq_ix2 j⟩
  have ht : t.val < 20 := lt_of_lt_of_eq t.isLt N_5
  have hp : p.val < 5000 := p.isLt
  obtain ⟨r, hr⟩ : ∃ r : Fin 100000, r.val = t.val * 5000 + p.val := ⟨⟨t.val * 5000 + p.val, by omega⟩, rfl⟩
  show out5_6 (F := Ideal) (iblk5 V c 0 t) (iblk5 V c 1 t) (iblk5 V c 2 t) (iblk5 V c 3 t) (iblk5 V c 4 t) (iblk5 V c 5 t) (ix2 p q)
    = Cert.ReferenceIdeal.Stage.normalize (F := Ideal) (V c main_v117) (V c main_v95) mu var g be (((cfg5.win 6).blk t).view.emb (ix2 p q))
  rw [oblk_emb t p q r hr, normalize_apply, out_apply,
    blockX_apply V c t p q r hr, blockR_apply V c t p q r hr, rowMu_apply V c t q, rowVar_apply V c t q, rowG_apply V c t q, rowBe_apply V c t q,
    hmu, hvar, hg, hbe, row128_apply, row128_apply, row128_apply, row128_apply]

end Region

section Array

/-- An index of the output array is in point `t`'s block iff each coordinate is in the block's range on its axis. -/
theorem mem_blk (t : Fin cfg5.N) (i : S100000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole main_v130).slice (win5_6.rect t)).set ↔ _
  rw [View.set_slice_whole, Rect.mem_set_unit]
  exact Iff.rfl

/-- Row `r` of the output array is in the block of point `r / 5000`: the twenty blocks cover the array. -/
theorem covered (i : S100000x128.Idx) :
    ∃ t : Fin cfg5.N, (cfg5.win 6).flush t = true ∧ i ∈ ((cfg5.win 6).blk t).view.set := by
  have h0 : (i 0).val < 100000 := (i 0).isLt
  have h1 : (i 1).val < 128 := (i 1).isLt
  obtain ⟨t, ht⟩ : ∃ t : Fin cfg5.N, t.val = (i 0).val / 5000 :=
    ⟨⟨(i 0).val / 5000, lt_of_lt_of_eq (by omega : (i 0).val / 5000 < 20) N_5.symm⟩, rfl⟩
  refine ⟨t, flush5_6 t, ?_⟩
  rw [mem_blk]
  obtain ⟨-, -, -, -, -, -, -, -, -, -, -, -, e0, e1⟩ := index_facts t
  intro a
  match a with
  | ⟨0, _⟩ =>
    show win5_6.index t (0 : Fin 2) * 5000 ≤ (i 0).val ∧ (i 0).val < win5_6.index t (0 : Fin 2) * 5000 + 5000
    omega
  | ⟨1, _⟩ =>
    show win5_6.index t (1 : Fin 2) * 128 ≤ (i 1).val ∧ (i 1).val < win5_6.index t (1 : Fin 2) * 128 + 128
    omega

end Array

/-- The output array after the region is the normalisation of the input arrays. -/
theorem final (V : (c : Dev nD) → (b : Ref sig .tc) → Buf (Elt Ideal) ((c : Thread nD τ).loc b)) (c : Dev nD)
    (mu var g be : Arr Ideal S128 .f32) (hmu : V c main_v126 = row128 mu) (hvar : V c main_v127 = row128 var)
    (hg : V c main_v128 = row128 g) (hbe : V c main_v129 = row128 be) :
    (dat5 V c).arrAt 6 cfg5.N = normalize (F := Ideal) (V c main_v117) (V c main_v95) mu var g be :=
  (dat5 V c).arrAt_eq_of_cover 6 (Cert.ReferenceIdeal.Stage.normalize (F := Ideal) (V c main_v117) (V c main_v95) mu var g be)
    (fun t _ => flushed_eq V c mu var g be hmu hvar hg hbe t) covered

end Cert.KernelIdeal.Bn5

end
-- ==== Proof.KChain2.lean ====
/-
  The kernel program's layer 2 (from the boundary after region 3 to the boundary after region 5): a host stretch for the
  message-passing step, region 4 the dense layer, host stretches for the batch statistics, region 5 the normalisation.
-/
import proofs.«168068_j70480413327361_1_alg».proof.Proof.Gen.KernelIdeal.Frame
import proofs.«168068_j70480413327361_1_alg».proof.Proof.KStage
import proofs.«168068_j70480413327361_1_alg».proof.Proof.KLin4
import proofs.«168068_j70480413327361_1_alg».proof.Proof.KBn5

noncomputable section

namespace Cert.KernelIdeal.Chain2

open Cert.KernelIdeal Cert.KernelIdeal.Gen Cert.KernelIdeal.KStage Idealize.ShloMosaic Idealize.ShloMosaic.TcCoe Idealize.SL.Sem
open Cert.ReferenceIdeal.Stage (Arr embed norm aggregate linear mean variance normalize readout layer0 layer1 layer2 layer3 weight0 weight1 weight2 weight3 row0 row1 row2 row3)

/-! ## The host stretches, over any buffer contents `U` and any float model -/

section Host

variable {F : FTy → Type} [FloatOps F] (U : Valuation τ sig (Elt F))

/-- The stretch before the dense layer leaves the message-passing step of the features in the layer's input, -/
theorem host_agg : StableHlo.after hostOps4 U (Proc.devRef .tc main_v111)
    = aggregate (F := F) (U (Proc.devRef .tc main_v95)) (U (Proc.devRef .tc main_v12)) (U (Proc.devRef .tc main_v18))
        (U (Proc.devRef .tc main_arg1)) (U (Proc.devRef .tc main_arg2)) := by
  after_results_simp <;> rfl

/-- the layer's weight matrix beside it, -/
theorem host_w : StableHlo.after hostOps4 U (Proc.devRef .tc main_v113) = weight2 (F := F) (U (Proc.devRef .tc main_arg4)) := by
  after_results_simp <;> rfl

/-- and the layer's bias as a one-row array. -/
theorem host_b : StableHlo.after hostOps4 U (Proc.devRef .tc main_v116)
    = shapeCast S1x128 (row2 (F := F) (U (Proc.devRef .tc main_arg5))) shapeCasts_S128_S1x128 := by
  after_results_simp <;> rfl

/-- It leaves the features themselves alone. -/
theorem host_x : StableHlo.after hostOps4 U (Proc.devRef .tc main_v95) = U (Proc.devRef .tc main_v95) := by
  after_results_simp

/-- The stretches before the normalisation leave the mean of the dense layer's output as a one-row array, -/
theorem stat_mu : StableHlo.after hostOps5_2 (StableHlo.after hostOps5_1 (StableHlo.after hostOps5 U)) (Proc.devRef .tc main_v126)
    = shapeCast S1x128 (mean (F := F) (U (Proc.devRef .tc main_v117))) shapeCasts_S128_S1x128 := by
  after_results_simp <;> (try simp only [StableHlo.TRef.ofBuf, StableHlo.TRef.toBuf, cast_eq]) <;> rfl

/-- its variance, -/
theorem stat_var : StableHlo.after hostOps5_2 (StableHlo.after hostOps5_1 (StableHlo.after hostOps5 U)) (Proc.devRef .tc main_v127)
    = shapeCast S1x128 (variance (F := F) (U (Proc.devRef .tc main_v117))) shapeCasts_S128_S1x128 := by
  after_results_simp <;> (try simp only [StableHlo.TRef.ofBuf, StableHlo.TRef.toBuf, cast_eq]) <;> rfl

/-- the layer's scale -/
theorem stat_g : StableHlo.after hostOps5_2 (StableHlo.after hostOps5_1 (StableHlo.after hostOps5 U)) (Proc.devRef .tc main_v128)
    = shapeCast S1x128 (row2 (F := F) (U (Proc.devRef .tc main_arg6))) shapeCasts_S128_S1x128 := by
  after_results_simp <;> (try simp only [StableHlo.TRef.ofBuf, StableHlo.TRef.toBuf, cast_eq]) <;> rfl

/-- and shift. -/
theorem stat_be : StableHlo.after hostOps5_2 (StableHlo.after hostOps5_1 (StableHlo.after hostOps5 U)) (Proc.devRef .tc main_v129)
    = shapeCast S1x128 (row2 (F := F) (U (Proc.devRef .tc main_arg7))) shapeCasts_S128_S1x128 := by
  after_results_simp <;> (try simp only [StableHlo.TRef.ofBuf, StableHlo.TRef.toBuf, cast_eq]) <;> rfl

/-- They leave the dense layer's output and the layer's input features alone. -/
theorem stat_p : StableHlo.after hostOps5_2 (StableHlo.after hostOps5_1 (StableHlo.after hostOps5 U)) (Proc.devRef .tc main_v117)
    = U (Proc.devRef .tc main_v117) := by
  after_results_simp
theorem stat_x : StableHlo.after hostOps5_2 (StableHlo.after hostOps5_1 (StableHlo.after hostOps5 U)) (Proc.devRef .tc main_v95)
    = U (Proc.devRef .tc main_v95) := by
  after_results_simp

end Host

/-! ## What the layer leaves alone -/

variable (m : (ℓ : Loc nD τ sig) → Buf (Elt Ideal) ℓ) (ρ : Dev nD → PrngReg) (c : Dev nD)

/-- `Keeps` at contents that agree, buffer by buffer, with contents at which it holds: the fourteen agreements are left open. -/
local macro "keeps_via " h:term : term =>
  `(KStage.Keeps.mk (Eq.trans ?_ ($h).ns) (Eq.trans ?_ ($h).nd) (Eq.trans ?_ ($h).a1) (Eq.trans ?_ ($h).a2) (Eq.trans ?_ ($h).a4)
      (Eq.trans ?_ ($h).a5) (Eq.trans ?_ ($h).a6) (Eq.trans ?_ ($h).a7) (Eq.trans ?_ ($h).a8) (Eq.trans ?_ ($h).a9)
      (Eq.trans ?_ ($h).a10) (Eq.trans ?_ ($h).a11) (Eq.trans ?_ ($h).a12) (Eq.trans ?_ ($h).a13))

/-- The stretch before the dense layer writes neither a norm nor an argument. -/
theorem keeps_host {U : Valuation τ sig (Elt Ideal)} (h : Keeps m c U) : Keeps m c (StableHlo.after hostOps4 U) := by
  refine keeps_via h <;> after_results_simp

/-- Neither does the dense layer's region: none of them is one of its arrays. -/
theorem keeps_lin (h : Keeps m c (W17 (F := Ideal) m ρ c)) : Keeps m c (W18 (F := Ideal) m ρ c) := by
  refine keeps_via h <;> exact W18_of_ne m ρ c _ (by decide)

/-- Neither do the stretches before the normalisation. -/
theorem keeps_stat {U : Valuation τ sig (Elt Ideal)} (h : Keeps m c U) :
    Keeps m c (StableHlo.after hostOps5_2 (StableHlo.after hostOps5_1 (StableHlo.after hostOps5 U))) := by
  refine keeps_via h <;> after_results_simp

/-- Neither does the normalisation's region. -/
theorem keeps_bn (h : Keeps m c (W21 (F := Ideal) m ρ c)) : Keeps m c (W22 (F := Ideal) m ρ c) := by
  refine keeps_via h <;> exact W22_of_ne m ρ c _ (by decide)

/-- The layer writes neither a norm nor an argument. -/
theorem keeps (h : Keeps m c (W16 (F := Ideal) m ρ c)) : Keeps m c (W22 (F := Ideal) m ρ c) := by
  exact keeps_bn m ρ c (keeps_stat m c (keeps_lin m ρ c (keeps_host m c h)))

/-! ## The features through the layer -/

/-- The dense layer's output: the region's whole-array function of what the stretch before it prepared. -/
theorem lin_out (X : Arr Ideal S100000x128 .f32) (ns nd : Arr Ideal S100000 .f32) (a1 a2 : Arr Ideal S1600000 .i32)
    (a4 : Arr Ideal S4x128x128 .f32) (a5 : Arr Ideal S4x128 .f32)
    (hx : W16 (F := Ideal) m ρ c (Proc.devRef .tc main_v95) = X)
    (hns : W16 (F := Ideal) m ρ c (Proc.devRef .tc main_v12) = ns) (hnd : W16 (F := Ideal) m ρ c (Proc.devRef .tc main_v18) = nd)
    (h1 : W16 (F := Ideal) m ρ c (Proc.devRef .tc main_arg1) = a1) (h2 : W16 (F := Ideal) m ρ c (Proc.devRef .tc main_arg2) = a2)
    (h4 : W16 (F := Ideal) m ρ c (Proc.devRef .tc main_arg4) = a4) (h5 : W16 (F := Ideal) m ρ c (Proc.devRef .tc main_arg5) = a5) :
    W18 (F := Ideal) m ρ c (Proc.devRef .tc main_v117)
      = linear (F := Ideal) (aggregate (F := Ideal) X ns nd a1 a2) (weight2 (F := Ideal) a4) (row2 (F := Ideal) a5) := by
  have hb : V17 (F := Ideal) m ρ c main_v116 = row128 (row2 (F := Ideal) a5) := by
    rw [← h5]; exact host_b (W16 m ρ c)
  refine (W18_arr m ρ c 3).trans ((Lin4.final (V17 m ρ) c _ hb).trans ?_)
  show linear (F := Ideal) (StableHlo.after hostOps4 (W16 m ρ c) (Proc.devRef .tc main_v111))
    (StableHlo.after hostOps4 (W16 m ρ c) (Proc.devRef .tc main_v113)) _ = _
  rw [host_agg, host_w, hx, hns, hnd, h1, h2, h4]

/-- The normalisation's output: the region's whole-array function of the dense layer's output, the layer's input and
    the statistics the stretches before it prepared. -/
theorem bn_out (P X : Arr Ideal S100000x128 .f32) (a6 a7 : Arr Ideal S4x128 .f32)
    (hP : W18 (F := Ideal) m ρ c (Proc.devRef .tc main_v117) = P) (hX : W18 (F := Ideal) m ρ c (Proc.devRef .tc main_v95) = X)
    (h6 : W18 (F := Ideal) m ρ c (Proc.devRef .tc main_arg6) = a6) (h7 : W18 (F := Ideal) m ρ c (Proc.devRef .tc main_arg7) = a7) :
    W22 (F := Ideal) m ρ c (Proc.devRef .tc main_v130)
      = normalize (F := Ideal) P X (mean (F := Ideal) P) (variance (F := Ideal) P) (row2 (F := Ideal) a6) (row2 (F := Ideal) a7) := by
  have hmu : V21 (F := Ideal) m ρ c main_v126 = row128 (mean (F := Ideal) P) := by
    rw [← hP]; exact stat_mu (W18 m ρ c)
  have hvar : V21 (F := Ideal) m ρ c main_v127 = row128 (variance (F := Ideal) P) := by
    rw [← hP]; exact stat_var (W18 m ρ c)
  have hg : V21 (F := Ideal) m ρ c main_v128 = row128 (row2 (F := Ideal) a6) := by
    rw [← h6]; exact stat_g (W18 m ρ c)
  have hbe : V21 (F := Ideal) m ρ c main_v129 = row128 (row2 (F := Ideal) a7) := by
    rw [← h7]; exact stat_be (W18 m ρ c)
  refine (W22_arr m ρ c 6).trans ((Bn5.final (V21 m ρ) c _ _ _ _ hmu hvar hg hbe).trans ?_)
  show normalize (F := Ideal)
    (StableHlo.after hostOps5_2 (StableHlo.after hostOps5_1 (StableHlo.after hostOps5 (W18 m ρ c))) (Proc.devRef .tc main_v117))
    (StableHlo.after hostOps5_2 (StableHlo.after hostOps5_1 (StableHlo.after hostOps5 (W18 m ρ c))) (Proc.devRef .tc main_v95))
    _ _ _ _ = _
  rw [stat_p, stat_x, hP, hX]

/-- The features after the layer are the layer function of the features before it. -/
theorem x (h : Keeps m c (W16 (F := Ideal) m ρ c)) (X : Arr Ideal S100000x128 .f32)
    (hx : W16 (F := Ideal) m ρ c (Proc.devRef .tc main_v95) = X) :
    W22 (F := Ideal) m ρ c (Proc.devRef .tc main_v130)
      = layer2 (F := Ideal) X (norm (F := Ideal) (m ((c : Thread nD τ).loc main_arg1))) (norm (F := Ideal) (m ((c : Thread nD τ).loc main_arg2))) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  have k := keeps_lin m ρ c (keeps_host m c h)
  exact bn_out m ρ c _ X _ _ (lin_out m ρ c X _ _ _ _ _ _ hx h.ns h.nd h.a1 h.a2 h.a4 h.a5)
    ((W18_of_ne m ρ c main_v95 (by decide)).trans ((host_x (W16 m ρ c)).trans hx)) k.a6 k.a7

end Cert.KernelIdeal.Chain2

end
-- ==== Proof.KLin6.lean ====
/-
  Region 6 (the dense layer): over its 20 row blocks the pipeline leaves in the output array the whole-array function
  a·w + b of the arrays it found, block t being rows 5000t … 5000t+4999 of that function.
-/
import proofs.«168068_j70480413327361_1_alg».proof.Proof.Gen.KernelIdeal.Frame
import proofs.«168068_j70480413327361_1_alg».proof.Proof.KStage
import Idealize.ShloMosaic.PureOps.Ideal.Laws
import Idealize.ShloMosaic.Lib.ValueIdx
import Idealize.ShloMosaic.Lib.Pipeline.Value

noncomputable section

namespace Cert.KernelIdeal.Lin6

open Cert.KernelIdeal Cert.KernelIdeal.Gen Cert.KernelIdeal.KStage Idealize.ShloMosaic Idealize.ShloMosaic.TcCoe Idealize.SL.Sem
open Cert.ReferenceIdeal.Stage (Arr embed norm aggregate linear mean variance normalize readout layer0 layer1 layer2 layer3 weight0 weight1 weight2 weight3 row0 row1 row2 row3)
open Idealize.ShloMosaic.ValueIdx
open Idealize.ShloMosaic.Pipeline (Dat)

/-! ## A rows-by-columns product at an entry -/

/-- The contraction of a rows-by-columns product (one contracted axis: the left operand's columns against the right
    operand's rows), re-indexed by the contracted coordinate: the sum over k of A(a, k) · B(k, b). -/
theorem sum_contr_eq {M K N : Nat} (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (⟨[1], [0], [0], [1], [], [], w⟩ : DotDims ⟨2, ![M, K]⟩ ⟨2, ![K, N]⟩ ⟨2, ![M, N]⟩).contr.Idx,
        A ((⟨[1], [0], [0], [1], [], [], w⟩ : DotDims ⟨2, ![M, K]⟩ ⟨2, ![K, N]⟩ ⟨2, ![M, N]⟩).lhsIdx (ix2 a b) k)
          * B ((⟨[1], [0], [0], [1], [], [], w⟩ : DotDims ⟨2, ![M, K]⟩ ⟨2, ![K, N]⟩ ⟨2, ![M, N]⟩).rhsIdx (ix2 a b) k)
      = ∑ c : Fin K, A (ix2 a c) * B (ix2 c b) := by
  rw [← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The body's payload at row p, column q of a block: the row of the first operand against the column of the second
    (the narrowing to sixteen bits is the identity on extended reals, the accumulator starts at zero), plus the one-row
    operand's entry in that column. -/
theorem pay_apply (x0 : Vec Ideal S5000x128 .f32) (x1 : Vec Ideal S128x128 .f32) (x2 : Vec Ideal S1x128 .f32)
    (p : Fin 5000) (q : Fin 128) :
    k6_pay1 x0 x1 x2 (ix2 p q) = (∑ k : Fin 128, x0 (ix2 p k) * x1 (ix2 k q)) + x2 (ix2 (0 : Fin 1) q) := by
  unfold k6_pay1
  rw [addf_apply, shapeCast_self, shapeCast_self, shapeCast_self]
  rw [broadcastTo_apply x2 _ (ix2 p q) (ix2 (0 : Fin 1) q)
    (fun a => by match a with | ⟨0, _⟩ => rfl | ⟨1, _⟩ => rfl)]
  simp only [matmul]
  rw [Ideal.matmul_constant_zero_apply]
  simp only [truncf_apply]
  exact congrArg (· + x2 (ix2 (0 : Fin 1) q)) (sum_contr_eq _ x0 x1 p q)

/-- The dense layer at row i, column q: row i of a against column q of w, plus b at q. -/
theorem linear_apply (a : Arr Ideal S100000x128 .f32) (w : Arr Ideal S128x128 .f32) (b : Arr Ideal S128 .f32)
    (i : Fin 100000) (q : Fin 128) :
    linear (F := Ideal) a w b (ix2 i q) = (∑ k : Fin 128, a (ix2 i k) * w (ix2 k q)) + b (ix1 q) := by
  unfold linear Cert.ReferenceIdeal.Stage.perFeature
  rw [addf_apply]
  rw [broadcastInDim_apply _ _ _ (ix2 i q) (ix2 (0 : Fin 1) q) (fun a => by match a with | ⟨0, _⟩ => rfl | ⟨1, _⟩ => rfl)]
  rw [broadcastInDim_apply _ _ b (ix2 (0 : Fin 1) q) (ix1 q) (fun a => by match a with | ⟨0, _⟩ => rfl)]
  simp only [Host.dotGeneral]
  rw [Ideal.dotGeneral_apply]
  exact congrArg (· + b (ix1 q)) (sum_contr_eq _ a w i q)

/-- A feature vector read as a one-row array, at column q. -/
theorem row128_apply (b : Arr Ideal S128 .f32) (q : Fin 128) : row128 b (ix2 (0 : Fin 1) q) = b (ix1 q) := by
  unfold row128
  exact shapeCast_apply b _ (ix2 (0 : Fin 1) q) (ix1 q) (by
    rw [Shape.rowMajor_val_one, Shape.rowMajor_val_two]; show q.val = 0 * 128 + q.val; omega)

/-! ## From the blocks to the array -/

section Region
variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps, decided over the grid: the row windows (0 and 3) are at row block t, the weight and the
    bias windows at block 0 throughout. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row p of the first window's block at point t is row 5000t + p of its array. -/
theorem rows_read (t : Fin cfg6.N) (p : Fin 5000) (k : Fin 128) (i : Fin 100000) (hi : i.val = 5000 * t.val + p.val) :
    (iblk6 V c 0 t : Vec Ideal S5000x128 .f32) (ix2 p k) = (V c main_v146 : S100000x128.Idx → Ideal .f32) (ix2 i k) := by
  obtain ⟨e0, e1, -⟩ := idx_facts t
  show V c main_v146 (((cfg6.win 0).blk t).view.emb (ix2 p k)) = V c main_v146 (ix2 i k)
  congr 1
  funext a; apply Fin.ext
  match a with
  | ⟨0, _⟩ => show win6_0.index t (0 : Fin 2) * 5000 + 1 * p.val = i.val; rw [e0, hi]; omega
  | ⟨1, _⟩ => show win6_0.index t (1 : Fin 2) * 128 + 1 * k.val = k.val; rw [e1]; omega

/-- The second window's block is its whole array at every point. -/
theorem weight_read (t : Fin cfg6.N) (k : Fin 128) (q : Fin 128) :
    (iblk6 V c 1 t : Vec Ideal S128x128 .f32) (ix2 k q) = (V c main_v148 : S128x128.Idx → Ideal .f32) (ix2 k q) := by
  obtain ⟨-, -, e0, e1, -⟩ := idx_facts t
  show V c main_v148 (((cfg6.win 1).blk t).view.emb (ix2 k q)) = V c main_v148 (ix2 k q)
  congr 1
  funext a; apply Fin.ext
  match a with
  | ⟨0, _⟩ => show win6_1.index t (0 : Fin 2) * 128 + 1 * k.val = k.val; rw [e0]; omega
  | ⟨1, _⟩ => show win6_1.index t (1 : Fin 2) * 128 + 1 * q.val = q.val; rw [e1]; omega

/-- So is the third window's. -/
theorem bias_read (t : Fin cfg6.N) (q : Fin 128) :
    (iblk6 V c 2 t : Vec Ideal S1x128 .f32) (ix2 (0 : Fin 1) q) = (V c main_v151 : S1x128.Idx → Ideal .f32) (ix2 (0 : Fin 1) q) := by
  obtain ⟨-, -, -, -, e0, e1, -⟩ := idx_facts t
  show V c main_v151 (((cfg6.win 2).blk t).view.emb (ix2 (0 : Fin 1) q)) = V c main_v151 (ix2 (0 : Fin 1) q)
  congr 1
  funext a; apply Fin.ext
  match a with
  | ⟨0, _⟩ => show win6_2.index t (0 : Fin 2) * 1 + 1 * (0 : Fin 1).val = (0 : Fin 1).val; rw [e0]; rfl
  | ⟨1, _⟩ => show win6_2.index t (1 : Fin 2) * 128 + 1 * q.val = q.val; rw [e1]; omega

/-- What point t writes back is block t of the dense layer of the arrays the region found. -/
theorem flushed_eq (b : Arr Ideal S128 .f32) (hb : V c main_v151 = row128 b) (t : Fin cfg6.N) :
    (dat6 V c).flushed 3 t
      = ((cfg6.win 3).blk t).view.read (Elt Ideal) (linear (F := Ideal) (V c main_v146) (V c main_v148) b) := by
  show (cfg6.win 3).cut (grid6.coords t) ((dat6 V c).after 3 t) = _
  rw [after6_3]
  unfold out6_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 20 := lt_of_lt_of_eq t.isLt N_6
  obtain ⟨-, -, -, -, -, -, e0, e1⟩ := idx_facts t
  have hemb : ((cfg6.win 3).blk t).view.emb (ix2 p q) = ix2 (⟨5000 * t.val + p.val, by omega⟩ : Fin 100000) q := by
    funext a; apply Fin.ext
    match a with
    | ⟨0, _⟩ => show win6_3.index t (0 : Fin 2) * 5000 + 1 * p.val = 5000 * t.val + p.val; rw [e0]; omega
    | ⟨1, _⟩ => show win6_3.index t (1 : Fin 2) * 128 + 1 * q.val = q.val; rw [e1]; omega
  show k6_pay1 (iblk6 V c 0 t) (iblk6 V c 1 t) (iblk6 V c 2 t) (ix2 p q)
    = linear (F := Ideal) (V c main_v146) (V c main_v148) b (((cfg6.win 3).blk t).view.emb (ix2 p q))
  rw [hemb, pay_apply, linear_apply, bias_read V c t q, hb, row128_apply]
  refine congrArg (· + b (ix1 q)) (Finset.sum_congr rfl fun k _ => ?_)
  rw [rows_read V c t p k ⟨5000 * t.val + p.val, by omega⟩ rfl, weight_read V c t k q]

/-- An index of the output array is in point t's block iff each coordinate is in the block's range on its axis. -/
theorem mem_blk (t : Fin cfg6.N) (i : S100000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v152).slice (win6_3.rect t)).set ↔ _
  rw [View.set_slice_whole, Rect.mem_set_unit]
  exact Iff.rfl

end Region

/-- The output array after the region is the dense layer of the input arrays, the bias read as a one-row array. -/
theorem final (V : (c : Dev nD) → (b : Ref sig .tc) → Buf (Elt Ideal) ((c : Thread nD τ).loc b)) (c : Dev nD)
    (b : Arr Ideal S128 .f32) (hb : V c main_v151 = row128 b) :
    (dat6 V c).arrAt 3 cfg6.N = linear (F := Ideal) (V c main_v146) (V c main_v148) b :=
  (dat6 V c).arrAt_eq_of_cover 3 (linear (F := Ideal) (V c main_v146) (V c main_v148) b)
    (fun t _ => flushed_eq V c b hb t) fun i => by
      have hi0 : (i 0).val < 100000 := (i 0).isLt
      have hi1 : (i 1).val < 128 := (i 1).isLt
      have hN : (i 0).val / 5000 < cfg6.N := lt_of_lt_of_eq (show (i 0).val / 5000 < 20 by omega) N_6.symm
      obtain ⟨-, -, -, -, -, -, e0, e1⟩ := idx_facts ⟨(i 0).val / 5000, hN⟩
      refine ⟨⟨(i 0).val / 5000, hN⟩, flush6_3 _, ?_⟩
      rw [mem_blk]
      intro a
      match a with
      | ⟨0, _⟩ =>
        show win6_3.index ⟨(i 0).val / 5000, hN⟩ (0 : Fin 2) * 5000 ≤ (i 0).val ∧ (i 0).val < win6_3.index ⟨(i 0).val / 5000, hN⟩ (0 : Fin 2) * 5000 + 5000
        rw [e0]; show (i 0).val / 5000 * 5000 ≤ (i 0).val ∧ (i 0).val < (i 0).val / 5000 * 5000 + 5000; omega
      | ⟨1, _⟩ =>
        show win6_3.index ⟨(i 0).val / 5000, hN⟩ (1 : Fin 2) * 128 ≤ (i 1).val ∧ (i 1).val < win6_3.index ⟨(i 0).val / 5000, hN⟩ (1 : Fin 2) * 128 + 128
        rw [e1]; omega

end Cert.KernelIdeal.Lin6

end
-- ==== Proof.KBn7.lean ====
/-
  Region 7 (normalisation, rectifier, residual): a pointwise body over row blocks; the output array after the region is
  the pointwise function of the arrays it found, the four feature vectors read as one-row arrays.
-/
import proofs.«168068_j70480413327361_1_alg».proof.Proof.Gen.KernelIdeal.Frame
import proofs.«168068_j70480413327361_1_alg».proof.Proof.KStage
import Idealize.ShloMosaic.Lib.ValueIdx
import Idealize.ShloMosaic.Lib.Pipeline.Value
import Idealize.ShloMosaic.Lib.KernelVsHost

noncomputable section

namespace Cert.KernelIdeal.Bn7

open Cert.KernelIdeal Cert.KernelIdeal.Gen Cert.KernelIdeal.KStage Idealize.ShloMosaic Idealize.ShloMosaic.TcCoe Idealize.SL.Sem
open Cert.ReferenceIdeal.Stage (Arr embed norm aggregate linear mean variance normalize readout layer0 layer1 layer2 layer3 weight0 weight1 weight2 weight3 row0 row1 row2 row3)
open Idealize.ShloMosaic.ValueIdx Idealize.ShloMosaic.Pipeline

/-! ## One entry -/

/-- The normalisation of one entry `x` with its feature's mean `m`, variance `v`, scale `g` and shift `b`, the
    rectifier, and the residual `r`: `max((x - m) · (v + eps)^(-1/2) · g + b, 0) + r`. -/
def entry (x m v g b r : EReal) : EReal :=
  max ((x - m) * Ideal.rsqrt (v + Ideal.ofBits .f32 0x3727C5AC#32) * g + b) (Ideal.ofBits .f32 0x00000000#32) + r

/-- A one-row block laid along every row of a block of 5000 rows reads the row's entry of the same column. -/
theorem rowDown_apply (y : Vec Ideal S1x128 .f32) (p : Fin 5000) (q : Fin 128) :
    broadcastTo S5000x128 y broadcasts_S1x128_S5000x128 (ix2 p q) = y (ix2 (0 : Fin 1) q) := by
  refine broadcastTo_apply y broadcasts_S1x128_S5000x128 (ix2 p q) (ix2 (0 : Fin 1) q) ?_
  intro a
  match a with
  | ⟨0, _⟩ => rfl
  | ⟨1, _⟩ => rfl

/-- The body's stored block at an entry: the normalisation of that entry, the four one-row blocks read at its column. -/
theorem pay_apply (x0 x1 : Vec Ideal S5000x128 .f32) (m v g b : Vec Ideal S1x128 .f32) (p : Fin 5000) (q : Fin 128) :
    k7_pay1 x0 m v g b x1 (ix2 p q)
      = entry (x0 (ix2 p q)) (m (ix2 (0 : Fin 1) q)) (v (ix2 (0 : Fin 1) q)) (g (ix2 (0 : Fin 1) q)) (b (ix2 (0 : Fin 1) q)) (x1 (ix2 p q)) := by
  unfold k7_pay1 entry
  simp only [shapeCast_self]
  rw [addf_apply, maximumf_apply, addf_apply, mulf_apply, mulf_apply, subf_apply, broadcast_apply,
    rowDown_apply, rowDown_apply, rowDown_apply, rowDown_apply]
  rfl

/-! ## The whole-array function at an entry -/

/-- A feature vector laid along every row of the node array reads its entry of the same column. -/
theorem perFeature_apply (v : Arr Ideal S128 .f32) (r : Fin 100000) (q : Fin 128) :
    Cert.ReferenceIdeal.Stage.perFeature (F := Ideal) v (ix2 r q) = v (ix1 q) := by
  unfold Cert.ReferenceIdeal.Stage.perFeature
  rw [broadcastInDim_oneRow_apply]
  refine broadcastInDim_apply ![1] _ v (ix2 (0 : Fin 1) q) (ix1 q) ?_
  intro a
  match a with
  | ⟨0, _⟩ => rfl

/-- The normalisation of the node array at an entry. -/
theorem normalize_apply (x xin : Arr Ideal S100000x128 .f32) (mu var g be : Arr Ideal S128 .f32) (r : Fin 100000) (q : Fin 128) :
    normalize (F := Ideal) x xin mu var g be (ix2 r q)
      = entry (x (ix2 r q)) (mu (ix1 q)) (var (ix1 q)) (g (ix1 q)) (be (ix1 q)) (xin (ix2 r q)) := by
  unfold Cert.ReferenceIdeal.Stage.normalize entry
  rw [addf_apply, maximumf_apply, addf_apply, mulf_apply, mulf_apply, subf_apply,
    perFeature_apply, perFeature_apply, perFeature_apply, perFeature_apply]
  rfl

/-- A feature vector read as a one-row array has the vector's entries along its row. -/
theorem row128_apply (v : Arr Ideal S128 .f32) (q : Fin 128) : row128 v (ix2 (0 : Fin 1) q) = v (ix1 q) := by
  unfold row128
  refine shapeCast_apply v shapeCasts_S128_S1x128 (ix2 (0 : Fin 1) q) (ix1 q) ?_
  rw [Shape.rowMajor_val_two, Shape.rowMajor_val_one]
  show q.val = 0 * 128 + q.val
  omega

/-! ## The blocks -/

theorem zeros : (![0, 0] : Fin 2 → Nat) = fun _ => 0 := funext fun a => by fin_cases a <;> rfl

/-- The printed index maps over the grid: the three row-block windows are at block row `t` at point `t`, the four one-row
    windows stay at their one block. -/
theorem index_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- What the body leaves in the output's buffer, at an entry: the normalisation of the entry of the two row blocks, the
    four one-row blocks read at its column. -/
theorem out_apply (x0 x1 : Vec Ideal S5000x128 .f32) (x2 x3 x4 x5 : Vec Ideal S1x128 .f32) (p : Fin 5000) (q : Fin 128) :
    out7_6 (F := Ideal) x0 x1 x2 x3 x4 x5 (ix2 p q)
      = entry (x0 (ix2 p q)) (x2 (ix2 (0 : Fin 1) q)) (x3 (ix2 (0 : Fin 1) q)) (x4 (ix2 (0 : Fin 1) q)) (x5 (ix2 (0 : Fin 1) q)) (x1 (ix2 p q)) := by
  unfold out7_6
  rw [View.canon_unit_zero zeros]
  simp only [View.ld_unit_zero (S := S5000x128) zeros, View.ld_unit_zero (S := S1x128) zeros]
  exact pay_apply x0 x1 x2 x3 x4 x5 p q

section Region
variable (V : (c : Dev nD) → (b : Ref sig .tc) → Buf (Elt Ideal) ((c : Thread nD τ).loc b)) (c : Dev nD)

/-- Row block `t` of the first input array, at an entry: the array at row `5000 t + p`. -/
theorem blockX_apply (t : Fin cfg7.N) (p : Fin 5000) (q : Fin 128) (r : Fin 100000) (hr : r.val = t.val * 5000 + p.val) :
    (iblk7 V c 0 t : Vec Ideal S5000x128 .f32) (ix2 p q) = (V c main_v152 : Arr Ideal S100000x128 .f32) (ix2 r q) := by
  obtain ⟨e0, e1, -⟩ := index_facts t
  show V c main_v152 (((cfg7.win 0).blk t).view.emb (ix2 p q)) = V c main_v152 (ix2 r q)
  congr 1
  funext a; apply Fin.ext
  match a with
  | ⟨0, _⟩ => show win7_0.index t (0 : Fin 2) * 5000 + 1 * p.val = r.val; omega
  | ⟨1, _⟩ => show win7_0.index t (1 : Fin 2) * 128 + 1 * q.val = q.val; omega

/-- Row block `t` of the second input array, at an entry. -/
theorem blockR_apply (t : Fin cfg7.N) (p : Fin 5000) (q : Fin 128) (r : Fin 100000) (hr : r.val = t.val * 5000 + p.val) :
    (iblk7 V c 1 t : Vec Ideal S5000x128 .f32) (ix2 p q) = (V c main_v130 : Arr Ideal S100000x128 .f32) (ix2 r q) := by
  obtain ⟨-, -, e0, e1, -⟩ := index_facts t
  show V c main_v130 (((cfg7.win 1).blk t).view.emb (ix2 p q)) = V c main_v130 (ix2 r q)
  congr 1
  funext a; apply Fin.ext
  match a with
  | ⟨0, _⟩ => show win7_1.index t (0 : Fin 2) * 5000 + 1 * p.val = r.val; omega
  | ⟨1, _⟩ => show win7_1.index t (1 : Fin 2) * 128 + 1 * q.val = q.val; omega

/-- The one block of each one-row array, at an entry: the array's entry. -/
theorem rowMu_apply (t : Fin cfg7.N) (q : Fin 128) :
    (iblk7 V c 2 t : Vec Ideal S1x128 .f32) (ix2 (0 : Fin 1) q) = (V c main_v161 : Arr Ideal S1x128 .f32) (ix2 (0 : Fin 1) q) := by
  obtain ⟨-, -, -, -, e0, e1, -⟩ := index_facts t
  show V c main_v161 (((cfg7.win 2).blk t).view.emb (ix2 (0 : Fin 1) q)) = V c main_v161 (ix2 (0 : Fin 1) q)
  congr 1
  funext a; apply Fin.ext
  match a with
  | ⟨0, _⟩ => show win7_2.index t (0 : Fin 2) * 1 + 1 * 0 = 0; omega
  | ⟨1, _⟩ => show win7_2.index t (1 : Fin 2) * 128 + 1 * q.val = q.val; omega
theorem rowVar_apply (t : Fin cfg7.N) (q : Fin 128) :
    (iblk7 V c 3 t : Vec Ideal S1x128 .f32) (ix2 (0 : Fin 1) q) = (V c main_v162 : Arr Ideal S1x128 .f32) (ix2 (0 : Fin 1) q) := by
  obtain ⟨-, -, -, -, -, -, e0, e1, -⟩ := index_facts t
  show V c main_v162 (((cfg7.win 3).blk t).view.emb (ix2 (0 : Fin 1) q)) = V c main_v162 (ix2 (0 : Fin 1) q)
  congr 1
  funext a; apply Fin.ext
  match a with
  | ⟨0, _⟩ => show win7_3.index t (0 : Fin 2) * 1 + 1 * 0 = 0; omega
  | ⟨1, _⟩ => show win7_3.index t (1 : Fin 2) * 128 + 1 * q.val = q.val; omega
theorem rowG_apply (t : Fin cfg7.N) (q : Fin 128) :
    (iblk7 V c 4 t : Vec Ideal S1x128 .f32) (ix2 (0 : Fin 1) q) = (V c main_v163 : Arr Ideal S1x128 .f32) (ix2 (0 : Fin 1) q) := by
  obtain ⟨-, -, -, -, -, -, -, -, e0, e1, -⟩ := index_facts t
  show V c main_v163 (((cfg7.win 4).blk t).view.emb (ix2 (0 : Fin 1) q)) = V c main_v163 (ix2 (0 : Fin 1) q)
  congr 1
  funext a; apply Fin.ext
  match a with
  | ⟨0, _⟩ => show win7_4.index t (0 : Fin 2) * 1 + 1 * 0 = 0; omega
  | ⟨1, _⟩ => show win7_4.index t (1 : Fin 2) * 128 + 1 * q.val = q.val; omega
theorem rowBe_apply (t : Fin cfg7.N) (q : Fin 128) :
    (iblk7 V c 5 t : Vec Ideal S1x128 .f32) (ix2 (0 : Fin 1) q) = (V c main_v164 : Arr Ideal S1x128 .f32) (ix2 (0 : Fin 1) q) := by
  obtain ⟨-, -, -, -, -, -, -, -, -, -, e0, e1, -⟩ := index_facts t
  show V c main_v164 (((cfg7.win 5).blk t).view.emb (ix2 (0 : Fin 1) q)) = V c main_v164 (ix2 (0 : Fin 1) q)
  congr 1
  funext a; apply Fin.ext
  match a with
  | ⟨0, _⟩ => show win7_5.index t (0 : Fin 2) * 1 + 1 * 0 = 0; omega
  | ⟨1, _⟩ => show win7_5.index t (1 : Fin 2) * 128 + 1 * q.val = q.val; omega

/-- Where an entry of the output's block `t` sits in the output array: row `5000 t + p`, the same column. -/
theorem oblk_emb (t : Fin cfg7.N) (p : Fin 5000) (q : Fin 128) (r : Fin 100000) (hr : r.val = t.val * 5000 + p.val) :
    ((cfg7.win 6).blk t).view.emb (ix2 p q) = (ix2 r q : S100000x128.Idx) := by
  obtain ⟨-, -, -, -, -, -, -, -, -, -, -, -, e0, e1⟩ := index_facts t
  funext a; apply Fin.ext
  match a with
  | ⟨0, _⟩ => show win7_6.index t (0 : Fin 2) * 5000 + 1 * p.val = r.val; omega
  | ⟨1, _⟩ => show win7_6.index t (1 : Fin 2) * 128 + 1 * q.val = q.val; omega

/-- What point `t` writes back is block `t` of the normalisation of the whole arrays. -/
theorem flushed_eq (mu var g be : Arr Ideal S128 .f32) (hmu : V c main_v161 = row128 mu) (hvar : V c main_v162 = row128 var)
    (hg : V c main_v163 = row128 g) (hbe : V c main_v164 = row128 be) (t : Fin cfg7.N) :
    (dat7 V c).flushed 6 t = ((cfg7.win 6).blk t).view.read (Elt Ideal)
      (Cert.ReferenceIdeal.Stage.normalize (F := Ideal) (V c main_v152) (V c main_v130) mu var g be) := by
  show (cfg7.win 6).cut (grid7.coords t) ((dat7 V c).after 6 t) = _
  rw [after7_6]
  funext j
  obtain ⟨p, q, rfl⟩ : ∃ (p : Fin 5000) (q : Fin 128), j = ix2 p q := ⟨j 0, j 1, eq_ix2 j⟩
  have ht : t.val < 20 := lt_of_lt_of_eq t.isLt N_7
  have hp : p.val < 5000 := p.isLt
  obtain ⟨r, hr⟩ : ∃ r : Fin 100000, r.val = t.val * 5000 + p.val := ⟨⟨t.val * 5000 + p.val, by omega⟩, rfl⟩
  show out7_6 (F := Ideal) (iblk7 V c 0 t) (iblk7 V c 1 t) (iblk7 V c 2 t) (iblk7 V c 3 t) (iblk7 V c 4 t) (iblk7 V c 5 t) (ix2 p q)
    = Cert.ReferenceIdeal.Stage.normalize (F := Ideal) (V c main_v152) (V c main_v130) mu var g be (((cfg7.win 6).blk t).view.emb (ix2 p q))
  rw [oblk_emb t p q r hr, normalize_apply, out_apply,
    blockX_apply V c t p q r hr, blockR_apply V c t p q r hr, rowMu_apply V c t q, rowVar_apply V c t q, rowG_apply V c t q, rowBe_apply V c t q,
    hmu, hvar, hg, hbe, row128_apply, row128_apply, row128_apply, row128_apply]

end Region

section Array

/-- An index of the output array is in point `t`'s block iff each coordinate is in the block's range on its axis. -/
theorem mem_blk (t : Fin cfg7.N) (i : S100000x128.Idx) :
    i ∈ ((cfg7.win 6).blk t).view.set ↔ ∀ a : Fin 2, win7_6.index t a * S5000x128.size a ≤ (i a).val
      ∧ (i a).val < win7_6.index t a * S5000x128.size a + S5000x128.size a := by
  show i ∈ ((View.whole main_v165).slice (win7_6.rect t)).set ↔ _
  rw [View.set_slice_whole, Rect.mem_set_unit]
  exact Iff.rfl

/-- Row `r` of the output array is in the block of point `r / 5000`: the twenty blocks cover the array. -/
theorem covered (i : S100000x128.Idx) :
    ∃ t : Fin cfg7.N, (cfg7.win 6).flush t = true ∧ i ∈ ((cfg7.win 6).blk t).view.set := by
  have h0 : (i 0).val < 100000 := (i 0).isLt
  have h1 : (i 1).val < 128 := (i 1).isLt
  obtain ⟨t, ht⟩ : ∃ t : Fin cfg7.N, t.val = (i 0).val / 5000 :=
    ⟨⟨(i 0).val / 5000, lt_of_lt_of_eq (by omega : (i 0).val / 5000 < 20) N_7.symm⟩, rfl⟩
  refine ⟨t, flush7_6 t, ?_⟩
  rw [mem_blk]
  obtain ⟨-, -, -, -, -, -, -, -, -, -, -, -, e0, e1⟩ := index_facts t
  intro a
  match a with
  | ⟨0, _⟩ =>
    show win7_6.index t (0 : Fin 2) * 5000 ≤ (i 0).val ∧ (i 0).val < win7_6.index t (0 : Fin 2) * 5000 + 5000
    omega
  | ⟨1, _⟩ =>
    show win7_6.index t (1 : Fin 2) * 128 ≤ (i 1).val ∧ (i 1).val < win7_6.index t (1 : Fin 2) * 128 + 128
    omega

end Array

/-- The output array after the region is the normalisation of the input arrays. -/
theorem final (V : (c : Dev nD) → (b : Ref sig .tc) → Buf (Elt Ideal) ((c : Thread nD τ).loc b)) (c : Dev nD)
    (mu var g be : Arr Ideal S128 .f32) (hmu : V c main_v161 = row128 mu) (hvar : V c main_v162 = row128 var)
    (hg : V c main_v163 = row128 g) (hbe : V c main_v164 = row128 be) :
    (dat7 V c).arrAt 6 cfg7.N = normalize (F := Ideal) (V c main_v152) (V c main_v130) mu var g be :=
  (dat7 V c).arrAt_eq_of_cover 6 (Cert.ReferenceIdeal.Stage.normalize (F := Ideal) (V c main_v152) (V c main_v130) mu var g be)
    (fun t _ => flushed_eq V c mu var g be hmu hvar hg hbe t) covered

end Cert.KernelIdeal.Bn7

end
-- ==== Proof.KChain3.lean ====
/-
  The kernel program's layer 3 (from the boundary after region 5 to the boundary after region 7): a host stretch for the
  message-passing step, region 6 the dense layer, host stretches for the batch statistics, region 7 the normalisation.
-/
import proofs.«168068_j70480413327361_1_alg».proof.Proof.Gen.KernelIdeal.Frame
import proofs.«168068_j70480413327361_1_alg».proof.Proof.KStage
import proofs.«168068_j70480413327361_1_alg».proof.Proof.KLin6
import proofs.«168068_j70480413327361_1_alg».proof.Proof.KBn7

noncomputable section

namespace Cert.KernelIdeal.Chain3

open Cert.KernelIdeal Cert.KernelIdeal.Gen Cert.KernelIdeal.KStage Idealize.ShloMosaic Idealize.ShloMosaic.TcCoe Idealize.SL.Sem
open Cert.ReferenceIdeal.Stage (Arr embed norm aggregate linear mean variance normalize readout layer0 layer1 layer2 layer3 weight0 weight1 weight2 weight3 row0 row1 row2 row3)

/-! ## The host stretches, over any buffer contents `U` and any float model -/

section Host

variable {F : FTy → Type} [FloatOps F] (U : Valuation τ sig (Elt F))

/-- The stretch before the dense layer leaves the message-passing step of the features in the layer's input, -/
theorem host_agg : StableHlo.after hostOps6 U (Proc.devRef .tc main_v146)
    = aggregate (F := F) (U (Proc.devRef .tc main_v130)) (U (Proc.devRef .tc main_v12)) (U (Proc.devRef .tc main_v18))
        (U (Proc.devRef .tc main_arg1)) (U (Proc.devRef .tc main_arg2)) := by
  after_results_simp <;> rfl

/-- the layer's weight matrix beside it, -/
theorem host_w : StableHlo.after hostOps6 U (Proc.devRef .tc main_v148) = weight3 (F := F) (U (Proc.devRef .tc main_arg4)) := by
  after_results_simp <;> rfl

/-- and the layer's bias as a one-row array. -/
theorem host_b : StableHlo.after hostOps6 U (Proc.devRef .tc main_v151)
    = shapeCast S1x128 (row3 (F := F) (U (Proc.devRef .tc main_arg5))) shapeCasts_S128_S1x128 := by
  after_results_simp <;> rfl

/-- It leaves the features themselves alone. -/
theorem host_x : StableHlo.after hostOps6 U (Proc.devRef .tc main_v130) = U (Proc.devRef .tc main_v130) := by
  after_results_simp

/-- The stretches before the normalisation leave the mean of the dense layer's output as a one-row array, -/
theorem stat_mu : StableHlo.after hostOps7_2 (StableHlo.after hostOps7_1 (StableHlo.after hostOps7 U)) (Proc.devRef .tc main_v161)
    = shapeCast S1x128 (mean (F := F) (U (Proc.devRef .tc main_v152))) shapeCasts_S128_S1x128 := by
  after_results_simp <;> (try simp only [StableHlo.TRef.ofBuf, StableHlo.TRef.toBuf, cast_eq]) <;> rfl

/-- its variance, -/
theorem stat_var : StableHlo.after hostOps7_2 (StableHlo.after hostOps7_1 (StableHlo.after hostOps7 U)) (Proc.devRef .tc main_v162)
    = shapeCast S1x128 (variance (F := F) (U (Proc.devRef .tc main_v152))) shapeCasts_S128_S1x128 := by
  after_results_simp <;> (try simp only [StableHlo.TRef.ofBuf, StableHlo.TRef.toBuf, cast_eq]) <;> rfl

/-- the layer's scale -/
theorem stat_g : StableHlo.after hostOps7_2 (StableHlo.after hostOps7_1 (StableHlo.after hostOps7 U)) (Proc.devRef .tc main_v163)
    = shapeCast S1x128 (row3 (F := F) (U (Proc.devRef .tc main_arg6))) shapeCasts_S128_S1x128 := by
  after_results_simp <;> (try simp only [StableHlo.TRef.ofBuf, StableHlo.TRef.toBuf, cast_eq]) <;> rfl

/-- and shift. -/
theorem stat_be : StableHlo.after hostOps7_2 (StableHlo.after hostOps7_1 (StableHlo.after hostOps7 U)) (Proc.devRef .tc main_v164)
    = shapeCast S1x128 (row3 (F := F) (U (Proc.devRef .tc main_arg7))) shapeCasts_S128_S1x128 := by
  after_results_simp <;> (try simp only [StableHlo.TRef.ofBuf, StableHlo.TRef.toBuf, cast_eq]) <;> rfl

/-- They leave the dense layer's output and the layer's input features alone. -/
theorem stat_p : StableHlo.after hostOps7_2 (StableHlo.after hostOps7_1 (StableHlo.after hostOps7 U)) (Proc.devRef .tc main_v152)
    = U (Proc.devRef .tc main_v152) := by
  after_results_simp
theorem stat_x : StableHlo.after hostOps7_2 (StableHlo.after hostOps7_1 (StableHlo.after hostOps7 U)) (Proc.devRef .tc main_v130)
    = U (Proc.devRef .tc main_v130) := by
  after_results_simp

end Host

/-! ## What the layer leaves alone -/

variable (m : (ℓ : Loc nD τ sig) → Buf (Elt Ideal) ℓ) (ρ : Dev nD → PrngReg) (c : Dev nD)

/-- `Keeps` at contents that agree, buffer by buffer, with contents at which it holds: the fourteen agreements are left open. -/
local macro "keeps_via " h:term : term =>
  `(KStage.Keeps.mk (Eq.trans ?_ ($h).ns) (Eq.trans ?_ ($h).nd) (Eq.trans ?_ ($h).a1) (Eq.trans ?_ ($h).a2) (Eq.trans ?_ ($h).a4)
      (Eq.trans ?_ ($h).a5) (Eq.trans ?_ ($h).a6) (Eq.trans ?_ ($h).a7) (Eq.trans ?_ ($h).a8) (Eq.trans ?_ ($h).a9)
      (Eq.trans ?_ ($h).a10) (Eq.trans ?_ ($h).a11) (Eq.trans ?_ ($h).a12) (Eq.trans ?_ ($h).a13))

/-- The stretch before the dense layer writes neither a norm nor an argument. -/
theorem keeps_host {U : Valuation τ sig (Elt Ideal)} (h : Keeps m c U) : Keeps m c (StableHlo.after hostOps6 U) := by
  refine keeps_via h <;> after_results_simp

/-- Neither does the dense layer's region: none of them is one of its arrays. -/
theorem keeps_lin (h : Keeps m c (W23 (F := Ideal) m ρ c)) : Keeps m c (W24 (F := Ideal) m ρ c) := by
  refine keeps_via h <;> exact W24_of_ne m ρ c _ (by decide)

/-- Neither do the stretches before the normalisation. -/
theorem keeps_stat {U : Valuation τ sig (Elt Ideal)} (h : Keeps m c U) :
    Keeps m c (StableHlo.after hostOps7_2 (StableHlo.after hostOps7_1 (StableHlo.after hostOps7 U))) := by
  refine keeps_via h <;> after_results_simp

/-- Neither does the normalisation's region. -/
theorem keeps_bn (h : Keeps m c (W27 (F := Ideal) m ρ c)) : Keeps m c (W28 (F := Ideal) m ρ c) := by
  refine keeps_via h <;> exact W28_of_ne m ρ c _ (by decide)

/-- The layer writes neither a norm nor an argument. -/
theorem keeps (h : Keeps m c (W22 (F := Ideal) m ρ c)) : Keeps m c (W28 (F := Ideal) m ρ c) := by
  exact keeps_bn m ρ c (keeps_stat m c (keeps_lin m ρ c (keeps_host m c h)))

/-! ## The features through the layer -/

/-- The dense layer's output: the region's whole-array function of what the stretch before it prepared. -/
theorem lin_out (X : Arr Ideal S100000x128 .f32) (ns nd : Arr Ideal S100000 .f32) (a1 a2 : Arr Ideal S1600000 .i32)
    (a4 : Arr Ideal S4x128x128 .f32) (a5 : Arr Ideal S4x128 .f32)
    (hx : W22 (F := Ideal) m ρ c (Proc.devRef .tc main_v130) = X)
    (hns : W22 (F := Ideal) m ρ c (Proc.devRef .tc main_v12) = ns) (hnd : W22 (F := Ideal) m ρ c (Proc.devRef .tc main_v18) = nd)
    (h1 : W22 (F := Ideal) m ρ c (Proc.devRef .tc main_arg1) = a1) (h2 : W22 (F := Ideal) m ρ c (Proc.devRef .tc main_arg2) = a2)
    (h4 : W22 (F := Ideal) m ρ c (Proc.devRef .tc main_arg4) = a4) (h5 : W22 (F := Ideal) m ρ c (Proc.devRef .tc main_arg5) = a5) :
    W24 (F := Ideal) m ρ c (Proc.devRef .tc main_v152)
      = linear (F := Ideal) (aggregate (F := Ideal) X ns nd a1 a2) (weight3 (F := Ideal) a4) (row3 (F := Ideal) a5) := by
  have hb : V23 (F := Ideal) m ρ c main_v151 = row128 (row3 (F := Ideal) a5) := by
    rw [← h5]; exact host_b (W22 m ρ c)
  refine (W24_arr m ρ c 3).trans ((Lin6.final (V23 m ρ) c _ hb).trans ?_)
  show linear (F := Ideal) (StableHlo.after hostOps6 (W22 m ρ c) (Proc.devRef .tc main_v146))
    (StableHlo.after hostOps6 (W22 m ρ c) (Proc.devRef .tc main_v148)) _ = _
  rw [host_agg, host_w, hx, hns, hnd, h1, h2, h4]

/-- The normalisation's output: the region's whole-array function of the dense layer's output, the layer's input and
    the statistics the stretches before it prepared. -/
theorem bn_out (P X : Arr Ideal S100000x128 .f32) (a6 a7 : Arr Ideal S4x128 .f32)
    (hP : W24 (F := Ideal) m ρ c (Proc.devRef .tc main_v152) = P) (hX : W24 (F := Ideal) m ρ c (Proc.devRef .tc main_v130) = X)
    (h6 : W24 (F := Ideal) m ρ c (Proc.devRef .tc main_arg6) = a6) (h7 : W24 (F := Ideal) m ρ c (Proc.devRef .tc main_arg7) = a7) :
    W28 (F := Ideal) m ρ c (Proc.devRef .tc main_v165)
      = normalize (F := Ideal) P X (mean (F := Ideal) P) (variance (F := Ideal) P) (row3 (F := Ideal) a6) (row3 (F := Ideal) a7) := by
  have hmu : V27 (F := Ideal) m ρ c main_v161 = row128 (mean (F := Ideal) P) := by
    rw [← hP]; exact stat_mu (W24 m ρ c)
  have hvar : V27 (F := Ideal) m ρ c main_v162 = row128 (variance (F := Ideal) P) := by
    rw [← hP]; exact stat_var (W24 m ρ c)
  have hg : V27 (F := Ideal) m ρ c main_v163 = row128 (row3 (F := Ideal) a6) := by
    rw [← h6]; exact stat_g (W24 m ρ c)
  have hbe : V27 (F := Ideal) m ρ c main_v164 = row128 (row3 (F := Ideal) a7) := by
    rw [← h7]; exact stat_be (W24 m ρ c)
  refine (W28_arr m ρ c 6).trans ((Bn7.final (V27 m ρ) c _ _ _ _ hmu hvar hg hbe).trans ?_)
  show normalize (F := Ideal)
    (StableHlo.after hostOps7_2 (StableHlo.after hostOps7_1 (StableHlo.after hostOps7 (W24 m ρ c))) (Proc.devRef .tc main_v152))
    (StableHlo.after hostOps7_2 (StableHlo.after hostOps7_1 (StableHlo.after hostOps7 (W24 m ρ c))) (Proc.devRef .tc main_v130))
    _ _ _ _ = _
  rw [stat_p, stat_x, hP, hX]

/-- The features after the layer are the layer function of the features before it. -/
theorem x (h : Keeps m c (W22 (F := Ideal) m ρ c)) (X : Arr Ideal S100000x128 .f32)
    (hx : W22 (F := Ideal) m ρ c (Proc.devRef .tc main_v130) = X) :
    W28 (F := Ideal) m ρ c (Proc.devRef .tc main_v165)
      = layer3 (F := Ideal) X (norm (F := Ideal) (m ((c : Thread nD τ).loc main_arg1))) (norm (F := Ideal) (m ((c : Thread nD τ).loc main_arg2))) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  have k := keeps_lin m ρ c (keeps_host m c h)
  exact bn_out m ρ c _ X _ _ (lin_out m ρ c X _ _ _ _ _ _ hx h.ns h.nd h.a1 h.a2 h.a4 h.a5)
    ((W24_of_ne m ρ c main_v130 (by decide)).trans ((host_x (W22 m ρ c)).trans hx)) k.a6 k.a7

end Cert.KernelIdeal.Chain3

end
-- ==== Proof.KMlp8.lean ====
/-
  Region 8 (the readout): three dense layers with rectifiers between them, over row blocks; the output array after the
  region is the readout of the arrays it found, the three bias vectors read as one-row arrays.
-/
import proofs.«168068_j70480413327361_1_alg».proof.Proof.Gen.KernelIdeal.Frame
import proofs.«168068_j70480413327361_1_alg».proof.Proof.KStage
import Idealize.ShloMosaic.Lib.StackMember
import Idealize.ShloMosaic.Lib.ValueLayout

noncomputable section

namespace Cert.KernelIdeal.Mlp8

open Cert.KernelIdeal Cert.KernelIdeal.Gen Cert.KernelIdeal.KStage Idealize.ShloMosaic Idealize.ShloMosaic.TcCoe Idealize.SL.Sem
open Cert.ReferenceIdeal.Stage (Arr embed norm aggregate linear mean variance normalize readout layer0 layer1 layer2 layer3 weight0 weight1 weight2 weight3 row0 row1 row2 row3)
open Idealize.ShloMosaic.ValueIdx Idealize.ShloMosaic.StackMember
open scoped BigOperators

/-! ## One dense layer, row by row

The kernel multiplies a row block by the weight matrix into a zero accumulator and adds the bias laid along every row from
its one-row form; the host multiplies the whole array and adds the bias broadcast through a one-row array. Where a row of the
block is a row of the array, the two results agree on that row. -/

section Dense
variable {m M k n : Nat}

/-- A block product into the zero accumulator, read at (a, b): the sum over the contracted coordinate. -/
theorem matmul_rows (w : DotDims.WF ⟨2, ![m, k]⟩ ⟨2, ![k, n]⟩ ⟨2, ![m, n]⟩ [1] [0] [0] [1] [] []) {φ₁ φ₂ : FTy}
    (A : FVec Ideal ⟨2, ![m, k]⟩ φ₁) (B : FVec Ideal ⟨2, ![k, n]⟩ φ₂) (a : Fin m) (b : Fin n) :
    matmul (⟨[1], [0], [0], [1], [], [], w⟩ : DotDims _ _ _) none A B (constant ⟨2, ![m, n]⟩ .f32 0x00000000#32) (ix2 a b)
      = ∑ c : Fin k, A (ix2 a c) * B (ix2 c b) :=
  (congrFun (matmul_zero_eq_dotGeneral _ none A B) (ix2 a b)).trans (dotGeneral_plain_apply none A B a b)

/-- The host's product of the same shape, read at (a, b). -/
theorem dot_rows (w : DotDims.WF ⟨2, ![m, k]⟩ ⟨2, ![k, n]⟩ ⟨2, ![m, n]⟩ [1] [0] [0] [1] [] []) {φ₁ φ₂ : FTy}
    (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) none A B (ix2 a b)
      = ∑ c : Fin k, A (ix2 a c) * B (ix2 c b) :=
  dotGeneral_plain_apply none A B a b

/-- The bias as the kernel lays it along the rows, read at (p, q): entry q of the vector. -/
theorem bias_block (b : FVec Ideal ⟨1, ![n]⟩ .f32) (h1 : (⟨1, ![n]⟩ : Shape).ShapeCasts ⟨2, ![1, n]⟩)
    (h2 : (⟨2, ![1, n]⟩ : Shape).ShapeCasts ⟨2, ![1, n]⟩) (hb : (⟨2, ![1, n]⟩ : Shape).Broadcasts ⟨2, ![m, n]⟩) (p : Fin m) (q : Fin n) :
    broadcastTo ⟨2, ![m, n]⟩ (shapeCast ⟨2, ![1, n]⟩ (shapeCast ⟨2, ![1, n]⟩ b h1) h2) hb (ix2 p q) = b (ix1 q) := by
  rw [shapeCast_self, broadcastTo_1b_ab_apply, shapeCast_a_1a_apply]

/-- The bias as the host broadcasts it, read at (r, q): entry q of the vector. -/
theorem bias_array (b : FVec Ideal ⟨1, ![n]⟩ .f32) (hd1 : (⟨1, ![n]⟩ : Shape).BroadcastsInDim ⟨2, ![1, n]⟩ ![1])
    (hd2 : (⟨2, ![1, n]⟩ : Shape).BroadcastsInDim ⟨2, ![M, n]⟩ ![0, 1]) (r : Fin M) (q : Fin n) :
    broadcastInDim ⟨2, ![M, n]⟩ ![0, 1] hd2 (broadcastInDim ⟨2, ![1, n]⟩ ![1] hd1 b) (ix2 r q) = b (ix1 q) := by
  rw [broadcastInDim_oneRow_apply]
  refine broadcastInDim_apply ![1] hd1 b (ix2 (0 : Fin 1) q) (ix1 q) fun a => ?_
  match a with
  | ⟨0, _⟩ =>
    show q.val = if n = 1 then 0 else q.val
    split
    · have := q.isLt; omega
    · rfl

/-- The dense layer on a row: the kernel's on row p of a block and the host's on row r of the array agree when the two rows do. -/
theorem dense_row (wk : DotDims.WF ⟨2, ![m, k]⟩ ⟨2, ![k, n]⟩ ⟨2, ![m, n]⟩ [1] [0] [0] [1] [] [])
    (wr : DotDims.WF ⟨2, ![M, k]⟩ ⟨2, ![k, n]⟩ ⟨2, ![M, n]⟩ [1] [0] [0] [1] [] [])
    (a : FVec Ideal ⟨2, ![m, k]⟩ .f32) (A : FVec Ideal ⟨2, ![M, k]⟩ .f32) (W : FVec Ideal ⟨2, ![k, n]⟩ .f32) (b : FVec Ideal ⟨1, ![n]⟩ .f32)
    (hlt : FTy.bf16.bits < FTy.f32.bits)
    (h1 : (⟨1, ![n]⟩ : Shape).ShapeCasts ⟨2, ![1, n]⟩) (h2 : (⟨2, ![1, n]⟩ : Shape).ShapeCasts ⟨2, ![1, n]⟩)
    (hb : (⟨2, ![1, n]⟩ : Shape).Broadcasts ⟨2, ![m, n]⟩)
    (hd1 : (⟨1, ![n]⟩ : Shape).BroadcastsInDim ⟨2, ![1, n]⟩ ![1]) (hd2 : (⟨2, ![1, n]⟩ : Shape).BroadcastsInDim ⟨2, ![M, n]⟩ ![0, 1])
    (p : Fin m) (r : Fin M) (hrow : ∀ c : Fin k, a (ix2 p c) = A (ix2 r c)) (q : Fin n) :
    addf (matmul (⟨[1], [0], [0], [1], [], [], wk⟩ : DotDims _ _ _) none (truncf .bf16 a hlt) (truncf .bf16 W hlt) (constant ⟨2, ![m, n]⟩ .f32 0x00000000#32))
        (broadcastTo ⟨2, ![m, n]⟩ (shapeCast ⟨2, ![1, n]⟩ (shapeCast ⟨2, ![1, n]⟩ b h1) h2) hb) (ix2 p q)
      = addf (Host.dotGeneral (⟨[1], [0], [0], [1], [], [], wr⟩ : DotDims _ _ _) none A W)
        (broadcastInDim ⟨2, ![M, n]⟩ ![0, 1] hd2 (broadcastInDim ⟨2, ![1, n]⟩ ![1] hd1 b)) (ix2 r q) := by
  rw [addf_apply, addf_apply, matmul_rows, dot_rows, bias_block, bias_array]
  refine congrArg (· + b (ix1 q)) (Finset.sum_congr rfl fun c _ => ?_)
  rw [truncf_apply, truncf_apply, hrow c]

/-- The same followed by the rectifier. -/
theorem dense_relu_row (wk : DotDims.WF ⟨2, ![m, k]⟩ ⟨2, ![k, n]⟩ ⟨2, ![m, n]⟩ [1] [0] [0] [1] [] [])
    (wr : DotDims.WF ⟨2, ![M, k]⟩ ⟨2, ![k, n]⟩ ⟨2, ![M, n]⟩ [1] [0] [0] [1] [] [])
    (a : FVec Ideal ⟨2, ![m, k]⟩ .f32) (A : FVec Ideal ⟨2, ![M, k]⟩ .f32) (W : FVec Ideal ⟨2, ![k, n]⟩ .f32) (b : FVec Ideal ⟨1, ![n]⟩ .f32)
    (hlt : FTy.bf16.bits < FTy.f32.bits)
    (h1 : (⟨1, ![n]⟩ : Shape).ShapeCasts ⟨2, ![1, n]⟩) (h2 : (⟨2, ![1, n]⟩ : Shape).ShapeCasts ⟨2, ![1, n]⟩)
    (hb : (⟨2, ![1, n]⟩ : Shape).Broadcasts ⟨2, ![m, n]⟩)
    (hd1 : (⟨1, ![n]⟩ : Shape).BroadcastsInDim ⟨2, ![1, n]⟩ ![1]) (hd2 : (⟨2, ![1, n]⟩ : Shape).BroadcastsInDim ⟨2, ![M, n]⟩ ![0, 1])
    (hz : (⟨0, ![]⟩ : Shape).BroadcastsInDim ⟨2, ![M, n]⟩ ![])
    (p : Fin m) (r : Fin M) (hrow : ∀ c : Fin k, a (ix2 p c) = A (ix2 r c)) (q : Fin n) :
    maximumf (addf (matmul (⟨[1], [0], [0], [1], [], [], wk⟩ : DotDims _ _ _) none (truncf .bf16 a hlt) (truncf .bf16 W hlt) (constant ⟨2, ![m, n]⟩ .f32 0x00000000#32))
        (broadcastTo ⟨2, ![m, n]⟩ (shapeCast ⟨2, ![1, n]⟩ (shapeCast ⟨2, ![1, n]⟩ b h1) h2) hb))
        (broadcast ⟨2, ![m, n]⟩ (Scalar.ofBits (F := Ideal) .f32 0x00000000#32)) (ix2 p q)
      = maximumf (addf (Host.dotGeneral (⟨[1], [0], [0], [1], [], [], wr⟩ : DotDims _ _ _) none A W)
        (broadcastInDim ⟨2, ![M, n]⟩ ![0, 1] hd2 (broadcastInDim ⟨2, ![1, n]⟩ ![1] hd1 b)))
        (broadcastInDim ⟨2, ![M, n]⟩ ![] hz (constant (F := Ideal) ⟨0, ![]⟩ .f32 0x00000000#32)) (ix2 r q) := by
  rw [maximumf_apply, maximumf_apply, dense_row wk wr a A W b hlt h1 h2 hb hd1 hd2 p r hrow q]
  rfl

end Dense

/-! ## The body's payload is the readout, row by row -/

/-- Row `j 0` of the payload over a block whose row `j 0` is row `i 0` of the array `X`, at column `j 1 = i 1`, is the readout of `X` at `i`:
    the three dense layers in turn, each on the one row. -/
theorem pay_at (x0 : Vec Ideal S5000x128 .f32) (X : Arr Ideal S100000x128 .f32) (W1 : Vec Ideal S128x64 .f32) (b1 : Arr Ideal S64 .f32)
    (W2 : Vec Ideal S64x32 .f32) (b2 : Arr Ideal S32 .f32) (W3 : Vec Ideal S32x6 .f32) (b3 : Arr Ideal S6 .f32)
    (p : Fin 5000) (r : Fin 100000) (hrow : ∀ c : Fin 128, x0 (ix2 p c) = X (ix2 r c)) (q : Fin 6) :
    k8_pay1 x0 W1 (row64 b1) W2 (row32 b2) W3 (row6 b3) (ix2 p q) = readout (F := Ideal) X W1 b1 W2 b2 W3 b3 (ix2 r q) := by
  unfold k8_pay1 readout row64 row32 row6
  unfold dot_S5000x128_S128x64_S5000x64_1_0_0_1_n_n dot_S5000x64_S64x32_S5000x32_1_0_0_1_n_n dot_S5000x32_S32x6_S5000x6_1_0_0_1_n_n
  unfold Cert.ReferenceIdeal.dot_S100000x128_S128x64_S100000x64_1_0_0_1_n_n Cert.ReferenceIdeal.dot_S100000x64_S64x32_S100000x32_1_0_0_1_n_n Cert.ReferenceIdeal.dot_S100000x32_S32x6_S100000x6_1_0_0_1_n_n
  refine dense_row _ _ _ _ W3 b3 _ _ _ _ _ _ p r (fun c2 => ?_) q
  refine dense_relu_row _ _ _ _ W2 b2 _ _ _ _ _ _ _ p r (fun c1 => ?_) c2
  refine dense_relu_row _ _ _ _ W1 b1 _ _ _ _ _ _ _ p r (fun c0 => ?_) c1
  rw [shapeCast_self]
  exact hrow c0

/-! ## From the blocks to the array -/

theorem hz : (![0, 0] : Fin 2 → Nat) = fun _ => 0 := funext fun a => by fin_cases a <;> rfl

/-- The printed index maps, decided over the grid: the feature blocks and the output blocks move down the rows with the point,
    every other window stays at block (0, 0). -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = t.val ∧ win8_7.index t (1 : Fin 2) = 0 :=
  (by decide +kernel : ∀ t : Fin grid8.N, _)

section Blocks

variable (V : (c : Dev nD) → (b : Ref sig .tc) → Buf (Elt Ideal) ((c : Thread nD τ).loc b)) (c : Dev nD)

/-- The feature block at point `t` is rows `5000 t …` of the feature array. -/
theorem iblk0_row (t : Fin cfg8.N) (j : S5000x128.Idx) (i : S100000x128.Idx)
    (h0 : (i 0).val = t.val * 5000 + (j 0).val) (h1 : (i 1).val = (j 1).val) :
    (iblk8 V c 0 t : Vec Ideal S5000x128 .f32) j = (V c main_v165 : Arr Ideal S100000x128 .f32) i := by
  obtain ⟨e0, e1, -⟩ := idx_facts t
  unfold iblk8
  rw [View.read_apply]
  show V c main_v165 (((cfg8.win 0).blk t).view.emb j) = V c main_v165 i
  congr 1
  funext a
  apply Fin.ext
  match a with
  | ⟨0, _⟩ => show win8_0.index t (0 : Fin 2) * 5000 + 1 * (j 0).val = (i 0).val; rw [e0, h0]; omega
  | ⟨1, _⟩ => show win8_0.index t (1 : Fin 2) * 128 + 1 * (j 1).val = (i 1).val; rw [e1, h1]; omega

/-- A window whose block is its whole array, at block (0, 0), reads the array: the three weight matrices … -/
theorem iblk1_whole (t : Fin cfg8.N) : (iblk8 V c 1 t : Vec Ideal S128x64 .f32) = V c main_arg8 := by
  obtain ⟨-, -, e0, e1, -⟩ := idx_facts t
  funext j
  unfold iblk8
  rw [View.read_apply]
  show V c main_arg8 (((cfg8.win 1).blk t).view.emb j) = V c main_arg8 j
  congr 1
  funext a
  apply Fin.ext
  match a with
  | ⟨0, _⟩ => show win8_1.index t (0 : Fin 2) * 128 + 1 * (j 0).val = (j 0).val; rw [e0]; omega
  | ⟨1, _⟩ => show win8_1.index t (1 : Fin 2) * 64 + 1 * (j 1).val = (j 1).val; rw [e1]; omega

theorem iblk3_whole (t : Fin cfg8.N) : (iblk8 V c 3 t : Vec Ideal S64x32 .f32) = V c main_arg10 := by
  obtain ⟨-, -, -, -, -, -, e0, e1, -⟩ := idx_facts t
  funext j
  unfold iblk8
  rw [View.read_apply]
  show V c main_arg10 (((cfg8.win 3).blk t).view.emb j) = V c main_arg10 j
  congr 1
  funext a
  apply Fin.ext
  match a with
  | ⟨0, _⟩ => show win8_3.index t (0 : Fin 2) * 64 + 1 * (j 0).val = (j 0).val; rw [e0]; omega
  | ⟨1, _⟩ => show win8_3.index t (1 : Fin 2) * 32 + 1 * (j 1).val = (j 1).val; rw [e1]; omega

theorem iblk5_whole (t : Fin cfg8.N) : (iblk8 V c 5 t : Vec Ideal S32x6 .f32) = V c main_arg12 := by
  obtain ⟨-, -, -, -, -, -, -, -, -, -, e0, e1, -⟩ := idx_facts t
  funext j
  unfold iblk8
  rw [View.read_apply]
  show V c main_arg12 (((cfg8.win 5).blk t).view.emb j) = V c main_arg12 j
  congr 1
  funext a
  apply Fin.ext
  match a with
  | ⟨0, _⟩ => show win8_5.index t (0 : Fin 2) * 32 + 1 * (j 0).val = (j 0).val; rw [e0]; omega
  | ⟨1, _⟩ => show win8_5.index t (1 : Fin 2) * 6 + 1 * (j 1).val = (j 1).val; rw [e1]; omega

/-- … and the three one-row bias arrays. -/
theorem iblk2_whole (t : Fin cfg8.N) : (iblk8 V c 2 t : Vec Ideal S1x64 .f32) = V c main_v166 := by
  obtain ⟨-, -, -, -, e0, e1, -⟩ := idx_facts t
  funext j
  unfold iblk8
  rw [View.read_apply]
  show V c main_v166 (((cfg8.win 2).blk t).view.emb j) = V c main_v166 j
  congr 1
  funext a
  apply Fin.ext
  match a with
  | ⟨0, _⟩ => show win8_2.index t (0 : Fin 2) * 1 + 1 * (j 0).val = (j 0).val; rw [e0]; omega
  | ⟨1, _⟩ => show win8_2.index t (1 : Fin 2) * 64 + 1 * (j 1).val = (j 1).val; rw [e1]; omega

theorem iblk4_whole (t : Fin cfg8.N) : (iblk8 V c 4 t : Vec Ideal S1x32 .f32) = V c main_v167 := by
  obtain ⟨-, -, -, -, -, -, -, -, e0, e1, -⟩ := idx_facts t
  funext j
  unfold iblk8
  rw [View.read_apply]
  show V c main_v167 (((cfg8.win 4).blk t).view.emb j) = V c main_v167 j
  congr 1
  funext a
  apply Fin.ext
  match a with
  | ⟨0, _⟩ => show win8_4.index t (0 : Fin 2) * 1 + 1 * (j 0).val = (j 0).val; rw [e0]; omega
  | ⟨1, _⟩ => show win8_4.index t (1 : Fin 2) * 32 + 1 * (j 1).val = (j 1).val; rw [e1]; omega

theorem iblk6_whole (t : Fin cfg8.N) : (iblk8 V c 6 t : Vec Ideal S1x6 .f32) = V c main_v168 := by
  obtain ⟨-, -, -, -, -, -, -, -, -, -, -, -, e0, e1, -⟩ := idx_facts t
  funext j
  unfold iblk8
  rw [View.read_apply]
  show V c main_v168 (((cfg8.win 6).blk t).view.emb j) = V c main_v168 j
  congr 1
  funext a
  apply Fin.ext
  match a with
  | ⟨0, _⟩ => show win8_6.index t (0 : Fin 2) * 1 + 1 * (j 0).val = (j 0).val; rw [e0]; omega
  | ⟨1, _⟩ => show win8_6.index t (1 : Fin 2) * 6 + 1 * (j 1).val = (j 1).val; rw [e1]; omega

/-- What point `t` writes back from a buffer `Y` is block `t` of an array `G` when row `p` of `Y` is row `5000 t + p` of `G`. -/
theorem read_block7 (G : Arr Ideal S100000x6 .f32) (Y : Vec Ideal S5000x6 .f32) (t : Fin cfg8.N)
    (h : ∀ (j : S5000x6.Idx) (i : S100000x6.Idx), (i 0).val = t.val * 5000 + (j 0).val → (i 1).val = (j 1).val → Y j = G i) :
    (cfg8.win 7).cut (grid8.coords t) Y = ((cfg8.win 7).blk t).view.read (Elt Ideal) G := by
  obtain ⟨-, -, -, -, -, -, -, -, -, -, -, -, -, -, e0, e1⟩ := idx_facts t
  funext j
  refine h j (((cfg8.win 7).blk t).view.emb j) ?_ ?_
  · show win8_7.index t (0 : Fin 2) * 5000 + 1 * (j 0).val = _; rw [e0]; omega
  · show win8_7.index t (1 : Fin 2) * 6 + 1 * (j 1).val = _; rw [e1]; omega

/-- WHAT POINT `t` WRITES BACK is block `t` of the readout of the arrays the region finds. -/
theorem flushed_eq (b1 : Arr Ideal S64 .f32) (b2 : Arr Ideal S32 .f32) (b3 : Arr Ideal S6 .f32)
    (h1 : V c main_v166 = row64 b1) (h2 : V c main_v167 = row32 b2) (h3 : V c main_v168 = row6 b3) (t : Fin cfg8.N) :
    (dat8 V c).flushed 7 t = ((cfg8.win 7).blk t).view.read (Elt Ideal)
      (readout (F := Ideal) (V c main_v165) (V c main_arg8) b1 (V c main_arg10) b2 (V c main_arg12) b3) := by
  show (cfg8.win 7).cut (grid8.coords t) ((dat8 V c).after 7 t) = _
  rw [after8_7]
  refine read_block7 _ _ t fun j i hi0 hi1 => ?_
  unfold out8_7
  rw [View.canon_unit_zero hz]
  simp only [View.ld_unit_zero (S := S5000x128) hz, View.ld_unit_zero (S := S128x64) hz, View.ld_unit_zero (S := S1x64) hz,
    View.ld_unit_zero (S := S64x32) hz, View.ld_unit_zero (S := S1x32) hz, View.ld_unit_zero (S := S32x6) hz,
    View.ld_unit_zero (S := S1x6) hz]
  rw [iblk1_whole, iblk2_whole, iblk3_whole, iblk4_whole, iblk5_whole, iblk6_whole, h1, h2, h3]
  obtain ⟨p, q, rfl⟩ : ∃ (p : Fin 5000) (q : Fin 6), j = ix2 p q := ⟨j 0, j 1, eq_ix2 j⟩
  obtain ⟨r, q', rfl⟩ : ∃ (r : Fin 100000) (q' : Fin 6), i = ix2 r q' := ⟨i 0, i 1, eq_ix2 i⟩
  obtain rfl : q' = q := Fin.ext hi1
  exact pay_at (iblk8 V c 0 t) (V c main_v165) (V c main_arg8) b1 (V c main_arg10) b2 (V c main_arg12) b3 p r
    (fun c0 => iblk0_row V c t (ix2 p c0) (ix2 r c0) hi0 rfl) q'

/-- An index of the output array is in point `t`'s block iff each coordinate is in the block's range on its axis. -/
theorem mem_blk7 (t : Fin cfg8.N) (i : S100000x6.Idx) :
    i ∈ ((cfg8.win 7).blk t).view.set ↔ ∀ a : Fin 2, win8_7.index t a * S5000x6.size a ≤ (i a).val ∧ (i a).val < win8_7.index t a * S5000x6.size a + S5000x6.size a := by
  show i ∈ ((View.whole main_v169).slice (win8_7.rect t)).set ↔ _
  rw [View.set_slice_whole, Rect.mem_set_unit]
  exact Iff.rfl

/-- Every row of the output array is in some point's block: row `r` in block `r / 5000`. -/
theorem cover7 (i : S100000x6.Idx) : ∃ t : Fin cfg8.N, (cfg8.win 7).flush t = true ∧ i ∈ ((cfg8.win 7).blk t).view.set := by
  have hi0 : (i 0).val < 100000 := (i 0).isLt
  have hi1 : (i 1).val < 6 := (i 1).isLt
  have hN : cfg8.N = 20 := N_8
  refine ⟨⟨(i 0).val / 5000, by rw [hN]; omega⟩, flush8_7 _, ?_⟩
  obtain ⟨-, -, -, -, -, -, -, -, -, -, -, -, -, -, e0, e1⟩ := idx_facts ⟨(i 0).val / 5000, by rw [hN]; omega⟩
  rw [mem_blk7]
  intro a
  match a with
  | ⟨0, _⟩ =>
    show win8_7.index _ (0 : Fin 2) * 5000 ≤ (i 0).val ∧ (i 0).val < win8_7.index _ (0 : Fin 2) * 5000 + 5000
    rw [e0]; show (i 0).val / 5000 * 5000 ≤ (i 0).val ∧ (i 0).val < (i 0).val / 5000 * 5000 + 5000; omega
  | ⟨1, _⟩ =>
    show win8_7.index _ (1 : Fin 2) * 6 ≤ (i 1).val ∧ (i 1).val < win8_7.index _ (1 : Fin 2) * 6 + 6
    rw [e1]; omega

end Blocks

/-- The output array after the region is the readout of the input arrays. -/
theorem final (V : (c : Dev nD) → (b : Ref sig .tc) → Buf (Elt Ideal) ((c : Thread nD τ).loc b)) (c : Dev nD)
    (b1 : Arr Ideal S64 .f32) (b2 : Arr Ideal S32 .f32) (b3 : Arr Ideal S6 .f32)
    (h1 : V c main_v166 = row64 b1) (h2 : V c main_v167 = row32 b2) (h3 : V c main_v168 = row6 b3) :
    (dat8 V c).arrAt 7 cfg8.N = readout (F := Ideal) (V c main_v165) (V c main_arg8) b1 (V c main_arg10) b2 (V c main_arg12) b3 :=
  (dat8 V c).arrAt_eq_of_cover 7 _ (fun t _ => flushed_eq V c b1 b2 b3 h1 h2 h3 t) cover7

end Cert.KernelIdeal.Mlp8

end
-- ==== Proof.KChainOut.lean ====
/-
  The kernel program's last stretch and region 8: the three bias vectors reshaped to one-row arrays, then the readout.
-/
import proofs.«168068_j70480413327361_1_alg».proof.Proof.Gen.KernelIdeal.Frame
import proofs.«168068_j70480413327361_1_alg».proof.Proof.KStage
import proofs.«168068_j70480413327361_1_alg».proof.Proof.KMlp8

noncomputable section

namespace Cert.KernelIdeal.ChainOut

open Cert.KernelIdeal Cert.KernelIdeal.Gen Cert.KernelIdeal.KStage Idealize.ShloMosaic Idealize.ShloMosaic.TcCoe Idealize.SL.Sem
open Cert.ReferenceIdeal.Stage (Arr embed norm aggregate linear mean variance normalize readout layer0 layer1 layer2 layer3 weight0 weight1 weight2 weight3 row0 row1 row2 row3)

/-! ## The last stretch of host operations: three reshapes -/

section Stretch
variable (U : Valuation τ sig (Elt Ideal))

/-- After the stretch each one-row bias array is its vector reshaped … -/
theorem bias1_after : StableHlo.after (hostOps8 (F := Ideal)) U (Proc.devRef .tc main_v166) = row64 (U (Proc.devRef .tc main_arg9)) := by
  after_results; rfl
theorem bias2_after : StableHlo.after (hostOps8 (F := Ideal)) U (Proc.devRef .tc main_v167) = row32 (U (Proc.devRef .tc main_arg11)) := by
  after_results; rfl
theorem bias3_after : StableHlo.after (hostOps8 (F := Ideal)) U (Proc.devRef .tc main_v168) = row6 (U (Proc.devRef .tc main_arg13)) := by
  after_results; rfl

/-- … and the features and the weight matrices are as before it. -/
theorem feat_after : StableHlo.after (hostOps8 (F := Ideal)) U (Proc.devRef .tc main_v165) = U (Proc.devRef .tc main_v165) := by
  after_results
theorem w1_after : StableHlo.after (hostOps8 (F := Ideal)) U (Proc.devRef .tc main_arg8) = U (Proc.devRef .tc main_arg8) := by
  after_results
theorem w2_after : StableHlo.after (hostOps8 (F := Ideal)) U (Proc.devRef .tc main_arg10) = U (Proc.devRef .tc main_arg10) := by
  after_results
theorem w3_after : StableHlo.after (hostOps8 (F := Ideal)) U (Proc.devRef .tc main_arg12) = U (Proc.devRef .tc main_arg12) := by
  after_results

end Stretch

variable (m : (ℓ : Loc nD τ sig) → Buf (Elt Ideal) ℓ) (ρ : Dev nD → PrngReg) (c : Dev nD)

/-- The result array is the readout of the last layer's features. -/
theorem out (h : Keeps m c (W28 (F := Ideal) m ρ c)) (X : Arr Ideal S100000x128 .f32)
    (hx : W28 (F := Ideal) m ρ c (Proc.devRef .tc main_v165) = X) :
    W30 (F := Ideal) m ρ c (Proc.devRef .tc main_v169)
      = readout (F := Ideal) X (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have e1 : V29 (F := Ideal) m ρ c main_v166 = row64 (m ((c : Thread nD τ).loc main_arg9)) :=
    (bias1_after (W28 (F := Ideal) m ρ c)).trans (congrArg row64 h.a9)
  have e2 : V29 (F := Ideal) m ρ c main_v167 = row32 (m ((c : Thread nD τ).loc main_arg11)) :=
    (bias2_after (W28 (F := Ideal) m ρ c)).trans (congrArg row32 h.a11)
  have e3 : V29 (F := Ideal) m ρ c main_v168 = row6 (m ((c : Thread nD τ).loc main_arg13)) :=
    (bias3_after (W28 (F := Ideal) m ρ c)).trans (congrArg row6 h.a13)
  have k0 : V29 (F := Ideal) m ρ c main_v165 = X := (feat_after (W28 (F := Ideal) m ρ c)).trans hx
  have k1 : V29 (F := Ideal) m ρ c main_arg8 = m ((c : Thread nD τ).loc main_arg8) := (w1_after (W28 (F := Ideal) m ρ c)).trans h.a8
  have k2 : V29 (F := Ideal) m ρ c main_arg10 = m ((c : Thread nD τ).loc main_arg10) := (w2_after (W28 (F := Ideal) m ρ c)).trans h.a10
  have k3 : V29 (F := Ideal) m ρ c main_arg12 = m ((c : Thread nD τ).loc main_arg12) := (w3_after (W28 (F := Ideal) m ρ c)).trans h.a12
  have e := Mlp8.final (V29 (F := Ideal) m ρ) c _ _ _ e1 e2 e3
  rw [k0, k1, k2, k3] at e
  exact (W30_arr (F := Ideal) m ρ c 7).trans e

end Cert.KernelIdeal.ChainOut

end
-- ==== Proof.ROps.lean ====
/- The reference program's @main as sublists of its host operations in order (a function call's body inlined over the
   call's own buffers), cut at the printed windows' ends, around each call, and after each layer's result; the sublists of
   each printed window; and the stretches the value proof reads one at a time: the degree norms and the embedding, the four
   layers, the readout. -/
import proofs.«168068_j70480413327361_1_alg».proof.Proof.Gen.ReferenceIdeal
import Idealize.ShloMosaic.Lib.StableHlo.Run

noncomputable section

namespace Cert.ReferenceIdeal.Ops

open Cert.ReferenceIdeal Cert.ReferenceIdeal.Facts₀ Idealize.ShloMosaic Idealize.ShloMosaic.TcCoe Idealize.SL.Sem

variable {F : FTy → Type} [FloatOps F]

/-- 18 operations. -/
abbrev s0 : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg1 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x00000000#32),
    StableHlo.unary main_cst_1 main_v4 (broadcastInDim S100000 ![] bcast_S_S100000 : (⟨S_, .f32⟩ : BufTy).Contents (Elt F) → (⟨S100000, .f32⟩ : BufTy).Contents (Elt F)),
    StableHlo.unary main_arg2 main_v5 (broadcastInDim S1600000x1 ![0] bcast_S1600000_S1600000x1_0 : (⟨S1600000, .i32⟩ : BufTy).Contents (Elt F) → (⟨S1600000x1, .i32⟩ : BufTy).Contents (Elt F)),
    StableHlo.ternary main_v4 main_v5 main_v0 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x00000000#32),
    StableHlo.unary main_cst_2 main_v7 (broadcastInDim S100000 ![] bcast_S_S100000 : (⟨S_, .f32⟩ : BufTy).Contents (Elt F) → (⟨S100000, .f32⟩ : BufTy).Contents (Elt F)),
    StableHlo.binary main_v3 main_v7 main_v8 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x3F800000#32),
    StableHlo.unary main_cst_3 main_v9 (broadcastInDim S100000 ![] bcast_S_S100000 : (⟨S_, .f32⟩ : BufTy).Contents (Elt F) → (⟨S100000, .f32⟩ : BufTy).Contents (Elt F)),
    StableHlo.binary main_v3 main_v9 main_v10 (maximumf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_cst_4 (constant S_ .f32 0x00000000#32) ]

/-- 3 operations of an inlined call. -/
abbrev s1 : List (HloOp τ sig (Elt F)) :=
  [ StableHlo.TRef.unary (.of main_cst_4 : StableHlo.TRef sig ⟨S_, .f32⟩) main_call0.v0 id,
    StableHlo.TRef.unary main_call0.v0 main_call0.v1 (broadcastInDim S100000 ![] bcast_S_S100000),
    StableHlo.TRef.ternary (.of main_v8 : StableHlo.TRef sig ⟨S100000, .i1⟩) (.of main_v11 : StableHlo.TRef sig ⟨S100000, .f32⟩) main_call0.v1 main_call0.v2 select ]

/-- 8 operations. -/
abbrev s2 : List (HloOp τ sig (Elt F)) :=
  [ StableHlo.nullary main_cst_5 (constant S_ .f32 0x00000000#32),
    StableHlo.unary main_cst_5 main_v13 (broadcastInDim S100000 ![] bcast_S_S100000 : (⟨S_, .f32⟩ : BufTy).Contents (Elt F) → (⟨S100000, .f32⟩ : BufTy).Contents (Elt F)),
    StableHlo.binary main_v6 main_v13 main_v14 (cmpf .ogt : (⟨S100000, .f32⟩ : BufTy).Contents (Elt F) → (⟨S100000, .f32⟩ : BufTy).Contents (Elt F) → (⟨S100000, .i1⟩ : BufTy).Contents (Elt F)),
    StableHlo.nullary main_cst_6 (constant S_ .f32 0x3F800000#32),
    StableHlo.unary main_cst_6 main_v15 (broadcastInDim S100000 ![] bcast_S_S100000 : (⟨S_, .f32⟩ : BufTy).Contents (Elt F) → (⟨S100000, .f32⟩ : BufTy).Contents (Elt F)),
    StableHlo.binary main_v6 main_v15 main_v16 (maximumf : (⟨S100000, .f32⟩ : BufTy).Contents (Elt F) → (⟨S100000, .f32⟩ : BufTy).Contents (Elt F) → (⟨S100000, .f32⟩ : BufTy).Contents (Elt F)),
    StableHlo.unary main_v16 main_v17 (Host.rsqrt : (⟨S100000, .f32⟩ : BufTy).Contents (Elt F) → (⟨S100000, .f32⟩ : BufTy).Contents (Elt F)),
    StableHlo.nullary main_cst_7 (constant S_ .f32 0x00000000#32) ]

/-- 3 operations of an inlined call. -/
abbrev s3 : List (HloOp τ sig (Elt F)) :=
  [ StableHlo.TRef.unary (.of main_cst_7 : StableHlo.TRef sig ⟨S_, .f32⟩) main_call1.v0 id,
    StableHlo.TRef.unary main_call1.v0 main_call1.v1 (broadcastInDim S100000 ![] bcast_S_S100000),
    StableHlo.TRef.ternary (.of main_v14 : StableHlo.TRef sig ⟨S100000, .i1⟩) (.of main_v17 : StableHlo.TRef sig ⟨S100000, .f32⟩) main_call1.v1 main_call1.v2 select ]

/-- 9 operations. -/
abbrev s4 : List (HloOp τ sig (Elt F)) :=
  [ StableHlo.nullary main_c (constantI S_ 32 0#32),
    StableHlo.unary main_c main_v19 (broadcastInDim S100000 ![] bcast_S_S100000 : (⟨S_, .i32⟩ : BufTy).Contents (Elt F) → (⟨S100000, .i32⟩ : BufTy).Contents (Elt F)),
    StableHlo.binary main_arg0 main_v19 main_v20 (cmpi .slt : (⟨S100000, .i32⟩ : BufTy).Contents (Elt F) → (⟨S100000, .i32⟩ : BufTy).Contents (Elt F) → (⟨S100000, .i1⟩ : BufTy).Contents (Elt F)),
    StableHlo.nullary main_c_8 (constantI S_ 32 7#32),
    StableHlo.unary main_c_8 main_v21 (broadcastInDim S100000 ![] bcast_S_S100000 : (⟨S_, .i32⟩ : BufTy).Contents (Elt F) → (⟨S100000, .i32⟩ : BufTy).Contents (Elt F)),
    StableHlo.binary main_arg0 main_v21 main_v22 (addi : (⟨S100000, .i32⟩ : BufTy).Contents (Elt F) → (⟨S100000, .i32⟩ : BufTy).Contents (Elt F) → (⟨S100000, .i32⟩ : BufTy).Contents (Elt F)),
    StableHlo.ternary main_v20 main_v22 main_arg0 main_v23 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v23 main_v24 (broadcastInDim S100000x1 ![0] bcast_S100000_S100000x1_0 : (⟨S100000, .i32⟩ : BufTy).Contents (Elt F) → (⟨S100000x1, .i32⟩ : BufTy).Contents (Elt F)),
    StableHlo.binary main_arg3 main_v24 main_v25 ((fun x i => Host.gather gather_S7x128_S100000x1_S100000x128_1_0_n_n_0_1_1128 x i) : (⟨S7x128, .f32⟩ : BufTy).Contents (Elt F) → (⟨S100000x1, .i32⟩ : BufTy).Contents (Elt F) → (⟨S100000x128, .f32⟩ : BufTy).Contents (Elt F)) ]

/-- 23 operations. -/
abbrev s5 : List (HloOp τ sig (Elt F)) :=
  [ StableHlo.unary main_v12 main_v26 (broadcastInDim S100000x1 ![0] bcast_S100000_S100000x1_0 : (⟨S100000, .f32⟩ : BufTy).Contents (Elt F) → (⟨S100000x1, .f32⟩ : BufTy).Contents (Elt F)),
    StableHlo.unary main_v26 main_v27 (broadcastInDim S100000x128 ![0, 1] bcast_S100000x1_S100000x128_0_1 : (⟨S100000x1, .f32⟩ : BufTy).Contents (Elt F) → (⟨S100000x128, .f32⟩ : BufTy).Contents (Elt F)),
    StableHlo.binary main_v25 main_v27 main_v28 (mulf : (⟨S100000x128, .f32⟩ : BufTy).Contents (Elt F) → (⟨S100000x128, .f32⟩ : BufTy).Contents (Elt F) → (⟨S100000x128, .f32⟩ : BufTy).Contents (Elt F)),
    StableHlo.nullary main_c_9 (constantI S_ 32 0#32),
    StableHlo.unary main_c_9 main_v29 (broadcastInDim S1600000 ![] bcast_S_S1600000 : (⟨S_, .i32⟩ : BufTy).Contents (Elt F) → (⟨S1600000, .i32⟩ : BufTy).Contents (Elt F)),
    StableHlo.binary main_arg1 main_v29 main_v30 (cmpi .slt : (⟨S1600000, .i32⟩ : BufTy).Contents (Elt F) → (⟨S1600000, .i32⟩ : BufTy).Contents (Elt F) → (⟨S1600000, .i1⟩ : BufTy).Contents (Elt F)),
    StableHlo.nullary main_c_10 (constantI S_ 32 100000#32),
    StableHlo.unary main_c_10 main_v31 (broadcastInDim S1600000 ![] bcast_S_S1600000 : (⟨S_, .i32⟩ : BufTy).Contents (Elt F) → (⟨S1600000, .i32⟩ : BufTy).Contents (Elt F)),
    StableHlo.binary main_arg1 main_v31 main_v32 (addi : (⟨S1600000, .i32⟩ : BufTy).Contents (Elt F) → (⟨S1600000, .i32⟩ : BufTy).Contents (Elt F) → (⟨S1600000, .i32⟩ : BufTy).Contents (Elt F)),
    StableHlo.ternary main_v30 main_v32 main_arg1 main_v33 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v33 main_v34 (broadcastInDim S1600000x1 ![0] bcast_S1600000_S1600000x1_0 : (⟨S1600000, .i32⟩ : BufTy).Contents (Elt F) → (⟨S1600000x1, .i32⟩ : BufTy).Contents (Elt F)),
    StableHlo.binary main_v28 main_v34 main_v35 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_11 (constant S_ .f32 0x00000000#32),
    StableHlo.unary main_cst_11 main_v36 (broadcastInDim S100000x128 ![] bcast_S_S100000x128 : (⟨S_, .f32⟩ : BufTy).Contents (Elt F) → (⟨S100000x128, .f32⟩ : BufTy).Contents (Elt F)),
    StableHlo.unary main_arg2 main_v37 (broadcastInDim S1600000x1 ![0] bcast_S1600000_S1600000x1_0 : (⟨S1600000, .i32⟩ : BufTy).Contents (Elt F) → (⟨S1600000x1, .i32⟩ : BufTy).Contents (Elt F)),
    StableHlo.ternary main_v36 main_v37 main_v35 main_v38 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v18 main_v39 (broadcastInDim S100000x1 ![0] bcast_S100000_S100000x1_0 : (⟨S100000, .f32⟩ : BufTy).Contents (Elt F) → (⟨S100000x1, .f32⟩ : BufTy).Contents (Elt F)),
    StableHlo.unary main_v39 main_v40 (broadcastInDim S100000x128 ![0, 1] bcast_S100000x1_S100000x128_0_1 : (⟨S100000x1, .f32⟩ : BufTy).Contents (Elt F) → (⟨S100000x128, .f32⟩ : BufTy).Contents (Elt F)),
    StableHlo.binary main_v38 main_v40 main_v41 (mulf : (⟨S100000x128, .f32⟩ : BufTy).Contents (Elt F) → (⟨S100000x128, .f32⟩ : BufTy).Contents (Elt F) → (⟨S100000x128, .f32⟩ : BufTy).Contents (Elt F)),
    StableHlo.unary main_arg4 main_v42 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v42 main_v43 rfl shapeCasts_S1x128x128_S128x128,
    StableHlo.binary main_v41 main_v43 main_v44 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v45 ((extractStridedSlice S1x128 ![0, 0] · slices_S4x128_S1x128_0_0) : (⟨S4x128, .f32⟩ : BufTy).Contents (Elt F) → (⟨S1x128, .f32⟩ : BufTy).Contents (Elt F)) ]

/-- 10 operations. -/
abbrev s6 : List (HloOp τ sig (Elt F)) :=
  [ StableHlo.reshape main_v45 main_v46 rfl shapeCasts_S1x128_S128,
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v48 main_v49 (addf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x00000000#32),
    StableHlo.binary main_v49 main_cst_12 main_v50 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_13 (constant S_ .f32 0x47C35000#32),
    StableHlo.unary main_cst_13 main_v51 (broadcastInDim S128 ![] bcast_S_S128 : (⟨S_, .f32⟩ : BufTy).Contents (Elt F) → (⟨S128, .f32⟩ : BufTy).Contents (Elt F)),
    StableHlo.binary main_v50 main_v51 main_v52 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32) ]

/-- 22 operations of an inlined call. -/
abbrev s7 : List (HloOp τ sig (Elt F)) :=
  [ StableHlo.TRef.nullary main_call2.cst (constant S_ .f32 0x00000000#32),
    StableHlo.TRef.binary (.of main_v49 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v49 : StableHlo.TRef sig ⟨S100000x128, .f32⟩) main_call2.v4 main_call2.v5 subf,
    StableHlo.TRef.binary main_call2.v5 main_call2.v5 main_call2.v6 mulf,
    StableHlo.TRef.unary (.of main_c_14 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- 20 operations. -/
abbrev s8 : List (HloOp τ sig (Elt F)) :=
  [ StableHlo.unary main_v52 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v55 main_v56 (subf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x3727C5AC#32),
    StableHlo.unary main_cst_15 main_v57 (broadcastInDim S128 ![] bcast_S_S128 : (⟨S_, .f32⟩ : BufTy).Contents (Elt F) → (⟨S128, .f32⟩ : BufTy).Contents (Elt F)),
    StableHlo.binary main_v53 main_v57 main_v58 (addf : (⟨S128, .f32⟩ : BufTy).Contents (Elt F) → (⟨S128, .f32⟩ : BufTy).Contents (Elt F) → (⟨S128, .f32⟩ : BufTy).Contents (Elt F)),
    StableHlo.unary main_v58 main_v59 (Host.rsqrt : (⟨S128, .f32⟩ : BufTy).Contents (Elt F) → (⟨S128, .f32⟩ : BufTy).Contents (Elt F)),
    StableHlo.unary main_v59 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v56 main_v61 main_v62 (mulf : (⟨S100000x128, .f32⟩ : BufTy).Contents (Elt F) → (⟨S100000x128, .f32⟩ : BufTy).Contents (Elt F) → (⟨S100000x128, .f32⟩ : BufTy).Contents (Elt F)),
    StableHlo.unary main_arg6 main_v63 ((extractStridedSlice S1x128 ![0, 0] · slices_S4x128_S1x128_0_0) : (⟨S4x128, .f32⟩ : BufTy).Contents (Elt F) → (⟨S1x128, .f32⟩ : BufTy).Contents (Elt F)),
    StableHlo.reshape main_v63 main_v64 rfl shapeCasts_S1x128_S128,
    StableHlo.unary main_v64 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v66 main_v67 (mulf : (⟨S100000x128, .f32⟩ : BufTy).Contents (Elt F) → (⟨S100000x128, .f32⟩ : BufTy).Contents (Elt F) → (⟨S100000x128, .f32⟩ : BufTy).Contents (Elt F)),
    StableHlo.unary main_arg7 main_v68 ((extractStridedSlice S1x128 ![0, 0] · slices_S4x128_S1x128_0_0) : (⟨S4x128, .f32⟩ : BufTy).Contents (Elt F) → (⟨S1x128, .f32⟩ : BufTy).Contents (Elt F)),
    StableHlo.reshape main_v68 main_v69 rfl shapeCasts_S1x128_S128,
    StableHlo.unary main_v69 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S100000x128 ![0, 1] bcast_S1x128_S100000x128_0_1 : (⟨S1x128, .f32⟩ : BufTy).Contents (Elt F) → (⟨S100000x128, .f32⟩ : BufTy).Contents (Elt F)),
    StableHlo.binary main_v67 main_v71 main_v72 (addf : (⟨S100000x128, .f32⟩ : BufTy).Contents (Elt F) → (⟨S100000x128, .f32⟩ : BufTy).Contents (Elt F) → (⟨S100000x128, .f32⟩ : BufTy).Contents (Elt F)) ]

/-- 3 operations of an inlined call. -/
abbrev s9 : List (HloOp τ sig (Elt F)) :=
  [ StableHlo.TRef.nullary main_call3.cst (constant S_ .f32 0x00000000#32),
    StableHlo.TRef.unary main_call3.cst main_call3.v0 (broadcastInDim S100000x128 ![] bcast_S_S100000x128),
    StableHlo.TRef.binary (.of main_v72 : StableHlo.TRef sig ⟨S100000x128, .f32⟩) main_call3.v0 main_call3.v1 maximumf ]

/-- 1 operations. -/
abbrev s10 : List (HloOp τ sig (Elt F)) :=
  [ StableHlo.binary main_v73 main_v25 main_v74 (addf : (⟨S100000x128, .f32⟩ : BufTy).Contents (Elt F) → (⟨S100000x128, .f32⟩ : BufTy).Contents (Elt F) → (⟨S100000x128, .f32⟩ : BufTy).Contents (Elt F)) ]

/-- 27 operations. -/
abbrev s11 : List (HloOp τ sig (Elt F)) :=
  [ StableHlo.unary main_v12 main_v75 (broadcastInDim S100000x1 ![0] bcast_S100000_S100000x1_0 : (⟨S100000, .f32⟩ : BufTy).Contents (Elt F) → (⟨S100000x1, .f32⟩ : BufTy).Contents (Elt F)),
    StableHlo.unary main_v75 main_v76 (broadcastInDim S100000x128 ![0, 1] bcast_S100000x1_S100000x128_0_1 : (⟨S100000x1, .f32⟩ : BufTy).Contents (Elt F) → (⟨S100000x128, .f32⟩ : BufTy).Contents (Elt F)),
    StableHlo.binary main_v74 main_v76 main_v77 (mulf : (⟨S100000x128, .f32⟩ : BufTy).Contents (Elt F) → (⟨S100000x128, .f32⟩ : BufTy).Contents (Elt F) → (⟨S100000x128, .f32⟩ : BufTy).Contents (Elt F)),
    StableHlo.nullary main_c_16 (constantI S_ 32 0#32),
    StableHlo.unary main_c_16 main_v78 (broadcastInDim S1600000 ![] bcast_S_S1600000 : (⟨S_, .i32⟩ : BufTy).Contents (Elt F) → (⟨S1600000, .i32⟩ : BufTy).Contents (Elt F)),
    StableHlo.binary main_arg1 main_v78 main_v79 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v80 (broadcastInDim S1600000 ![] bcast_S_S1600000 : (⟨S_, .i32⟩ : BufTy).Contents (Elt F) → (⟨S1600000, .i32⟩ : BufTy).Contents (Elt F)),
    StableHlo.binary main_arg1 main_v80 main_v81 (addi : (⟨S1600000, .i32⟩ : BufTy).Contents (Elt F) → (⟨S1600000, .i32⟩ : BufTy).Contents (Elt F) → (⟨S1600000, .i32⟩ : BufTy).Contents (Elt F)),
    StableHlo.ternary main_v79 main_v81 main_arg1 main_v82 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v82 main_v83 (broadcastInDim S1600000x1 ![0] bcast_S1600000_S1600000x1_0 : (⟨S1600000, .i32⟩ : BufTy).Contents (Elt F) → (⟨S1600000x1, .i32⟩ : BufTy).Contents (Elt F)),
    StableHlo.binary main_v77 main_v83 main_v84 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_18 (constant S_ .f32 0x00000000#32),
    StableHlo.unary main_cst_18 main_v85 (broadcastInDim S100000x128 ![] bcast_S_S100000x128 : (⟨S_, .f32⟩ : BufTy).Contents (Elt F) → (⟨S100000x128, .f32⟩ : BufTy).Contents (Elt F)),
    StableHlo.unary main_arg2 main_v86 (broadcastInDim S1600000x1 ![0] bcast_S1600000_S1600000x1_0 : (⟨S1600000, .i32⟩ : BufTy).Contents (Elt F) → (⟨S1600000x1, .i32⟩ : BufTy).Contents (Elt F)),
    StableHlo.ternary main_v85 main_v86 main_v84 main_v87 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v18 main_v88 (broadcastInDim S100000x1 ![0] bcast_S100000_S100000x1_0 : (⟨S100000, .f32⟩ : BufTy).Contents (Elt F) → (⟨S100000x1, .f32⟩ : BufTy).Contents (Elt F)),
    StableHlo.unary main_v88 main_v89 (broadcastInDim S100000x128 ![0, 1] bcast_S100000x1_S100000x128_0_1 : (⟨S100000x1, .f32⟩ : BufTy).Contents (Elt F) → (⟨S100000x128, .f32⟩ : BufTy).Contents (Elt F)),
    StableHlo.binary main_v87 main_v89 main_v90 (mulf : (⟨S100000x128, .f32⟩ : BufTy).Contents (Elt F) → (⟨S100000x128, .f32⟩ : BufTy).Contents (Elt F) → (⟨S100000x128, .f32⟩ : BufTy).Contents (Elt F)),
    StableHlo.unary main_arg4 main_v91 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v91 main_v92 rfl shapeCasts_S1x128x128_S128x128,
    StableHlo.binary main_v90 main_v92 main_v93 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v94 ((extractStridedSlice S1x128 ![1, 0] · slices_S4x128_S1x128_1_0) : (⟨S4x128, .f32⟩ : BufTy).Contents (Elt F) → (⟨S1x128, .f32⟩ : BufTy).Contents (Elt F)),
    StableHlo.reshape main_v94 main_v95 rfl shapeCasts_S1x128_S128,
    StableHlo.unary main_v95 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S100000x128 ![0, 1] bcast_S1x128_S100000x128_0_1 : (⟨S1x128, .f32⟩ : BufTy).Contents (Elt F) → (⟨S100000x128, .f32⟩ : BufTy).Contents (Elt F)),
    StableHlo.binary main_v93 main_v97 main_v98 (addf : (⟨S100000x128, .f32⟩ : BufTy).Contents (Elt F) → (⟨S100000x128, .f32⟩ : BufTy).Contents (Elt F) → (⟨S100000x128, .f32⟩ : BufTy).Contents (Elt F)) ]

/-- 6 operations. -/
abbrev s12 : List (HloOp τ sig (Elt F)) :=
  [ StableHlo.nullary main_cst_19 (constant S_ .f32 0x00000000#32),
    StableHlo.binary main_v98 main_cst_19 main_v99 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_20 (constant S_ .f32 0x47C35000#32),
    StableHlo.unary main_cst_20 main_v100 (broadcastInDim S128 ![] bcast_S_S128 : (⟨S_, .f32⟩ : BufTy).Contents (Elt F) → (⟨S128, .f32⟩ : BufTy).Contents (Elt F)),
    StableHlo.binary main_v99 main_v100 main_v101 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32) ]

/-- 22 operations of an inlined call. -/
abbrev s13 : List (HloOp τ sig (Elt F)) :=
  [ StableHlo.TRef.nullary main_call4.cst (constant S_ .f32 0x00000000#32),
    StableHlo.TRef.binary (.of main_v98 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v98 : StableHlo.TRef sig ⟨S100000x128, .f32⟩) main_call4.v4 main_call4.v5 subf,
    StableHlo.TRef.binary main_call4.v5 main_call4.v5 main_call4.v6 mulf,
    StableHlo.TRef.unary (.of main_c_21 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

/-- 20 operations. -/
abbrev s14 : List (HloOp τ sig (Elt F)) :=
  [ StableHlo.unary main_v101 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S100000x128 ![0, 1] bcast_S1x128_S100000x128_0_1 : (⟨S1x128, .f32⟩ : BufTy).Contents (Elt F) → (⟨S100000x128, .f32⟩ : BufTy).Contents (Elt F)),
    StableHlo.binary main_v98 main_v104 main_v105 (subf : (⟨S100000x128, .f32⟩ : BufTy).Contents (Elt F) → (⟨S100000x128, .f32⟩ : BufTy).Contents (Elt F) → (⟨S100000x128, .f32⟩ : BufTy).Contents (Elt F)),
    StableHlo.nullary main_cst_22 (constant S_ .f32 0x3727C5AC#32),
    StableHlo.unary main_cst_22 main_v106 (broadcastInDim S128 ![] bcast_S_S128 : (⟨S_, .f32⟩ : BufTy).Contents (Elt F) → (⟨S128, .f32⟩ : BufTy).Contents (Elt F)),
    StableHlo.binary main_v102 main_v106 main_v107 (addf : (⟨S128, .f32⟩ : BufTy).Contents (Elt F) → (⟨S128, .f32⟩ : BufTy).Contents (Elt F) → (⟨S128, .f32⟩ : BufTy).Contents (Elt F)),
    StableHlo.unary main_v107 main_v108 (Host.rsqrt : (⟨S128, .f32⟩ : BufTy).Contents (Elt F) → (⟨S128, .f32⟩ : BufTy).Contents (Elt F)),
    StableHlo.unary main_v108 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S100000x128 ![0, 1] bcast_S1x128_S100000x128_0_1 : (⟨S1x128, .f32⟩ : BufTy).Contents (Elt F) → (⟨S100000x128, .f32⟩ : BufTy).Contents (Elt F)),
    StableHlo.binary main_v105 main_v110 main_v111 (mulf : (⟨S100000x128, .f32⟩ : BufTy).Contents (Elt F) → (⟨S100000x128, .f32⟩ : BufTy).Contents (Elt F) → (⟨S100000x128, .f32⟩ : BufTy).Contents (Elt F)),
    StableHlo.unary main_arg6 main_v112 ((extractStridedSlice S1x128 ![1, 0] · slices_S4x128_S1x128_1_0) : (⟨S4x128, .f32⟩ : BufTy).Contents (Elt F) → (⟨S1x128, .f32⟩ : BufTy).Contents (Elt F)),
    StableHlo.reshape main_v112 main_v113 rfl shapeCasts_S1x128_S128,
    StableHlo.unary main_v113 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S100000x128 ![0, 1] bcast_S1x128_S100000x128_0_1 : (⟨S1x128, .f32⟩ : BufTy).Contents (Elt F) → (⟨S100000x128, .f32⟩ : BufTy).Contents (Elt F)),
    StableHlo.binary main_v111 main_v115 main_v116 (mulf : (⟨S100000x128, .f32⟩ : BufTy).Contents (Elt F) → (⟨S100000x128, .f32⟩ : BufTy).Contents (Elt F) → (⟨S100000x128, .f32⟩ : BufTy).Contents (Elt F)),
    StableHlo.unary main_arg7 main_v117 ((extractStridedSlice S1x128 ![1, 0] · slices_S4x128_S1x128_1_0) : (⟨S4x128, .f32⟩ : BufTy).Contents (Elt F) → (⟨S1x128, .f32⟩ : BufTy).Contents (Elt F)),
    StableHlo.reshape main_v117 main_v118 rfl shapeCasts_S1x128_S128,
    StableHlo.unary main_v118 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S100000x128 ![0, 1] bcast_S1x128_S100000x128_0_1 : (⟨S1x128, .f32⟩ : BufTy).Contents (Elt F) → (⟨S100000x128, .f32⟩ : BufTy).Contents (Elt F)),
    StableHlo.binary main_v116 main_v120 main_v121 (addf : (⟨S100000x128, .f32⟩ : BufTy).Contents (Elt F) → (⟨S100000x128, .f32⟩ : BufTy).Contents (Elt F) → (⟨S100000x128, .f32⟩ : BufTy).Contents (Elt F)) ]

/-- 3 operations of an inlined call. -/
abbrev s15 : List (HloOp τ sig (Elt F)) :=
  [ StableHlo.TRef.nullary main_call5.cst (constant S_ .f32 0x00000000#32),
    StableHlo.TRef.unary main_call5.cst main_call5.v0 (broadcastInDim S100000x128 ![] bcast_S_S100000x128),
    StableHlo.TRef.binary (.of main_v121 : StableHlo.TRef sig ⟨S100000x128, .f32⟩) main_call5.v0 main_call5.v1 maximumf ]

/-- 1 operations. -/
abbrev s16 : List (HloOp τ sig (Elt F)) :=
  [ StableHlo.binary main_v122 main_v74 main_v123 (addf : (⟨S100000x128, .f32⟩ : BufTy).Contents (Elt F) → (⟨S100000x128, .f32⟩ : BufTy).Contents (Elt F) → (⟨S100000x128, .f32⟩ : BufTy).Contents (Elt F)) ]

/-- 31 operations. -/
abbrev s17 : List (HloOp τ sig (Elt F)) :=
  [ StableHlo.unary main_v12 main_v124 (broadcastInDim S100000x1 ![0] bcast_S100000_S100000x1_0 : (⟨S100000, .f32⟩ : BufTy).Contents (Elt F) → (⟨S100000x1, .f32⟩ : BufTy).Contents (Elt F)),
    StableHlo.unary main_v124 main_v125 (broadcastInDim S100000x128 ![0, 1] bcast_S100000x1_S100000x128_0_1 : (⟨S100000x1, .f32⟩ : BufTy).Contents (Elt F) → (⟨S100000x128, .f32⟩ : BufTy).Contents (Elt F)),
    StableHlo.binary main_v123 main_v125 main_v126 (mulf : (⟨S100000x128, .f32⟩ : BufTy).Contents (Elt F) → (⟨S100000x128, .f32⟩ : BufTy).Contents (Elt F) → (⟨S100000x128, .f32⟩ : BufTy).Contents (Elt F)),
    StableHlo.nullary main_c_23 (constantI S_ 32 0#32),
    StableHlo.unary main_c_23 main_v127 (broadcastInDim S1600000 ![] bcast_S_S1600000 : (⟨S_, .i32⟩ : BufTy).Contents (Elt F) → (⟨S1600000, .i32⟩ : BufTy).Contents (Elt F)),
    StableHlo.binary main_arg1 main_v127 main_v128 (cmpi .slt : (⟨S1600000, .i32⟩ : BufTy).Contents (Elt F) → (⟨S1600000, .i32⟩ : BufTy).Contents (Elt F) → (⟨S1600000, .i1⟩ : BufTy).Contents (Elt F)),
    StableHlo.nullary main_c_24 (constantI S_ 32 100000#32),
    StableHlo.unary main_c_24 main_v129 (broadcastInDim S1600000 ![] bcast_S_S1600000 : (⟨S_, .i32⟩ : BufTy).Contents (Elt F) → (⟨S1600000, .i32⟩ : BufTy).Contents (Elt F)),
    StableHlo.binary main_arg1 main_v129 main_v130 (addi : (⟨S1600000, .i32⟩ : BufTy).Contents (Elt F) → (⟨S1600000, .i32⟩ : BufTy).Contents (Elt F) → (⟨S1600000, .i32⟩ : BufTy).Contents (Elt F)),
    StableHlo.ternary main_v128 main_v130 main_arg1 main_v131 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v131 main_v132 (broadcastInDim S1600000x1 ![0] bcast_S1600000_S1600000x1_0 : (⟨S1600000, .i32⟩ : BufTy).Contents (Elt F) → (⟨S1600000x1, .i32⟩ : BufTy).Contents (Elt F)),
    StableHlo.binary main_v126 main_v132 main_v133 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_25 (constant S_ .f32 0x00000000#32),
    StableHlo.unary main_cst_25 main_v134 (broadcastInDim S100000x128 ![] bcast_S_S100000x128 : (⟨S_, .f32⟩ : BufTy).Contents (Elt F) → (⟨S100000x128, .f32⟩ : BufTy).Contents (Elt F)),
    StableHlo.unary main_arg2 main_v135 (broadcastInDim S1600000x1 ![0] bcast_S1600000_S1600000x1_0 : (⟨S1600000, .i32⟩ : BufTy).Contents (Elt F) → (⟨S1600000x1, .i32⟩ : BufTy).Contents (Elt F)),
    StableHlo.ternary main_v134 main_v135 main_v133 main_v136 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v18 main_v137 (broadcastInDim S100000x1 ![0] bcast_S100000_S100000x1_0 : (⟨S100000, .f32⟩ : BufTy).Contents (Elt F) → (⟨S100000x1, .f32⟩ : BufTy).Contents (Elt F)),
    StableHlo.unary main_v137 main_v138 (broadcastInDim S100000x128 ![0, 1] bcast_S100000x1_S100000x128_0_1 : (⟨S100000x1, .f32⟩ : BufTy).Contents (Elt F) → (⟨S100000x128, .f32⟩ : BufTy).Contents (Elt F)),
    StableHlo.binary main_v136 main_v138 main_v139 (mulf : (⟨S100000x128, .f32⟩ : BufTy).Contents (Elt F) → (⟨S100000x128, .f32⟩ : BufTy).Contents (Elt F) → (⟨S100000x128, .f32⟩ : BufTy).Contents (Elt F)),
    StableHlo.unary main_arg4 main_v140 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v140 main_v141 rfl shapeCasts_S1x128x128_S128x128,
    StableHlo.binary main_v139 main_v141 main_v142 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v143 ((extractStridedSlice S1x128 ![2, 0] · slices_S4x128_S1x128_2_0) : (⟨S4x128, .f32⟩ : BufTy).Contents (Elt F) → (⟨S1x128, .f32⟩ : BufTy).Contents (Elt F)),
    StableHlo.reshape main_v143 main_v144 rfl shapeCasts_S1x128_S128,
    StableHlo.unary main_v144 main_v145 (broadcastInDim S1x128 ![1] bcast_S128_S1x128_1 : (⟨S128, .f32⟩ : BufTy).Contents (Elt F) → (⟨S1x128, .f32⟩ : BufTy).Contents (Elt F)),
    StableHlo.unary main_v145 main_v146 (broadcastInDim S100000x128 ![0, 1] bcast_S1x128_S100000x128_0_1 : (⟨S1x128, .f32⟩ : BufTy).Contents (Elt F) → (⟨S100000x128, .f32⟩ : BufTy).Contents (Elt F)),
    StableHlo.binary main_v142 main_v146 main_v147 (addf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x00000000#32),
    StableHlo.binary main_v147 main_cst_26 main_v148 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_27 (constant S_ .f32 0x47C35000#32),
    StableHlo.unary main_cst_27 main_v149 (broadcastInDim S128 ![] bcast_S_S128 : (⟨S_, .f32⟩ : BufTy).Contents (Elt F) → (⟨S128, .f32⟩ : BufTy).Contents (Elt F)) ]

/-- 2 operations. -/
abbrev s18 : List (HloOp τ sig (Elt F)) :=
  [ StableHlo.binary main_v148 main_v149 main_v150 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32) ]

/-- 22 operations of an inlined call. -/
abbrev s19 : List (HloOp τ sig (Elt F)) :=
  [ StableHlo.TRef.nullary main_call6.cst (constant S_ .f32 0x00000000#32),
    StableHlo.TRef.binary (.of main_v147 : StableHlo.TRef sig ⟨S100000x128, .f32⟩) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v147 : StableHlo.TRef sig ⟨S100000x128, .f32⟩) main_call6.v4 main_call6.v5 subf,
    StableHlo.TRef.binary main_call6.v5 main_call6.v5 main_call6.v6 mulf,
    StableHlo.TRef.unary (.of main_c_28 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b) ]

/-- 20 operations. -/
abbrev s20 : List (HloOp τ sig (Elt F)) :=
  [ StableHlo.unary main_v150 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S100000x128 ![0, 1] bcast_S1x128_S100000x128_0_1 : (⟨S1x128, .f32⟩ : BufTy).Contents (Elt F) → (⟨S100000x128, .f32⟩ : BufTy).Contents (Elt F)),
    StableHlo.binary main_v147 main_v153 main_v154 (subf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3727C5AC#32),
    StableHlo.unary main_cst_29 main_v155 (broadcastInDim S128 ![] bcast_S_S128 : (⟨S_, .f32⟩ : BufTy).Contents (Elt F) → (⟨S128, .f32⟩ : BufTy).Contents (Elt F)),
    StableHlo.binary main_v151 main_v155 main_v156 (addf : (⟨S128, .f32⟩ : BufTy).Contents (Elt F) → (⟨S128, .f32⟩ : BufTy).Contents (Elt F) → (⟨S128, .f32⟩ : BufTy).Contents (Elt F)),
    StableHlo.unary main_v156 main_v157 (Host.rsqrt : (⟨S128, .f32⟩ : BufTy).Contents (Elt F) → (⟨S128, .f32⟩ : BufTy).Contents (Elt F)),
    StableHlo.unary main_v157 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S100000x128 ![0, 1] bcast_S1x128_S100000x128_0_1 : (⟨S1x128, .f32⟩ : BufTy).Contents (Elt F) → (⟨S100000x128, .f32⟩ : BufTy).Contents (Elt F)),
    StableHlo.binary main_v154 main_v159 main_v160 (mulf : (⟨S100000x128, .f32⟩ : BufTy).Contents (Elt F) → (⟨S100000x128, .f32⟩ : BufTy).Contents (Elt F) → (⟨S100000x128, .f32⟩ : BufTy).Contents (Elt F)),
    StableHlo.unary main_arg6 main_v161 ((extractStridedSlice S1x128 ![2, 0] · slices_S4x128_S1x128_2_0) : (⟨S4x128, .f32⟩ : BufTy).Contents (Elt F) → (⟨S1x128, .f32⟩ : BufTy).Contents (Elt F)),
    StableHlo.reshape main_v161 main_v162 rfl shapeCasts_S1x128_S128,
    StableHlo.unary main_v162 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S100000x128 ![0, 1] bcast_S1x128_S100000x128_0_1 : (⟨S1x128, .f32⟩ : BufTy).Contents (Elt F) → (⟨S100000x128, .f32⟩ : BufTy).Contents (Elt F)),
    StableHlo.binary main_v160 main_v164 main_v165 (mulf : (⟨S100000x128, .f32⟩ : BufTy).Contents (Elt F) → (⟨S100000x128, .f32⟩ : BufTy).Contents (Elt F) → (⟨S100000x128, .f32⟩ : BufTy).Contents (Elt F)),
    StableHlo.unary main_arg7 main_v166 ((extractStridedSlice S1x128 ![2, 0] · slices_S4x128_S1x128_2_0) : (⟨S4x128, .f32⟩ : BufTy).Contents (Elt F) → (⟨S1x128, .f32⟩ : BufTy).Contents (Elt F)),
    StableHlo.reshape main_v166 main_v167 rfl shapeCasts_S1x128_S128,
    StableHlo.unary main_v167 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S100000x128 ![0, 1] bcast_S1x128_S100000x128_0_1 : (⟨S1x128, .f32⟩ : BufTy).Contents (Elt F) → (⟨S100000x128, .f32⟩ : BufTy).Contents (Elt F)),
    StableHlo.binary main_v165 main_v169 main_v170 (addf : (⟨S100000x128, .f32⟩ : BufTy).Contents (Elt F) → (⟨S100000x128, .f32⟩ : BufTy).Contents (Elt F) → (⟨S100000x128, .f32⟩ : BufTy).Contents (Elt F)) ]

/-- 3 operations of an inlined call. -/
abbrev s21 : List (HloOp τ sig (Elt F)) :=
  [ StableHlo.TRef.nullary main_call7.cst (constant S_ .f32 0x00000000#32),
    StableHlo.TRef.unary main_call7.cst main_call7.v0 (broadcastInDim S100000x128 ![] bcast_S_S100000x128),
    StableHlo.TRef.binary (.of main_v170 : StableHlo.TRef sig ⟨S100000x128, .f32⟩) main_call7.v0 main_call7.v1 maximumf ]

/-- 1 operations. -/
abbrev s22 : List (HloOp τ sig (Elt F)) :=
  [ StableHlo.binary main_v171 main_v123 main_v172 (addf : (⟨S100000x128, .f32⟩ : BufTy).Contents (Elt F) → (⟨S100000x128, .f32⟩ : BufTy).Contents (Elt F) → (⟨S100000x128, .f32⟩ : BufTy).Contents (Elt F)) ]

/-- 33 operations. -/
abbrev s23 : List (HloOp τ sig (Elt F)) :=
  [ StableHlo.unary main_v12 main_v173 (broadcastInDim S100000x1 ![0] bcast_S100000_S100000x1_0 : (⟨S100000, .f32⟩ : BufTy).Contents (Elt F) → (⟨S100000x1, .f32⟩ : BufTy).Contents (Elt F)),
    StableHlo.unary main_v173 main_v174 (broadcastInDim S100000x128 ![0, 1] bcast_S100000x1_S100000x128_0_1 : (⟨S100000x1, .f32⟩ : BufTy).Contents (Elt F) → (⟨S100000x128, .f32⟩ : BufTy).Contents (Elt F)),
    StableHlo.binary main_v172 main_v174 main_v175 (mulf : (⟨S100000x128, .f32⟩ : BufTy).Contents (Elt F) → (⟨S100000x128, .f32⟩ : BufTy).Contents (Elt F) → (⟨S100000x128, .f32⟩ : BufTy).Contents (Elt F)),
    StableHlo.nullary main_c_30 (constantI S_ 32 0#32),
    StableHlo.unary main_c_30 main_v176 (broadcastInDim S1600000 ![] bcast_S_S1600000 : (⟨S_, .i32⟩ : BufTy).Contents (Elt F) → (⟨S1600000, .i32⟩ : BufTy).Contents (Elt F)),
    StableHlo.binary main_arg1 main_v176 main_v177 (cmpi .slt : (⟨S1600000, .i32⟩ : BufTy).Contents (Elt F) → (⟨S1600000, .i32⟩ : BufTy).Contents (Elt F) → (⟨S1600000, .i1⟩ : BufTy).Contents (Elt F)),
    StableHlo.nullary main_c_31 (constantI S_ 32 100000#32),
    StableHlo.unary main_c_31 main_v178 (broadcastInDim S1600000 ![] bcast_S_S1600000 : (⟨S_, .i32⟩ : BufTy).Contents (Elt F) → (⟨S1600000, .i32⟩ : BufTy).Contents (Elt F)),
    StableHlo.binary main_arg1 main_v178 main_v179 (addi : (⟨S1600000, .i32⟩ : BufTy).Contents (Elt F) → (⟨S1600000, .i32⟩ : BufTy).Contents (Elt F) → (⟨S1600000, .i32⟩ : BufTy).Contents (Elt F)),
    StableHlo.ternary main_v177 main_v179 main_arg1 main_v180 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v180 main_v181 (broadcastInDim S1600000x1 ![0] bcast_S1600000_S1600000x1_0 : (⟨S1600000, .i32⟩ : BufTy).Contents (Elt F) → (⟨S1600000x1, .i32⟩ : BufTy).Contents (Elt F)),
    StableHlo.binary main_v175 main_v181 main_v182 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_32 (constant S_ .f32 0x00000000#32),
    StableHlo.unary main_cst_32 main_v183 (broadcastInDim S100000x128 ![] bcast_S_S100000x128 : (⟨S_, .f32⟩ : BufTy).Contents (Elt F) → (⟨S100000x128, .f32⟩ : BufTy).Contents (Elt F)),
    StableHlo.unary main_arg2 main_v184 (broadcastInDim S1600000x1 ![0] bcast_S1600000_S1600000x1_0 : (⟨S1600000, .i32⟩ : BufTy).Contents (Elt F) → (⟨S1600000x1, .i32⟩ : BufTy).Contents (Elt F)),
    StableHlo.ternary main_v183 main_v184 main_v182 main_v185 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v18 main_v186 (broadcastInDim S100000x1 ![0] bcast_S100000_S100000x1_0 : (⟨S100000, .f32⟩ : BufTy).Contents (Elt F) → (⟨S100000x1, .f32⟩ : BufTy).Contents (Elt F)),
    StableHlo.unary main_v186 main_v187 (broadcastInDim S100000x128 ![0, 1] bcast_S100000x1_S100000x128_0_1 : (⟨S100000x1, .f32⟩ : BufTy).Contents (Elt F) → (⟨S100000x128, .f32⟩ : BufTy).Contents (Elt F)),
    StableHlo.binary main_v185 main_v187 main_v188 (mulf : (⟨S100000x128, .f32⟩ : BufTy).Contents (Elt F) → (⟨S100000x128, .f32⟩ : BufTy).Contents (Elt F) → (⟨S100000x128, .f32⟩ : BufTy).Contents (Elt F)),
    StableHlo.unary main_arg4 main_v189 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v189 main_v190 rfl shapeCasts_S1x128x128_S128x128,
    StableHlo.binary main_v188 main_v190 main_v191 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v192 ((extractStridedSlice S1x128 ![3, 0] · slices_S4x128_S1x128_3_0) : (⟨S4x128, .f32⟩ : BufTy).Contents (Elt F) → (⟨S1x128, .f32⟩ : BufTy).Contents (Elt F)),
    StableHlo.reshape main_v192 main_v193 rfl shapeCasts_S1x128_S128,
    StableHlo.unary main_v193 main_v194 (broadcastInDim S1x128 ![1] bcast_S128_S1x128_1 : (⟨S128, .f32⟩ : BufTy).Contents (Elt F) → (⟨S1x128, .f32⟩ : BufTy).Contents (Elt F)),
    StableHlo.unary main_v194 main_v195 (broadcastInDim S100000x128 ![0, 1] bcast_S1x128_S100000x128_0_1 : (⟨S1x128, .f32⟩ : BufTy).Contents (Elt F) → (⟨S100000x128, .f32⟩ : BufTy).Contents (Elt F)),
    StableHlo.binary main_v191 main_v195 main_v196 (addf : (⟨S100000x128, .f32⟩ : BufTy).Contents (Elt F) → (⟨S100000x128, .f32⟩ : BufTy).Contents (Elt F) → (⟨S100000x128, .f32⟩ : BufTy).Contents (Elt F)),
    StableHlo.nullary main_cst_33 (constant S_ .f32 0x00000000#32),
    StableHlo.binary main_v196 main_cst_33 main_v197 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_34 (constant S_ .f32 0x47C35000#32),
    StableHlo.unary main_cst_34 main_v198 (broadcastInDim S128 ![] bcast_S_S128 : (⟨S_, .f32⟩ : BufTy).Contents (Elt F) → (⟨S128, .f32⟩ : BufTy).Contents (Elt F)),
    StableHlo.binary main_v197 main_v198 main_v199 (Host.divf : (⟨S128, .f32⟩ : BufTy).Contents (Elt F) → (⟨S128, .f32⟩ : BufTy).Contents (Elt F) → (⟨S128, .f32⟩ : BufTy).Contents (Elt F)),
    StableHlo.nullary main_c_35 (constantI S_ 32 0#32) ]

/-- 22 operations of an inlined call. -/
abbrev s24 : List (HloOp τ sig (Elt F)) :=
  [ StableHlo.TRef.nullary main_call8.cst (constant S_ .f32 0x00000000#32),
    StableHlo.TRef.binary (.of main_v196 : StableHlo.TRef sig ⟨S100000x128, .f32⟩) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v196 : StableHlo.TRef sig ⟨S100000x128, .f32⟩) main_call8.v4 main_call8.v5 subf,
    StableHlo.TRef.binary main_call8.v5 main_call8.v5 main_call8.v6 mulf,
    StableHlo.TRef.unary (.of main_c_35 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b) ]

/-- 1 operations. -/
abbrev s25 : List (HloOp τ sig (Elt F)) :=
  [ StableHlo.unary main_v199 main_v201 (broadcastInDim S1x128 ![1] bcast_S128_S1x128_1 : (⟨S128, .f32⟩ : BufTy).Contents (Elt F) → (⟨S1x128, .f32⟩ : BufTy).Contents (Elt F)) ]

/-- 19 operations. -/
abbrev s26 : List (HloOp τ sig (Elt F)) :=
  [ StableHlo.unary main_v201 main_v202 (broadcastInDim S100000x128 ![0, 1] bcast_S1x128_S100000x128_0_1 : (⟨S1x128, .f32⟩ : BufTy).Contents (Elt F) → (⟨S100000x128, .f32⟩ : BufTy).Contents (Elt F)),
    StableHlo.binary main_v196 main_v202 main_v203 (subf : (⟨S100000x128, .f32⟩ : BufTy).Contents (Elt F) → (⟨S100000x128, .f32⟩ : BufTy).Contents (Elt F) → (⟨S100000x128, .f32⟩ : BufTy).Contents (Elt F)),
    StableHlo.nullary main_cst_36 (constant S_ .f32 0x3727C5AC#32),
    StableHlo.unary main_cst_36 main_v204 (broadcastInDim S128 ![] bcast_S_S128 : (⟨S_, .f32⟩ : BufTy).Contents (Elt F) → (⟨S128, .f32⟩ : BufTy).Contents (Elt F)),
    StableHlo.binary main_v200 main_v204 main_v205 (addf : (⟨S128, .f32⟩ : BufTy).Contents (Elt F) → (⟨S128, .f32⟩ : BufTy).Contents (Elt F) → (⟨S128, .f32⟩ : BufTy).Contents (Elt F)),
    StableHlo.unary main_v205 main_v206 (Host.rsqrt : (⟨S128, .f32⟩ : BufTy).Contents (Elt F) → (⟨S128, .f32⟩ : BufTy).Contents (Elt F)),
    StableHlo.unary main_v206 main_v207 (broadcastInDim S1x128 ![1] bcast_S128_S1x128_1 : (⟨S128, .f32⟩ : BufTy).Contents (Elt F) → (⟨S1x128, .f32⟩ : BufTy).Contents (Elt F)),
    StableHlo.unary main_v207 main_v208 (broadcastInDim S100000x128 ![0, 1] bcast_S1x128_S100000x128_0_1 : (⟨S1x128, .f32⟩ : BufTy).Contents (Elt F) → (⟨S100000x128, .f32⟩ : BufTy).Contents (Elt F)),
    StableHlo.binary main_v203 main_v208 main_v209 (mulf : (⟨S100000x128, .f32⟩ : BufTy).Contents (Elt F) → (⟨S100000x128, .f32⟩ : BufTy).Contents (Elt F) → (⟨S100000x128, .f32⟩ : BufTy).Contents (Elt F)),
    StableHlo.unary main_arg6 main_v210 ((extractStridedSlice S1x128 ![3, 0] · slices_S4x128_S1x128_3_0) : (⟨S4x128, .f32⟩ : BufTy).Contents (Elt F) → (⟨S1x128, .f32⟩ : BufTy).Contents (Elt F)),
    StableHlo.reshape main_v210 main_v211 rfl shapeCasts_S1x128_S128,
    StableHlo.unary main_v211 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S100000x128 ![0, 1] bcast_S1x128_S100000x128_0_1 : (⟨S1x128, .f32⟩ : BufTy).Contents (Elt F) → (⟨S100000x128, .f32⟩ : BufTy).Contents (Elt F)),
    StableHlo.binary main_v209 main_v213 main_v214 (mulf : (⟨S100000x128, .f32⟩ : BufTy).Contents (Elt F) → (⟨S100000x128, .f32⟩ : BufTy).Contents (Elt F) → (⟨S100000x128, .f32⟩ : BufTy).Contents (Elt F)),
    StableHlo.unary main_arg7 main_v215 ((extractStridedSlice S1x128 ![3, 0] · slices_S4x128_S1x128_3_0) : (⟨S4x128, .f32⟩ : BufTy).Contents (Elt F) → (⟨S1x128, .f32⟩ : BufTy).Contents (Elt F)),
    StableHlo.reshape main_v215 main_v216 rfl shapeCasts_S1x128_S128,
    StableHlo.unary main_v216 main_v217 (broadcastInDim S1x128 ![1] bcast_S128_S1x128_1 : (⟨S128, .f32⟩ : BufTy).Contents (Elt F) → (⟨S1x128, .f32⟩ : BufTy).Contents (Elt F)),
    StableHlo.unary main_v217 main_v218 (broadcastInDim S100000x128 ![0, 1] bcast_S1x128_S100000x128_0_1 : (⟨S1x128, .f32⟩ : BufTy).Contents (Elt F) → (⟨S100000x128, .f32⟩ : BufTy).Contents (Elt F)),
    StableHlo.binary main_v214 main_v218 main_v219 (addf : (⟨S100000x128, .f32⟩ : BufTy).Contents (Elt F) → (⟨S100000x128, .f32⟩ : BufTy).Contents (Elt F) → (⟨S100000x128, .f32⟩ : BufTy).Contents (Elt F)) ]

/-- 3 operations of an inlined call. -/
abbrev s27 : List (HloOp τ sig (Elt F)) :=
  [ StableHlo.TRef.nullary main_call9.cst (constant S_ .f32 0x00000000#32),
    StableHlo.TRef.unary main_call9.cst main_call9.v0 (broadcastInDim S100000x128 ![] bcast_S_S100000x128),
    StableHlo.TRef.binary (.of main_v219 : StableHlo.TRef sig ⟨S100000x128, .f32⟩) main_call9.v0 main_call9.v1 maximumf ]

/-- 1 operations. -/
abbrev s28 : List (HloOp τ sig (Elt F)) :=
  [ StableHlo.binary main_v220 main_v172 main_v221 (addf : (⟨S100000x128, .f32⟩ : BufTy).Contents (Elt F) → (⟨S100000x128, .f32⟩ : BufTy).Contents (Elt F) → (⟨S100000x128, .f32⟩ : BufTy).Contents (Elt F)) ]

/-- 4 operations. -/
abbrev s29 : List (HloOp τ sig (Elt F)) :=
  [ StableHlo.binary main_v221 main_arg8 main_v222 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg9 main_v223 (broadcastInDim S1x64 ![1] bcast_S64_S1x64_1 : (⟨S64, .f32⟩ : BufTy).Contents (Elt F) → (⟨S1x64, .f32⟩ : BufTy).Contents (Elt F)),
    StableHlo.unary main_v223 main_v224 (broadcastInDim S100000x64 ![0, 1] bcast_S1x64_S100000x64_0_1 : (⟨S1x64, .f32⟩ : BufTy).Contents (Elt F) → (⟨S100000x64, .f32⟩ : BufTy).Contents (Elt F)),
    StableHlo.binary main_v222 main_v224 main_v225 (addf : (⟨S100000x64, .f32⟩ : BufTy).Contents (Elt F) → (⟨S100000x64, .f32⟩ : BufTy).Contents (Elt F) → (⟨S100000x64, .f32⟩ : BufTy).Contents (Elt F)) ]

/-- 3 operations of an inlined call. -/
abbrev s30 : List (HloOp τ sig (Elt F)) :=
  [ StableHlo.TRef.nullary main_call10.cst (constant S_ .f32 0x00000000#32),
    StableHlo.TRef.unary main_call10.cst main_call10.v0 (broadcastInDim S100000x64 ![] bcast_S_S100000x64),
    StableHlo.TRef.binary (.of main_v225 : StableHlo.TRef sig ⟨S100000x64, .f32⟩) main_call10.v0 main_call10.v1 maximumf ]

/-- 4 operations. -/
abbrev s31 : List (HloOp τ sig (Elt F)) :=
  [ StableHlo.binary main_v226 main_arg10 main_v227 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg11 main_v228 (broadcastInDim S1x32 ![1] bcast_S32_S1x32_1 : (⟨S32, .f32⟩ : BufTy).Contents (Elt F) → (⟨S1x32, .f32⟩ : BufTy).Contents (Elt F)),
    StableHlo.unary main_v228 main_v229 (broadcastInDim S100000x32 ![0, 1] bcast_S1x32_S100000x32_0_1 : (⟨S1x32, .f32⟩ : BufTy).Contents (Elt F) → (⟨S100000x32, .f32⟩ : BufTy).Contents (Elt F)),
    StableHlo.binary main_v227 main_v229 main_v230 (addf : (⟨S100000x32, .f32⟩ : BufTy).Contents (Elt F) → (⟨S100000x32, .f32⟩ : BufTy).Contents (Elt F) → (⟨S100000x32, .f32⟩ : BufTy).Contents (Elt F)) ]

/-- 3 operations of an inlined call. -/
abbrev s32 : List (HloOp τ sig (Elt F)) :=
  [ StableHlo.TRef.nullary main_call11.cst (constant S_ .f32 0x00000000#32),
    StableHlo.TRef.unary main_call11.cst main_call11.v0 (broadcastInDim S100000x32 ![] bcast_S_S100000x32),
    StableHlo.TRef.binary (.of main_v230 : StableHlo.TRef sig ⟨S100000x32, .f32⟩) main_call11.v0 main_call11.v1 maximumf ]

/-- 4 operations. -/
abbrev s33 : List (HloOp τ sig (Elt F)) :=
  [ StableHlo.binary main_v231 main_arg12 main_v232 ((fun l r => Host.dotGeneral dot_S100000x32_S32x6_S100000x6_1_0_0_1_n_n none l r) : (⟨S100000x32, .f32⟩ : BufTy).Contents (Elt F) → (⟨S32x6, .f32⟩ : BufTy).Contents (Elt F) → (⟨S100000x6, .f32⟩ : BufTy).Contents (Elt F)),
    StableHlo.unary main_arg13 main_v233 (broadcastInDim S1x6 ![1] bcast_S6_S1x6_1 : (⟨S6, .f32⟩ : BufTy).Contents (Elt F) → (⟨S1x6, .f32⟩ : BufTy).Contents (Elt F)),
    StableHlo.unary main_v233 main_v234 (broadcastInDim S100000x6 ![0, 1] bcast_S1x6_S100000x6_0_1 : (⟨S1x6, .f32⟩ : BufTy).Contents (Elt F) → (⟨S100000x6, .f32⟩ : BufTy).Contents (Elt F)),
    StableHlo.binary main_v232 main_v234 main_v235 (addf : (⟨S100000x6, .f32⟩ : BufTy).Contents (Elt F) → (⟨S100000x6, .f32⟩ : BufTy).Contents (Elt F) → (⟨S100000x6, .f32⟩ : BufTy).Contents (Elt F)) ]

/-- The sublists of main_part0, in order. -/
abbrev main_part0_items : List (List (HloOp τ sig (Elt F))) := [s0, s1, s2, s3, s4, s5]

/-- The sublists of main_part1, in order. -/
abbrev main_part1_items : List (List (HloOp τ sig (Elt F))) := [s6, s7, s8, s9, s10, s11]

/-- The sublists of main_part2, in order. -/
abbrev main_part2_items : List (List (HloOp τ sig (Elt F))) := [s12, s13, s14, s15, s16, s17]

/-- The sublists of main_part3, in order. -/
abbrev main_part3_items : List (List (HloOp τ sig (Elt F))) := [s18, s19, s20, s21, s22, s23, s24, s25]

/-- The sublists of main_part4, in order. -/
abbrev main_part4_items : List (List (HloOp τ sig (Elt F))) := [s26, s27, s28, s29, s30, s31, s32, s33]

abbrev opsPre : List (HloOp τ sig (Elt F)) := s0 ++ s1 ++ s2 ++ s3 ++ s4

abbrev opsL0 : List (HloOp τ sig (Elt F)) := s5 ++ s6 ++ s7 ++ s8 ++ s9 ++ s10

abbrev opsL1 : List (HloOp τ sig (Elt F)) := s11 ++ s12 ++ s13 ++ s14 ++ s15 ++ s16

abbrev opsL2 : List (HloOp τ sig (Elt F)) := s17 ++ s18 ++ s19 ++ s20 ++ s21 ++ s22

abbrev opsL3 : List (HloOp τ sig (Elt F)) := s23 ++ s24 ++ s25 ++ s26 ++ s27 ++ s28

abbrev opsOut : List (HloOp τ sig (Elt F)) := s29 ++ s30 ++ s31 ++ s32 ++ s33

/-- @main's operations, in order. -/
abbrev opsAll : List (HloOp τ sig (Elt F)) := opsPre ++ opsL0 ++ opsL1 ++ opsL2 ++ opsL3 ++ opsOut

end Cert.ReferenceIdeal.Ops

end
-- ==== Proof.RRun.lean ====
/-
  The reference's @main is the straight line of its operations; its run ends with every buffer at the fold of the
  operations over the launch contents, and the fold splits at the layers' ends.
-/
import proofs.«168068_j70480413327361_1_alg».proof.Proof.ROps
import Idealize.ShloMosaic.Lib.Pipeline.Regions

noncomputable section

namespace Cert.ReferenceIdeal.RunV

open Cert.ReferenceIdeal Cert.ReferenceIdeal.Facts₀ Cert.ReferenceIdeal.Ops Idealize.ShloMosaic Idealize.ShloMosaic.TcCoe Idealize.SL.Sem Idealize.ShloMosaic.StableHlo

variable {F : FTy → Type} [FloatOps F]

/-! ## What every operation touches, that none allocates, and that none writes an argument -/

/-- The argument arrays. -/
abbrev argRefs : List (Ref sig .tc) :=
  [main_arg0, main_arg1, main_arg2, main_arg3, main_arg4, main_arg5, main_arg6, main_arg7, main_arg8, main_arg9, main_arg10, main_arg11, main_arg12, main_arg13]

/-- The operation writes no argument array. -/
def Keeps (op : HloOp τ sig (Elt F)) : Prop := ∀ r ∈ argRefs, Proc.devRef (τ := τ) .tc r ∉ op.writes

/-- An operation whose one written buffer is not an argument writes no argument. -/
theorem keeps_of {op : HloOp τ sig (Elt F)} {y : Ref sig .tc} (hw : op.writes = {Proc.devRef .tc y}) (hy : y ∉ argRefs) : Keeps op :=
  fun r hr hm => by
    rw [hw, Finset.mem_singleton] at hm
    exact hy (Proc.devRef_injective _ hm ▸ hr)

/-- A property of every sublist's operations is one of the concatenation's. -/
theorem forall_flatten {α : Type} {p : α → Prop} : ∀ {ls : List (List α)}, ls.Forall (fun l => l.Forall p) → ls.flatten.Forall p
  | [], _ => trivial
  | l :: ls, h => by
    rw [List.forall_cons] at h
    rw [List.flatten_cons, List.forall_append]
    exact ⟨h.1, forall_flatten h.2⟩

theorem s0_sub : (s0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub ..⟩
theorem s0_fresh : (s0 : List (HloOp τ sig (Elt F))).Forall fun op => op.fresh = ∅ :=
  ⟨rfl, rfl, rfl, rfl, rfl, rfl, rfl, rfl, rfl, rfl, rfl, rfl, rfl, rfl, rfl, rfl, rfl, rfl⟩
theorem s0_keeps : (s0 : List (HloOp τ sig (Elt F))).Forall Keeps :=
  ⟨keeps_of (nullary_writes ..) (by decide), keeps_of (unary_writes ..) (by decide), keeps_of (nullary_writes ..) (by decide), keeps_of (unary_writes ..) (by decide), keeps_of (unary_writes ..) (by decide), keeps_of (ternary_writes ..) (by decide), keeps_of (nullary_writes ..) (by decide), keeps_of (unary_writes ..) (by decide), keeps_of (unary_writes ..) (by decide), keeps_of (ternary_writes ..) (by decide), keeps_of (nullary_writes ..) (by decide), keeps_of (unary_writes ..) (by decide), keeps_of (binary_writes ..) (by decide), keeps_of (nullary_writes ..) (by decide), keeps_of (unary_writes ..) (by decide), keeps_of (binary_writes ..) (by decide), keeps_of (unary_writes ..) (by decide), keeps_of (nullary_writes ..) (by decide)⟩

theorem s1_sub : (s1 : List (HloOp τ sig (Elt F))).Forall fun op => op.bufs ⊆ tcRefs τ sig :=
  ⟨unary_bufs_sub .., unary_bufs_sub .., ternary_bufs_sub ..⟩
theorem s1_fresh : (s1 : List (HloOp τ sig (Elt F))).Forall fun op => op.fresh = ∅ :=
  ⟨rfl, rfl, rfl⟩
theorem s1_keeps : (s1 : List (HloOp τ sig (Elt F))).Forall Keeps :=
  ⟨keeps_of (unary_writes ..) (by decide), keeps_of (unary_writes ..) (by decide), keeps_of (ternary_writes ..) (by decide)⟩

theorem s2_sub : (s2 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub ..⟩
theorem s2_fresh : (s2 : List (HloOp τ sig (Elt F))).Forall fun op => op.fresh = ∅ :=
  ⟨rfl, rfl, rfl, rfl, rfl, rfl, rfl, rfl⟩
theorem s2_keeps : (s2 : List (HloOp τ sig (Elt F))).Forall Keeps :=
  ⟨keeps_of (nullary_writes ..) (by decide), keeps_of (unary_writes ..) (by decide), keeps_of (binary_writes ..) (by decide), keeps_of (nullary_writes ..) (by decide), keeps_of (unary_writes ..) (by decide), keeps_of (binary_writes ..) (by decide), keeps_of (unary_writes ..) (by decide), keeps_of (nullary_writes ..) (by decide)⟩

theorem s3_sub : (s3 : List (HloOp τ sig (Elt F))).Forall fun op => op.bufs ⊆ tcRefs τ sig :=
  ⟨unary_bufs_sub .., unary_bufs_sub .., ternary_bufs_sub ..⟩
theorem s3_fresh : (s3 : List (HloOp τ sig (Elt F))).Forall fun op => op.fresh = ∅ :=
  ⟨rfl, rfl, rfl⟩
theorem s3_keeps : (s3 : List (HloOp τ sig (Elt F))).Forall Keeps :=
  ⟨keeps_of (unary_writes ..) (by decide), keeps_of (unary_writes ..) (by decide), keeps_of (ternary_writes ..) (by decide)⟩

theorem s4_sub : (s4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem s4_fresh : (s4 : List (HloOp τ sig (Elt F))).Forall fun op => op.fresh = ∅ :=
  ⟨rfl, rfl, rfl, rfl, rfl, rfl, rfl, rfl, rfl⟩
theorem s4_keeps : (s4 : List (HloOp τ sig (Elt F))).Forall Keeps :=
  ⟨keeps_of (nullary_writes ..) (by decide), keeps_of (unary_writes ..) (by decide), keeps_of (binary_writes ..) (by decide), keeps_of (nullary_writes ..) (by decide), keeps_of (unary_writes ..) (by decide), keeps_of (binary_writes ..) (by decide), keeps_of (ternary_writes ..) (by decide), keeps_of (unary_writes ..) (by decide), keeps_of (binary_writes ..) (by decide)⟩

theorem s5_sub : (s5 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., unary_bufs_sub ..⟩
theorem s5_fresh : (s5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem s5_keeps : (s5 : List (HloOp τ sig (Elt F))).Forall Keeps :=
  ⟨keeps_of (unary_writes ..) (by decide), keeps_of (unary_writes ..) (by decide), keeps_of (binary_writes ..) (by decide), keeps_of (nullary_writes ..) (by decide), keeps_of (unary_writes ..) (by decide), keeps_of (binary_writes ..) (by decide), keeps_of (nullary_writes ..) (by decide), keeps_of (unary_writes ..) (by decide), keeps_of (binary_writes ..) (by decide), keeps_of (ternary_writes ..) (by decide), keeps_of (unary_writes ..) (by decide), keeps_of (binary_writes ..) (by decide), keeps_of (nullary_writes ..) (by decide), keeps_of (unary_writes ..) (by decide), keeps_of (unary_writes ..) (by decide), keeps_of (ternary_writes ..) (by decide), keeps_of (unary_writes ..) (by decide), keeps_of (unary_writes ..) (by decide), keeps_of (binary_writes ..) (by decide), keeps_of (unary_writes ..) (by decide), keeps_of (reshape_writes ..) (by decide), keeps_of (binary_writes ..) (by decide), keeps_of (unary_writes ..) (by decide)⟩

theorem s6_sub : (s6 : List (HloOp τ sig (Elt F))).Forall fun op => op.bufs ⊆ tcRefs τ sig :=
  ⟨reshape_bufs_sub .., unary_bufs_sub .., unary_bufs_sub .., binary_bufs_sub .., nullary_bufs_sub .., binary_bufs_sub .., nullary_bufs_sub .., unary_bufs_sub .., binary_bufs_sub .., nullary_bufs_sub ..⟩
theorem s6_fresh : (s6 : List (HloOp τ sig (Elt F))).Forall fun op => op.fresh = ∅ :=
  ⟨rfl, rfl, rfl, rfl, rfl, rfl, rfl, rfl, rfl, rfl⟩
theorem s6_keeps : (s6 : List (HloOp τ sig (Elt F))).Forall Keeps :=
  ⟨keeps_of (reshape_writes ..) (by decide), keeps_of (unary_writes ..) (by decide), keeps_of (unary_writes ..) (by decide), keeps_of (binary_writes ..) (by decide), keeps_of (nullary_writes ..) (by decide), keeps_of (binary_writes ..) (by decide), keeps_of (nullary_writes ..) (by decide), keeps_of (unary_writes ..) (by decide), keeps_of (binary_writes ..) (by decide), keeps_of (nullary_writes ..) (by decide)⟩

theorem s7_sub : (s7 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem s7_fresh : (s7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem s7_keeps : (s7 : List (HloOp τ sig (Elt F))).Forall Keeps :=
  ⟨keeps_of (nullary_writes ..) (by decide), keeps_of (binary_writes ..) (by decide), keeps_of (unary_writes ..) (by decide), keeps_of (nullary_writes ..) (by decide), keeps_of (unary_writes ..) (by decide), keeps_of (binary_writes ..) (by decide), keeps_of (unary_writes ..) (by decide), keeps_of (binary_writes ..) (by decide), keeps_of (binary_writes ..) (by decide), keeps_of (unary_writes ..) (by decide), keeps_of (nullary_writes ..) (by decide), keeps_of (binary_writes ..) (by decide), keeps_of (nullary_writes ..) (by decide), keeps_of (binary_writes ..) (by decide), keeps_of (unary_writes ..) (by decide), keeps_of (binary_writes ..) (by decide), keeps_of (nullary_writes ..) (by decide), keeps_of (binary_writes ..) (by decide), keeps_of (nullary_writes ..) (by decide), keeps_of (unary_writes ..) (by decide), keeps_of (unary_writes ..) (by decide), keeps_of (ternary_writes ..) (by decide)⟩

theorem s8_sub : (s8 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
theorem s8_fresh : (s8 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem s8_keeps : (s8 : List (HloOp τ sig (Elt F))).Forall Keeps :=
  ⟨keeps_of (unary_writes ..) (by decide), keeps_of (unary_writes ..) (by decide), keeps_of (binary_writes ..) (by decide), keeps_of (nullary_writes ..) (by decide), keeps_of (unary_writes ..) (by decide), keeps_of (binary_writes ..) (by decide), keeps_of (unary_writes ..) (by decide), keeps_of (unary_writes ..) (by decide), keeps_of (unary_writes ..) (by decide), keeps_of (binary_writes ..) (by decide), keeps_of (unary_writes ..) (by decide), keeps_of (reshape_writes ..) (by decide), keeps_of (unary_writes ..) (by decide), keeps_of (unary_writes ..) (by decide), keeps_of (binary_writes ..) (by decide), keeps_of (unary_writes ..) (by decide), keeps_of (reshape_writes ..) (by decide), keeps_of (unary_writes ..) (by decide), keeps_of (unary_writes ..) (by decide), keeps_of (binary_writes ..) (by decide)⟩

theorem s9_sub : (s9 : List (HloOp τ sig (Elt F))).Forall fun op => op.bufs ⊆ tcRefs τ sig :=
  ⟨nullary_bufs_sub .., unary_bufs_sub .., binary_bufs_sub ..⟩
theorem s9_fresh : (s9 : List (HloOp τ sig (Elt F))).Forall fun op => op.fresh = ∅ :=
  ⟨rfl, rfl, rfl⟩
theorem s9_keeps : (s9 : List (HloOp τ sig (Elt F))).Forall Keeps :=
  ⟨keeps_of (nullary_writes ..) (by decide), keeps_of (unary_writes ..) (by decide), keeps_of (binary_writes ..) (by decide)⟩

theorem s10_sub : (s10 : List (HloOp τ sig (Elt F))).Forall fun op => op.bufs ⊆ tcRefs τ sig :=
  binary_bufs_sub ..
theorem s10_fresh : (s10 : List (HloOp τ sig (Elt F))).Forall fun op => op.fresh = ∅ :=
  rfl
theorem s10_keeps : (s10 : List (HloOp τ sig (Elt F))).Forall Keeps :=
  keeps_of (binary_writes ..) (by decide)

theorem s11_sub : (s11 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem s11_fresh : (s11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
theorem s11_keeps : (s11 : List (HloOp τ sig (Elt F))).Forall Keeps :=
  ⟨keeps_of (unary_writes ..) (by decide), keeps_of (unary_writes ..) (by decide), keeps_of (binary_writes ..) (by decide), keeps_of (nullary_writes ..) (by decide), keeps_of (unary_writes ..) (by decide), keeps_of (binary_writes ..) (by decide), keeps_of (nullary_writes ..) (by decide), keeps_of (unary_writes ..) (by decide), keeps_of (binary_writes ..) (by decide), keeps_of (ternary_writes ..) (by decide), keeps_of (unary_writes ..) (by decide), keeps_of (binary_writes ..) (by decide), keeps_of (nullary_writes ..) (by decide), keeps_of (unary_writes ..) (by decide), keeps_of (unary_writes ..) (by decide), keeps_of (ternary_writes ..) (by decide), keeps_of (unary_writes ..) (by decide), keeps_of (unary_writes ..) (by decide), keeps_of (binary_writes ..) (by decide), keeps_of (unary_writes ..) (by decide), keeps_of (reshape_writes ..) (by decide), keeps_of (binary_writes ..) (by decide), keeps_of (unary_writes ..) (by decide), keeps_of (reshape_writes ..) (by decide), keeps_of (unary_writes ..) (by decide), keeps_of (unary_writes ..) (by decide), keeps_of (binary_writes ..) (by decide)⟩

theorem s12_sub : (s12 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem s12_fresh : (s12 : List (HloOp τ sig (Elt F))).Forall fun op => op.fresh = ∅ :=
  ⟨rfl, rfl, rfl, rfl, rfl, rfl⟩
theorem s12_keeps : (s12 : List (HloOp τ sig (Elt F))).Forall Keeps :=
  ⟨keeps_of (nullary_writes ..) (by decide), keeps_of (binary_writes ..) (by decide), keeps_of (nullary_writes ..) (by decide), keeps_of (unary_writes ..) (by decide), keeps_of (binary_writes ..) (by decide), keeps_of (nullary_writes ..) (by decide)⟩

theorem s13_sub : (s13 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem s13_fresh : (s13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem s13_keeps : (s13 : List (HloOp τ sig (Elt F))).Forall Keeps :=
  ⟨keeps_of (nullary_writes ..) (by decide), keeps_of (binary_writes ..) (by decide), keeps_of (unary_writes ..) (by decide), keeps_of (nullary_writes ..) (by decide), keeps_of (unary_writes ..) (by decide), keeps_of (binary_writes ..) (by decide), keeps_of (unary_writes ..) (by decide), keeps_of (binary_writes ..) (by decide), keeps_of (binary_writes ..) (by decide), keeps_of (unary_writes ..) (by decide), keeps_of (nullary_writes ..) (by decide), keeps_of (binary_writes ..) (by decide), keeps_of (nullary_writes ..) (by decide), keeps_of (binary_writes ..) (by decide), keeps_of (unary_writes ..) (by decide), keeps_of (binary_writes ..) (by decide), keeps_of (nullary_writes ..) (by decide), keeps_of (binary_writes ..) (by decide), keeps_of (nullary_writes ..) (by decide), keeps_of (unary_writes ..) (by decide), keeps_of (unary_writes ..) (by decide), keeps_of (ternary_writes ..) (by decide)⟩

theorem s14_sub : (s14 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
theorem s14_fresh : (s14 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem s14_keeps : (s14 : List (HloOp τ sig (Elt F))).Forall Keeps :=
  ⟨keeps_of (unary_writes ..) (by decide), keeps_of (unary_writes ..) (by decide), keeps_of (binary_writes ..) (by decide), keeps_of (nullary_writes ..) (by decide), keeps_of (unary_writes ..) (by decide), keeps_of (binary_writes ..) (by decide), keeps_of (unary_writes ..) (by decide), keeps_of (unary_writes ..) (by decide), keeps_of (unary_writes ..) (by decide), keeps_of (binary_writes ..) (by decide), keeps_of (unary_writes ..) (by decide), keeps_of (reshape_writes ..) (by decide), keeps_of (unary_writes ..) (by decide), keeps_of (unary_writes ..) (by decide), keeps_of (binary_writes ..) (by decide), keeps_of (unary_writes ..) (by decide), keeps_of (reshape_writes ..) (by decide), keeps_of (unary_writes ..) (by decide), keeps_of (unary_writes ..) (by decide), keeps_of (binary_writes ..) (by decide)⟩

theorem s15_sub : (s15 : List (HloOp τ sig (Elt F))).Forall fun op => op.bufs ⊆ tcRefs τ sig :=
  ⟨nullary_bufs_sub .., unary_bufs_sub .., binary_bufs_sub ..⟩
theorem s15_fresh : (s15 : List (HloOp τ sig (Elt F))).Forall fun op => op.fresh = ∅ :=
  ⟨rfl, rfl, rfl⟩
theorem s15_keeps : (s15 : List (HloOp τ sig (Elt F))).Forall Keeps :=
  ⟨keeps_of (nullary_writes ..) (by decide), keeps_of (unary_writes ..) (by decide), keeps_of (binary_writes ..) (by decide)⟩

theorem s16_sub : (s16 : List (HloOp τ sig (Elt F))).Forall fun op => op.bufs ⊆ tcRefs τ sig :=
  binary_bufs_sub ..
theorem s16_fresh : (s16 : List (HloOp τ sig (Elt F))).Forall fun op => op.fresh = ∅ :=
  rfl
theorem s16_keeps : (s16 : List (HloOp τ sig (Elt F))).Forall Keeps :=
  keeps_of (binary_writes ..) (by decide)

theorem s17_sub : (s17 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub ..⟩
theorem s17_fresh : (s17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem s17_keeps : (s17 : List (HloOp τ sig (Elt F))).Forall Keeps :=
  ⟨keeps_of (unary_writes ..) (by decide), keeps_of (unary_writes ..) (by decide), keeps_of (binary_writes ..) (by decide), keeps_of (nullary_writes ..) (by decide), keeps_of (unary_writes ..) (by decide), keeps_of (binary_writes ..) (by decide), keeps_of (nullary_writes ..) (by decide), keeps_of (unary_writes ..) (by decide), keeps_of (binary_writes ..) (by decide), keeps_of (ternary_writes ..) (by decide), keeps_of (unary_writes ..) (by decide), keeps_of (binary_writes ..) (by decide), keeps_of (nullary_writes ..) (by decide), keeps_of (unary_writes ..) (by decide), keeps_of (unary_writes ..) (by decide), keeps_of (ternary_writes ..) (by decide), keeps_of (unary_writes ..) (by decide), keeps_of (unary_writes ..) (by decide), keeps_of (binary_writes ..) (by decide), keeps_of (unary_writes ..) (by decide), keeps_of (reshape_writes ..) (by decide), keeps_of (binary_writes ..) (by decide), keeps_of (unary_writes ..) (by decide), keeps_of (reshape_writes ..) (by decide), keeps_of (unary_writes ..) (by decide), keeps_of (unary_writes ..) (by decide), keeps_of (binary_writes ..) (by decide), keeps_of (nullary_writes ..) (by decide), keeps_of (binary_writes ..) (by decide), keeps_of (nullary_writes ..) (by decide), keeps_of (unary_writes ..) (by decide)⟩

theorem s18_sub : (s18 : List (HloOp τ sig (Elt F))).Forall fun op => op.bufs ⊆ tcRefs τ sig :=
  ⟨binary_bufs_sub .., nullary_bufs_sub ..⟩
theorem s18_fresh : (s18 : List (HloOp τ sig (Elt F))).Forall fun op => op.fresh = ∅ :=
  ⟨rfl, rfl⟩
theorem s18_keeps : (s18 : List (HloOp τ sig (Elt F))).Forall Keeps :=
  ⟨keeps_of (binary_writes ..) (by decide), keeps_of (nullary_writes ..) (by decide)⟩

theorem s19_sub : (s19 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem s19_fresh : (s19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem s19_keeps : (s19 : List (HloOp τ sig (Elt F))).Forall Keeps :=
  ⟨keeps_of (nullary_writes ..) (by decide), keeps_of (binary_writes ..) (by decide), keeps_of (unary_writes ..) (by decide), keeps_of (nullary_writes ..) (by decide), keeps_of (unary_writes ..) (by decide), keeps_of (binary_writes ..) (by decide), keeps_of (unary_writes ..) (by decide), keeps_of (binary_writes ..) (by decide), keeps_of (binary_writes ..) (by decide), keeps_of (unary_writes ..) (by decide), keeps_of (nullary_writes ..) (by decide), keeps_of (binary_writes ..) (by decide), keeps_of (nullary_writes ..) (by decide), keeps_of (binary_writes ..) (by decide), keeps_of (unary_writes ..) (by decide), keeps_of (binary_writes ..) (by decide), keeps_of (nullary_writes ..) (by decide), keeps_of (binary_writes ..) (by decide), keeps_of (nullary_writes ..) (by decide), keeps_of (unary_writes ..) (by decide), keeps_of (unary_writes ..) (by decide), keeps_of (ternary_writes ..) (by decide)⟩

theorem s20_sub : (s20 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
theorem s20_fresh : (s20 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem s20_keeps : (s20 : List (HloOp τ sig (Elt F))).Forall Keeps :=
  ⟨keeps_of (unary_writes ..) (by decide), keeps_of (unary_writes ..) (by decide), keeps_of (binary_writes ..) (by decide), keeps_of (nullary_writes ..) (by decide), keeps_of (unary_writes ..) (by decide), keeps_of (binary_writes ..) (by decide), keeps_of (unary_writes ..) (by decide), keeps_of (unary_writes ..) (by decide), keeps_of (unary_writes ..) (by decide), keeps_of (binary_writes ..) (by decide), keeps_of (unary_writes ..) (by decide), keeps_of (reshape_writes ..) (by decide), keeps_of (unary_writes ..) (by decide), keeps_of (unary_writes ..) (by decide), keeps_of (binary_writes ..) (by decide), keeps_of (unary_writes ..) (by decide), keeps_of (reshape_writes ..) (by decide), keeps_of (unary_writes ..) (by decide), keeps_of (unary_writes ..) (by decide), keeps_of (binary_writes ..) (by decide)⟩

theorem s21_sub : (s21 : List (HloOp τ sig (Elt F))).Forall fun op => op.bufs ⊆ tcRefs τ sig :=
  ⟨nullary_bufs_sub .., unary_bufs_sub .., binary_bufs_sub ..⟩
theorem s21_fresh : (s21 : List (HloOp τ sig (Elt F))).Forall fun op => op.fresh = ∅ :=
  ⟨rfl, rfl, rfl⟩
theorem s21_keeps : (s21 : List (HloOp τ sig (Elt F))).Forall Keeps :=
  ⟨keeps_of (nullary_writes ..) (by decide), keeps_of (unary_writes ..) (by decide), keeps_of (binary_writes ..) (by decide)⟩

theorem s22_sub : (s22 : List (HloOp τ sig (Elt F))).Forall fun op => op.bufs ⊆ tcRefs τ sig :=
  binary_bufs_sub ..
theorem s22_fresh : (s22 : List (HloOp τ sig (Elt F))).Forall fun op => op.fresh = ∅ :=
  rfl
theorem s22_keeps : (s22 : List (HloOp τ sig (Elt F))).Forall Keeps :=
  keeps_of (binary_writes ..) (by decide)

theorem s23_sub : (s23 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub ..⟩
theorem s23_fresh : (s23 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem s23_keeps : (s23 : List (HloOp τ sig (Elt F))).Forall Keeps :=
  ⟨keeps_of (unary_writes ..) (by decide), keeps_of (unary_writes ..) (by decide), keeps_of (binary_writes ..) (by decide), keeps_of (nullary_writes ..) (by decide), keeps_of (unary_writes ..) (by decide), keeps_of (binary_writes ..) (by decide), keeps_of (nullary_writes ..) (by decide), keeps_of (unary_writes ..) (by decide), keeps_of (binary_writes ..) (by decide), keeps_of (ternary_writes ..) (by decide), keeps_of (unary_writes ..) (by decide), keeps_of (binary_writes ..) (by decide), keeps_of (nullary_writes ..) (by decide), keeps_of (unary_writes ..) (by decide), keeps_of (unary_writes ..) (by decide), keeps_of (ternary_writes ..) (by decide), keeps_of (unary_writes ..) (by decide), keeps_of (unary_writes ..) (by decide), keeps_of (binary_writes ..) (by decide), keeps_of (unary_writes ..) (by decide), keeps_of (reshape_writes ..) (by decide), keeps_of (binary_writes ..) (by decide), keeps_of (unary_writes ..) (by decide), keeps_of (reshape_writes ..) (by decide), keeps_of (unary_writes ..) (by decide), keeps_of (unary_writes ..) (by decide), keeps_of (binary_writes ..) (by decide), keeps_of (nullary_writes ..) (by decide), keeps_of (binary_writes ..) (by decide), keeps_of (nullary_writes ..) (by decide), keeps_of (unary_writes ..) (by decide), keeps_of (binary_writes ..) (by decide), keeps_of (nullary_writes ..) (by decide)⟩

theorem s24_sub : (s24 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem s24_fresh : (s24 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem s24_keeps : (s24 : List (HloOp τ sig (Elt F))).Forall Keeps :=
  ⟨keeps_of (nullary_writes ..) (by decide), keeps_of (binary_writes ..) (by decide), keeps_of (unary_writes ..) (by decide), keeps_of (nullary_writes ..) (by decide), keeps_of (unary_writes ..) (by decide), keeps_of (binary_writes ..) (by decide), keeps_of (unary_writes ..) (by decide), keeps_of (binary_writes ..) (by decide), keeps_of (binary_writes ..) (by decide), keeps_of (unary_writes ..) (by decide), keeps_of (nullary_writes ..) (by decide), keeps_of (binary_writes ..) (by decide), keeps_of (nullary_writes ..) (by decide), keeps_of (binary_writes ..) (by decide), keeps_of (unary_writes ..) (by decide), keeps_of (binary_writes ..) (by decide), keeps_of (nullary_writes ..) (by decide), keeps_of (binary_writes ..) (by decide), keeps_of (nullary_writes ..) (by decide), keeps_of (unary_writes ..) (by decide), keeps_of (unary_writes ..) (by decide), keeps_of (ternary_writes ..) (by decide)⟩

theorem s25_sub : (s25 : List (HloOp τ sig (Elt F))).Forall fun op => op.bufs ⊆ tcRefs τ sig :=
  unary_bufs_sub ..
theorem s25_fresh : (s25 : List (HloOp τ sig (Elt F))).Forall fun op => op.fresh = ∅ :=
  rfl
theorem s25_keeps : (s25 : List (HloOp τ sig (Elt F))).Forall Keeps :=
  keeps_of (unary_writes ..) (by decide)

theorem s26_sub : (s26 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
theorem s26_fresh : (s26 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem s26_keeps : (s26 : List (HloOp τ sig (Elt F))).Forall Keeps :=
  ⟨keeps_of (unary_writes ..) (by decide), keeps_of (binary_writes ..) (by decide), keeps_of (nullary_writes ..) (by decide), keeps_of (unary_writes ..) (by decide), keeps_of (binary_writes ..) (by decide), keeps_of (unary_writes ..) (by decide), keeps_of (unary_writes ..) (by decide), keeps_of (unary_writes ..) (by decide), keeps_of (binary_writes ..) (by decide), keeps_of (unary_writes ..) (by decide), keeps_of (reshape_writes ..) (by decide), keeps_of (unary_writes ..) (by decide), keeps_of (unary_writes ..) (by decide), keeps_of (binary_writes ..) (by decide), keeps_of (unary_writes ..) (by decide), keeps_of (reshape_writes ..) (by decide), keeps_of (unary_writes ..) (by decide), keeps_of (unary_writes ..) (by decide), keeps_of (binary_writes ..) (by decide)⟩

theorem s27_sub : (s27 : List (HloOp τ sig (Elt F))).Forall fun op => op.bufs ⊆ tcRefs τ sig :=
  ⟨nullary_bufs_sub .., unary_bufs_sub .., binary_bufs_sub ..⟩
theorem s27_fresh : (s27 : List (HloOp τ sig (Elt F))).Forall fun op => op.fresh = ∅ :=
  ⟨rfl, rfl, rfl⟩
theorem s27_keeps : (s27 : List (HloOp τ sig (Elt F))).Forall Keeps :=
  ⟨keeps_of (nullary_writes ..) (by decide), keeps_of (unary_writes ..) (by decide), keeps_of (binary_writes ..) (by decide)⟩

theorem s28_sub : (s28 : List (HloOp τ sig (Elt F))).Forall fun op => op.bufs ⊆ tcRefs τ sig :=
  binary_bufs_sub ..
theorem s28_fresh : (s28 : List (HloOp τ sig (Elt F))).Forall fun op => op.fresh = ∅ :=
  rfl
theorem s28_keeps : (s28 : List (HloOp τ sig (Elt F))).Forall Keeps :=
  keeps_of (binary_writes ..) (by decide)

theorem s29_sub : (s29 : List (HloOp τ sig (Elt F))).Forall fun op => op.bufs ⊆ tcRefs τ sig :=
  ⟨binary_bufs_sub .., unary_bufs_sub .., unary_bufs_sub .., binary_bufs_sub ..⟩
theorem s29_fresh : (s29 : List (HloOp τ sig (Elt F))).Forall fun op => op.fresh = ∅ :=
  ⟨rfl, rfl, rfl, rfl⟩
theorem s29_keeps : (s29 : List (HloOp τ sig (Elt F))).Forall Keeps :=
  ⟨keeps_of (binary_writes ..) (by decide), keeps_of (unary_writes ..) (by decide), keeps_of (unary_writes ..) (by decide), keeps_of (binary_writes ..) (by decide)⟩

theorem s30_sub : (s30 : List (HloOp τ sig (Elt F))).Forall fun op => op.bufs ⊆ tcRefs τ sig :=
  ⟨nullary_bufs_sub .., unary_bufs_sub .., binary_bufs_sub ..⟩
theorem s30_fresh : (s30 : List (HloOp τ sig (Elt F))).Forall fun op => op.fresh = ∅ :=
  ⟨rfl, rfl, rfl⟩
theorem s30_keeps : (s30 : List (HloOp τ sig (Elt F))).Forall Keeps :=
  ⟨keeps_of (nullary_writes ..) (by decide), keeps_of (unary_writes ..) (by decide), keeps_of (binary_writes ..) (by decide)⟩

theorem s31_sub : (s31 : List (HloOp τ sig (Elt F))).Forall fun op => op.bufs ⊆ tcRefs τ sig :=
  ⟨binary_bufs_sub .., unary_bufs_sub .., unary_bufs_sub .., binary_bufs_sub ..⟩
theorem s31_fresh : (s31 : List (HloOp τ sig (Elt F))).Forall fun op => op.fresh = ∅ :=
  ⟨rfl, rfl, rfl, rfl⟩
theorem s31_keeps : (s31 : List (HloOp τ sig (Elt F))).Forall Keeps :=
  ⟨keeps_of (binary_writes ..) (by decide), keeps_of (unary_writes ..) (by decide), keeps_of (unary_writes ..) (by decide), keeps_of (binary_writes ..) (by decide)⟩

theorem s32_sub : (s32 : List (HloOp τ sig (Elt F))).Forall fun op => op.bufs ⊆ tcRefs τ sig :=
  ⟨nullary_bufs_sub .., unary_bufs_sub .., binary_bufs_sub ..⟩
theorem s32_fresh : (s32 : List (HloOp τ sig (Elt F))).Forall fun op => op.fresh = ∅ :=
  ⟨rfl, rfl, rfl⟩
theorem s32_keeps : (s32 : List (HloOp τ sig (Elt F))).Forall Keeps :=
  ⟨keeps_of (nullary_writes ..) (by decide), keeps_of (unary_writes ..) (by decide), keeps_of (binary_writes ..) (by decide)⟩

theorem s33_sub : (s33 : List (HloOp τ sig (Elt F))).Forall fun op => op.bufs ⊆ tcRefs τ sig :=
  ⟨binary_bufs_sub .., unary_bufs_sub .., unary_bufs_sub .., binary_bufs_sub ..⟩
theorem s33_fresh : (s33 : List (HloOp τ sig (Elt F))).Forall fun op => op.fresh = ∅ :=
  ⟨rfl, rfl, rfl, rfl⟩
theorem s33_keeps : (s33 : List (HloOp τ sig (Elt F))).Forall Keeps :=
  ⟨keeps_of (binary_writes ..) (by decide), keeps_of (unary_writes ..) (by decide), keeps_of (unary_writes ..) (by decide), keeps_of (binary_writes ..) (by decide)⟩

/-- The whole line is the concatenation of its sublists. -/
theorem opsAll_eq : (opsAll (F := F)) = [s0, s1, s2, s3, s4, s5, s6, s7, s8, s9, s10, s11, s12, s13, s14, s15, s16, s17, s18, s19, s20, s21, s22, s23, s24, s25, s26, s27, s28, s29, s30, s31, s32, s33].flatten := by
  simp only [opsAll, opsPre, opsL0, opsL1, opsL2, opsL3, opsOut, List.flatten_cons, List.flatten_nil, List.append_nil, List.append_assoc]

theorem opsAll_sub : (opsAll (F := F)).Forall fun op => op.bufs ⊆ tcRefs τ sig := by
  rw [opsAll_eq]; exact forall_flatten ⟨s0_sub, s1_sub, s2_sub, s3_sub, s4_sub, s5_sub, s6_sub, s7_sub, s8_sub, s9_sub, s10_sub, s11_sub, s12_sub, s13_sub, s14_sub, s15_sub, s16_sub, s17_sub, s18_sub, s19_sub, s20_sub, s21_sub, s22_sub, s23_sub, s24_sub, s25_sub, s26_sub, s27_sub, s28_sub, s29_sub, s30_sub, s31_sub, s32_sub, s33_sub⟩
theorem opsAll_fresh : (opsAll (F := F)).Forall fun op => op.fresh = ∅ := by
  rw [opsAll_eq]; exact forall_flatten ⟨s0_fresh, s1_fresh, s2_fresh, s3_fresh, s4_fresh, s5_fresh, s6_fresh, s7_fresh, s8_fresh, s9_fresh, s10_fresh, s11_fresh, s12_fresh, s13_fresh, s14_fresh, s15_fresh, s16_fresh, s17_fresh, s18_fresh, s19_fresh, s20_fresh, s21_fresh, s22_fresh, s23_fresh, s24_fresh, s25_fresh, s26_fresh, s27_fresh, s28_fresh, s29_fresh, s30_fresh, s31_fresh, s32_fresh, s33_fresh⟩
theorem opsAll_keeps : (opsAll (F := F)).Forall Keeps := by
  rw [opsAll_eq]; exact forall_flatten ⟨s0_keeps, s1_keeps, s2_keeps, s3_keeps, s4_keeps, s5_keeps, s6_keeps, s7_keeps, s8_keeps, s9_keeps, s10_keeps, s11_keeps, s12_keeps, s13_keeps, s14_keeps, s15_keeps, s16_keeps, s17_keeps, s18_keeps, s19_keeps, s20_keeps, s21_keeps, s22_keeps, s23_keeps, s24_keeps, s25_keeps, s26_keeps, s27_keeps, s28_keeps, s29_keeps, s30_keeps, s31_keeps, s32_keeps, s33_keeps⟩

/-! ## @main as the line of its operations -/

/-- Window 0 of @main is its sublists run in order, the last in tail position. -/
theorem main_part0_chain (c : Dev nD) : main_part0 (F := F) c = (Pipeline.chainK
    [StableHlo.seq s0, StableHlo.seq s1, StableHlo.seq s2, StableHlo.seq s3, StableHlo.seq s4] (StableHlo.seq s5) : Prog (TpuEff nD τ sig (Elt F) (Pipeline.Sig Λ₀ (Fin 0) fun p => (pcfgs (F := F) p).Adm) .tc) PUnit) := by
  chain_rfl

/-- Window 1 of @main is its sublists run in order, the last in tail position. -/
theorem main_part1_chain (c : Dev nD) : main_part1 (F := F) c = (Pipeline.chainK
    [StableHlo.seq s6, StableHlo.seq s7, StableHlo.seq s8, StableHlo.seq s9, StableHlo.seq s10] (StableHlo.seq s11) : Prog (TpuEff nD τ sig (Elt F) (Pipeline.Sig Λ₀ (Fin 0) fun p => (pcfgs (F := F) p).Adm) .tc) PUnit) := by
  chain_rfl

/-- Window 2 of @main is its sublists run in order, the last in tail position. -/
theorem main_part2_chain (c : Dev nD) : main_part2 (F := F) c = (Pipeline.chainK
    [StableHlo.seq s12, StableHlo.seq s13, StableHlo.seq s14, StableHlo.seq s15, StableHlo.seq s16] (StableHlo.seq s17) : Prog (TpuEff nD τ sig (Elt F) (Pipeline.Sig Λ₀ (Fin 0) fun p => (pcfgs (F := F) p).Adm) .tc) PUnit) := by
  chain_rfl

/-- Window 3 of @main is its sublists run in order, the last in tail position. -/
theorem main_part3_chain (c : Dev nD) : main_part3 (F := F) c = (Pipeline.chainK
    [StableHlo.seq s18, StableHlo.seq s19, StableHlo.seq s20, StableHlo.seq s21, StableHlo.seq s22, StableHlo.seq s23, StableHlo.seq s24] (StableHlo.seq s25) : Prog (TpuEff nD τ sig (Elt F) (Pipeline.Sig Λ₀ (Fin 0) fun p => (pcfgs (F := F) p).Adm) .tc) PUnit) := by
  chain_rfl

/-- The last window of @main is its sublists run in order. -/
theorem main_part4_chain (c : Dev nD) : main_part4 (F := F) c = (Pipeline.chain
    [StableHlo.seq s26, StableHlo.seq s27, StableHlo.seq s28, StableHlo.seq s29, StableHlo.seq s30, StableHlo.seq s31, StableHlo.seq s32, StableHlo.seq s33] : Prog (TpuEff nD τ sig (Elt F) (Pipeline.Sig Λ₀ (Fin 0) fun p => (pcfgs (F := F) p).Adm) .tc) PUnit) := by
  chain_rfl

/-- A chain of straight lines is the straight line of their concatenation. -/
theorem chain_map_seq {Λ : Labels} : ∀ (ls : List (List (HloOp τ sig (Elt F)))),
    (Pipeline.chain (ls.map StableHlo.seq) : Prog (TpuEff nD τ sig (Elt F) Λ .tc) PUnit) = StableHlo.seq ls.flatten
  | [] => rfl
  | l :: ls => by
    rw [List.map_cons, Pipeline.chain_cons, chain_map_seq ls, List.flatten_cons, StableHlo.seq_append]

/-- @main is the chain of all its sublists. -/
theorem main_chain (c : Dev nD) : main (F := F) c = (Pipeline.chain
    ([s0, s1, s2, s3, s4, s5, s6, s7, s8, s9, s10, s11, s12, s13, s14, s15, s16, s17, s18, s19, s20, s21, s22, s23, s24, s25, s26, s27, s28, s29, s30, s31, s32, s33].map StableHlo.seq) : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c) = _
  rewrite [main_part4_chain, main_part3_chain, Pipeline.chainK_bind_chain, main_part2_chain, Pipeline.chainK_bind_chain, main_part1_chain, Pipeline.chainK_bind_chain, main_part0_chain, Pipeline.chainK_bind_chain]
  rfl

/-- @main is the sequence of its operations. -/
theorem main_eq (c : Dev nD) : main (F := F) c = StableHlo.seq (opsAll (F := F)) := by
  rw [main_chain, chain_map_seq, opsAll_eq]

/-! ## The run, the fold's split at the layers' ends, and the arguments -/

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates with each buffer at the operations' fold over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after (opsAll (F := F)) (StableHlo.launchContents m d) (Proc.devRef .tc b) :=
  StableHlo.run_seq scopedRefs_eq scopedSems_eq defs main (fun _ => opsAll) main_eq (fun _ => opsAll_sub) m ρ
    (fun _ => List.forall_iff_forall_mem.mp opsAll_fresh)

/-- The fold over two lines in a row is the second's fold over the first's. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- The fold of the whole line is the folds of its stretches, one after the other. -/
theorem after_all (V : Valuation τ sig (Elt F)) :
    StableHlo.after (opsAll (F := F)) V = StableHlo.after opsOut (StableHlo.after opsL3 (StableHlo.after opsL2 (StableHlo.after opsL1 (StableHlo.after opsL0 (StableHlo.after opsPre V))))) := by
  show StableHlo.after (opsPre ++ opsL0 ++ opsL1 ++ opsL2 ++ opsL3 ++ opsOut) V = _
  rw [after_app (opsPre ++ opsL0 ++ opsL1 ++ opsL2 ++ opsL3) opsOut, after_app (opsPre ++ opsL0 ++ opsL1 ++ opsL2) opsL3,
    after_app (opsPre ++ opsL0 ++ opsL1) opsL2, after_app (opsPre ++ opsL0) opsL1, after_app opsPre opsL0]

/-- An argument array ends as launched. -/
theorem arg_kept_of (V : Valuation τ sig (Elt F)) {r : Ref sig .tc} (hr : r ∈ argRefs) :
    StableHlo.after (opsAll (F := F)) V (Proc.devRef .tc r) = V (Proc.devRef .tc r) :=
  StableHlo.after_of_forall_not_mem _ V fun op hop => List.forall_iff_forall_mem.mp opsAll_keeps op hop r hr

/-- No operation writes an argument array. -/
theorem arg_kept (V : Valuation τ sig (Elt F)) :
    StableHlo.after (opsAll (F := F)) V (Proc.devRef .tc main_arg0) = V (Proc.devRef .tc main_arg0)
    ∧ StableHlo.after (opsAll (F := F)) V (Proc.devRef .tc main_arg1) = V (Proc.devRef .tc main_arg1)
    ∧ StableHlo.after (opsAll (F := F)) V (Proc.devRef .tc main_arg2) = V (Proc.devRef .tc main_arg2)
    ∧ StableHlo.after (opsAll (F := F)) V (Proc.devRef .tc main_arg3) = V (Proc.devRef .tc main_arg3)
    ∧ StableHlo.after (opsAll (F := F)) V (Proc.devRef .tc main_arg4) = V (Proc.devRef .tc main_arg4)
    ∧ StableHlo.after (opsAll (F := F)) V (Proc.devRef .tc main_arg5) = V (Proc.devRef .tc main_arg5)
    ∧ StableHlo.after (opsAll (F := F)) V (Proc.devRef .tc main_arg6) = V (Proc.devRef .tc main_arg6)
    ∧ StableHlo.after (opsAll (F := F)) V (Proc.devRef .tc main_arg7) = V (Proc.devRef .tc main_arg7)
    ∧ StableHlo.after (opsAll (F := F)) V (Proc.devRef .tc main_arg8) = V (Proc.devRef .tc main_arg8)
    ∧ StableHlo.after (opsAll (F := F)) V (Proc.devRef .tc main_arg9) = V (Proc.devRef .tc main_arg9)
    ∧ StableHlo.after (opsAll (F := F)) V (Proc.devRef .tc main_arg10) = V (Proc.devRef .tc main_arg10)
    ∧ StableHlo.after (opsAll (F := F)) V (Proc.devRef .tc main_arg11) = V (Proc.devRef .tc main_arg11)
    ∧ StableHlo.after (opsAll (F := F)) V (Proc.devRef .tc main_arg12) = V (Proc.devRef .tc main_arg12)
    ∧ StableHlo.after (opsAll (F := F)) V (Proc.devRef .tc main_arg13) = V (Proc.devRef .tc main_arg13) :=
  ⟨arg_kept_of V (by decide), arg_kept_of V (by decide), arg_kept_of V (by decide), arg_kept_of V (by decide), arg_kept_of V (by decide), arg_kept_of V (by decide), arg_kept_of V (by decide), arg_kept_of V (by decide), arg_kept_of V (by decide), arg_kept_of V (by decide), arg_kept_of V (by decide), arg_kept_of V (by decide), arg_kept_of V (by decide), arg_kept_of V (by decide)⟩

end Cert.ReferenceIdeal.RunV

end
-- ==== Proof.RStage.lean ====
/-
  What the reference's buffer contents at a layer's end must still hold for the next layer: the two degree norms and
  the argument arrays.
-/
import proofs.«168068_j70480413327361_1_alg».proof.Proof.Gen.ReferenceIdeal
import proofs.«168068_j70480413327361_1_alg».proof.Proof.Stage
import Idealize.ShloMosaic.Lib.StableHlo.Run
import Idealize.ShloMosaic.PureOps.Ideal

noncomputable section

namespace Cert.ReferenceIdeal.RStage

open Cert.ReferenceIdeal Cert.ReferenceIdeal.Facts₀ Idealize.ShloMosaic Idealize.ShloMosaic.TcCoe Idealize.SL.Sem

/-- The contents `U` of core `c`'s buffers still hold the source and destination norms and every argument array the
    later layers read, as functions of the launch memory `m`. -/
structure Keeps (m : (ℓ : Loc nD τ sig) → Buf (Elt Ideal) ℓ) (c : Dev nD) (U : Valuation τ sig (Elt Ideal)) : Prop where
  ns : U (Proc.devRef .tc main_v12) = Stage.norm (F := Ideal) (m ((c : Thread nD τ).loc main_arg1))
  nd : U (Proc.devRef .tc main_v18) = Stage.norm (F := Ideal) (m ((c : Thread nD τ).loc main_arg2))
  a1 : U (Proc.devRef .tc main_arg1) = m ((c : Thread nD τ).loc main_arg1)
  a2 : U (Proc.devRef .tc main_arg2) = m ((c : Thread nD τ).loc main_arg2)
  a4 : U (Proc.devRef .tc main_arg4) = m ((c : Thread nD τ).loc main_arg4)
  a5 : U (Proc.devRef .tc main_arg5) = m ((c : Thread nD τ).loc main_arg5)
  a6 : U (Proc.devRef .tc main_arg6) = m ((c : Thread nD τ).loc main_arg6)
  a7 : U (Proc.devRef .tc main_arg7) = m ((c : Thread nD τ).loc main_arg7)
  a8 : U (Proc.devRef .tc main_arg8) = m ((c : Thread nD τ).loc main_arg8)
  a9 : U (Proc.devRef .tc main_arg9) = m ((c : Thread nD τ).loc main_arg9)
  a10 : U (Proc.devRef .tc main_arg10) = m ((c : Thread nD τ).loc main_arg10)
  a11 : U (Proc.devRef .tc main_arg11) = m ((c : Thread nD τ).loc main_arg11)
  a12 : U (Proc.devRef .tc main_arg12) = m ((c : Thread nD τ).loc main_arg12)
  a13 : U (Proc.devRef .tc main_arg13) = m ((c : Thread nD τ).loc main_arg13)

end Cert.ReferenceIdeal.RStage

end
-- ==== Proof.RReadPre.lean ====
/-
  The reference's first stretch: the degree norms and the embedding lookup, read off the fold of its operations.
-/
import proofs.«168068_j70480413327361_1_alg».proof.Proof.ROps
import proofs.«168068_j70480413327361_1_alg».proof.Proof.RStage
import proofs.«168068_j70480413327361_1_alg».proof.Proof.RRun

noncomputable section

namespace Cert.ReferenceIdeal.ReadPre

open Cert.ReferenceIdeal Cert.ReferenceIdeal.Facts₀ Cert.ReferenceIdeal.Ops Cert.ReferenceIdeal.RStage Idealize.ShloMosaic Idealize.ShloMosaic.TcCoe Idealize.SL.Sem Idealize.ShloMosaic.StableHlo

section Generic

variable {F : FTy → Type} [FloatOps F]

/-- A line none of whose operations writes an argument leaves every argument array as it was. -/
theorem kept {l : List (HloOp τ sig (Elt F))} (hl : l.Forall RunV.Keeps) (V : Valuation τ sig (Elt F)) {r : Ref sig .tc}
    (hr : r ∈ RunV.argRefs) : StableHlo.after l V (Proc.devRef .tc r) = V (Proc.devRef .tc r) :=
  StableHlo.after_of_forall_not_mem l V fun op hop => List.forall_iff_forall_mem.mp hl op hop r hr

/-- No operation of the first stretch writes an argument. -/
theorem pre_keeps : (opsPre : List (HloOp τ sig (Elt F))).Forall RunV.Keeps :=
  List.forall_append.mpr ⟨List.forall_append.mpr ⟨List.forall_append.mpr ⟨List.forall_append.mpr ⟨RunV.s0_keeps, RunV.s1_keeps⟩, RunV.s2_keeps⟩, RunV.s3_keeps⟩, RunV.s4_keeps⟩

/-- The source norm: the inverse square root of the count of each node among the edges' first ends. -/
theorem ns_gen (V : Valuation τ sig (Elt F)) :
    StableHlo.after (opsPre (F := F)) V (Proc.devRef .tc main_v12) = Stage.norm (F := F) (V (Proc.devRef .tc main_arg1)) := by
  show StableHlo.after (s0 ++ s1 ++ s2 ++ s3 ++ s4) V _ = _
  simp only [RunV.after_app]
  simp only [s0, s1, s2, s3, s4]
  after_results_simp
  simp only [TRef.ofBuf, TRef.toBuf, cast_eq]
  unfold Stage.norm Stage.degree
  rfl

/-- The destination norm: the same of the edges' second ends. -/
theorem nd_gen (V : Valuation τ sig (Elt F)) :
    StableHlo.after (opsPre (F := F)) V (Proc.devRef .tc main_v18) = Stage.norm (F := F) (V (Proc.devRef .tc main_arg2)) := by
  show StableHlo.after (s0 ++ s1 ++ s2 ++ s3 ++ s4) V _ = _
  simp only [RunV.after_app]
  simp only [s0, s1, s2, s3, s4]
  after_results_simp
  simp only [TRef.ofBuf, TRef.toBuf, cast_eq]
  unfold Stage.norm Stage.degree
  rfl

/-- The embedding lookup: the table's row at each node's type. -/
theorem x0_gen (V : Valuation τ sig (Elt F)) :
    StableHlo.after (opsPre (F := F)) V (Proc.devRef .tc main_v25)
      = Stage.embed (F := F) (V (Proc.devRef .tc main_arg3)) (V (Proc.devRef .tc main_arg0)) := by
  have hk : (s0 ++ s1 ++ s2 ++ s3 : List (HloOp τ sig (Elt F))).Forall RunV.Keeps :=
    List.forall_append.mpr ⟨List.forall_append.mpr ⟨List.forall_append.mpr ⟨RunV.s0_keeps, RunV.s1_keeps⟩, RunV.s2_keeps⟩, RunV.s3_keeps⟩
  have h3 := kept hk V (r := main_arg3) (by decide)
  have h0 := kept hk V (r := main_arg0) (by decide)
  show StableHlo.after (s0 ++ s1 ++ s2 ++ s3 ++ s4) V _ = _
  rw [RunV.after_app (s0 ++ s1 ++ s2 ++ s3) s4]
  generalize StableHlo.after (s0 ++ s1 ++ s2 ++ s3) V = W at h3 h0 ⊢
  after_results
  rw [h3, h0]
  rfl

end Generic

variable (m : (ℓ : Loc nD τ sig) → Buf (Elt Ideal) ℓ) (c : Dev nD)

/-- After the first stretch the norms are in place and the arguments untouched. -/
theorem keeps : Keeps m c (StableHlo.after (opsPre (F := Ideal)) (StableHlo.launchContents m c)) := by
  exact
    { ns := ns_gen (StableHlo.launchContents m c)
      nd := nd_gen (StableHlo.launchContents m c)
      a1 := kept pre_keeps (StableHlo.launchContents m c) (r := main_arg1) (by decide)
      a2 := kept pre_keeps (StableHlo.launchContents m c) (r := main_arg2) (by decide)
      a4 := kept pre_keeps (StableHlo.launchContents m c) (r := main_arg4) (by decide)
      a5 := kept pre_keeps (StableHlo.launchContents m c) (r := main_arg5) (by decide)
      a6 := kept pre_keeps (StableHlo.launchContents m c) (r := main_arg6) (by decide)
      a7 := kept pre_keeps (StableHlo.launchContents m c) (r := main_arg7) (by decide)
      a8 := kept pre_keeps (StableHlo.launchContents m c) (r := main_arg8) (by decide)
      a9 := kept pre_keeps (StableHlo.launchContents m c) (r := main_arg9) (by decide)
      a10 := kept pre_keeps (StableHlo.launchContents m c) (r := main_arg10) (by decide)
      a11 := kept pre_keeps (StableHlo.launchContents m c) (r := main_arg11) (by decide)
      a12 := kept pre_keeps (StableHlo.launchContents m c) (r := main_arg12) (by decide)
      a13 := kept pre_keeps (StableHlo.launchContents m c) (r := main_arg13) (by decide) }

/-- The node features entering layer 0 are the embedded node types. -/
theorem x0 : StableHlo.after (opsPre (F := Ideal)) (StableHlo.launchContents m c) (Proc.devRef .tc main_v25)
    = Stage.embed (F := Ideal) (m ((c : Thread nD τ).loc main_arg3)) (m ((c : Thread nD τ).loc main_arg0)) := by
  exact x0_gen (StableHlo.launchContents m c)

end Cert.ReferenceIdeal.ReadPre

end
-- ==== Proof.RKeepL.lean ====
/-
  A layer's operations of the reference write neither a degree norm's buffer nor an argument array.
-/
import proofs.«168068_j70480413327361_1_alg».proof.Proof.ROps
import proofs.«168068_j70480413327361_1_alg».proof.Proof.RStage
import proofs.«168068_j70480413327361_1_alg».proof.Proof.RRun

noncomputable section

namespace Cert.ReferenceIdeal.KeepL

open Cert.ReferenceIdeal Cert.ReferenceIdeal.Facts₀ Cert.ReferenceIdeal.Ops Cert.ReferenceIdeal.RStage Idealize.ShloMosaic Idealize.ShloMosaic.TcCoe Idealize.SL.Sem Idealize.ShloMosaic.StableHlo

section Generic

variable {F : FTy → Type} [FloatOps F]

/-- The buffers every layer must leave alone: the two degree norms' and the arguments'. -/
abbrev heldRefs : List (Ref sig .tc) := main_v12 :: main_v18 :: RunV.argRefs

/-- The operation writes none of those buffers. -/
def Holds (op : HloOp τ sig (Elt F)) : Prop := ∀ r ∈ heldRefs, Proc.devRef (τ := τ) .tc r ∉ op.writes

/-- An operation whose one written buffer is not among them writes none of them. -/
theorem holds_of {op : HloOp τ sig (Elt F)} {y : Ref sig .tc} (hw : op.writes = {Proc.devRef .tc y}) (hy : y ∉ heldRefs) : Holds op :=
  fun r hr hm => by
    rw [hw, Finset.mem_singleton] at hm
    exact hy (Proc.devRef_injective _ hm ▸ hr)

/-- A line none of whose operations writes such a buffer leaves each of them as it was. -/
theorem held {l : List (HloOp τ sig (Elt F))} (hl : l.Forall Holds) (V : Valuation τ sig (Elt F)) {r : Ref sig .tc}
    (hr : r ∈ heldRefs) : StableHlo.after l V (Proc.devRef .tc r) = V (Proc.devRef .tc r) :=
  StableHlo.after_of_forall_not_mem l V fun op hop => List.forall_iff_forall_mem.mp hl op hop r hr

theorem s5_holds : (s5 : List (HloOp τ sig (Elt F))).Forall Holds :=
  ⟨holds_of (unary_writes ..) (by decide), holds_of (unary_writes ..) (by decide), holds_of (binary_writes ..) (by decide), holds_of (nullary_writes ..) (by decide), holds_of (unary_writes ..) (by decide), holds_of (binary_writes ..) (by decide), holds_of (nullary_writes ..) (by decide), holds_of (unary_writes ..) (by decide), holds_of (binary_writes ..) (by decide), holds_of (ternary_writes ..) (by decide), holds_of (unary_writes ..) (by decide), holds_of (binary_writes ..) (by decide), holds_of (nullary_writes ..) (by decide), holds_of (unary_writes ..) (by decide), holds_of (unary_writes ..) (by decide), holds_of (ternary_writes ..) (by decide), holds_of (unary_writes ..) (by decide), holds_of (unary_writes ..) (by decide), holds_of (binary_writes ..) (by decide), holds_of (unary_writes ..) (by decide), holds_of (reshape_writes ..) (by decide), holds_of (binary_writes ..) (by decide), holds_of (unary_writes ..) (by decide)⟩

theorem s6_holds : (s6 : List (HloOp τ sig (Elt F))).Forall Holds :=
  ⟨holds_of (reshape_writes ..) (by decide), holds_of (unary_writes ..) (by decide), holds_of (unary_writes ..) (by decide), holds_of (binary_writes ..) (by decide), holds_of (nullary_writes ..) (by decide), holds_of (binary_writes ..) (by decide), holds_of (nullary_writes ..) (by decide), holds_of (unary_writes ..) (by decide), holds_of (binary_writes ..) (by decide), holds_of (nullary_writes ..) (by decide)⟩

theorem s7_holds : (s7 : List (HloOp τ sig (Elt F))).Forall Holds :=
  ⟨holds_of (nullary_writes ..) (by decide), holds_of (binary_writes ..) (by decide), holds_of (unary_writes ..) (by decide), holds_of (nullary_writes ..) (by decide), holds_of (unary_writes ..) (by decide), holds_of (binary_writes ..) (by decide), holds_of (unary_writes ..) (by decide), holds_of (binary_writes ..) (by decide), holds_of (binary_writes ..) (by decide), holds_of (unary_writes ..) (by decide), holds_of (nullary_writes ..) (by decide), holds_of (binary_writes ..) (by decide), holds_of (nullary_writes ..) (by decide), holds_of (binary_writes ..) (by decide), holds_of (unary_writes ..) (by decide), holds_of (binary_writes ..) (by decide), holds_of (nullary_writes ..) (by decide), holds_of (binary_writes ..) (by decide), holds_of (nullary_writes ..) (by decide), holds_of (unary_writes ..) (by decide), holds_of (unary_writes ..) (by decide), holds_of (ternary_writes ..) (by decide)⟩

theorem s8_holds : (s8 : List (HloOp τ sig (Elt F))).Forall Holds :=
  ⟨holds_of (unary_writes ..) (by decide), holds_of (unary_writes ..) (by decide), holds_of (binary_writes ..) (by decide), holds_of (nullary_writes ..) (by decide), holds_of (unary_writes ..) (by decide), holds_of (binary_writes ..) (by decide), holds_of (unary_writes ..) (by decide), holds_of (unary_writes ..) (by decide), holds_of (unary_writes ..) (by decide), holds_of (binary_writes ..) (by decide), holds_of (unary_writes ..) (by decide), holds_of (reshape_writes ..) (by decide), holds_of (unary_writes ..) (by decide), holds_of (unary_writes ..) (by decide), holds_of (binary_writes ..) (by decide), holds_of (unary_writes ..) (by decide), holds_of (reshape_writes ..) (by decide), holds_of (unary_writes ..) (by decide), holds_of (unary_writes ..) (by decide), holds_of (binary_writes ..) (by decide)⟩

theorem s9_holds : (s9 : List (HloOp τ sig (Elt F))).Forall Holds :=
  ⟨holds_of (nullary_writes ..) (by decide), holds_of (unary_writes ..) (by decide), holds_of (binary_writes ..) (by decide)⟩

theorem s10_holds : (s10 : List (HloOp τ sig (Elt F))).Forall Holds :=
  holds_of (binary_writes ..) (by decide)

theorem s11_holds : (s11 : List (HloOp τ sig (Elt F))).Forall Holds :=
  ⟨holds_of (unary_writes ..) (by decide), holds_of (unary_writes ..) (by decide), holds_of (binary_writes ..) (by decide), holds_of (nullary_writes ..) (by decide), holds_of (unary_writes ..) (by decide), holds_of (binary_writes ..) (by decide), holds_of (nullary_writes ..) (by decide), holds_of (unary_writes ..) (by decide), holds_of (binary_writes ..) (by decide), holds_of (ternary_writes ..) (by decide), holds_of (unary_writes ..) (by decide), holds_of (binary_writes ..) (by decide), holds_of (nullary_writes ..) (by decide), holds_of (unary_writes ..) (by decide), holds_of (unary_writes ..) (by decide), holds_of (ternary_writes ..) (by decide), holds_of (unary_writes ..) (by decide), holds_of (unary_writes ..) (by decide), holds_of (binary_writes ..) (by decide), holds_of (unary_writes ..) (by decide), holds_of (reshape_writes ..) (by decide), holds_of (binary_writes ..) (by decide), holds_of (unary_writes ..) (by decide), holds_of (reshape_writes ..) (by decide), holds_of (unary_writes ..) (by decide), holds_of (unary_writes ..) (by decide), holds_of (binary_writes ..) (by decide)⟩

theorem s12_holds : (s12 : List (HloOp τ sig (Elt F))).Forall Holds :=
  ⟨holds_of (nullary_writes ..) (by decide), holds_of (binary_writes ..) (by decide), holds_of (nullary_writes ..) (by decide), holds_of (unary_writes ..) (by decide), holds_of (binary_writes ..) (by decide), holds_of (nullary_writes ..) (by decide)⟩

theorem s13_holds : (s13 : List (HloOp τ sig (Elt F))).Forall Holds :=
  ⟨holds_of (nullary_writes ..) (by decide), holds_of (binary_writes ..) (by decide), holds_of (unary_writes ..) (by decide), holds_of (nullary_writes ..) (by decide), holds_of (unary_writes ..) (by decide), holds_of (binary_writes ..) (by decide), holds_of (unary_writes ..) (by decide), holds_of (binary_writes ..) (by decide), holds_of (binary_writes ..) (by decide), holds_of (unary_writes ..) (by decide), holds_of (nullary_writes ..) (by decide), holds_of (binary_writes ..) (by decide), holds_of (nullary_writes ..) (by decide), holds_of (binary_writes ..) (by decide), holds_of (unary_writes ..) (by decide), holds_of (binary_writes ..) (by decide), holds_of (nullary_writes ..) (by decide), holds_of (binary_writes ..) (by decide), holds_of (nullary_writes ..) (by decide), holds_of (unary_writes ..) (by decide), holds_of (unary_writes ..) (by decide), holds_of (ternary_writes ..) (by decide)⟩

theorem s14_holds : (s14 : List (HloOp τ sig (Elt F))).Forall Holds :=
  ⟨holds_of (unary_writes ..) (by decide), holds_of (unary_writes ..) (by decide), holds_of (binary_writes ..) (by decide), holds_of (nullary_writes ..) (by decide), holds_of (unary_writes ..) (by decide), holds_of (binary_writes ..) (by decide), holds_of (unary_writes ..) (by decide), holds_of (unary_writes ..) (by decide), holds_of (unary_writes ..) (by decide), holds_of (binary_writes ..) (by decide), holds_of (unary_writes ..) (by decide), holds_of (reshape_writes ..) (by decide), holds_of (unary_writes ..) (by decide), holds_of (unary_writes ..) (by decide), holds_of (binary_writes ..) (by decide), holds_of (unary_writes ..) (by decide), holds_of (reshape_writes ..) (by decide), holds_of (unary_writes ..) (by decide), holds_of (unary_writes ..) (by decide), holds_of (binary_writes ..) (by decide)⟩

theorem s15_holds : (s15 : List (HloOp τ sig (Elt F))).Forall Holds :=
  ⟨holds_of (nullary_writes ..) (by decide), holds_of (unary_writes ..) (by decide), holds_of (binary_writes ..) (by decide)⟩

theorem s16_holds : (s16 : List (HloOp τ sig (Elt F))).Forall Holds :=
  holds_of (binary_writes ..) (by decide)

theorem s17_holds : (s17 : List (HloOp τ sig (Elt F))).Forall Holds :=
  ⟨holds_of (unary_writes ..) (by decide), holds_of (unary_writes ..) (by decide), holds_of (binary_writes ..) (by decide), holds_of (nullary_writes ..) (by decide), holds_of (unary_writes ..) (by decide), holds_of (binary_writes ..) (by decide), holds_of (nullary_writes ..) (by decide), holds_of (unary_writes ..) (by decide), holds_of (binary_writes ..) (by decide), holds_of (ternary_writes ..) (by decide), holds_of (unary_writes ..) (by decide), holds_of (binary_writes ..) (by decide), holds_of (nullary_writes ..) (by decide), holds_of (unary_writes ..) (by decide), holds_of (unary_writes ..) (by decide), holds_of (ternary_writes ..) (by decide), holds_of (unary_writes ..) (by decide), holds_of (unary_writes ..) (by decide), holds_of (binary_writes ..) (by decide), holds_of (unary_writes ..) (by decide), holds_of (reshape_writes ..) (by decide), holds_of (binary_writes ..) (by decide), holds_of (unary_writes ..) (by decide), holds_of (reshape_writes ..) (by decide), holds_of (unary_writes ..) (by decide), holds_of (unary_writes ..) (by decide), holds_of (binary_writes ..) (by decide), holds_of (nullary_writes ..) (by decide), holds_of (binary_writes ..) (by decide), holds_of (nullary_writes ..) (by decide), holds_of (unary_writes ..) (by decide)⟩

theorem s18_holds : (s18 : List (HloOp τ sig (Elt F))).Forall Holds :=
  ⟨holds_of (binary_writes ..) (by decide), holds_of (nullary_writes ..) (by decide)⟩

theorem s19_holds : (s19 : List (HloOp τ sig (Elt F))).Forall Holds :=
  ⟨holds_of (nullary_writes ..) (by decide), holds_of (binary_writes ..) (by decide), holds_of (unary_writes ..) (by decide), holds_of (nullary_writes ..) (by decide), holds_of (unary_writes ..) (by decide), holds_of (binary_writes ..) (by decide), holds_of (unary_writes ..) (by decide), holds_of (binary_writes ..) (by decide), holds_of (binary_writes ..) (by decide), holds_of (unary_writes ..) (by decide), holds_of (nullary_writes ..) (by decide), holds_of (binary_writes ..) (by decide), holds_of (nullary_writes ..) (by decide), holds_of (binary_writes ..) (by decide), holds_of (unary_writes ..) (by decide), holds_of (binary_writes ..) (by decide), holds_of (nullary_writes ..) (by decide), holds_of (binary_writes ..) (by decide), holds_of (nullary_writes ..) (by decide), holds_of (unary_writes ..) (by decide), holds_of (unary_writes ..) (by decide), holds_of (ternary_writes ..) (by decide)⟩

theorem s20_holds : (s20 : List (HloOp τ sig (Elt F))).Forall Holds :=
  ⟨holds_of (unary_writes ..) (by decide), holds_of (unary_writes ..) (by decide), holds_of (binary_writes ..) (by decide), holds_of (nullary_writes ..) (by decide), holds_of (unary_writes ..) (by decide), holds_of (binary_writes ..) (by decide), holds_of (unary_writes ..) (by decide), holds_of (unary_writes ..) (by decide), holds_of (unary_writes ..) (by decide), holds_of (binary_writes ..) (by decide), holds_of (unary_writes ..) (by decide), holds_of (reshape_writes ..) (by decide), holds_of (unary_writes ..) (by decide), holds_of (unary_writes ..) (by decide), holds_of (binary_writes ..) (by decide), holds_of (unary_writes ..) (by decide), holds_of (reshape_writes ..) (by decide), holds_of (unary_writes ..) (by decide), holds_of (unary_writes ..) (by decide), holds_of (binary_writes ..) (by decide)⟩

theorem s21_holds : (s21 : List (HloOp τ sig (Elt F))).Forall Holds :=
  ⟨holds_of (nullary_writes ..) (by decide), holds_of (unary_writes ..) (by decide), holds_of (binary_writes ..) (by decide)⟩

theorem s22_holds : (s22 : List (HloOp τ sig (Elt F))).Forall Holds :=
  holds_of (binary_writes ..) (by decide)

theorem s23_holds : (s23 : List (HloOp τ sig (Elt F))).Forall Holds :=
  ⟨holds_of (unary_writes ..) (by decide), holds_of (unary_writes ..) (by decide), holds_of (binary_writes ..) (by decide), holds_of (nullary_writes ..) (by decide), holds_of (unary_writes ..) (by decide), holds_of (binary_writes ..) (by decide), holds_of (nullary_writes ..) (by decide), holds_of (unary_writes ..) (by decide), holds_of (binary_writes ..) (by decide), holds_of (ternary_writes ..) (by decide), holds_of (unary_writes ..) (by decide), holds_of (binary_writes ..) (by decide), holds_of (nullary_writes ..) (by decide), holds_of (unary_writes ..) (by decide), holds_of (unary_writes ..) (by decide), holds_of (ternary_writes ..) (by decide), holds_of (unary_writes ..) (by decide), holds_of (unary_writes ..) (by decide), holds_of (binary_writes ..) (by decide), holds_of (unary_writes ..) (by decide), holds_of (reshape_writes ..) (by decide), holds_of (binary_writes ..) (by decide), holds_of (unary_writes ..) (by decide), holds_of (reshape_writes ..) (by decide), holds_of (unary_writes ..) (by decide), holds_of (unary_writes ..) (by decide), holds_of (binary_writes ..) (by decide), holds_of (nullary_writes ..) (by decide), holds_of (binary_writes ..) (by decide), holds_of (nullary_writes ..) (by decide), holds_of (unary_writes ..) (by decide), holds_of (binary_writes ..) (by decide), holds_of (nullary_writes ..) (by decide)⟩

theorem s24_holds : (s24 : List (HloOp τ sig (Elt F))).Forall Holds :=
  ⟨holds_of (nullary_writes ..) (by decide), holds_of (binary_writes ..) (by decide), holds_of (unary_writes ..) (by decide), holds_of (nullary_writes ..) (by decide), holds_of (unary_writes ..) (by decide), holds_of (binary_writes ..) (by decide), holds_of (unary_writes ..) (by decide), holds_of (binary_writes ..) (by decide), holds_of (binary_writes ..) (by decide), holds_of (unary_writes ..) (by decide), holds_of (nullary_writes ..) (by decide), holds_of (binary_writes ..) (by decide), holds_of (nullary_writes ..) (by decide), holds_of (binary_writes ..) (by decide), holds_of (unary_writes ..) (by decide), holds_of (binary_writes ..) (by decide), holds_of (nullary_writes ..) (by decide), holds_of (binary_writes ..) (by decide), holds_of (nullary_writes ..) (by decide), holds_of (unary_writes ..) (by decide), holds_of (unary_writes ..) (by decide), holds_of (ternary_writes ..) (by decide)⟩

theorem s25_holds : (s25 : List (HloOp τ sig (Elt F))).Forall Holds :=
  holds_of (unary_writes ..) (by decide)

theorem s26_holds : (s26 : List (HloOp τ sig (Elt F))).Forall Holds :=
  ⟨holds_of (unary_writes ..) (by decide), holds_of (binary_writes ..) (by decide), holds_of (nullary_writes ..) (by decide), holds_of (unary_writes ..) (by decide), holds_of (binary_writes ..) (by decide), holds_of (unary_writes ..) (by decide), holds_of (unary_writes ..) (by decide), holds_of (unary_writes ..) (by decide), holds_of (binary_writes ..) (by decide), holds_of (unary_writes ..) (by decide), holds_of (reshape_writes ..) (by decide), holds_of (unary_writes ..) (by decide), holds_of (unary_writes ..) (by decide), holds_of (binary_writes ..) (by decide), holds_of (unary_writes ..) (by decide), holds_of (reshape_writes ..) (by decide), holds_of (unary_writes ..) (by decide), holds_of (unary_writes ..) (by decide), holds_of (binary_writes ..) (by decide)⟩

theorem s27_holds : (s27 : List (HloOp τ sig (Elt F))).Forall Holds :=
  ⟨holds_of (nullary_writes ..) (by decide), holds_of (unary_writes ..) (by decide), holds_of (binary_writes ..) (by decide)⟩

theorem s28_holds : (s28 : List (HloOp τ sig (Elt F))).Forall Holds :=
  holds_of (binary_writes ..) (by decide)

theorem l0_holds : (opsL0 : List (HloOp τ sig (Elt F))).Forall Holds :=
  List.forall_append.mpr ⟨List.forall_append.mpr ⟨List.forall_append.mpr ⟨List.forall_append.mpr ⟨List.forall_append.mpr ⟨s5_holds, s6_holds⟩, s7_holds⟩, s8_holds⟩, s9_holds⟩, s10_holds⟩

theorem l1_holds : (opsL1 : List (HloOp τ sig (Elt F))).Forall Holds :=
  List.forall_append.mpr ⟨List.forall_append.mpr ⟨List.forall_append.mpr ⟨List.forall_append.mpr ⟨List.forall_append.mpr ⟨s11_holds, s12_holds⟩, s13_holds⟩, s14_holds⟩, s15_holds⟩, s16_holds⟩

theorem l2_holds : (opsL2 : List (HloOp τ sig (Elt F))).Forall Holds :=
  List.forall_append.mpr ⟨List.forall_append.mpr ⟨List.forall_append.mpr ⟨List.forall_append.mpr ⟨List.forall_append.mpr ⟨s17_holds, s18_holds⟩, s19_holds⟩, s20_holds⟩, s21_holds⟩, s22_holds⟩

theorem l3_holds : (opsL3 : List (HloOp τ sig (Elt F))).Forall Holds :=
  List.forall_append.mpr ⟨List.forall_append.mpr ⟨List.forall_append.mpr ⟨List.forall_append.mpr ⟨List.forall_append.mpr ⟨s23_holds, s24_holds⟩, s25_holds⟩, s26_holds⟩, s27_holds⟩, s28_holds⟩

end Generic

variable (m : (ℓ : Loc nD τ sig) → Buf (Elt Ideal) ℓ) (c : Dev nD) (U : Valuation τ sig (Elt Ideal))

theorem keeps0 (h : Keeps m c U) : Keeps m c (StableHlo.after (opsL0 (F := Ideal)) U) := by
  exact
    { ns := (held l0_holds U (r := main_v12) (by decide)).trans h.ns
      nd := (held l0_holds U (r := main_v18) (by decide)).trans h.nd
      a1 := (held l0_holds U (r := main_arg1) (by decide)).trans h.a1
      a2 := (held l0_holds U (r := main_arg2) (by decide)).trans h.a2
      a4 := (held l0_holds U (r := main_arg4) (by decide)).trans h.a4
      a5 := (held l0_holds U (r := main_arg5) (by decide)).trans h.a5
      a6 := (held l0_holds U (r := main_arg6) (by decide)).trans h.a6
      a7 := (held l0_holds U (r := main_arg7) (by decide)).trans h.a7
      a8 := (held l0_holds U (r := main_arg8) (by decide)).trans h.a8
      a9 := (held l0_holds U (r := main_arg9) (by decide)).trans h.a9
      a10 := (held l0_holds U (r := main_arg10) (by decide)).trans h.a10
      a11 := (held l0_holds U (r := main_arg11) (by decide)).trans h.a11
      a12 := (held l0_holds U (r := main_arg12) (by decide)).trans h.a12
      a13 := (held l0_holds U (r := main_arg13) (by decide)).trans h.a13 }

theorem keeps1 (h : Keeps m c U) : Keeps m c (StableHlo.after (opsL1 (F := Ideal)) U) := by
  exact
    { ns := (held l1_holds U (r := main_v12) (by decide)).trans h.ns
      nd := (held l1_holds U (r := main_v18) (by decide)).trans h.nd
      a1 := (held l1_holds U (r := main_arg1) (by decide)).trans h.a1
      a2 := (held l1_holds U (r := main_arg2) (by decide)).trans h.a2
      a4 := (held l1_holds U (r := main_arg4) (by decide)).trans h.a4
      a5 := (held l1_holds U (r := main_arg5) (by decide)).trans h.a5
      a6 := (held l1_holds U (r := main_arg6) (by decide)).trans h.a6
      a7 := (held l1_holds U (r := main_arg7) (by decide)).trans h.a7
      a8 := (held l1_holds U (r := main_arg8) (by decide)).trans h.a8
      a9 := (held l1_holds U (r := main_arg9) (by decide)).trans h.a9
      a10 := (held l1_holds U (r := main_arg10) (by decide)).trans h.a10
      a11 := (held l1_holds U (r := main_arg11) (by decide)).trans h.a11
      a12 := (held l1_holds U (r := main_arg12) (by decide)).trans h.a12
      a13 := (held l1_holds U (r := main_arg13) (by decide)).trans h.a13 }

theorem keeps2 (h : Keeps m c U) : Keeps m c (StableHlo.after (opsL2 (F := Ideal)) U) := by
  exact
    { ns := (held l2_holds U (r := main_v12) (by decide)).trans h.ns
      nd := (held l2_holds U (r := main_v18) (by decide)).trans h.nd
      a1 := (held l2_holds U (r := main_arg1) (by decide)).trans h.a1
      a2 := (held l2_holds U (r := main_arg2) (by decide)).trans h.a2
      a4 := (held l2_holds U (r := main_arg4) (by decide)).trans h.a4
      a5 := (held l2_holds U (r := main_arg5) (by decide)).trans h.a5
      a6 := (held l2_holds U (r := main_arg6) (by decide)).trans h.a6
      a7 := (held l2_holds U (r := main_arg7) (by decide)).trans h.a7
      a8 := (held l2_holds U (r := main_arg8) (by decide)).trans h.a8
      a9 := (held l2_holds U (r := main_arg9) (by decide)).trans h.a9
      a10 := (held l2_holds U (r := main_arg10) (by decide)).trans h.a10
      a11 := (held l2_holds U (r := main_arg11) (by decide)).trans h.a11
      a12 := (held l2_holds U (r := main_arg12) (by decide)).trans h.a12
      a13 := (held l2_holds U (r := main_arg13) (by decide)).trans h.a13 }

theorem keeps3 (h : Keeps m c U) : Keeps m c (StableHlo.after (opsL3 (F := Ideal)) U) := by
  exact
    { ns := (held l3_holds U (r := main_v12) (by decide)).trans h.ns
      nd := (held l3_holds U (r := main_v18) (by decide)).trans h.nd
      a1 := (held l3_holds U (r := main_arg1) (by decide)).trans h.a1
      a2 := (held l3_holds U (r := main_arg2) (by decide)).trans h.a2
      a4 := (held l3_holds U (r := main_arg4) (by decide)).trans h.a4
      a5 := (held l3_holds U (r := main_arg5) (by decide)).trans h.a5
      a6 := (held l3_holds U (r := main_arg6) (by decide)).trans h.a6
      a7 := (held l3_holds U (r := main_arg7) (by decide)).trans h.a7
      a8 := (held l3_holds U (r := main_arg8) (by decide)).trans h.a8
      a9 := (held l3_holds U (r := main_arg9) (by decide)).trans h.a9
      a10 := (held l3_holds U (r := main_arg10) (by decide)).trans h.a10
      a11 := (held l3_holds U (r := main_arg11) (by decide)).trans h.a11
      a12 := (held l3_holds U (r := main_arg12) (by decide)).trans h.a12
      a13 := (held l3_holds U (r := main_arg13) (by decide)).trans h.a13 }

end Cert.ReferenceIdeal.KeepL

end
-- ==== Proof.RReadL0.lean ====
/-
  The reference's layer 0: its result read off the fold of the layer's operations over any contents that still hold
  the norms and the arguments.
-/
import proofs.«168068_j70480413327361_1_alg».proof.Proof.ROps
import proofs.«168068_j70480413327361_1_alg».proof.Proof.RStage
import proofs.«168068_j70480413327361_1_alg».proof.Proof.RKeepL

noncomputable section

namespace Cert.ReferenceIdeal.ReadL0

open Cert.ReferenceIdeal Cert.ReferenceIdeal.Facts₀ Cert.ReferenceIdeal.Ops Cert.ReferenceIdeal.RStage Idealize.ShloMosaic Idealize.ShloMosaic.TcCoe Idealize.SL.Sem Idealize.ShloMosaic.StableHlo

variable (m : (ℓ : Loc nD τ sig) → Buf (Elt Ideal) ℓ) (c : Dev nD) (U : Valuation τ sig (Elt Ideal))

/-- The layer's first operations: the message passing, the dense layer, and its mean over the nodes. -/
abbrev opsA : List (HloOp τ sig (Elt Ideal)) := s5 ++ s6
/-- The variance of the dense layer's result (an inlined call). -/
abbrev opsB : List (HloOp τ sig (Elt Ideal)) := s7
/-- The normalisation, the rectifier and the residual. -/
abbrev opsC : List (HloOp τ sig (Elt Ideal)) := s8 ++ s9 ++ s10

/-- The layer's operations are these three runs in a row. -/
theorem ops_split : opsL0 (F := Ideal) = opsA ++ (opsB ++ opsC) := by
  simp only [opsL0, opsA, opsB, opsC, List.append_assoc]

section Fold

variable (V : Valuation τ sig (Elt Ideal))

/-- The dense layer's result. -/
theorem A_lin : StableHlo.after opsA V (Proc.devRef .tc main_v49)
    = Stage.linear (F := Ideal) (Stage.aggregate (V (Proc.devRef .tc main_v25)) (V (Proc.devRef .tc main_v12)) (V (Proc.devRef .tc main_v18))
        (V (Proc.devRef .tc main_arg1)) (V (Proc.devRef .tc main_arg2))) (Stage.weight0 (V (Proc.devRef .tc main_arg4))) (Stage.row0 (V (Proc.devRef .tc main_arg5))) := by
  dsimp only [opsA, s5, s6, List.cons_append, List.nil_append]
  after_results_simp
  rfl

/-- Its mean over the nodes. -/
theorem A_mean : StableHlo.after opsA V (Proc.devRef .tc main_v52)
    = Stage.mean (F := Ideal) (Stage.linear (Stage.aggregate (V (Proc.devRef .tc main_v25)) (V (Proc.devRef .tc main_v12)) (V (Proc.devRef .tc main_v18))
        (V (Proc.devRef .tc main_arg1)) (V (Proc.devRef .tc main_arg2))) (Stage.weight0 (V (Proc.devRef .tc main_arg4))) (Stage.row0 (V (Proc.devRef .tc main_arg5)))) := by
  dsimp only [opsA, s5, s6, List.cons_append, List.nil_append]
  after_results_simp
  rfl

/-- The variance's correction, the integer 0. -/
theorem A_corr : StableHlo.after opsA V (Proc.devRef .tc main_c_14) = constantI S_ 32 0#32 := by
  dsimp only [opsA, s5, s6, List.cons_append, List.nil_append]
  after_results_simp

/-- What these operations leave as it was: the layer's input and the two tables read later. -/
theorem A_kept : StableHlo.after opsA V (Proc.devRef .tc main_v25) = V (Proc.devRef .tc main_v25)
    ∧ StableHlo.after opsA V (Proc.devRef .tc main_arg6) = V (Proc.devRef .tc main_arg6)
    ∧ StableHlo.after opsA V (Proc.devRef .tc main_arg7) = V (Proc.devRef .tc main_arg7) := by
  dsimp only [opsA, s5, s6, List.cons_append, List.nil_append]
  after_results_simp
  simp only [and_self]

/-- The variance of the dense layer's result, the correction being 0. -/
theorem B_var (hc : V (Proc.devRef .tc main_c_14) = constantI S_ 32 0#32) :
    StableHlo.after opsB V (Proc.devRef .tc main_v53) = Stage.variance (F := Ideal) (V (Proc.devRef .tc main_v49)) := by
  dsimp only [opsB, s7]
  after_results_simp
  rw [hc]
  rfl

/-- What the variance's operations leave as it was. -/
theorem B_kept : StableHlo.after opsB V (Proc.devRef .tc main_v25) = V (Proc.devRef .tc main_v25)
    ∧ StableHlo.after opsB V (Proc.devRef .tc main_v49) = V (Proc.devRef .tc main_v49)
    ∧ StableHlo.after opsB V (Proc.devRef .tc main_v52) = V (Proc.devRef .tc main_v52)
    ∧ StableHlo.after opsB V (Proc.devRef .tc main_arg6) = V (Proc.devRef .tc main_arg6)
    ∧ StableHlo.after opsB V (Proc.devRef .tc main_arg7) = V (Proc.devRef .tc main_arg7) := by
  dsimp only [opsB, s7]
  after_results_simp
  simp only [and_self]

/-- The layer's result from the dense layer's result, its statistics, and the layer's input. -/
theorem C_out : StableHlo.after opsC V (Proc.devRef .tc main_v74)
    = Stage.normalize (F := Ideal) (V (Proc.devRef .tc main_v49)) (V (Proc.devRef .tc main_v25)) (V (Proc.devRef .tc main_v52))
        (V (Proc.devRef .tc main_v53)) (Stage.row0 (V (Proc.devRef .tc main_arg6))) (Stage.row0 (V (Proc.devRef .tc main_arg7))) := by
  dsimp only [opsC, s8, s9, s10, List.cons_append, List.nil_append]
  after_results_simp
  rfl

end Fold

/-- The layer's result over any contents, as the layer function of what the contents hold. -/
theorem x_of : StableHlo.after (opsL0 (F := Ideal)) U (Proc.devRef .tc main_v74)
    = Stage.layer0 (F := Ideal) (U (Proc.devRef .tc main_v25)) (U (Proc.devRef .tc main_v12)) (U (Proc.devRef .tc main_v18))
        (U (Proc.devRef .tc main_arg1)) (U (Proc.devRef .tc main_arg2)) (U (Proc.devRef .tc main_arg4)) (U (Proc.devRef .tc main_arg5))
        (U (Proc.devRef .tc main_arg6)) (U (Proc.devRef .tc main_arg7)) := by
  rw [ops_split, RunV.after_app, RunV.after_app, C_out, B_var _ (A_corr U)]
  obtain ⟨b25, b49, b52, b6, b7⟩ := B_kept (StableHlo.after opsA U)
  obtain ⟨a25, a6, a7⟩ := A_kept U
  rw [b25, b49, b52, b6, b7, a25, a6, a7, A_lin, A_mean]
  rfl

/-- The layer's operations write neither a norm nor an argument. -/
theorem keeps (h : Keeps m c U) : Keeps m c (StableHlo.after (opsL0 (F := Ideal)) U) :=
  Cert.ReferenceIdeal.KeepL.keeps0 m c U h

/-- The layer's result is the layer function of the features it found. -/
theorem x (h : Keeps m c U) (X : Stage.Arr Ideal S100000x128 .f32) (hx : U (Proc.devRef .tc main_v25) = X) :
    StableHlo.after (opsL0 (F := Ideal)) U (Proc.devRef .tc main_v74)
      = Stage.layer0 (F := Ideal) X (Stage.norm (F := Ideal) (m ((c : Thread nD τ).loc main_arg1))) (Stage.norm (F := Ideal) (m ((c : Thread nD τ).loc main_arg2))) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  rw [x_of, hx, h.ns, h.nd, h.a1, h.a2, h.a4, h.a5, h.a6, h.a7]

end Cert.ReferenceIdeal.ReadL0

end
-- ==== Proof.RReadL1.lean ====
/-
  The reference's layer 1: its result read off the fold of the layer's operations over any contents that still hold
  the norms and the arguments.
-/
import proofs.«168068_j70480413327361_1_alg».proof.Proof.ROps
import proofs.«168068_j70480413327361_1_alg».proof.Proof.RStage
import proofs.«168068_j70480413327361_1_alg».proof.Proof.RKeepL

noncomputable section

namespace Cert.ReferenceIdeal.ReadL1

open Cert.ReferenceIdeal Cert.ReferenceIdeal.Facts₀ Cert.ReferenceIdeal.Ops Cert.ReferenceIdeal.RStage Idealize.ShloMosaic Idealize.ShloMosaic.TcCoe Idealize.SL.Sem Idealize.ShloMosaic.StableHlo

variable (m : (ℓ : Loc nD τ sig) → Buf (Elt Ideal) ℓ) (c : Dev nD) (U : Valuation τ sig (Elt Ideal))

/-- The layer's first operations: the message passing, the dense layer, and its mean over the nodes. -/
abbrev opsA : List (HloOp τ sig (Elt Ideal)) := s11 ++ s12
/-- The variance of the dense layer's result (an inlined call). -/
abbrev opsB : List (HloOp τ sig (Elt Ideal)) := s13
/-- The normalisation, the rectifier and the residual. -/
abbrev opsC : List (HloOp τ sig (Elt Ideal)) := s14 ++ s15 ++ s16

/-- The layer's operations are these three runs in a row. -/
theorem ops_split : opsL1 (F := Ideal) = opsA ++ (opsB ++ opsC) := by
  simp only [opsL1, opsA, opsB, opsC, List.append_assoc]

section Fold

variable (V : Valuation τ sig (Elt Ideal))

/-- The dense layer's result. -/
theorem A_lin : StableHlo.after opsA V (Proc.devRef .tc main_v98)
    = Stage.linear (F := Ideal) (Stage.aggregate (V (Proc.devRef .tc main_v74)) (V (Proc.devRef .tc main_v12)) (V (Proc.devRef .tc main_v18))
        (V (Proc.devRef .tc main_arg1)) (V (Proc.devRef .tc main_arg2))) (Stage.weight1 (V (Proc.devRef .tc main_arg4))) (Stage.row1 (V (Proc.devRef .tc main_arg5))) := by
  dsimp only [opsA, s11, s12, List.cons_append, List.nil_append]
  after_results_simp
  rfl

/-- Its mean over the nodes. -/
theorem A_mean : StableHlo.after opsA V (Proc.devRef .tc main_v101)
    = Stage.mean (F := Ideal) (Stage.linear (Stage.aggregate (V (Proc.devRef .tc main_v74)) (V (Proc.devRef .tc main_v12)) (V (Proc.devRef .tc main_v18))
        (V (Proc.devRef .tc main_arg1)) (V (Proc.devRef .tc main_arg2))) (Stage.weight1 (V (Proc.devRef .tc main_arg4))) (Stage.row1 (V (Proc.devRef .tc main_arg5)))) := by
  dsimp only [opsA, s11, s12, List.cons_append, List.nil_append]
  after_results_simp
  rfl

/-- The variance's correction, the integer 0. -/
theorem A_corr : StableHlo.after opsA V (Proc.devRef .tc main_c_21) = constantI S_ 32 0#32 := by
  dsimp only [opsA, s11, s12, List.cons_append, List.nil_append]
  after_results_simp

/-- What these operations leave as it was: the layer's input and the two tables read later. -/
theorem A_kept : StableHlo.after opsA V (Proc.devRef .tc main_v74) = V (Proc.devRef .tc main_v74)
    ∧ StableHlo.after opsA V (Proc.devRef .tc main_arg6) = V (Proc.devRef .tc main_arg6)
    ∧ StableHlo.after opsA V (Proc.devRef .tc main_arg7) = V (Proc.devRef .tc main_arg7) := by
  dsimp only [opsA, s11, s12, List.cons_append, List.nil_append]
  after_results_simp
  simp only [and_self]

/-- The variance of the dense layer's result, the correction being 0. -/
theorem B_var (hc : V (Proc.devRef .tc main_c_21) = constantI S_ 32 0#32) :
    StableHlo.after opsB V (Proc.devRef .tc main_v102) = Stage.variance (F := Ideal) (V (Proc.devRef .tc main_v98)) := by
  dsimp only [opsB, s13]
  after_results_simp
  rw [hc]
  rfl

/-- What the variance's operations leave as it was. -/
theorem B_kept : StableHlo.after opsB V (Proc.devRef .tc main_v74) = V (Proc.devRef .tc main_v74)
    ∧ StableHlo.after opsB V (Proc.devRef .tc main_v98) = V (Proc.devRef .tc main_v98)
    ∧ StableHlo.after opsB V (Proc.devRef .tc main_v101) = V (Proc.devRef .tc main_v101)
    ∧ StableHlo.after opsB V (Proc.devRef .tc main_arg6) = V (Proc.devRef .tc main_arg6)
    ∧ StableHlo.after opsB V (Proc.devRef .tc main_arg7) = V (Proc.devRef .tc main_arg7) := by
  dsimp only [opsB, s13]
  after_results_simp
  simp only [and_self]

/-- The layer's result from the dense layer's result, its statistics, and the layer's input. -/
theorem C_out : StableHlo.after opsC V (Proc.devRef .tc main_v123)
    = Stage.normalize (F := Ideal) (V (Proc.devRef .tc main_v98)) (V (Proc.devRef .tc main_v74)) (V (Proc.devRef .tc main_v101))
        (V (Proc.devRef .tc main_v102)) (Stage.row1 (V (Proc.devRef .tc main_arg6))) (Stage.row1 (V (Proc.devRef .tc main_arg7))) := by
  dsimp only [opsC, s14, s15, s16, List.cons_append, List.nil_append]
  after_results_simp
  rfl

end Fold

/-- The layer's result over any contents, as the layer function of what the contents hold. -/
theorem x_of : StableHlo.after (opsL1 (F := Ideal)) U (Proc.devRef .tc main_v123)
    = Stage.layer1 (F := Ideal) (U (Proc.devRef .tc main_v74)) (U (Proc.devRef .tc main_v12)) (U (Proc.devRef .tc main_v18))
        (U (Proc.devRef .tc main_arg1)) (U (Proc.devRef .tc main_arg2)) (U (Proc.devRef .tc main_arg4)) (U (Proc.devRef .tc main_arg5))
        (U (Proc.devRef .tc main_arg6)) (U (Proc.devRef .tc main_arg7)) := by
  rw [ops_split, RunV.after_app, RunV.after_app, C_out, B_var _ (A_corr U)]
  obtain ⟨b25, b49, b52, b6, b7⟩ := B_kept (StableHlo.after opsA U)
  obtain ⟨a25, a6, a7⟩ := A_kept U
  rw [b25, b49, b52, b6, b7, a25, a6, a7, A_lin, A_mean]
  rfl

/-- The layer's operations write neither a norm nor an argument. -/
theorem keeps (h : Keeps m c U) : Keeps m c (StableHlo.after (opsL1 (F := Ideal)) U) :=
  Cert.ReferenceIdeal.KeepL.keeps1 m c U h

/-- The layer's result is the layer function of the features it found. -/
theorem x (h : Keeps m c U) (X : Stage.Arr Ideal S100000x128 .f32) (hx : U (Proc.devRef .tc main_v74) = X) :
    StableHlo.after (opsL1 (F := Ideal)) U (Proc.devRef .tc main_v123)
      = Stage.layer1 (F := Ideal) X (Stage.norm (F := Ideal) (m ((c : Thread nD τ).loc main_arg1))) (Stage.norm (F := Ideal) (m ((c : Thread nD τ).loc main_arg2))) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  rw [x_of, hx, h.ns, h.nd, h.a1, h.a2, h.a4, h.a5, h.a6, h.a7]

end Cert.ReferenceIdeal.ReadL1

end
-- ==== Proof.RReadL2.lean ====
/-
  The reference's layer 2: its result read off the fold of the layer's operations over any contents that still hold
  the norms and the arguments.
-/
import proofs.«168068_j70480413327361_1_alg».proof.Proof.ROps
import proofs.«168068_j70480413327361_1_alg».proof.Proof.RStage
import proofs.«168068_j70480413327361_1_alg».proof.Proof.RKeepL

noncomputable section

namespace Cert.ReferenceIdeal.ReadL2

open Cert.ReferenceIdeal Cert.ReferenceIdeal.Facts₀ Cert.ReferenceIdeal.Ops Cert.ReferenceIdeal.RStage Idealize.ShloMosaic Idealize.ShloMosaic.TcCoe Idealize.SL.Sem Idealize.ShloMosaic.StableHlo

variable (m : (ℓ : Loc nD τ sig) → Buf (Elt Ideal) ℓ) (c : Dev nD) (U : Valuation τ sig (Elt Ideal))

/-- The layer's first operations: the message passing, the dense layer, and its mean over the nodes. -/
abbrev opsA : List (HloOp τ sig (Elt Ideal)) := s17 ++ s18
/-- The variance of the dense layer's result (an inlined call). -/
abbrev opsB : List (HloOp τ sig (Elt Ideal)) := s19
/-- The normalisation, the rectifier and the residual. -/
abbrev opsC : List (HloOp τ sig (Elt Ideal)) := s20 ++ s21 ++ s22

/-- The layer's operations are these three runs in a row. -/
theorem ops_split : opsL2 (F := Ideal) = opsA ++ (opsB ++ opsC) := by
  simp only [opsL2, opsA, opsB, opsC, List.append_assoc]

section Fold

variable (V : Valuation τ sig (Elt Ideal))

/-- The dense layer's result. -/
theorem A_lin : StableHlo.after opsA V (Proc.devRef .tc main_v147)
    = Stage.linear (F := Ideal) (Stage.aggregate (V (Proc.devRef .tc main_v123)) (V (Proc.devRef .tc main_v12)) (V (Proc.devRef .tc main_v18))
        (V (Proc.devRef .tc main_arg1)) (V (Proc.devRef .tc main_arg2))) (Stage.weight2 (V (Proc.devRef .tc main_arg4))) (Stage.row2 (V (Proc.devRef .tc main_arg5))) := by
  dsimp only [opsA, s17, s18, List.cons_append, List.nil_append]
  after_results_simp
  rfl

/-- Its mean over the nodes. -/
theorem A_mean : StableHlo.after opsA V (Proc.devRef .tc main_v150)
    = Stage.mean (F := Ideal) (Stage.linear (Stage.aggregate (V (Proc.devRef .tc main_v123)) (V (Proc.devRef .tc main_v12)) (V (Proc.devRef .tc main_v18))
        (V (Proc.devRef .tc main_arg1)) (V (Proc.devRef .tc main_arg2))) (Stage.weight2 (V (Proc.devRef .tc main_arg4))) (Stage.row2 (V (Proc.devRef .tc main_arg5)))) := by
  dsimp only [opsA, s17, s18, List.cons_append, List.nil_append]
  after_results_simp
  rfl

/-- The variance's correction, the integer 0. -/
theorem A_corr : StableHlo.after opsA V (Proc.devRef .tc main_c_28) = constantI S_ 32 0#32 := by
  dsimp only [opsA, s17, s18, List.cons_append, List.nil_append]
  after_results_simp

/-- What these operations leave as it was: the layer's input and the two tables read later. -/
theorem A_kept : StableHlo.after opsA V (Proc.devRef .tc main_v123) = V (Proc.devRef .tc main_v123)
    ∧ StableHlo.after opsA V (Proc.devRef .tc main_arg6) = V (Proc.devRef .tc main_arg6)
    ∧ StableHlo.after opsA V (Proc.devRef .tc main_arg7) = V (Proc.devRef .tc main_arg7) := by
  dsimp only [opsA, s17, s18, List.cons_append, List.nil_append]
  after_results_simp
  simp only [and_self]

/-- The variance of the dense layer's result, the correction being 0. -/
theorem B_var (hc : V (Proc.devRef .tc main_c_28) = constantI S_ 32 0#32) :
    StableHlo.after opsB V (Proc.devRef .tc main_v151) = Stage.variance (F := Ideal) (V (Proc.devRef .tc main_v147)) := by
  dsimp only [opsB, s19]
  after_results_simp
  rw [hc]
  rfl

/-- What the variance's operations leave as it was. -/
theorem B_kept : StableHlo.after opsB V (Proc.devRef .tc main_v123) = V (Proc.devRef .tc main_v123)
    ∧ StableHlo.after opsB V (Proc.devRef .tc main_v147) = V (Proc.devRef .tc main_v147)
    ∧ StableHlo.after opsB V (Proc.devRef .tc main_v150) = V (Proc.devRef .tc main_v150)
    ∧ StableHlo.after opsB V (Proc.devRef .tc main_arg6) = V (Proc.devRef .tc main_arg6)
    ∧ StableHlo.after opsB V (Proc.devRef .tc main_arg7) = V (Proc.devRef .tc main_arg7) := by
  dsimp only [opsB, s19]
  after_results_simp
  simp only [and_self]

/-- The layer's result from the dense layer's result, its statistics, and the layer's input. -/
theorem C_out : StableHlo.after opsC V (Proc.devRef .tc main_v172)
    = Stage.normalize (F := Ideal) (V (Proc.devRef .tc main_v147)) (V (Proc.devRef .tc main_v123)) (V (Proc.devRef .tc main_v150))
        (V (Proc.devRef .tc main_v151)) (Stage.row2 (V (Proc.devRef .tc main_arg6))) (Stage.row2 (V (Proc.devRef .tc main_arg7))) := by
  dsimp only [opsC, s20, s21, s22, List.cons_append, List.nil_append]
  after_results_simp
  rfl

end Fold

/-- The layer's result over any contents, as the layer function of what the contents hold. -/
theorem x_of : StableHlo.after (opsL2 (F := Ideal)) U (Proc.devRef .tc main_v172)
    = Stage.layer2 (F := Ideal) (U (Proc.devRef .tc main_v123)) (U (Proc.devRef .tc main_v12)) (U (Proc.devRef .tc main_v18))
        (U (Proc.devRef .tc main_arg1)) (U (Proc.devRef .tc main_arg2)) (U (Proc.devRef .tc main_arg4)) (U (Proc.devRef .tc main_arg5))
        (U (Proc.devRef .tc main_arg6)) (U (Proc.devRef .tc main_arg7)) := by
  rw [ops_split, RunV.after_app, RunV.after_app, C_out, B_var _ (A_corr U)]
  obtain ⟨b25, b49, b52, b6, b7⟩ := B_kept (StableHlo.after opsA U)
  obtain ⟨a25, a6, a7⟩ := A_kept U
  rw [b25, b49, b52, b6, b7, a25, a6, a7, A_lin, A_mean]
  rfl

/-- The layer's operations write neither a norm nor an argument. -/
theorem keeps (h : Keeps m c U) : Keeps m c (StableHlo.after (opsL2 (F := Ideal)) U) :=
  Cert.ReferenceIdeal.KeepL.keeps2 m c U h

/-- The layer's result is the layer function of the features it found. -/
theorem x (h : Keeps m c U) (X : Stage.Arr Ideal S100000x128 .f32) (hx : U (Proc.devRef .tc main_v123) = X) :
    StableHlo.after (opsL2 (F := Ideal)) U (Proc.devRef .tc main_v172)
      = Stage.layer2 (F := Ideal) X (Stage.norm (F := Ideal) (m ((c : Thread nD τ).loc main_arg1))) (Stage.norm (F := Ideal) (m ((c : Thread nD τ).loc main_arg2))) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  rw [x_of, hx, h.ns, h.nd, h.a1, h.a2, h.a4, h.a5, h.a6, h.a7]

end Cert.ReferenceIdeal.ReadL2

end
-- ==== Proof.RReadL3.lean ====
/-
  The reference's layer 3: its result read off the fold of the layer's operations over any contents that still hold
  the norms and the arguments.
-/
import proofs.«168068_j70480413327361_1_alg».proof.Proof.ROps
import proofs.«168068_j70480413327361_1_alg».proof.Proof.RStage
import proofs.«168068_j70480413327361_1_alg».proof.Proof.RKeepL

noncomputable section

namespace Cert.ReferenceIdeal.ReadL3

open Cert.ReferenceIdeal Cert.ReferenceIdeal.Facts₀ Cert.ReferenceIdeal.Ops Cert.ReferenceIdeal.RStage Idealize.ShloMosaic Idealize.ShloMosaic.TcCoe Idealize.SL.Sem Idealize.ShloMosaic.StableHlo

variable (m : (ℓ : Loc nD τ sig) → Buf (Elt Ideal) ℓ) (c : Dev nD) (U : Valuation τ sig (Elt Ideal))

/-- The layer's first operations: the message passing, the dense layer, and its mean over the nodes. -/
abbrev opsA : List (HloOp τ sig (Elt Ideal)) := s23
/-- The variance of the dense layer's result (an inlined call). -/
abbrev opsB : List (HloOp τ sig (Elt Ideal)) := s24
/-- The normalisation, the rectifier and the residual. -/
abbrev opsC : List (HloOp τ sig (Elt Ideal)) := s25 ++ s26 ++ s27 ++ s28

/-- The layer's operations are these three runs in a row. -/
theorem ops_split : opsL3 (F := Ideal) = opsA ++ (opsB ++ opsC) := by
  simp only [opsL3, opsA, opsB, opsC, List.append_assoc]

section Fold

variable (V : Valuation τ sig (Elt Ideal))

/-- The dense layer's result. -/
theorem A_lin : StableHlo.after opsA V (Proc.devRef .tc main_v196)
    = Stage.linear (F := Ideal) (Stage.aggregate (V (Proc.devRef .tc main_v172)) (V (Proc.devRef .tc main_v12)) (V (Proc.devRef .tc main_v18))
        (V (Proc.devRef .tc main_arg1)) (V (Proc.devRef .tc main_arg2))) (Stage.weight3 (V (Proc.devRef .tc main_arg4))) (Stage.row3 (V (Proc.devRef .tc main_arg5))) := by
  dsimp only [opsA, s23, List.cons_append, List.nil_append]
  after_results_simp
  rfl

/-- Its mean over the nodes. -/
theorem A_mean : StableHlo.after opsA V (Proc.devRef .tc main_v199)
    = Stage.mean (F := Ideal) (Stage.linear (Stage.aggregate (V (Proc.devRef .tc main_v172)) (V (Proc.devRef .tc main_v12)) (V (Proc.devRef .tc main_v18))
        (V (Proc.devRef .tc main_arg1)) (V (Proc.devRef .tc main_arg2))) (Stage.weight3 (V (Proc.devRef .tc main_arg4))) (Stage.row3 (V (Proc.devRef .tc main_arg5)))) := by
  dsimp only [opsA, s23, List.cons_append, List.nil_append]
  after_results_simp
  rfl

/-- The variance's correction, the integer 0. -/
theorem A_corr : StableHlo.after opsA V (Proc.devRef .tc main_c_35) = constantI S_ 32 0#32 := by
  dsimp only [opsA, s23, List.cons_append, List.nil_append]
  after_results_simp

/-- What these operations leave as it was: the layer's input and the two tables read later. -/
theorem A_kept : StableHlo.after opsA V (Proc.devRef .tc main_v172) = V (Proc.devRef .tc main_v172)
    ∧ StableHlo.after opsA V (Proc.devRef .tc main_arg6) = V (Proc.devRef .tc main_arg6)
    ∧ StableHlo.after opsA V (Proc.devRef .tc main_arg7) = V (Proc.devRef .tc main_arg7) := by
  dsimp only [opsA, s23, List.cons_append, List.nil_append]
  after_results_simp
  simp only [and_self]

/-- The variance of the dense layer's result, the correction being 0. -/
theorem B_var (hc : V (Proc.devRef .tc main_c_35) = constantI S_ 32 0#32) :
    StableHlo.after opsB V (Proc.devRef .tc main_v200) = Stage.variance (F := Ideal) (V (Proc.devRef .tc main_v196)) := by
  dsimp only [opsB, s24]
  after_results_simp
  rw [hc]
  rfl

/-- What the variance's operations leave as it was. -/
theorem B_kept : StableHlo.after opsB V (Proc.devRef .tc main_v172) = V (Proc.devRef .tc main_v172)
    ∧ StableHlo.after opsB V (Proc.devRef .tc main_v196) = V (Proc.devRef .tc main_v196)
    ∧ StableHlo.after opsB V (Proc.devRef .tc main_v199) = V (Proc.devRef .tc main_v199)
    ∧ StableHlo.after opsB V (Proc.devRef .tc main_arg6) = V (Proc.devRef .tc main_arg6)
    ∧ StableHlo.after opsB V (Proc.devRef .tc main_arg7) = V (Proc.devRef .tc main_arg7) := by
  dsimp only [opsB, s24]
  after_results_simp
  simp only [and_self]

/-- The layer's result from the dense layer's result, its statistics, and the layer's input. -/
theorem C_out : StableHlo.after opsC V (Proc.devRef .tc main_v221)
    = Stage.normalize (F := Ideal) (V (Proc.devRef .tc main_v196)) (V (Proc.devRef .tc main_v172)) (V (Proc.devRef .tc main_v199))
        (V (Proc.devRef .tc main_v200)) (Stage.row3 (V (Proc.devRef .tc main_arg6))) (Stage.row3 (V (Proc.devRef .tc main_arg7))) := by
  dsimp only [opsC, s25, s26, s27, s28, List.cons_append, List.nil_append]
  after_results_simp
  rfl

end Fold

/-- The layer's result over any contents, as the layer function of what the contents hold. -/
theorem x_of : StableHlo.after (opsL3 (F := Ideal)) U (Proc.devRef .tc main_v221)
    = Stage.layer3 (F := Ideal) (U (Proc.devRef .tc main_v172)) (U (Proc.devRef .tc main_v12)) (U (Proc.devRef .tc main_v18))
        (U (Proc.devRef .tc main_arg1)) (U (Proc.devRef .tc main_arg2)) (U (Proc.devRef .tc main_arg4)) (U (Proc.devRef .tc main_arg5))
        (U (Proc.devRef .tc main_arg6)) (U (Proc.devRef .tc main_arg7)) := by
  rw [ops_split, RunV.after_app, RunV.after_app, C_out, B_var _ (A_corr U)]
  obtain ⟨b25, b49, b52, b6, b7⟩ := B_kept (StableHlo.after opsA U)
  obtain ⟨a25, a6, a7⟩ := A_kept U
  rw [b25, b49, b52, b6, b7, a25, a6, a7, A_lin, A_mean]
  rfl

/-- The layer's operations write neither a norm nor an argument. -/
theorem keeps (h : Keeps m c U) : Keeps m c (StableHlo.after (opsL3 (F := Ideal)) U) :=
  Cert.ReferenceIdeal.KeepL.keeps3 m c U h

/-- The layer's result is the layer function of the features it found. -/
theorem x (h : Keeps m c U) (X : Stage.Arr Ideal S100000x128 .f32) (hx : U (Proc.devRef .tc main_v172) = X) :
    StableHlo.after (opsL3 (F := Ideal)) U (Proc.devRef .tc main_v221)
      = Stage.layer3 (F := Ideal) X (Stage.norm (F := Ideal) (m ((c : Thread nD τ).loc main_arg1))) (Stage.norm (F := Ideal) (m ((c : Thread nD τ).loc main_arg2))) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  rw [x_of, hx, h.ns, h.nd, h.a1, h.a2, h.a4, h.a5, h.a6, h.a7]

end Cert.ReferenceIdeal.ReadL3

end
-- ==== Proof.RReadOut.lean ====
/-
  The reference's readout: the result read off the fold of the last stretch's operations.
-/
import proofs.«168068_j70480413327361_1_alg».proof.Proof.ROps
import proofs.«168068_j70480413327361_1_alg».proof.Proof.RStage
import proofs.«168068_j70480413327361_1_alg».proof.Proof.RRun

noncomputable section

namespace Cert.ReferenceIdeal.ReadOut

open Cert.ReferenceIdeal Cert.ReferenceIdeal.Facts₀ Cert.ReferenceIdeal.Ops Cert.ReferenceIdeal.RStage Idealize.ShloMosaic Idealize.ShloMosaic.TcCoe Idealize.SL.Sem Idealize.ShloMosaic.StableHlo

section Generic

variable {F : FTy → Type} [FloatOps F]

/-- The last stretch composes the three dense layers of the readout, a rectifier after each of the first two. -/
theorem out_gen (U : Valuation τ sig (Elt F)) :
    StableHlo.after (opsOut (F := F)) U (Proc.devRef .tc main_v235)
      = Stage.readout (F := F) (U (Proc.devRef .tc main_v221)) (U (Proc.devRef .tc main_arg8)) (U (Proc.devRef .tc main_arg9))
          (U (Proc.devRef .tc main_arg10)) (U (Proc.devRef .tc main_arg11)) (U (Proc.devRef .tc main_arg12)) (U (Proc.devRef .tc main_arg13)) := by
  show StableHlo.after (s29 ++ s30 ++ s31 ++ s32 ++ s33) U _ = _
  simp only [RunV.after_app]
  simp only [s29, s30, s31, s32, s33]
  after_results_simp
  simp only [TRef.ofBuf, TRef.toBuf, cast_eq]
  unfold Stage.readout
  rfl

end Generic

variable (m : (ℓ : Loc nD τ sig) → Buf (Elt Ideal) ℓ) (c : Dev nD) (U : Valuation τ sig (Elt Ideal))

/-- The result array is the readout of the last layer's features. -/
theorem out (h : Keeps m c U) (X : Stage.Arr Ideal S100000x128 .f32) (hx : U (Proc.devRef .tc main_v221) = X) :
    StableHlo.after (opsOut (F := Ideal)) U (Proc.devRef .tc main_v235)
      = Stage.readout (F := Ideal) X (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [out_gen U, hx, h.a8, h.a9, h.a10, h.a11, h.a12, h.a13]

end Cert.ReferenceIdeal.ReadOut

end
-- ==== Proof.Value.lean ====
/-
  The two programs' results as ONE function of the argument arrays: the kernel program's result array, read back through
  its thirty boundaries (host stretches and the nine regions), and the reference's, read back through the six stretches of
  its operations, are both the network of Stage.lean — four layers over the embedded nodes, then the readout.
-/
import proofs.«168068_j70480413327361_1_alg».proof.Proof.KRun
import proofs.«168068_j70480413327361_1_alg».proof.Proof.KChain0
import proofs.«168068_j70480413327361_1_alg».proof.Proof.KChain1
import proofs.«168068_j70480413327361_1_alg».proof.Proof.KChain2
import proofs.«168068_j70480413327361_1_alg».proof.Proof.KChain3
import proofs.«168068_j70480413327361_1_alg».proof.Proof.KChainOut
import proofs.«168068_j70480413327361_1_alg».proof.Proof.RRun
import proofs.«168068_j70480413327361_1_alg».proof.Proof.RReadPre
import proofs.«168068_j70480413327361_1_alg».proof.Proof.RReadL0
import proofs.«168068_j70480413327361_1_alg».proof.Proof.RReadL1
import proofs.«168068_j70480413327361_1_alg».proof.Proof.RReadL2
import proofs.«168068_j70480413327361_1_alg».proof.Proof.RReadL3
import proofs.«168068_j70480413327361_1_alg».proof.Proof.RReadOut

noncomputable section

namespace Cert.Proof.Value

open Idealize.ShloMosaic Idealize.ShloMosaic.TcCoe Idealize.SL.Sem
open Cert.ReferenceIdeal (Stage.network)

/-- The kernel program's result array after the run is the network of its launch arguments. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W30 (F := Ideal) m ρ c (Proc.devRef .tc Cert.KernelIdeal.main_v169)
      = Cert.ReferenceIdeal.Stage.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  have k0 := Cert.KernelIdeal.Chain0.keeps m ρ c
  have x1 := Cert.KernelIdeal.Chain0.x m ρ c
  have k1 := Cert.KernelIdeal.Chain1.keeps m ρ c k0
  have x2 := Cert.KernelIdeal.Chain1.x m ρ c k0 _ x1
  have k2 := Cert.KernelIdeal.Chain2.keeps m ρ c k1
  have x3 := Cert.KernelIdeal.Chain2.x m ρ c k1 _ x2
  have k3 := Cert.KernelIdeal.Chain3.keeps m ρ c k2
  have x4 := Cert.KernelIdeal.Chain3.x m ρ c k2 _ x3
  exact Cert.KernelIdeal.ChainOut.out m ρ c k3 _ x4

/-- The reference's result array after its operations is the network of its launch arguments. -/
theorem reference_value (m : (ℓ : Loc Cert.ReferenceIdeal.nD Cert.ReferenceIdeal.τ Cert.ReferenceIdeal.sig) → Buf (Elt Ideal) ℓ)
    (c : Dev Cert.ReferenceIdeal.nD) :
    StableHlo.after (Cert.ReferenceIdeal.Ops.opsAll (F := Ideal)) (StableHlo.launchContents m c) (Proc.devRef .tc Cert.ReferenceIdeal.main_v235)
      = Cert.ReferenceIdeal.Stage.network (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) := by
  rw [Cert.ReferenceIdeal.RunV.after_all]
  have kp := Cert.ReferenceIdeal.ReadPre.keeps m c
  have x0 := Cert.ReferenceIdeal.ReadPre.x0 m c
  have k0 := Cert.ReferenceIdeal.ReadL0.keeps m c _ kp
  have x1 := Cert.ReferenceIdeal.ReadL0.x m c _ kp _ x0
  have k1 := Cert.ReferenceIdeal.ReadL1.keeps m c _ k0
  have x2 := Cert.ReferenceIdeal.ReadL1.x m c _ k0 _ x1
  have k2 := Cert.ReferenceIdeal.ReadL2.keeps m c _ k1
  have x3 := Cert.ReferenceIdeal.ReadL2.x m c _ k1 _ x2
  have k3 := Cert.ReferenceIdeal.ReadL3.keeps m c _ k2
  have x4 := Cert.ReferenceIdeal.ReadL3.x m c _ k2 _ x3
  exact Cert.ReferenceIdeal.ReadOut.out m c _ k3 _ x4

end Cert.Proof.Value

end
-- ==== Proof.lean ====
/-
  The certificate of the graph network: the kernel program (nine pipelined regions — four dense layers, four
  normalisations, the readout — among stretches of host operations that compute the degree norms, the embedding, the
  message-passing steps and the batch statistics) against the reference, which does all of it in host operations.
  At the exact instance both compute one function of the argument arrays (Proof/Value.lean): the regions' row blocks tile
  the node axis, a block's rows depend only on the same rows of the inputs, and the change of float format before each
  matrix product is the identity there; so no law of arithmetic beyond reading sums and products index by index is used,
  and the precondition is never opened. The three frames are the programs' runs with the result dropped; the
  idealization rewrote nothing, so `preserves` is trivial.
-/
import proofs.«168068_j70480413327361_1_alg».proof.Defs
import proofs.«168068_j70480413327361_1_alg».proof.Proof.Gen.Kernel
import proofs.«168068_j70480413327361_1_alg».proof.Proof.Gen.Kernel.Frame
import proofs.«168068_j70480413327361_1_alg».proof.Proof.Gen.KernelIdeal
import proofs.«168068_j70480413327361_1_alg».proof.Proof.Gen.KernelIdeal.Frame
import proofs.«168068_j70480413327361_1_alg».proof.Proof.Gen.ReferenceIdeal
import proofs.«168068_j70480413327361_1_alg».proof.Proof.Gen.Pre_finite_inputs
import proofs.«168068_j70480413327361_1_alg».proof.Proof.Value
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run ends with every buffer at the fold of its operations, and no operation writes an argument. -/
theorem frame_ri : Cert.frame_ReferenceIdeal := by
  intro m ρ _
  refine (θ_run Cert.ReferenceIdeal.defs _ _).mono (fun r h c => ?_) (Cert.ReferenceIdeal.RunV.run (F := Ideal) m ρ)
  obtain ⟨k0, k1, k2, k3, k4, k5, k6, k7, k8, k9, k10, k11, k12, k13⟩ :=
    Cert.ReferenceIdeal.RunV.arg_kept (F := Ideal) (StableHlo.launchContents m c)
  exact ⟨(h c _).trans k0, (h c _).trans k1, (h c _).trans k2, (h c _).trans k3, (h c _).trans k4, (h c _).trans k5,
    (h c _).trans k6, (h c _).trans k7, (h c _).trans k8, (h c _).trans k9, (h c _).trans k10, (h c _).trans k11,
    (h c _).trans k12, (h c _).trans k13⟩

/-- Both programs end with the network of the argument arrays in their result array: from memories that agree on the
    arguments, the same array. -/
theorem algebraic : Cert.algebraic_KernelIdeal_ReferenceIdeal := by
  intro m ρ m' ρ' _ hagree
  refine ⟨fun c => Cert.ReferenceIdeal.Stage.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ⟨(h c).1.trans (Value.kernel_value m ρ c), (h c).2⟩)
      (Cert.KernelIdeal.RunV.run (F := Ideal) m ρ)
  · refine (θ_run Cert.ReferenceIdeal.defs _ _).mono (fun r h c => ?_) (Cert.ReferenceIdeal.RunV.run (F := Ideal) m' ρ')
    obtain ⟨k0, k1, k2, k3, k4, k5, k6, k7, k8, k9, k10, k11, k12, k13⟩ :=
      Cert.ReferenceIdeal.RunV.arg_kept (F := Ideal) (StableHlo.launchContents m' c)
    obtain ⟨e0, e1, e2, e3, e4, e5, e6, e7, e8, e9, e10, e11, e12, e13⟩ := hagree c
    refine ⟨?_, (h c _).trans k0, (h c _).trans k1, (h c _).trans k2, (h c _).trans k3, (h c _).trans k4, (h c _).trans k5,
      (h c _).trans k6, (h c _).trans k7, (h c _).trans k8, (h c _).trans k9, (h c _).trans k10, (h c _).trans k11,
      (h c _).trans k12, (h c _).trans k13⟩
    rw [h c _, Value.reference_value m' c, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
